-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S512x3 : Shape := ⟨2, ![512, 3]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S512x3 : S_.BroadcastsInDim S512x3 (![] : Fin 0 → Fin S512x3.rank)
  reducesTo_S512x3_S_d0_1 : S512x3.ReducesTo [0, 1] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S16x32 .f32) (main_arg5 : FVec F S32 .f32) (main_arg6 : FVec F S32x64 .f32) (main_arg7 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_v33

def fn {F : FTy → Type} [FloatOps F] (main_arg0 : FVec F S8x512x512 .f32) (main_arg1 : FVec F S512x3 .f32) (main_arg2 : FVec F S3x16 .f32) (main_arg3 : FVec F S16 .f32) (main_arg4 : FVec F S16x32 .f32) (main_arg5 : FVec F S32 .f32) (main_arg6 : FVec F S32x64 .f32) (main_arg7 : FVec F S64 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S512x3 .f32 := Host.absf main_arg1
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S3x16 .f32 := Host.absf main_arg2
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_c_3 : IVec S_ 1 := constantI S_ 1 1#1
  let main_v12 : IVec S_ 1 := (fun x v => Host.reduce IntOp.andi x v reducesTo_S3x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S8x512x512 : Shape := ⟨3, ![8, 512, 512]⟩
abbrev S512x3 : Shape := ⟨2, ![512, 3]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S1x16 : Shape := ⟨2, ![1, 16]⟩
abbrev S1x32 : Shape := ⟨2, ![1, 32]⟩
abbrev S1x64 : Shape := ⟨2, ![1, 64]⟩
abbrev S8x1x64 : Shape := ⟨3, ![8, 1, 64]⟩
abbrev S8x64 : Shape := ⟨2, ![8, 64]⟩
abbrev S512x16 : Shape := ⟨2, ![512, 16]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S512x32 : Shape := ⟨2, ![512, 32]⟩
abbrev S8x32 : Shape := ⟨2, ![8, 32]⟩
abbrev S8 : Shape := ⟨1, ![8]⟩
abbrev S8x1 : Shape := ⟨2, ![8, 1]⟩

abbrev nBuf : Space → Nat
  | .hbm => 13
  | .vmem => 9
  | .smem => 0
  | _ => 0

abbrev bufTy : (tb : Table) → Fin (tcTables nBuf tb) → BufTy
  | .hbm, ⟨0, _⟩ => ⟨S8x512x512, .f32⟩
  | .hbm, ⟨1, _⟩ => ⟨S512x3, .f32⟩
  | .hbm, ⟨2, _⟩ => ⟨S3x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S1x16, .f32⟩
  | .hbm, ⟨9, _⟩ => ⟨S1x32, .f32⟩
  | .hbm, ⟨10, _⟩ => ⟨S1x64, .f32⟩
  | .hbm, ⟨11, _⟩ => ⟨S8x1x64, .f32⟩
  | .hbm, ⟨12, _⟩ => ⟨S8x64, .f32⟩
  | .local _ .vmem, ⟨0, _⟩ => ⟨S8x512x512, .f32⟩
  | .local _ .vmem, ⟨1, _⟩ => ⟨S512x3, .f32⟩
  | .local _ .vmem, ⟨2, _⟩ => ⟨S3x16, .f32⟩
  | .local _ .vmem, ⟨3, _⟩ => ⟨S1x16, .f32⟩
  | .local _ .vmem, ⟨4, _⟩ => ⟨S16x32, .f32⟩
  | .local _ .vmem, ⟨5, _⟩ => ⟨S1x32, .f32⟩
  | .local _ .vmem, ⟨6, _⟩ => ⟨S32x64, .f32⟩
  | .local _ .vmem, ⟨7, _⟩ => ⟨S1x64, .f32⟩
  | .local _ .vmem, ⟨8, _⟩ => ⟨S8x1x64, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

class Facts₀ : Prop where
  shapeCasts_S16_S1x16 : S16.ShapeCasts S1x16
  shapeCasts_S32_S1x32 : S32.ShapeCasts S1x32
  shapeCasts_S64_S1x64 : S64.ShapeCasts S1x64
  shapeCasts_S8x1x64_S8x64 : S8x1x64.ShapeCasts S8x64
  inb_S512x3_S512x3_0_0 : ∀ a, (![0, 0] : Fin 2 → Nat) a + S512x3.size a ≤ S512x3.size a
  h_S512x3 : 0 < S512x3.numel
  inb_S3x16_S3x16_0_0 : ∀ a, (![0, 0] : Fin 2 → Nat) a + S3x16.size a ≤ S3x16.size a
  h_S3x16 : 0 < S3x16.numel
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  inb_S8x512x512_S1x512x512_1_0_0 : ∀ a, (![1, 0, 0] : Fin 3 → Nat) a + S1x512x512.size a ≤ S8x512x512.size a
  inb_S8x512x512_S1x512x512_2_0_0 : ∀ a, (![2, 0, 0] : Fin 3 → Nat) a + S1x512x512.size a ≤ S8x512x512.size a
  inb_S8x512x512_S1x512x512_3_0_0 : ∀ a, (![3, 0, 0] : Fin 3 → Nat) a + S1x512x512.size a ≤ S8x512x512.size a
  inb_S8x512x512_S1x512x512_4_0_0 : ∀ a, (![4, 0, 0] : Fin 3 → Nat) a + S1x512x512.size a ≤ S8x512x512.size a
  inb_S8x512x512_S1x512x512_5_0_0 : ∀ a, (![5, 0, 0] : Fin 3 → Nat) a + S1x512x512.size a ≤ S8x512x512.size a
  inb_S8x512x512_S1x512x512_6_0_0 : ∀ a, (![6, 0, 0] : Fin 3 → Nat) a + S1x512x512.size a ≤ S8x512x512.size a
  inb_S8x512x512_S1x512x512_7_0_0 : ∀ a, (![7, 0, 0] : Fin 3 → Nat) a + S1x512x512.size a ≤ S8x512x512.size a
  reduces_S512x512_S512 : S512x512.Reduces [0] S512
  shapeCasts_S512_S512x1 : S512.ShapeCasts S512x1
  broadcasts_S512x1_S512x16 : S512x1.Broadcasts S512x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S16x32_S16x32_0_0 : ∀ a, (![0, 0] : Fin 2 → Nat) a + S16x32.size a ≤ S16x32.size a
  h_S16x32 : 0 < S16x32.numel
  broadcasts_S512x1_S512x32 : S512x1.Broadcasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  reduces_S512x32_S32 : S512x32.Reduces [0] S32
  concatenates_S1x32_S1x32_S1x32_S1x32_S1x32_S1x32_S1x32_S1x32_S8x32_d0 : Shape.Concatenates [S1x32, S1x32, S1x32, S1x32, S1x32, S1x32, S1x32, S1x32] S8x32 0
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8x64 : S1x64.Broadcasts S8x64
  reduces_S8x64_S8 : S8x64.Reduces [1] S8
  shapeCasts_S8_S8x1 : S8.ShapeCasts S8x1
  broadcasts_S8x1_S8x64 : S8x1.Broadcasts S8x64
  shapeCasts_S8x64_S8x1x64 : S8x64.ShapeCasts S8x1x64
  inb_S8x1x64_S8x1x64_0_0_0 : ∀ a, (![0, 0, 0] : Fin 3 → Nat) a + S8x1x64.size a ≤ S8x1x64.size a
  h_S8x1x64 : 0 < S8x1x64.numel
  dot_S512x3_S3x16_S512x16_1_0_0_1_n_n_wf : DotDims.WF S512x3 S3x16 S512x16 [1] [0] [0] [1] [] []
  dot_S512x512_S512x16_S512x16_0_0_1_1_n_n_wf : DotDims.WF S512x512 S512x16 S512x16 [0] [0] [1] [1] [] []
  dot_S512x16_S16x32_S512x32_1_0_0_1_n_n_wf : DotDims.WF S512x16 S16x32 S512x32 [1] [0] [0] [1] [] []
  dot_S512x512_S512x32_S512x32_0_0_1_1_n_n_wf : DotDims.WF S512x512 S512x32 S512x32 [0] [0] [1] [1] [] []
  dot_S512x512_S512x1_S512x1_1_0_0_1_n_n_wf : DotDims.WF S512x512 S512x1 S512x1 [1] [0] [0] [1] [] []
  dot_S8x32_S32x64_S8x64_1_0_0_1_n_n_wf : DotDims.WF S8x32 S32x64 S8x64 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S8x512x512.size a
  hwx0_0 : ∀ i : grid0.Coords, EltTy.bits .f32 = 32 ∨ (Rect.block (s := S8x512x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S512x3.size a
  hwx0_1 : ∀ i : grid0.Coords, EltTy.bits .f32 = 32 ∨ (Rect.block (s := S512x3) S512x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x16.size a ≤ S3x16.size a
  hwx0_2 : ∀ i : grid0.Coords, EltTy.bits .f32 = 32 ∨ (Rect.block (s := S3x16) S3x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 1
  hreads0_8 : ∀ i i' : grid0.Coords, (∀ a, reads0_8 a = true → i a = i' a) → cc0_transform_8 i = cc0_transform_8 i'
  hinb0_8 : ∀ (i : grid0.Coords) a, (cc0_transform_8 i a + 1) * S8x1x64.size a ≤ S8x1x64.size a
  hwx0_8 : ∀ i : grid0.Coords, EltTy.bits .f32 = 32 ∨ (Rect.block (s := S8x1x64) S8x1x64.size (cc0_transform_8 i) (hinb0_8 i)).WholeWords (EltTy.packing .f32)

variable [Facts₀]

def dot_S512x3_S3x16_S512x16_1_0_0_1_n_n : DotDims S512x3 S3x16 S512x16 where
  lhsContracting := [1]
  rhsContracting := [0]
  lhsNonContracting := [0]
  rhsNonContracting := [1]
  lhsBatch := []
  rhsBatch := []
  wf := dot_S512x3_S3x16_S512x16_1_0_0_1_n_n_wf
def dot_S512x512_S512x16_S512x16_0_0_1_1_n_n : DotDims S512x512 S512x16 S512x16 where
  lhsContracting := [0]
  rhsContracting := [0]
  lhsNonContracting := [1]
  rhsNonContracting := [1]
  lhsBatch := []
  rhsBatch := []
  wf := dot_S512x512_S512x16_S512x16_0_0_1_1_n_n_wf
def dot_S512x16_S16x32_S512x32_1_0_0_1_n_n : DotDims S512x16 S16x32 S512x32 where
  lhsContracting := [1]
  rhsContracting := [0]
  lhsNonContracting := [0]
  rhsNonContracting := [1]
  lhsBatch := []
  rhsBatch := []
  wf := dot_S512x16_S16x32_S512x32_1_0_0_1_n_n_wf
def dot_S512x512_S512x32_S512x32_0_0_1_1_n_n : DotDims S512x512 S512x32 S512x32 where
  lhsContracting := [0]
  rhsContracting := [0]
  lhsNonContracting := [1]
  rhsNonContracting := [1]
  lhsBatch := []
  rhsBatch := []
  wf := dot_S512x512_S512x32_S512x32_0_0_1_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S8x32_S32x64_S8x64_1_0_0_1_n_n : DotDims S8x32 S32x64 S8x64 where
  lhsContracting := [1]
  rhsContracting := [0]
  lhsNonContracting := [0]
  rhsNonContracting := [1]
  lhsBatch := []
  rhsBatch := []
  wf := dot_S8x32_S32x64_S8x64_1_0_0_1_n_n_wf

abbrev win0_0 : Pipeline.Window sig grid0 :=
  Pipeline.Window.ofSpec (Memref.whole main_arg0) S8x512x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v3) S8x1x64.size cc0_transform_8 reads0_8 true false 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S512x3 : Shape := ⟨2, ![512, 3]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S512 : Shape := ⟨1, ![512]⟩
abbrev S512x512 : Shape := ⟨2, ![512, 512]⟩
abbrev S262144 : Shape := ⟨1, ![262144]⟩
abbrev S1x512 : Shape := ⟨2, ![1, 512]⟩
abbrev S_ : Shape := ⟨0, ![]⟩
abbrev S1x512x512 : Shape := ⟨3, ![1, 512, 512]⟩
abbrev S2097152 : Shape := ⟨1, ![2097152]⟩
abbrev S1x512x1x3 : Shape := ⟨4, ![1, 512, 1, 3]⟩
abbrev S8x512x1x3 : Shape := ⟨4, ![8, 512, 1, 3]⟩
abbrev S4096x3 : Shape := ⟨2, ![4096, 3]⟩
abbrev S4096x16 : Shape := ⟨2, ![4096, 16]⟩
abbrev S4096 : Shape := ⟨1, ![4096]⟩
abbrev S2101248 : Shape := ⟨1, ![2101248]⟩
abbrev S2101248x1 : Shape := ⟨2, ![2101248, 1]⟩
abbrev S2101248x16 : Shape := ⟨2, ![2101248, 16]⟩
abbrev S1x16 : Shape := ⟨2, ![1, 16]⟩
abbrev S4096x32 : Shape := ⟨2, ![4096, 32]⟩
abbrev S2101248x32 : Shape := ⟨2, ![2101248, 32]⟩
abbrev S1x32 : Shape := ⟨2, ![1, 32]⟩
abbrev S4096x64 : Shape := ⟨2, ![4096, 64]⟩
abbrev S2101248x64 : Shape := ⟨2, ![2101248, 64]⟩
abbrev S1x64 : Shape := ⟨2, ![1, 64]⟩
abbrev S8 : Shape := ⟨1, ![8]⟩
abbrev S8x512 : Shape := ⟨2, ![8, 512]⟩
abbrev S8x64 : Shape := ⟨2, ![8, 64]⟩
abbrev S4096x1 : Shape := ⟨2, ![4096, 1]⟩
abbrev S8x1 : Shape := ⟨2, ![8, 1]⟩

abbrev nBuf : Space → Nat
  | .hbm => 299
  | .vmem => 0
  | .smem => 0
  | _ => 0

abbrev hbmTy0_0 (i : Nat) : BufTy := match i % 128 with
  | 0 => ⟨S8x512x512, .f32⟩
  | 1 => ⟨S512x3, .f32⟩
  | 2 => ⟨S3x16, .f32⟩
  | 3 => ⟨S16, .f32⟩
  | 4 => ⟨S16x32, .f32⟩
  | 5 => ⟨S32, .f32⟩
  | 6 => ⟨S32x64, .f32⟩
  | 7 => ⟨S64, .f32⟩
  | 8 => ⟨S512, .i32⟩
  | 9 => ⟨S512x512, .i32⟩
  | 10 => ⟨S262144, .i32⟩
  | 11 => ⟨S512, .i32⟩
  | 12 => ⟨S1x512, .i32⟩
  | 13 => ⟨S512x512, .i32⟩
  | 14 => ⟨S262144, .i32⟩
  | 15 => ⟨S_, .i32⟩
  | 16 => ⟨S262144, .i32⟩
  | 17 => ⟨S262144, .i32⟩
  | 18 => ⟨S_, .i32⟩
  | 19 => ⟨S262144, .i32⟩
  | 20 => ⟨S262144, .i32⟩
  | 21 => ⟨S1x512x512, .f32⟩
  | 22 => ⟨S512x512, .f32⟩
  | 23 => ⟨S262144, .f32⟩
  | 24 => ⟨S_, .i32⟩
  | 25 => ⟨S262144, .i32⟩
  | 26 => ⟨S262144, .i32⟩
  | 27 => ⟨S_, .i32⟩
  | 28 => ⟨S262144, .i32⟩
  | 29 => ⟨S262144, .i32⟩
  | 30 => ⟨S1x512x512, .f32⟩
  | 31 => ⟨S512x512, .f32⟩
  | 32 => ⟨S262144, .f32⟩
  | 33 => ⟨S_, .i32⟩
  | 34 => ⟨S262144, .i32⟩
  | 35 => ⟨S262144, .i32⟩
  | 36 => ⟨S_, .i32⟩
  | 37 => ⟨S262144, .i32⟩
  | 38 => ⟨S262144, .i32⟩
  | 39 => ⟨S1x512x512, .f32⟩
  | 40 => ⟨S512x512, .f32⟩
  | 41 => ⟨S262144, .f32⟩
  | 42 => ⟨S_, .i32⟩
  | 43 => ⟨S262144, .i32⟩
  | 44 => ⟨S262144, .i32⟩
  | 45 => ⟨S_, .i32⟩
  | 46 => ⟨S262144, .i32⟩
  | 47 => ⟨S262144, .i32⟩
  | 48 => ⟨S1x512x512, .f32⟩
  | 49 => ⟨S512x512, .f32⟩
  | 50 => ⟨S262144, .f32⟩
  | 51 => ⟨S_, .i32⟩
  | 52 => ⟨S262144, .i32⟩
  | 53 => ⟨S262144, .i32⟩
  | 54 => ⟨S_, .i32⟩
  | 55 => ⟨S262144, .i32⟩
  | 56 => ⟨S262144, .i32⟩
  | 57 => ⟨S1x512x512, .f32⟩
  | 58 => ⟨S512x512, .f32⟩
  | 59 => ⟨S262144, .f32⟩
  | 60 => ⟨S_, .i32⟩
  | 61 => ⟨S262144, .i32⟩
  | 62 => ⟨S262144, .i32⟩
  | 63 => ⟨S_, .i32⟩
  | 64 => ⟨S262144, .i32⟩
  | 65 => ⟨S262144, .i32⟩
  | 66 => ⟨S1x512x512, .f32⟩
  | 67 => ⟨S512x512, .f32⟩
  | 68 => ⟨S262144, .f32⟩
  | 69 => ⟨S_, .i32⟩
  | 70 => ⟨S262144, .i32⟩
  | 71 => ⟨S262144, .i32⟩
  | 72 => ⟨S_, .i32⟩
  | 73 => ⟨S262144, .i32⟩
  | 74 => ⟨S262144, .i32⟩
  | 75 => ⟨S1x512x512, .f32⟩
  | 76 => ⟨S512x512, .f32⟩
  | 77 => ⟨S262144, .f32⟩
  | 78 => ⟨S_, .i32⟩
  | 79 => ⟨S262144, .i32⟩
  | 80 => ⟨S262144, .i32⟩
  | 81 => ⟨S_, .i32⟩
  | 82 => ⟨S262144, .i32⟩
  | 83 => ⟨S262144, .i32⟩
  | 84 => ⟨S1x512x512, .f32⟩
  | 85 => ⟨S512x512, .f32⟩
  | 86 => ⟨S262144, .f32⟩
  | 87 => ⟨S2097152, .i32⟩
  | 88 => ⟨S2097152, .i32⟩
  | 89 => ⟨S2097152, .f32⟩
  | 90 => ⟨S1x512x1x3, .f32⟩
  | 91 => ⟨S8x512x1x3, .f32⟩
  | 92 => ⟨S4096x3, .f32⟩
  | 93 => ⟨S4096x16, .f32⟩
  | 94 => ⟨S4096, .i32⟩
  | 95 => ⟨S2101248, .i32⟩
  | 96 => ⟨S2101248, .i32⟩
  | 97 => ⟨S_, .f32⟩
  | 98 => ⟨S4096, .f32⟩
  | 99 => ⟨S2101248, .f32⟩
  | 100 => ⟨S_, .f32⟩
  | 101 => ⟨S4096, .f32⟩
  | 102 => ⟨S2101248x1, .i32⟩
  | 103 => ⟨S4096, .f32⟩
  | 104 => ⟨S_, .f32⟩
  | 105 => ⟨S4096, .f32⟩
  | 106 => ⟨S4096, .i1⟩
  | 107 => ⟨S_, .f32⟩
  | 108 => ⟨S4096, .f32⟩
  | 109 => ⟨S4096, .f32⟩
  | 110 => ⟨S_, .f32⟩
  | 111 => ⟨S_, .f32⟩
  | 112 => ⟨S4096, .f32⟩
  | 113 => ⟨S4096, .f32⟩
  | 114 => ⟨S_, .i32⟩
  | 115 => ⟨S2101248, .i32⟩
  | 116 => ⟨S2101248, .i1⟩
  | 117 => ⟨S_, .i32⟩
  | 118 => ⟨S2101248, .i32⟩
  | 119 => ⟨S2101248, .i32⟩
  | 120 => ⟨S2101248, .i32⟩
  | 121 => ⟨S2101248x1, .i32⟩
  | 122 => ⟨S2101248, .f32⟩
  | 123 => ⟨S_, .i32⟩
  | 124 => ⟨S2101248, .i32⟩
  | 125 => ⟨S2101248, .i1⟩
  | 126 => ⟨S_, .i32⟩
  | 127 => ⟨S2101248, .i32⟩
  | _ => ⟨S8x512x512, .f32⟩

abbrev hbmTy0_1 (i : Nat) : BufTy := match i % 128 with
  | 0 => ⟨S2101248, .i32⟩
  | 1 => ⟨S2101248, .i32⟩
  | 2 => ⟨S2101248x1, .i32⟩
  | 3 => ⟨S2101248, .f32⟩
  | 4 => ⟨S2101248, .f32⟩
  | 5 => ⟨S_, .i32⟩
  | 6 => ⟨S2101248, .i32⟩
  | 7 => ⟨S2101248, .i1⟩
  | 8 => ⟨S_, .i32⟩
  | 9 => ⟨S2101248, .i32⟩
  | 10 => ⟨S2101248, .i32⟩
  | 11 => ⟨S2101248, .i32⟩
  | 12 => ⟨S2101248x1, .i32⟩
  | 13 => ⟨S2101248x16, .f32⟩
  | 14 => ⟨S2101248, .f32⟩
  | 15 => ⟨S2101248x1, .f32⟩
  | 16 => ⟨S2101248x16, .f32⟩
  | 17 => ⟨S2101248x16, .f32⟩
  | 18 => ⟨S_, .f32⟩
  | 19 => ⟨S4096x16, .f32⟩
  | 20 => ⟨S2101248x1, .i32⟩
  | 21 => ⟨S4096x16, .f32⟩
  | 22 => ⟨S1x16, .f32⟩
  | 23 => ⟨S4096x16, .f32⟩
  | 24 => ⟨S4096x16, .f32⟩
  | 25 => ⟨S_, .f32⟩
  | 26 => ⟨S4096x16, .f32⟩
  | 27 => ⟨S4096x16, .f32⟩
  | 28 => ⟨S4096x32, .f32⟩
  | 29 => ⟨S4096, .i32⟩
  | 30 => ⟨S2101248, .i32⟩
  | 31 => ⟨S2101248, .i32⟩
  | 32 => ⟨S_, .f32⟩
  | 33 => ⟨S4096, .f32⟩
  | 34 => ⟨S2101248, .f32⟩
  | 35 => ⟨S_, .f32⟩
  | 36 => ⟨S4096, .f32⟩
  | 37 => ⟨S2101248x1, .i32⟩
  | 38 => ⟨S4096, .f32⟩
  | 39 => ⟨S_, .f32⟩
  | 40 => ⟨S4096, .f32⟩
  | 41 => ⟨S4096, .i1⟩
  | 42 => ⟨S_, .f32⟩
  | 43 => ⟨S4096, .f32⟩
  | 44 => ⟨S4096, .f32⟩
  | 45 => ⟨S_, .f32⟩
  | 46 => ⟨S_, .f32⟩
  | 47 => ⟨S4096, .f32⟩
  | 48 => ⟨S4096, .f32⟩
  | 49 => ⟨S_, .i32⟩
  | 50 => ⟨S2101248, .i32⟩
  | 51 => ⟨S2101248, .i1⟩
  | 52 => ⟨S_, .i32⟩
  | 53 => ⟨S2101248, .i32⟩
  | 54 => ⟨S2101248, .i32⟩
  | 55 => ⟨S2101248, .i32⟩
  | 56 => ⟨S2101248x1, .i32⟩
  | 57 => ⟨S2101248, .f32⟩
  | 58 => ⟨S_, .i32⟩
  | 59 => ⟨S2101248, .i32⟩
  | 60 => ⟨S2101248, .i1⟩
  | 61 => ⟨S_, .i32⟩
  | 62 => ⟨S2101248, .i32⟩
  | 63 => ⟨S2101248, .i32⟩
  | 64 => ⟨S2101248, .i32⟩
  | 65 => ⟨S2101248x1, .i32⟩
  | 66 => ⟨S2101248, .f32⟩
  | 67 => ⟨S2101248, .f32⟩
  | 68 => ⟨S_, .i32⟩
  | 69 => ⟨S2101248, .i32⟩
  | 70 => ⟨S2101248, .i1⟩
  | 71 => ⟨S_, .i32⟩
  | 72 => ⟨S2101248, .i32⟩
  | 73 => ⟨S2101248, .i32⟩
  | 74 => ⟨S2101248, .i32⟩
  | 75 => ⟨S2101248x1, .i32⟩
  | 76 => ⟨S2101248x32, .f32⟩
  | 77 => ⟨S2101248, .f32⟩
  | 78 => ⟨S2101248x1, .f32⟩
  | 79 => ⟨S2101248x32, .f32⟩
  | 80 => ⟨S2101248x32, .f32⟩
  | 81 => ⟨S_, .f32⟩
  | 82 => ⟨S4096x32, .f32⟩
  | 83 => ⟨S2101248x1, .i32⟩
  | 84 => ⟨S4096x32, .f32⟩
  | 85 => ⟨S1x32, .f32⟩
  | 86 => ⟨S4096x32, .f32⟩
  | 87 => ⟨S4096x32, .f32⟩
  | 88 => ⟨S_, .f32⟩
  | 89 => ⟨S4096x32, .f32⟩
  | 90 => ⟨S4096x32, .f32⟩
  | 91 => ⟨S4096x64, .f32⟩
  | 92 => ⟨S4096, .i32⟩
  | 93 => ⟨S2101248, .i32⟩
  | 94 => ⟨S2101248, .i32⟩
  | 95 => ⟨S_, .f32⟩
  | 96 => ⟨S4096, .f32⟩
  | 97 => ⟨S2101248, .f32⟩
  | 98 => ⟨S_, .f32⟩
  | 99 => ⟨S4096, .f32⟩
  | 100 => ⟨S2101248x1, .i32⟩
  | 101 => ⟨S4096, .f32⟩
  | 102 => ⟨S_, .f32⟩
  | 103 => ⟨S4096, .f32⟩
  | 104 => ⟨S4096, .i1⟩
  | 105 => ⟨S_, .f32⟩
  | 106 => ⟨S4096, .f32⟩
  | 107 => ⟨S4096, .f32⟩
  | 108 => ⟨S_, .f32⟩
  | 109 => ⟨S_, .f32⟩
  | 110 => ⟨S4096, .f32⟩
  | 111 => ⟨S4096, .f32⟩
  | 112 => ⟨S_, .i32⟩
  | 113 => ⟨S2101248, .i32⟩
  | 114 => ⟨S2101248, .i1⟩
  | 115 => ⟨S_, .i32⟩
  | 116 => ⟨S2101248, .i32⟩
  | 117 => ⟨S2101248, .i32⟩
  | 118 => ⟨S2101248, .i32⟩
  | 119 => ⟨S2101248x1, .i32⟩
  | 120 => ⟨S2101248, .f32⟩
  | 121 => ⟨S_, .i32⟩
  | 122 => ⟨S2101248, .i32⟩
  | 123 => ⟨S2101248, .i1⟩
  | 124 => ⟨S_, .i32⟩
  | 125 => ⟨S2101248, .i32⟩
  | 126 => ⟨S2101248, .i32⟩
  | 127 => ⟨S2101248, .i32⟩
  | _ => ⟨S8x512x512, .f32⟩

abbrev hbmTy0_2 (i : Nat) : BufTy := match i % 128 with
  | 0 => ⟨S2101248x1, .i32⟩
  | 1 => ⟨S2101248, .f32⟩
  | 2 => ⟨S2101248, .f32⟩
  | 3 => ⟨S_, .i32⟩
  | 4 => ⟨S2101248, .i32⟩
  | 5 => ⟨S2101248, .i1⟩
  | 6 => ⟨S_, .i32⟩
  | 7 => ⟨S2101248, .i32⟩
  | 8 => ⟨S2101248, .i32⟩
  | 9 => ⟨S2101248, .i32⟩
  | 10 => ⟨S2101248x1, .i32⟩
  | 11 => ⟨S2101248x64, .f32⟩
  | 12 => ⟨S2101248, .f32⟩
  | 13 => ⟨S2101248x1, .f32⟩
  | 14 => ⟨S2101248x64, .f32⟩
  | 15 => ⟨S2101248x64, .f32⟩
  | 16 => ⟨S_, .f32⟩
  | 17 => ⟨S4096x64, .f32⟩
  | 18 => ⟨S2101248x1, .i32⟩
  | 19 => ⟨S4096x64, .f32⟩
  | 20 => ⟨S1x64, .f32⟩
  | 21 => ⟨S4096x64, .f32⟩
  | 22 => ⟨S4096x64, .f32⟩
  | 23 => ⟨S8, .i32⟩
  | 24 => ⟨S8x512, .i32⟩
  | 25 => ⟨S4096, .i32⟩
  | 26 => ⟨S_, .f32⟩
  | 27 => ⟨S8x64, .f32⟩
  | 28 => ⟨S4096x1, .i32⟩
  | 29 => ⟨S8x64, .f32⟩
  | 30 => ⟨S_, .f32⟩
  | 31 => ⟨S8x64, .f32⟩
  | 32 => ⟨S8x64, .f32⟩
  | 33 => ⟨S8x64, .f32⟩
  | 34 => ⟨S_, .f32⟩
  | 35 => ⟨S8, .f32⟩
  | 36 => ⟨S8x1, .f32⟩
  | 37 => ⟨S8x1, .f32⟩
  | 38 => ⟨S_, .f32⟩
  | 39 => ⟨S8x1, .f32⟩
  | 40 => ⟨S8x1, .f32⟩
  | 41 => ⟨S8x64, .f32⟩
  | 42 => ⟨S8x64, .f32⟩
  | _ => ⟨S8x512x512, .f32⟩

abbrev hbmTy (i : Nat) : BufTy := match i / 128 with
  | 0 => hbmTy0_0 i
  | 1 => hbmTy0_1 i
  | 2 => hbmTy0_2 i
  | _ => ⟨S8x512x512, .f32⟩

abbrev bufTy : (tb : Table) → Fin (tcTables nBuf tb) → BufTy
  | .hbm, ⟨i, _⟩ => hbmTy i
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_13 : Ref sig .tc := ⟨.hbm, 78, rfl⟩
abbrev main_v56 : Ref sig .tc := ⟨.hbm, 79, rfl⟩
abbrev main_v57 : Ref sig .tc := ⟨.hbm, 80, rfl⟩
abbrev main_c_14 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_call0_v0 : Ref sig .tc := ⟨.hbm, 111, rfl⟩
abbrev main_call0_v1 : Ref sig .tc := ⟨.hbm, 112, rfl⟩
abbrev main_v82 : Ref sig .tc := ⟨.hbm, 113, rfl⟩
abbrev main_c_19 : Ref sig .tc := ⟨.hbm, 114, rfl⟩
abbrev main_v83 : Ref sig .tc := ⟨.hbm, 115, rfl⟩
abbrev main_v84 : Ref sig .tc := ⟨.hbm, 116, rfl⟩
abbrev main_c_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_21 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_23 : Ref sig .tc := ⟨.hbm, 133, rfl⟩
abbrev main_v98 : Ref sig .tc := ⟨.hbm, 134, rfl⟩
abbrev main_v99 : Ref sig .tc := ⟨.hbm, 135, rfl⟩
abbrev main_c_24 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_25 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_call1_cst : Ref sig .tc := ⟨.hbm, 153, rfl⟩
abbrev main_call1_v0 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_cst_27 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_28 : Ref sig .tc := ⟨.hbm, 167, rfl⟩
abbrev main_v125 : Ref sig .tc := ⟨.hbm, 168, rfl⟩
abbrev main_v126 : Ref sig .tc := ⟨.hbm, 169, rfl⟩
abbrev main_cst_29 : Ref sig .tc := ⟨.hbm, 170, rfl⟩
abbrev main_v127 : Ref sig .tc := ⟨.hbm, 171, rfl⟩
abbrev main_v128 : Ref sig .tc := ⟨.hbm, 172, rfl⟩
abbrev main_cst_30 : Ref sig .tc := ⟨.hbm, 173, rfl⟩
abbrev main_call2_v0 : Ref sig .tc := ⟨.hbm, 174, rfl⟩
abbrev main_call2_v1 : Ref sig .tc := ⟨.hbm, 175, rfl⟩
abbrev main_v129 : Ref sig .tc := ⟨.hbm, 176, rfl⟩
abbrev main_c_31 : Ref sig .tc := ⟨.hbm, 177, rfl⟩
abbrev main_v130 : Ref sig .tc := ⟨.hbm, 178, rfl⟩
abbrev main_v131 : Ref sig .tc := ⟨.hbm, 179, rfl⟩
abbrev main_c_32 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_c_33 : Ref sig .tc := ⟨.hbm, 186, rfl⟩
abbrev main_v137 : Ref sig .tc := ⟨.hbm, 187, rfl⟩
abbrev main_v138 : Ref sig .tc := ⟨.hbm, 188, rfl⟩
abbrev main_c_34 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_c_35 : Ref sig .tc := ⟨.hbm, 196, rfl⟩
abbrev main_v145 : Ref sig .tc := ⟨.hbm, 197, rfl⟩
abbrev main_v146 : Ref sig .tc := ⟨.hbm, 198, rfl⟩
abbrev main_c_36 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_37 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_call3_cst : Ref sig .tc := ⟨.hbm, 216, rfl⟩
abbrev main_call3_v0 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_38 : Ref sig .tc := ⟨.hbm, 223, rfl⟩
abbrev main_v167 : Ref sig .tc := ⟨.hbm, 224, rfl⟩
abbrev main_v168 : Ref sig .tc := ⟨.hbm, 225, rfl⟩
abbrev main_cst_39 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_cst_40 : Ref sig .tc := ⟨.hbm, 230, rfl⟩
abbrev main_v172 : Ref sig .tc := ⟨.hbm, 231, rfl⟩
abbrev main_v173 : Ref sig .tc := ⟨.hbm, 232, rfl⟩
abbrev main_cst_41 : Ref sig .tc := ⟨.hbm, 233, rfl⟩
abbrev main_v174 : Ref sig .tc := ⟨.hbm, 234, rfl⟩
abbrev main_v175 : Ref sig .tc := ⟨.hbm, 235, rfl⟩
abbrev main_cst_42 : Ref sig .tc := ⟨.hbm, 236, rfl⟩
abbrev main_call4_v0 : Ref sig .tc := ⟨.hbm, 237, rfl⟩
abbrev main_call4_v1 : Ref sig .tc := ⟨.hbm, 238, rfl⟩
abbrev main_v176 : Ref sig .tc := ⟨.hbm, 239, rfl⟩
abbrev main_c_43 : Ref sig .tc := ⟨.hbm, 240, rfl⟩
abbrev main_v177 : Ref sig .tc := ⟨.hbm, 241, rfl⟩
abbrev main_v178 : Ref sig .tc := ⟨.hbm, 242, rfl⟩
abbrev main_c_44 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_c_45 : Ref sig .tc := ⟨.hbm, 249, rfl⟩
abbrev main_v184 : Ref sig .tc := ⟨.hbm, 250, rfl⟩
abbrev main_v185 : Ref sig .tc := ⟨.hbm, 251, rfl⟩
abbrev main_c_46 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_c_47 : Ref sig .tc := ⟨.hbm, 259, rfl⟩
abbrev main_v192 : Ref sig .tc := ⟨.hbm, 260, rfl⟩
abbrev main_v193 : Ref sig .tc := ⟨.hbm, 261, rfl⟩
abbrev main_c_48 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_cst_49 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_cst_50 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_cst_51 : Ref sig .tc := ⟨.hbm, 286, rfl⟩
abbrev main_v215 : Ref sig .tc := ⟨.hbm, 287, rfl⟩
abbrev main_v216 : Ref sig .tc := ⟨.hbm, 288, rfl⟩
abbrev main_call5_v0 : Ref sig .tc := ⟨.hbm, 289, rfl⟩
abbrev main_call5_cst : Ref sig .tc := ⟨.hbm, 290, rfl⟩
abbrev main_call5_v1 : Ref sig .tc := ⟨.hbm, 291, rfl⟩
abbrev main_call5_v2 : Ref sig .tc := ⟨.hbm, 292, rfl⟩
abbrev main_v217 : Ref sig .tc := ⟨.hbm, 293, rfl⟩
abbrev main_cst_52 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩

abbrev nD : Nat := 1
abbrev τ : Topo := Topo.v7x

variable {F : FTy → Type} [FloatOps F]

class Facts₀ : Prop where
  bcast_S512_S512x512_0 : S512.BroadcastsInDim S512x512 (![0] : Fin 1 → Fin S512x512.rank)
  shapeCasts_S512x512_S262144 : S512x512.ShapeCasts S262144
  shapeCasts_S512_S1x512 : S512.ShapeCasts S1x512
  bcast_S1x512_S512x512_0_1 : S1x512.BroadcastsInDim S512x512 (![0, 1] : Fin 2 → Fin S512x512.rank)
  bcast_S_S262144 : S_.BroadcastsInDim S262144 (![] : Fin 0 → Fin S262144.rank)
  slices_S8x512x512_S1x512x512_0_0_0 : S8x512x512.Slices ![0, 0, 0] S1x512x512
  shapeCasts_S1x512x512_S512x512 : S1x512x512.ShapeCasts S512x512
  slices_S8x512x512_S1x512x512_1_0_0 : S8x512x512.Slices ![1, 0, 0] S1x512x512
  slices_S8x512x512_S1x512x512_2_0_0 : S8x512x512.Slices ![2, 0, 0] S1x512x512
  slices_S8x512x512_S1x512x512_3_0_0 : S8x512x512.Slices ![3, 0, 0] S1x512x512
  slices_S8x512x512_S1x512x512_4_0_0 : S8x512x512.Slices ![4, 0, 0] S1x512x512
  slices_S8x512x512_S1x512x512_5_0_0 : S8x512x512.Slices ![5, 0, 0] S1x512x512
  slices_S8x512x512_S1x512x512_6_0_0 : S8x512x512.Slices ![6, 0, 0] S1x512x512
  slices_S8x512x512_S1x512x512_7_0_0 : S8x512x512.Slices ![7, 0, 0] S1x512x512
  concatenates_S262144_S262144_S262144_S262144_S262144_S262144_S262144_S262144_S2097152_d0 : Shape.Concatenates [S262144, S262144, S262144, S262144, S262144, S262144, S262144, S262144] S2097152 0
  shapeCasts_S512x3_S1x512x1x3 : S512x3.ShapeCasts S1x512x1x3
  bcast_S1x512x1x3_S8x512x1x3_0_1_2_3 : S1x512x1x3.BroadcastsInDim S8x512x1x3 (![0, 1, 2, 3] : Fin 4 → Fin S8x512x1x3.rank)
  shapeCasts_S8x512x1x3_S4096x3 : S8x512x1x3.ShapeCasts S4096x3
  concatenates_S2097152_S4096_S2101248_d0 : Shape.Concatenates [S2097152, S4096] S2101248 0
  bcast_S_S4096 : S_.BroadcastsInDim S4096 (![] : Fin 0 → Fin S4096.rank)
  bcast_S2101248_S2101248x1_0 : S2101248.BroadcastsInDim S2101248x1 (![0] : Fin 1 → Fin S2101248x1.rank)
  bcast_S_S2101248 : S_.BroadcastsInDim S2101248 (![] : Fin 0 → Fin S2101248.rank)
  bcast_S2101248x1_S2101248x16_0_1 : S2101248x1.BroadcastsInDim S2101248x16 (![0, 1] : Fin 2 → Fin S2101248x16.rank)
  bcast_S_S4096x16 : S_.BroadcastsInDim S4096x16 (![] : Fin 0 → Fin S4096x16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S2101248x1_S2101248x32_0_1 : S2101248x1.BroadcastsInDim S2101248x32 (![0, 1] : Fin 2 → Fin S2101248x32.rank)
  bcast_S_S4096x32 : S_.BroadcastsInDim S4096x32 (![] : Fin 0 → Fin S4096x32.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S2101248x1_S2101248x64_0_1 : S2101248x1.BroadcastsInDim S2101248x64 (![0, 1] : Fin 2 → Fin S2101248x64.rank)
  bcast_S_S4096x64 : S_.BroadcastsInDim S4096x64 (![] : Fin 0 → Fin S4096x64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S8_S8x512_0 : S8.BroadcastsInDim S8x512 (![0] : Fin 1 → Fin S8x512.rank)
  shapeCasts_S8x512_S4096 : S8x512.ShapeCasts S4096
  bcast_S_S8x64 : S_.BroadcastsInDim S8x64 (![] : Fin 0 → Fin S8x64.rank)
  bcast_S4096_S4096x1_0 : S4096.BroadcastsInDim S4096x1 (![0] : Fin 1 → Fin S4096x1.rank)
  reducesTo_S8x64_S8_d1 : S8x64.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x64_0_1 : S8x1.BroadcastsInDim S8x64 (![0, 1] : Fin 2 → Fin S8x64.rank)
  dot_S4096x3_S3x16_S4096x16_1_0_0_1_n_n_wf : DotDims.WF S4096x3 S3x16 S4096x16 [1] [0] [0] [1] [] []
  scatter_S4096_S2101248x1_S2101248_n_0_0_1_wf : ScatterDims.WF S4096 S2101248x1 S2101248 [] [0] [0] 1
  gather_S4096_S2101248x1_S2101248_n_0_n_n_0_1_1_wf : GatherDims.WF S4096 S2101248x1 S2101248 [] [0] [] [0] [] 1 ![1]
  gather_S4096x16_S2101248x1_S2101248x16_1_0_n_n_0_1_116_wf : GatherDims.WF S4096x16 S2101248x1 S2101248x16 [1] [0] [] [0] [] 1 ![1, 16]
  scatter_S4096x16_S2101248x1_S2101248x16_1_0_0_1_wf : ScatterDims.WF S4096x16 S2101248x1 S2101248x16 [1] [0] [0] 1
  dot_S4096x16_S16x32_S4096x32_1_0_0_1_n_n_wf : DotDims.WF S4096x16 S16x32 S4096x32 [1] [0] [0] [1] [] []
  gather_S4096x32_S2101248x1_S2101248x32_1_0_n_n_0_1_132_wf : GatherDims.WF S4096x32 S2101248x1 S2101248x32 [1] [0] [] [0] [] 1 ![1, 32]
  scatter_S4096x32_S2101248x1_S2101248x32_1_0_0_1_wf : ScatterDims.WF S4096x32 S2101248x1 S2101248x32 [1] [0] [0] 1
  dot_S4096x32_S32x64_S4096x64_1_0_0_1_n_n_wf : DotDims.WF S4096x32 S32x64 S4096x64 [1] [0] [0] [1] [] []
  gather_S4096x64_S2101248x1_S2101248x64_1_0_n_n_0_1_164_wf : GatherDims.WF S4096x64 S2101248x1 S2101248x64 [1] [0] [] [0] [] 1 ![1, 64]
  scatter_S4096x64_S2101248x1_S2101248x64_1_0_0_1_wf : ScatterDims.WF S4096x64 S2101248x1 S2101248x64 [1] [0] [0] 1
  scatter_S8x64_S4096x1_S4096x64_1_0_0_1_wf : ScatterDims.WF S8x64 S4096x1 S4096x64 [1] [0] [0] 1

variable [Facts₀]

def dot_S4096x3_S3x16_S4096x16_1_0_0_1_n_n : DotDims S4096x3 S3x16 S4096x16 where
  lhsContracting := [1]
  rhsContracting := [0]
  lhsNonContracting := [0]
  rhsNonContracting := [1]
  lhsBatch := []
  rhsBatch := []
  wf := dot_S4096x3_S3x16_S4096x16_1_0_0_1_n_n_wf
def scatter_S4096_S2101248x1_S2101248_n_0_0_1 : ScatterDims S4096 S2101248x1 S2101248 where
  updateWindowDims := []
  insertedWindowDims := [0]
  scatterDimsToOperandDims := [0]
  indexVectorDim := 1
  wf := scatter_S4096_S2101248x1_S2101248_n_0_0_1_wf
def gather_S4096_S2101248x1_S2101248_n_0_n_n_0_1_1 : GatherDims S4096 S2101248x1 S2101248 where
  offsetDims := []
  collapsedSliceDims := [0]
  operandBatchingDims := []
  startIndicesBatchingDims := []
  startIndexMap := [0]
  indexVectorDim := 1
  sliceSizes := ![1]
  wf := gather_S4096_S2101248x1_S2101248_n_0_n_n_0_1_1_wf
def gather_S4096x16_S2101248x1_S2101248x16_1_0_n_n_0_1_116 : GatherDims S4096x16 S2101248x1 S2101248x16 where
  offsetDims := [1]
  collapsedSliceDims := [0]
  operandBatchingDims := []
  startIndicesBatchingDims := []
  startIndexMap := [0]
  indexVectorDim := 1
  sliceSizes := ![1, 16]
  wf := gather_S4096x16_S2101248x1_S2101248x16_1_0_n_n_0_1_116_wf
def scatter_S4096x16_S2101248x1_S2101248x16_1_0_0_1 : ScatterDims S4096x16 S2101248x1 S2101248x16 where
  updateWindowDims := [1]
  insertedWindowDims := [0]
  scatterDimsToOperandDims := [0]
  indexVectorDim := 1
  wf := scatter_S4096x16_S2101248x1_S2101248x16_1_0_0_1_wf
def dot_S4096x16_S16x32_S4096x32_1_0_0_1_n_n : DotDims S4096x16 S16x32 S4096x32 where
  lhsContracting := [1]
  rhsContracting := [0]
  lhsNonContracting := [0]
  rhsNonContracting := [1]
  lhsBatch := []
  rhsBatch := []
  wf := dot_S4096x16_S16x32_S4096x32_1_0_0_1_n_n_wf
def gather_S4096x32_S2101248x1_S2101248x32_1_0_n_n_0_1_132 : GatherDims S4096x32 S2101248x1 S2101248x32 where
  offsetDims := [1]
  collapsedSliceDims := [0]
  operandBatchingDims := []
  startIndicesBatchingDims := []
  startIndexMap := [0]
  indexVectorDim := 1
  sliceSizes := ![1, 32]
  wf := gather_S4096x32_S2101248x1_S2101248x32_1_0_n_n_0_1_132_wf
def scatter_S4096x32_S2101248x1_S2101248x32_1_0_0_1 : ScatterDims S4096x32 S2101248x1 S2101248x32 where
  updateWindowDims := [1]
  insertedWindowDims := [0]
  scatterDimsToOperandDims := [0]
  indexVectorDim := 1
  wf := scatter_S4096x32_S2101248x1_S2101248x32_1_0_0_1_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def gather_S4096x64_S2101248x1_S2101248x64_1_0_n_n_0_1_164 : GatherDims S4096x64 S2101248x1 S2101248x64 where
  offsetDims := [1]
  collapsedSliceDims := [0]
  operandBatchingDims := []
  startIndicesBatchingDims := []
  startIndexMap := [0]
  indexVectorDim := 1
  sliceSizes := ![1, 64]
  wf := gather_S4096x64_S2101248x1_S2101248x64_1_0_n_n_0_1_164_wf
def scatter_S4096x64_S2101248x1_S2101248x64_1_0_0_1 : ScatterDims S4096x64 S2101248x1 S2101248x64 where
  updateWindowDims := [1]
  insertedWindowDims := [0]
  scatterDimsToOperandDims := [0]
  indexVectorDim := 1
  wf := scatter_S4096x64_S2101248x1_S2101248x64_1_0_0_1_wf
def scatter_S8x64_S4096x1_S4096x64_1_0_0_1 : ScatterDims S8x64 S4096x1 S4096x64 where
  updateWindowDims := [1]
  insertedWindowDims := [0]
  scatterDimsToOperandDims := [0]
  indexVectorDim := 1
  wf := scatter_S8x64_S4096x1_S4096x64_1_0_0_1_wf

class Facts : Prop extends Facts₀ where

variable [Facts]
-- ==== Proof.RefRead.lean ====
/-
  The reference program's stages read at an index, gathered in one place for the modules that evaluate the reference.
-/
import proofs.«163928_g44908178047564_cont_sun_c4_353_27_alg».proof.Proof.RefStages
-- ==== Proof.RefRunHand.lean ====
/-
  The run of the reference program, read back stage by stage.

  The program is a straight line of 291 array operations, each writing a buffer of its own. The line is cut into
  short stretches. After each stretch, every buffer that a later stretch reads holds its stage: the value of its
  operation as a function of the eight argument arrays. A buffer that a stretch does not write keeps what it held.
  Running the stretches one after the other, the result buffer ends at the last stage and the arguments are unchanged.
-/
import proofs.«163928_g44908178047564_cont_sun_c4_353_27_alg».proof.Proof.Gen.ReferenceIdeal
import Idealize.ShloMosaic.Lib.StableHlo.Run
import proofs.«163928_g44908178047564_cont_sun_c4_353_27_alg».proof.Proof.RefRead

noncomputable section

namespace Cert.Gnn.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ### Operations 1 … 14 -/

abbrev s1 : List (HloOp τ sig (Elt F)) :=
  [ nullary main_v0 (iotaInDim S512 32 0),
    unary main_v0 main_v1 (broadcastInDim S512x512 ![0] bcast_S512_S512x512_0 : (⟨S512, .i32⟩ : BufTy).Contents (Elt F) → (⟨S512x512, .i32⟩ : BufTy).Contents (Elt F)),
    reshape main_v1 main_v2 rfl shapeCasts_S512x512_S262144,
    nullary main_v3 (iotaInDim S512 32 0),
    reshape main_v3 main_v4 rfl shapeCasts_S512_S1x512,
    unary main_v4 main_v5 (broadcastInDim S512x512 ![0, 1] bcast_S1x512_S512x512_0_1 : (⟨S1x512, .i32⟩ : BufTy).Contents (Elt F) → (⟨S512x512, .i32⟩ : BufTy).Contents (Elt F)),
    reshape main_v5 main_v6 rfl shapeCasts_S512x512_S262144,
    nullary main_c (constantI S_ 32 0#32),
    unary main_c main_v7 (broadcastInDim S262144 ![] bcast_S_S262144 : (⟨S_, .i32⟩ : BufTy).Contents (Elt F) → (⟨S262144, .i32⟩ : BufTy).Contents (Elt F)),
    binary main_v2 main_v7 main_v8 (addi : (⟨S262144, .i32⟩ : BufTy).Contents (Elt F) → (⟨S262144, .i32⟩ : BufTy).Contents (Elt F) → (⟨S262144, .i32⟩ : BufTy).Contents (Elt F)),
    nullary main_c_0 (constantI S_ 32 0#32),
    unary main_c_0 main_v9 (broadcastInDim S262144 ![] bcast_S_S262144 : (⟨S_, .i32⟩ : BufTy).Contents (Elt F) → (⟨S262144, .i32⟩ : BufTy).Contents (Elt F)),
    binary main_v6 main_v9 main_v10 (addi : (⟨S262144, .i32⟩ : BufTy).Contents (Elt F) → (⟨S262144, .i32⟩ : BufTy).Contents (Elt F) → (⟨S262144, .i32⟩ : BufTy).Contents (Elt F)),
    unary main_arg0 main_v11 ((extractStridedSlice S1x512x512 ![0, 0, 0] · slices_S8x512x512_S1x512x512_0_0_0) : (⟨S8x512x512, .f32⟩ : BufTy).Contents (Elt F) → (⟨S1x512x512, .f32⟩ : BufTy).Contents (Elt F)) ]
theorem s1_sub : (s1 : List (HloOp τ sig (Elt F))).Forall fun op => op.bufs ⊆ tcRefs τ sig :=
  ⟨nullary_bufs_sub .., unary_bufs_sub .., reshape_bufs_sub .., nullary_bufs_sub .., reshape_bufs_sub .., unary_bufs_sub .., reshape_bufs_sub .., nullary_bufs_sub .., unary_bufs_sub .., binary_bufs_sub .., nullary_bufs_sub .., unary_bufs_sub .., binary_bufs_sub .., unary_bufs_sub ..⟩
theorem s1_fresh : ∀ op ∈ (s1 : List (HloOp τ sig (Elt F))), op.fresh = ∅ := by
  intro _ h; (repeat (cases h with | head => rfl | tail _ h => ?_)); exact nomatch h
/-- The buffers these operations write. -/
abbrev s1_W : List (Ref sig .tc) := [main_v0, main_v1, main_v2, main_v3, main_v4, main_v5, main_v6, main_c, main_v7, main_v8, main_c_0, main_v9, main_v10, main_v11]
theorem s1_writes : (s1 : List (HloOp τ sig (Elt F))).Forall fun op => op.writes ⊆ (s1_W.map (Proc.devRef (τ := τ) .tc)).toFinset := by
  simp only [s1, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 14. -/
def W1 (V0 : Valuation τ sig (Elt F)) : Valuation τ sig (Elt F) := after s1 V0
theorem W1_keep (V0 : Valuation τ sig (Elt F)) (r : Ref sig .tc) (h : r ∉ s1_W) :
    W1 V0 (Proc.devRef .tc r) = V0 (Proc.devRef .tc r) :=
  after_of_writes_sub s1 _ s1_writes h
theorem W1_main_arg0 (V0 : Valuation τ sig (Elt F)) : W1 V0 (no_index (Proc.devRef .tc main_arg0)) = V0 (Proc.devRef .tc main_arg0) :=
  W1_keep V0 main_arg0 (by decide)
theorem W1_main_arg1 (V0 : Valuation τ sig (Elt F)) : W1 V0 (no_index (Proc.devRef .tc main_arg1)) = V0 (Proc.devRef .tc main_arg1) :=
  W1_keep V0 main_arg1 (by decide)
theorem W1_main_arg2 (V0 : Valuation τ sig (Elt F)) : W1 V0 (no_index (Proc.devRef .tc main_arg2)) = V0 (Proc.devRef .tc main_arg2) :=
  W1_keep V0 main_arg2 (by decide)
theorem W1_main_arg3 (V0 : Valuation τ sig (Elt F)) : W1 V0 (no_index (Proc.devRef .tc main_arg3)) = V0 (Proc.devRef .tc main_arg3) :=
  W1_keep V0 main_arg3 (by decide)
theorem W1_main_arg4 (V0 : Valuation τ sig (Elt F)) : W1 V0 (no_index (Proc.devRef .tc main_arg4)) = V0 (Proc.devRef .tc main_arg4) :=
  W1_keep V0 main_arg4 (by decide)
theorem W1_main_arg5 (V0 : Valuation τ sig (Elt F)) : W1 V0 (no_index (Proc.devRef .tc main_arg5)) = V0 (Proc.devRef .tc main_arg5) :=
  W1_keep V0 main_arg5 (by decide)
theorem W1_main_arg6 (V0 : Valuation τ sig (Elt F)) : W1 V0 (no_index (Proc.devRef .tc main_arg6)) = V0 (Proc.devRef .tc main_arg6) :=
  W1_keep V0 main_arg6 (by decide)
theorem W1_main_arg7 (V0 : Valuation τ sig (Elt F)) : W1 V0 (no_index (Proc.devRef .tc main_arg7)) = V0 (Proc.devRef .tc main_arg7) :=
  W1_keep V0 main_arg7 (by decide)
theorem W1_main_v2 (V0 : Valuation τ sig (Elt F)) : W1 V0 (no_index (Proc.devRef .tc main_v2)) = val_main_v2 (F := F) := by
  unfold W1
  simp only [s1]
  after_results_simp
  rfl
theorem W1_main_v6 (V0 : Valuation τ sig (Elt F)) : W1 V0 (no_index (Proc.devRef .tc main_v6)) = val_main_v6 (F := F) := by
  unfold W1
  simp only [s1]
  after_results_simp
  rfl
theorem W1_main_v8 (V0 : Valuation τ sig (Elt F)) : W1 V0 (no_index (Proc.devRef .tc main_v8)) = val_main_v8 (F := F) := by
  unfold W1
  simp only [s1]
  after_results_simp
  rfl
theorem W1_main_v10 (V0 : Valuation τ sig (Elt F)) : W1 V0 (no_index (Proc.devRef .tc main_v10)) = val_main_v10 (F := F) := by
  unfold W1
  simp only [s1]
  after_results_simp
  rfl
theorem W1_main_v11 (V0 : Valuation τ sig (Elt F)) : W1 V0 (no_index (Proc.devRef .tc main_v11)) = val_main_v11 (F := F) (V0 (Proc.devRef .tc main_arg0)) := by
  unfold W1
  simp only [s1]
  after_results_simp
  rfl

/-! ### Operations 15 … 28 -/

abbrev s2 : List (HloOp τ sig (Elt F)) :=
  [ reshape main_v11 main_v12 rfl shapeCasts_S1x512x512_S512x512,
    reshape main_v12 main_v13 rfl shapeCasts_S512x512_S262144,
    nullary main_c_1 (constantI S_ 32 512#32),
    unary main_c_1 main_v14 (broadcastInDim S262144 ![] bcast_S_S262144 : (⟨S_, .i32⟩ : BufTy).Contents (Elt F) → (⟨S262144, .i32⟩ : BufTy).Contents (Elt F)),
    binary main_v2 main_v14 main_v15 (addi : (⟨S262144, .i32⟩ : BufTy).Contents (Elt F) → (⟨S262144, .i32⟩ : BufTy).Contents (Elt F) → (⟨S262144, .i32⟩ : BufTy).Contents (Elt F)),
    nullary main_c_2 (constantI S_ 32 512#32),
    unary main_c_2 main_v16 (broadcastInDim S262144 ![] bcast_S_S262144 : (⟨S_, .i32⟩ : BufTy).Contents (Elt F) → (⟨S262144, .i32⟩ : BufTy).Contents (Elt F)),
    binary main_v6 main_v16 main_v17 (addi : (⟨S262144, .i32⟩ : BufTy).Contents (Elt F) → (⟨S262144, .i32⟩ : BufTy).Contents (Elt F) → (⟨S262144, .i32⟩ : BufTy).Contents (Elt F)),
    unary main_arg0 main_v18 ((extractStridedSlice S1x512x512 ![1, 0, 0] · slices_S8x512x512_S1x512x512_1_0_0) : (⟨S8x512x512, .f32⟩ : BufTy).Contents (Elt F) → (⟨S1x512x512, .f32⟩ : BufTy).Contents (Elt F)),
    reshape main_v18 main_v19 rfl shapeCasts_S1x512x512_S512x512,
    reshape main_v19 main_v20 rfl shapeCasts_S512x512_S262144,
    nullary main_c_3 (constantI S_ 32 1024#32),
    unary main_c_3 main_v21 (broadcastInDim S262144 ![] bcast_S_S262144 : (⟨S_, .i32⟩ : BufTy).Contents (Elt F) → (⟨S262144, .i32⟩ : BufTy).Contents (Elt F)),
    binary main_v2 main_v21 main_v22 (addi : (⟨S262144, .i32⟩ : BufTy).Contents (Elt F) → (⟨S262144, .i32⟩ : BufTy).Contents (Elt F) → (⟨S262144, .i32⟩ : BufTy).Contents (Elt F)) ]
theorem s2_sub : (s2 : List (HloOp τ sig (Elt F))).Forall fun op => op.bufs ⊆ tcRefs τ sig :=
  ⟨reshape_bufs_sub .., reshape_bufs_sub .., nullary_bufs_sub .., unary_bufs_sub .., binary_bufs_sub .., nullary_bufs_sub .., unary_bufs_sub .., binary_bufs_sub .., unary_bufs_sub .., reshape_bufs_sub .., reshape_bufs_sub .., nullary_bufs_sub .., unary_bufs_sub .., binary_bufs_sub ..⟩
theorem s2_fresh : ∀ op ∈ (s2 : List (HloOp τ sig (Elt F))), op.fresh = ∅ := by
  intro _ h; (repeat (cases h with | head => rfl | tail _ h => ?_)); exact nomatch h
/-- The buffers these operations write. -/
abbrev s2_W : List (Ref sig .tc) := [main_v12, main_v13, main_c_1, main_v14, main_v15, main_c_2, main_v16, main_v17, main_v18, main_v19, main_v20, main_c_3, main_v21, main_v22]
theorem s2_writes : (s2 : List (HloOp τ sig (Elt F))).Forall fun op => op.writes ⊆ (s2_W.map (Proc.devRef (τ := τ) .tc)).toFinset := by
  simp only [s2, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 28. -/
def W2 (V0 : Valuation τ sig (Elt F)) : Valuation τ sig (Elt F) := after s2 (W1 V0)
theorem W2_keep (V0 : Valuation τ sig (Elt F)) (r : Ref sig .tc) (h : r ∉ s2_W) :
    W2 V0 (Proc.devRef .tc r) = W1 V0 (Proc.devRef .tc r) :=
  after_of_writes_sub s2 _ s2_writes h
theorem W2_main_arg0 (V0 : Valuation τ sig (Elt F)) : W2 V0 (no_index (Proc.devRef .tc main_arg0)) = V0 (Proc.devRef .tc main_arg0) :=
  (W2_keep V0 main_arg0 (by decide)).trans (W1_main_arg0 V0)
theorem W2_main_arg1 (V0 : Valuation τ sig (Elt F)) : W2 V0 (no_index (Proc.devRef .tc main_arg1)) = V0 (Proc.devRef .tc main_arg1) :=
  (W2_keep V0 main_arg1 (by decide)).trans (W1_main_arg1 V0)
theorem W2_main_arg2 (V0 : Valuation τ sig (Elt F)) : W2 V0 (no_index (Proc.devRef .tc main_arg2)) = V0 (Proc.devRef .tc main_arg2) :=
  (W2_keep V0 main_arg2 (by decide)).trans (W1_main_arg2 V0)
theorem W2_main_arg3 (V0 : Valuation τ sig (Elt F)) : W2 V0 (no_index (Proc.devRef .tc main_arg3)) = V0 (Proc.devRef .tc main_arg3) :=
  (W2_keep V0 main_arg3 (by decide)).trans (W1_main_arg3 V0)
theorem W2_main_arg4 (V0 : Valuation τ sig (Elt F)) : W2 V0 (no_index (Proc.devRef .tc main_arg4)) = V0 (Proc.devRef .tc main_arg4) :=
  (W2_keep V0 main_arg4 (by decide)).trans (W1_main_arg4 V0)
theorem W2_main_arg5 (V0 : Valuation τ sig (Elt F)) : W2 V0 (no_index (Proc.devRef .tc main_arg5)) = V0 (Proc.devRef .tc main_arg5) :=
  (W2_keep V0 main_arg5 (by decide)).trans (W1_main_arg5 V0)
theorem W2_main_arg6 (V0 : Valuation τ sig (Elt F)) : W2 V0 (no_index (Proc.devRef .tc main_arg6)) = V0 (Proc.devRef .tc main_arg6) :=
  (W2_keep V0 main_arg6 (by decide)).trans (W1_main_arg6 V0)
theorem W2_main_arg7 (V0 : Valuation τ sig (Elt F)) : W2 V0 (no_index (Proc.devRef .tc main_arg7)) = V0 (Proc.devRef .tc main_arg7) :=
  (W2_keep V0 main_arg7 (by decide)).trans (W1_main_arg7 V0)
theorem W2_main_v2 (V0 : Valuation τ sig (Elt F)) : W2 V0 (no_index (Proc.devRef .tc main_v2)) = val_main_v2 (F := F) :=
  (W2_keep V0 main_v2 (by decide)).trans (W1_main_v2 V0)
theorem W2_main_v6 (V0 : Valuation τ sig (Elt F)) : W2 V0 (no_index (Proc.devRef .tc main_v6)) = val_main_v6 (F := F) :=
  (W2_keep V0 main_v6 (by decide)).trans (W1_main_v6 V0)
theorem W2_main_v8 (V0 : Valuation τ sig (Elt F)) : W2 V0 (no_index (Proc.devRef .tc main_v8)) = val_main_v8 (F := F) :=
  (W2_keep V0 main_v8 (by decide)).trans (W1_main_v8 V0)
theorem W2_main_v10 (V0 : Valuation τ sig (Elt F)) : W2 V0 (no_index (Proc.devRef .tc main_v10)) = val_main_v10 (F := F) :=
  (W2_keep V0 main_v10 (by decide)).trans (W1_main_v10 V0)
theorem W2_main_v13 (V0 : Valuation τ sig (Elt F)) : W2 V0 (no_index (Proc.devRef .tc main_v13)) = val_main_v13 (F := F) (V0 (Proc.devRef .tc main_arg0)) := by
  unfold W2
  simp only [s2]
  after_results_simp
  rw [W1_main_v11 V0]
  rfl
theorem W2_main_v15 (V0 : Valuation τ sig (Elt F)) : W2 V0 (no_index (Proc.devRef .tc main_v15)) = val_main_v15 (F := F) := by
  unfold W2
  simp only [s2]
  after_results_simp
  rw [W1_main_v2 V0]
  rfl
theorem W2_main_v17 (V0 : Valuation τ sig (Elt F)) : W2 V0 (no_index (Proc.devRef .tc main_v17)) = val_main_v17 (F := F) := by
  unfold W2
  simp only [s2]
  after_results_simp
  rw [W1_main_v6 V0]
  rfl
theorem W2_main_v20 (V0 : Valuation τ sig (Elt F)) : W2 V0 (no_index (Proc.devRef .tc main_v20)) = val_main_v20 (F := F) (V0 (Proc.devRef .tc main_arg0)) := by
  unfold W2
  simp only [s2]
  after_results_simp
  rw [W1_main_arg0 V0]
  rfl
theorem W2_main_v22 (V0 : Valuation τ sig (Elt F)) : W2 V0 (no_index (Proc.devRef .tc main_v22)) = val_main_v22 (F := F) := by
  unfold W2
  simp only [s2]
  after_results_simp
  rw [W1_main_v2 V0]
  rfl

/-! ### Operations 29 … 42 -/

abbrev s3 : List (HloOp τ sig (Elt F)) :=
  [ nullary main_c_4 (constantI S_ 32 1024#32),
    unary main_c_4 main_v23 (broadcastInDim S262144 ![] bcast_S_S262144 : (⟨S_, .i32⟩ : BufTy).Contents (Elt F) → (⟨S262144, .i32⟩ : BufTy).Contents (Elt F)),
    binary main_v6 main_v23 main_v24 (addi : (⟨S262144, .i32⟩ : BufTy).Contents (Elt F) → (⟨S262144, .i32⟩ : BufTy).Contents (Elt F) → (⟨S262144, .i32⟩ : BufTy).Contents (Elt F)),
    unary main_arg0 main_v25 ((extractStridedSlice S1x512x512 ![2, 0, 0] · slices_S8x512x512_S1x512x512_2_0_0) : (⟨S8x512x512, .f32⟩ : BufTy).Contents (Elt F) → (⟨S1x512x512, .f32⟩ : BufTy).Contents (Elt F)),
    reshape main_v25 main_v26 rfl shapeCasts_S1x512x512_S512x512,
    reshape main_v26 main_v27 rfl shapeCasts_S512x512_S262144,
    nullary main_c_5 (constantI S_ 32 1536#32),
    unary main_c_5 main_v28 (broadcastInDim S262144 ![] bcast_S_S262144 : (⟨S_, .i32⟩ : BufTy).Contents (Elt F) → (⟨S262144, .i32⟩ : BufTy).Contents (Elt F)),
    binary main_v2 main_v28 main_v29 (addi : (⟨S262144, .i32⟩ : BufTy).Contents (Elt F) → (⟨S262144, .i32⟩ : BufTy).Contents (Elt F) → (⟨S262144, .i32⟩ : BufTy).Contents (Elt F)),
    nullary main_c_6 (constantI S_ 32 1536#32),
    unary main_c_6 main_v30 (broadcastInDim S262144 ![] bcast_S_S262144 : (⟨S_, .i32⟩ : BufTy).Contents (Elt F) → (⟨S262144, .i32⟩ : BufTy).Contents (Elt F)),
    binary main_v6 main_v30 main_v31 (addi : (⟨S262144, .i32⟩ : BufTy).Contents (Elt F) → (⟨S262144, .i32⟩ : BufTy).Contents (Elt F) → (⟨S262144, .i32⟩ : BufTy).Contents (Elt F)),
    unary main_arg0 main_v32 ((extractStridedSlice S1x512x512 ![3, 0, 0] · slices_S8x512x512_S1x512x512_3_0_0) : (⟨S8x512x512, .f32⟩ : BufTy).Contents (Elt F) → (⟨S1x512x512, .f32⟩ : BufTy).Contents (Elt F)),
    reshape main_v32 main_v33 rfl shapeCasts_S1x512x512_S512x512 ]
theorem s3_sub : (s3 : List (HloOp τ sig (Elt F))).Forall fun op => op.bufs ⊆ tcRefs τ sig :=
  ⟨nullary_bufs_sub .., unary_bufs_sub .., binary_bufs_sub .., unary_bufs_sub .., reshape_bufs_sub .., reshape_bufs_sub .., nullary_bufs_sub .., unary_bufs_sub .., binary_bufs_sub .., nullary_bufs_sub .., unary_bufs_sub .., binary_bufs_sub .., unary_bufs_sub .., reshape_bufs_sub ..⟩
theorem s3_fresh : ∀ op ∈ (s3 : List (HloOp τ sig (Elt F))), op.fresh = ∅ := by
  intro _ h; (repeat (cases h with | head => rfl | tail _ h => ?_)); exact nomatch h
/-- The buffers these operations write. -/
abbrev s3_W : List (Ref sig .tc) := [main_c_4, main_v23, main_v24, main_v25, main_v26, main_v27, main_c_5, main_v28, main_v29, main_c_6, main_v30, main_v31, main_v32, main_v33]
theorem s3_writes : (s3 : List (HloOp τ sig (Elt F))).Forall fun op => op.writes ⊆ (s3_W.map (Proc.devRef (τ := τ) .tc)).toFinset := by
  simp only [s3, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 42. -/
def W3 (V0 : Valuation τ sig (Elt F)) : Valuation τ sig (Elt F) := after s3 (W2 V0)
theorem W3_keep (V0 : Valuation τ sig (Elt F)) (r : Ref sig .tc) (h : r ∉ s3_W) :
    W3 V0 (Proc.devRef .tc r) = W2 V0 (Proc.devRef .tc r) :=
  after_of_writes_sub s3 _ s3_writes h
theorem W3_main_arg0 (V0 : Valuation τ sig (Elt F)) : W3 V0 (no_index (Proc.devRef .tc main_arg0)) = V0 (Proc.devRef .tc main_arg0) :=
  (W3_keep V0 main_arg0 (by decide)).trans (W2_main_arg0 V0)
theorem W3_main_arg1 (V0 : Valuation τ sig (Elt F)) : W3 V0 (no_index (Proc.devRef .tc main_arg1)) = V0 (Proc.devRef .tc main_arg1) :=
  (W3_keep V0 main_arg1 (by decide)).trans (W2_main_arg1 V0)
theorem W3_main_arg2 (V0 : Valuation τ sig (Elt F)) : W3 V0 (no_index (Proc.devRef .tc main_arg2)) = V0 (Proc.devRef .tc main_arg2) :=
  (W3_keep V0 main_arg2 (by decide)).trans (W2_main_arg2 V0)
theorem W3_main_arg3 (V0 : Valuation τ sig (Elt F)) : W3 V0 (no_index (Proc.devRef .tc main_arg3)) = V0 (Proc.devRef .tc main_arg3) :=
  (W3_keep V0 main_arg3 (by decide)).trans (W2_main_arg3 V0)
theorem W3_main_arg4 (V0 : Valuation τ sig (Elt F)) : W3 V0 (no_index (Proc.devRef .tc main_arg4)) = V0 (Proc.devRef .tc main_arg4) :=
  (W3_keep V0 main_arg4 (by decide)).trans (W2_main_arg4 V0)
theorem W3_main_arg5 (V0 : Valuation τ sig (Elt F)) : W3 V0 (no_index (Proc.devRef .tc main_arg5)) = V0 (Proc.devRef .tc main_arg5) :=
  (W3_keep V0 main_arg5 (by decide)).trans (W2_main_arg5 V0)
theorem W3_main_arg6 (V0 : Valuation τ sig (Elt F)) : W3 V0 (no_index (Proc.devRef .tc main_arg6)) = V0 (Proc.devRef .tc main_arg6) :=
  (W3_keep V0 main_arg6 (by decide)).trans (W2_main_arg6 V0)
theorem W3_main_arg7 (V0 : Valuation τ sig (Elt F)) : W3 V0 (no_index (Proc.devRef .tc main_arg7)) = V0 (Proc.devRef .tc main_arg7) :=
  (W3_keep V0 main_arg7 (by decide)).trans (W2_main_arg7 V0)
theorem W3_main_v2 (V0 : Valuation τ sig (Elt F)) : W3 V0 (no_index (Proc.devRef .tc main_v2)) = val_main_v2 (F := F) :=
  (W3_keep V0 main_v2 (by decide)).trans (W2_main_v2 V0)
theorem W3_main_v6 (V0 : Valuation τ sig (Elt F)) : W3 V0 (no_index (Proc.devRef .tc main_v6)) = val_main_v6 (F := F) :=
  (W3_keep V0 main_v6 (by decide)).trans (W2_main_v6 V0)
theorem W3_main_v8 (V0 : Valuation τ sig (Elt F)) : W3 V0 (no_index (Proc.devRef .tc main_v8)) = val_main_v8 (F := F) :=
  (W3_keep V0 main_v8 (by decide)).trans (W2_main_v8 V0)
theorem W3_main_v10 (V0 : Valuation τ sig (Elt F)) : W3 V0 (no_index (Proc.devRef .tc main_v10)) = val_main_v10 (F := F) :=
  (W3_keep V0 main_v10 (by decide)).trans (W2_main_v10 V0)
theorem W3_main_v13 (V0 : Valuation τ sig (Elt F)) : W3 V0 (no_index (Proc.devRef .tc main_v13)) = val_main_v13 (F := F) (V0 (Proc.devRef .tc main_arg0)) :=
  (W3_keep V0 main_v13 (by decide)).trans (W2_main_v13 V0)
theorem W3_main_v15 (V0 : Valuation τ sig (Elt F)) : W3 V0 (no_index (Proc.devRef .tc main_v15)) = val_main_v15 (F := F) :=
  (W3_keep V0 main_v15 (by decide)).trans (W2_main_v15 V0)
theorem W3_main_v17 (V0 : Valuation τ sig (Elt F)) : W3 V0 (no_index (Proc.devRef .tc main_v17)) = val_main_v17 (F := F) :=
  (W3_keep V0 main_v17 (by decide)).trans (W2_main_v17 V0)
theorem W3_main_v20 (V0 : Valuation τ sig (Elt F)) : W3 V0 (no_index (Proc.devRef .tc main_v20)) = val_main_v20 (F := F) (V0 (Proc.devRef .tc main_arg0)) :=
  (W3_keep V0 main_v20 (by decide)).trans (W2_main_v20 V0)
theorem W3_main_v22 (V0 : Valuation τ sig (Elt F)) : W3 V0 (no_index (Proc.devRef .tc main_v22)) = val_main_v22 (F := F) :=
  (W3_keep V0 main_v22 (by decide)).trans (W2_main_v22 V0)
theorem W3_main_v24 (V0 : Valuation τ sig (Elt F)) : W3 V0 (no_index (Proc.devRef .tc main_v24)) = val_main_v24 (F := F) := by
  unfold W3
  simp only [s3]
  after_results_simp
  rw [W2_main_v6 V0]
  rfl
theorem W3_main_v27 (V0 : Valuation τ sig (Elt F)) : W3 V0 (no_index (Proc.devRef .tc main_v27)) = val_main_v27 (F := F) (V0 (Proc.devRef .tc main_arg0)) := by
  unfold W3
  simp only [s3]
  after_results_simp
  rw [W2_main_arg0 V0]
  rfl
theorem W3_main_v29 (V0 : Valuation τ sig (Elt F)) : W3 V0 (no_index (Proc.devRef .tc main_v29)) = val_main_v29 (F := F) := by
  unfold W3
  simp only [s3]
  after_results_simp
  rw [W2_main_v2 V0]
  rfl
theorem W3_main_v31 (V0 : Valuation τ sig (Elt F)) : W3 V0 (no_index (Proc.devRef .tc main_v31)) = val_main_v31 (F := F) := by
  unfold W3
  simp only [s3]
  after_results_simp
  rw [W2_main_v6 V0]
  rfl
theorem W3_main_v33 (V0 : Valuation τ sig (Elt F)) : W3 V0 (no_index (Proc.devRef .tc main_v33)) = val_main_v33 (F := F) (V0 (Proc.devRef .tc main_arg0)) := by
  unfold W3
  simp only [s3]
  after_results_simp
  rw [W2_main_arg0 V0]
  rfl

/-! ### Operations 43 … 56 -/

abbrev s4 : List (HloOp τ sig (Elt F)) :=
  [ reshape main_v33 main_v34 rfl shapeCasts_S512x512_S262144,
    nullary main_c_7 (constantI S_ 32 2048#32),
    unary main_c_7 main_v35 (broadcastInDim S262144 ![] bcast_S_S262144 : (⟨S_, .i32⟩ : BufTy).Contents (Elt F) → (⟨S262144, .i32⟩ : BufTy).Contents (Elt F)),
    binary main_v2 main_v35 main_v36 (addi : (⟨S262144, .i32⟩ : BufTy).Contents (Elt F) → (⟨S262144, .i32⟩ : BufTy).Contents (Elt F) → (⟨S262144, .i32⟩ : BufTy).Contents (Elt F)),
    nullary main_c_8 (constantI S_ 32 2048#32),
    unary main_c_8 main_v37 (broadcastInDim S262144 ![] bcast_S_S262144 : (⟨S_, .i32⟩ : BufTy).Contents (Elt F) → (⟨S262144, .i32⟩ : BufTy).Contents (Elt F)),
    binary main_v6 main_v37 main_v38 (addi : (⟨S262144, .i32⟩ : BufTy).Contents (Elt F) → (⟨S262144, .i32⟩ : BufTy).Contents (Elt F) → (⟨S262144, .i32⟩ : BufTy).Contents (Elt F)),
    unary main_arg0 main_v39 ((extractStridedSlice S1x512x512 ![4, 0, 0] · slices_S8x512x512_S1x512x512_4_0_0) : (⟨S8x512x512, .f32⟩ : BufTy).Contents (Elt F) → (⟨S1x512x512, .f32⟩ : BufTy).Contents (Elt F)),
    reshape main_v39 main_v40 rfl shapeCasts_S1x512x512_S512x512,
    reshape main_v40 main_v41 rfl shapeCasts_S512x512_S262144,
    nullary main_c_9 (constantI S_ 32 2560#32),
    unary main_c_9 main_v42 (broadcastInDim S262144 ![] bcast_S_S262144 : (⟨S_, .i32⟩ : BufTy).Contents (Elt F) → (⟨S262144, .i32⟩ : BufTy).Contents (Elt F)),
    binary main_v2 main_v42 main_v43 (addi : (⟨S262144, .i32⟩ : BufTy).Contents (Elt F) → (⟨S262144, .i32⟩ : BufTy).Contents (Elt F) → (⟨S262144, .i32⟩ : BufTy).Contents (Elt F)),
    nullary main_c_10 (constantI S_ 32 2560#32) ]
theorem s4_sub : (s4 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., unary_bufs_sub .., reshape_bufs_sub .., reshape_bufs_sub .., nullary_bufs_sub .., unary_bufs_sub .., binary_bufs_sub .., nullary_bufs_sub ..⟩
theorem s4_fresh : ∀ op ∈ (s4 : List (HloOp τ sig (Elt F))), op.fresh = ∅ := by
  intro _ h; (repeat (cases h with | head => rfl | tail _ h => ?_)); exact nomatch h
/-- The buffers these operations write. -/
abbrev s4_W : List (Ref sig .tc) := [main_v34, main_c_7, main_v35, main_v36, main_c_8, main_v37, main_v38, main_v39, main_v40, main_v41, main_c_9, main_v42, main_v43, main_c_10]
theorem s4_writes : (s4 : List (HloOp τ sig (Elt F))).Forall fun op => op.writes ⊆ (s4_W.map (Proc.devRef (τ := τ) .tc)).toFinset := by
  simp only [s4, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 56. -/
def W4 (V0 : Valuation τ sig (Elt F)) : Valuation τ sig (Elt F) := after s4 (W3 V0)
theorem W4_keep (V0 : Valuation τ sig (Elt F)) (r : Ref sig .tc) (h : r ∉ s4_W) :
    W4 V0 (Proc.devRef .tc r) = W3 V0 (Proc.devRef .tc r) :=
  after_of_writes_sub s4 _ s4_writes h
theorem W4_main_arg0 (V0 : Valuation τ sig (Elt F)) : W4 V0 (no_index (Proc.devRef .tc main_arg0)) = V0 (Proc.devRef .tc main_arg0) :=
  (W4_keep V0 main_arg0 (by decide)).trans (W3_main_arg0 V0)
theorem W4_main_arg1 (V0 : Valuation τ sig (Elt F)) : W4 V0 (no_index (Proc.devRef .tc main_arg1)) = V0 (Proc.devRef .tc main_arg1) :=
  (W4_keep V0 main_arg1 (by decide)).trans (W3_main_arg1 V0)
theorem W4_main_arg2 (V0 : Valuation τ sig (Elt F)) : W4 V0 (no_index (Proc.devRef .tc main_arg2)) = V0 (Proc.devRef .tc main_arg2) :=
  (W4_keep V0 main_arg2 (by decide)).trans (W3_main_arg2 V0)
theorem W4_main_arg3 (V0 : Valuation τ sig (Elt F)) : W4 V0 (no_index (Proc.devRef .tc main_arg3)) = V0 (Proc.devRef .tc main_arg3) :=
  (W4_keep V0 main_arg3 (by decide)).trans (W3_main_arg3 V0)
theorem W4_main_arg4 (V0 : Valuation τ sig (Elt F)) : W4 V0 (no_index (Proc.devRef .tc main_arg4)) = V0 (Proc.devRef .tc main_arg4) :=
  (W4_keep V0 main_arg4 (by decide)).trans (W3_main_arg4 V0)
theorem W4_main_arg5 (V0 : Valuation τ sig (Elt F)) : W4 V0 (no_index (Proc.devRef .tc main_arg5)) = V0 (Proc.devRef .tc main_arg5) :=
  (W4_keep V0 main_arg5 (by decide)).trans (W3_main_arg5 V0)
theorem W4_main_arg6 (V0 : Valuation τ sig (Elt F)) : W4 V0 (no_index (Proc.devRef .tc main_arg6)) = V0 (Proc.devRef .tc main_arg6) :=
  (W4_keep V0 main_arg6 (by decide)).trans (W3_main_arg6 V0)
theorem W4_main_arg7 (V0 : Valuation τ sig (Elt F)) : W4 V0 (no_index (Proc.devRef .tc main_arg7)) = V0 (Proc.devRef .tc main_arg7) :=
  (W4_keep V0 main_arg7 (by decide)).trans (W3_main_arg7 V0)
theorem W4_main_v2 (V0 : Valuation τ sig (Elt F)) : W4 V0 (no_index (Proc.devRef .tc main_v2)) = val_main_v2 (F := F) :=
  (W4_keep V0 main_v2 (by decide)).trans (W3_main_v2 V0)
theorem W4_main_v6 (V0 : Valuation τ sig (Elt F)) : W4 V0 (no_index (Proc.devRef .tc main_v6)) = val_main_v6 (F := F) :=
  (W4_keep V0 main_v6 (by decide)).trans (W3_main_v6 V0)
theorem W4_main_v8 (V0 : Valuation τ sig (Elt F)) : W4 V0 (no_index (Proc.devRef .tc main_v8)) = val_main_v8 (F := F) :=
  (W4_keep V0 main_v8 (by decide)).trans (W3_main_v8 V0)
theorem W4_main_v10 (V0 : Valuation τ sig (Elt F)) : W4 V0 (no_index (Proc.devRef .tc main_v10)) = val_main_v10 (F := F) :=
  (W4_keep V0 main_v10 (by decide)).trans (W3_main_v10 V0)
theorem W4_main_v13 (V0 : Valuation τ sig (Elt F)) : W4 V0 (no_index (Proc.devRef .tc main_v13)) = val_main_v13 (F := F) (V0 (Proc.devRef .tc main_arg0)) :=
  (W4_keep V0 main_v13 (by decide)).trans (W3_main_v13 V0)
theorem W4_main_v15 (V0 : Valuation τ sig (Elt F)) : W4 V0 (no_index (Proc.devRef .tc main_v15)) = val_main_v15 (F := F) :=
  (W4_keep V0 main_v15 (by decide)).trans (W3_main_v15 V0)
theorem W4_main_v17 (V0 : Valuation τ sig (Elt F)) : W4 V0 (no_index (Proc.devRef .tc main_v17)) = val_main_v17 (F := F) :=
  (W4_keep V0 main_v17 (by decide)).trans (W3_main_v17 V0)
theorem W4_main_v20 (V0 : Valuation τ sig (Elt F)) : W4 V0 (no_index (Proc.devRef .tc main_v20)) = val_main_v20 (F := F) (V0 (Proc.devRef .tc main_arg0)) :=
  (W4_keep V0 main_v20 (by decide)).trans (W3_main_v20 V0)
theorem W4_main_v22 (V0 : Valuation τ sig (Elt F)) : W4 V0 (no_index (Proc.devRef .tc main_v22)) = val_main_v22 (F := F) :=
  (W4_keep V0 main_v22 (by decide)).trans (W3_main_v22 V0)
theorem W4_main_v24 (V0 : Valuation τ sig (Elt F)) : W4 V0 (no_index (Proc.devRef .tc main_v24)) = val_main_v24 (F := F) :=
  (W4_keep V0 main_v24 (by decide)).trans (W3_main_v24 V0)
theorem W4_main_v27 (V0 : Valuation τ sig (Elt F)) : W4 V0 (no_index (Proc.devRef .tc main_v27)) = val_main_v27 (F := F) (V0 (Proc.devRef .tc main_arg0)) :=
  (W4_keep V0 main_v27 (by decide)).trans (W3_main_v27 V0)
theorem W4_main_v29 (V0 : Valuation τ sig (Elt F)) : W4 V0 (no_index (Proc.devRef .tc main_v29)) = val_main_v29 (F := F) :=
  (W4_keep V0 main_v29 (by decide)).trans (W3_main_v29 V0)
theorem W4_main_v31 (V0 : Valuation τ sig (Elt F)) : W4 V0 (no_index (Proc.devRef .tc main_v31)) = val_main_v31 (F := F) :=
  (W4_keep V0 main_v31 (by decide)).trans (W3_main_v31 V0)
theorem W4_main_v34 (V0 : Valuation τ sig (Elt F)) : W4 V0 (no_index (Proc.devRef .tc main_v34)) = val_main_v34 (F := F) (V0 (Proc.devRef .tc main_arg0)) := by
  unfold W4
  simp only [s4]
  after_results_simp
  rw [W3_main_v33 V0]
  rfl
theorem W4_main_v36 (V0 : Valuation τ sig (Elt F)) : W4 V0 (no_index (Proc.devRef .tc main_v36)) = val_main_v36 (F := F) := by
  unfold W4
  simp only [s4]
  after_results_simp
  rw [W3_main_v2 V0]
  rfl
theorem W4_main_v38 (V0 : Valuation τ sig (Elt F)) : W4 V0 (no_index (Proc.devRef .tc main_v38)) = val_main_v38 (F := F) := by
  unfold W4
  simp only [s4]
  after_results_simp
  rw [W3_main_v6 V0]
  rfl
theorem W4_main_v41 (V0 : Valuation τ sig (Elt F)) : W4 V0 (no_index (Proc.devRef .tc main_v41)) = val_main_v41 (F := F) (V0 (Proc.devRef .tc main_arg0)) := by
  unfold W4
  simp only [s4]
  after_results_simp
  rw [W3_main_arg0 V0]
  rfl
theorem W4_main_v43 (V0 : Valuation τ sig (Elt F)) : W4 V0 (no_index (Proc.devRef .tc main_v43)) = val_main_v43 (F := F) := by
  unfold W4
  simp only [s4]
  after_results_simp
  rw [W3_main_v2 V0]
  rfl
theorem W4_main_c_10 (V0 : Valuation τ sig (Elt F)) : W4 V0 (no_index (Proc.devRef .tc main_c_10)) = val_main_c_10 (F := F) := by
  unfold W4
  simp only [s4]
  after_results_simp
  rfl

/-! ### Operations 57 … 60 -/

abbrev s5 : List (HloOp τ sig (Elt F)) :=
  [ unary main_c_10 main_v44 (broadcastInDim S262144 ![] bcast_S_S262144 : (⟨S_, .i32⟩ : BufTy).Contents (Elt F) → (⟨S262144, .i32⟩ : BufTy).Contents (Elt F)),
    binary main_v6 main_v44 main_v45 (addi : (⟨S262144, .i32⟩ : BufTy).Contents (Elt F) → (⟨S262144, .i32⟩ : BufTy).Contents (Elt F) → (⟨S262144, .i32⟩ : BufTy).Contents (Elt F)),
    unary main_arg0 main_v46 ((extractStridedSlice S1x512x512 ![5, 0, 0] · slices_S8x512x512_S1x512x512_5_0_0) : (⟨S8x512x512, .f32⟩ : BufTy).Contents (Elt F) → (⟨S1x512x512, .f32⟩ : BufTy).Contents (Elt F)),
    reshape main_v46 main_v47 rfl shapeCasts_S1x512x512_S512x512 ]
theorem s5_sub : (s5 : List (HloOp τ sig (Elt F))).Forall fun op => op.bufs ⊆ tcRefs τ sig :=
  ⟨unary_bufs_sub .., binary_bufs_sub .., unary_bufs_sub .., reshape_bufs_sub ..⟩
theorem s5_fresh : ∀ op ∈ (s5 : List (HloOp τ sig (Elt F))), op.fresh = ∅ := by
  intro _ h; (repeat (cases h with | head => rfl | tail _ h => ?_)); exact nomatch h
/-- The buffers these operations write. -/
abbrev s5_W : List (Ref sig .tc) := [main_v44, main_v45, main_v46, main_v47]
theorem s5_writes : (s5 : List (HloOp τ sig (Elt F))).Forall fun op => op.writes ⊆ (s5_W.map (Proc.devRef (τ := τ) .tc)).toFinset := by
  simp only [s5, List.Forall, nullary_writes, unary_writes, binary_writes, ternary_writes, reshape_writes, nary_writes, Finset.singleton_subset_iff, List.mem_toFinset]
  refine ⟨?_, ?_, ?_, ?_⟩ <;> exact List.mem_map_of_mem (by decide)
/-- The buffers' contents after operation 60. -/
def W5 (V0 : Valuation τ sig (Elt F)) : Valuation τ sig (Elt F) := after s5 (W4 V0)
theorem W5_keep (V0 : Valuation τ sig (Elt F)) (r : Ref sig .tc) (h : r ∉ s5_W) :
    W5 V0 (Proc.devRef .tc r) = W4 V0 (Proc.devRef .tc r) :=
  after_of_writes_sub s5 _ s5_writes h
theorem W5_main_arg0 (V0 : Valuation τ sig (Elt F)) : W5 V0 (no_index (Proc.devRef .tc main_arg0)) = V0 (Proc.devRef .tc main_arg0) :=
  (W5_keep V0 main_arg0 (by decide)).trans (W4_main_arg0 V0)
theorem W5_main_arg1 (V0 : Valuation τ sig (Elt F)) : W5 V0 (no_index (Proc.devRef .tc main_arg1)) = V0 (Proc.devRef .tc main_arg1) :=
  (W5_keep V0 main_arg1 (by decide)).trans (W4_main_arg1 V0)
theorem W5_main_arg2 (V0 : Valuation τ sig (Elt F)) : W5 V0 (no_index (Proc.devRef .tc main_arg2)) = V0 (Proc.devRef .tc main_arg2) :=
  (W5_keep V0 main_arg2 (by decide)).trans (W4_main_arg2 V0)
theorem W5_main_arg3 (V0 : Valuation τ sig (Elt F)) : W5 V0 (no_index (Proc.devRef .tc main_arg3)) = V0 (Proc.devRef .tc main_arg3) :=
  (W5_keep V0 main_arg3 (by decide)).trans (W4_main_arg3 V0)
theorem W5_main_arg4 (V0 : Valuation τ sig (Elt F)) : W5 V0 (no_index (Proc.devRef .tc main_arg4)) = V0 (Proc.devRef .tc main_arg4) :=
  (W5_keep V0 main_arg4 (by decide)).trans (W4_main_arg4 V0)
theorem W5_main_arg5 (V0 : Valuation τ sig (Elt F)) : W5 V0 (no_index (Proc.devRef .tc main_arg5)) = V0 (Proc.devRef .tc main_arg5) :=
  (W5_keep V0 main_arg5 (by decide)).trans (W4_main_arg5 V0)
theorem W5_main_arg6 (V0 : Valuation τ sig (Elt F)) : W5 V0 (no_index (Proc.devRef .tc main_arg6)) = V0 (Proc.devRef .tc main_arg6) :=
  (W5_keep V0 main_arg6 (by decide)).trans (W4_main_arg6 V0)
theorem W5_main_arg7 (V0 : Valuation τ sig (Elt F)) : W5 V0 (no_index (Proc.devRef .tc main_arg7)) = V0 (Proc.devRef .tc main_arg7) :=
  (W5_keep V0 main_arg7 (by decide)).trans (W4_main_arg7 V0)
theorem W5_main_v2 (V0 : Valuation τ sig (Elt F)) : W5 V0 (no_index (Proc.devRef .tc main_v2)) = val_main_v2 (F := F) :=
  (W5_keep V0 main_v2 (by decide)).trans (W4_main_v2 V0)
theorem W5_main_v6 (V0 : Valuation τ sig (Elt F)) : W5 V0 (no_index (Proc.devRef .tc main_v6)) = val_main_v6 (F := F) :=
  (W5_keep V0 main_v6 (by decide)).trans (W4_main_v6 V0)
theorem W5_main_v8 (V0 : Valuation τ sig (Elt F)) : W5 V0 (no_index (Proc.devRef .tc main_v8)) = val_main_v8 (F := F) :=
  (W5_keep V0 main_v8 (by decide)).trans (W4_main_v8 V0)
theorem W5_main_v10 (V0 : Valuation τ sig (Elt F)) : W5 V0 (no_index (Proc.devRef .tc main_v10)) = val_main_v10 (F := F) :=
  (W5_keep V0 main_v10 (by decide)).trans (W4_main_v10 V0)
theorem W5_main_v13 (V0 : Valuation τ sig (Elt F)) : W5 V0 (no_index (Proc.devRef .tc main_v13)) = val_main_v13 (F := F) (V0 (Proc.devRef .tc main_arg0)) :=
  (W5_keep V0 main_v13 (by decide)).trans (W4_main_v13 V0)
theorem W5_main_v15 (V0 : Valuation τ sig (Elt F)) : W5 V0 (no_index (Proc.devRef .tc main_v15)) = val_main_v15 (F := F) :=
  (W5_keep V0 main_v15 (by decide)).trans (W4_main_v15 V0)
theorem W5_main_v17 (V0 : Valuation τ sig (Elt F)) : W5 V0 (no_index (Proc.devRef .tc main_v17)) = val_main_v17 (F := F) :=
  (W5_keep V0 main_v17 (by decide)).trans (W4_main_v17 V0)
theorem W5_main_v20 (V0 : Valuation τ sig (Elt F)) : W5 V0 (no_index (Proc.devRef .tc main_v20)) = val_main_v20 (F := F) (V0 (Proc.devRef .tc main_arg0)) :=
  (W5_keep V0 main_v20 (by decide)).trans (W4_main_v20 V0)
theorem W5_main_v22 (V0 : Valuation τ sig (Elt F)) : W5 V0 (no_index (Proc.devRef .tc main_v22)) = val_main_v22 (F := F) :=
  (W5_keep V0 main_v22 (by decide)).trans (W4_main_v22 V0)
theorem W5_main_v24 (V0 : Valuation τ sig (Elt F)) : W5 V0 (no_index (Proc.devRef .tc main_v24)) = val_main_v24 (F := F) :=
  (W5_keep V0 main_v24 (by decide)).trans (W4_main_v24 V0)
theorem W5_main_v27 (V0 : Valuation τ sig (Elt F)) : W5 V0 (no_index (Proc.devRef .tc main_v27)) = val_main_v27 (F := F) (V0 (Proc.devRef .tc main_arg0)) :=
  (W5_keep V0 main_v27 (by decide)).trans (W4_main_v27 V0)
theorem W5_main_v29 (V0 : Valuation τ sig (Elt F)) : W5 V0 (no_index (Proc.devRef .tc main_v29)) = val_main_v29 (F := F) :=
  (W5_keep V0 main_v29 (by decide)).trans (W4_main_v29 V0)
theorem W5_main_v31 (V0 : Valuation τ sig (Elt F)) : W5 V0 (no_index (Proc.devRef .tc main_v31)) = val_main_v31 (F := F) :=
  (W5_keep V0 main_v31 (by decide)).trans (W4_main_v31 V0)
theorem W5_main_v34 (V0 : Valuation τ sig (Elt F)) : W5 V0 (no_index (Proc.devRef .tc main_v34)) = val_main_v34 (F := F) (V0 (Proc.devRef .tc main_arg0)) :=
  (W5_keep V0 main_v34 (by decide)).trans (W4_main_v34 V0)
theorem W5_main_v36 (V0 : Valuation τ sig (Elt F)) : W5 V0 (no_index (Proc.devRef .tc main_v36)) = val_main_v36 (F := F) :=
  (W5_keep V0 main_v36 (by decide)).trans (W4_main_v36 V0)
theorem W5_main_v38 (V0 : Valuation τ sig (Elt F)) : W5 V0 (no_index (Proc.devRef .tc main_v38)) = val_main_v38 (F := F) :=
  (W5_keep V0 main_v38 (by decide)).trans (W4_main_v38 V0)
theorem W5_main_v41 (V0 : Valuation τ sig (Elt F)) : W5 V0 (no_index (Proc.devRef .tc main_v41)) = val_main_v41 (F := F) (V0 (Proc.devRef .tc main_arg0)) :=
  (W5_keep V0 main_v41 (by decide)).trans (W4_main_v41 V0)
theorem W5_main_v43 (V0 : Valuation τ sig (Elt F)) : W5 V0 (no_index (Proc.devRef .tc main_v43)) = val_main_v43 (F := F) :=
  (W5_keep V0 main_v43 (by decide)).trans (W4_main_v43 V0)
theorem W5_main_v45 (V0 : Valuation τ sig (Elt F)) : W5 V0 (no_index (Proc.devRef .tc main_v45)) = val_main_v45 (F := F) := by
  unfold W5
  simp only [s5]
  after_results_simp
  rw [W4_main_v6 V0, W4_main_c_10 V0]
  rfl
theorem W5_main_v47 (V0 : Valuation τ sig (Elt F)) : W5 V0 (no_index (Proc.devRef .tc main_v47)) = val_main_v47 (F := F) (V0 (Proc.devRef .tc main_arg0)) := by
  unfold W5
  simp only [s5]
  after_results_simp
  rw [W4_main_arg0 V0]
  rfl

/-! ### Operations 61 … 74 -/

abbrev s6 : List (HloOp τ sig (Elt F)) :=
  [ reshape main_v47 main_v48 rfl shapeCasts_S512x512_S262144,
    nullary main_c_11 (constantI S_ 32 3072#32),
    unary main_c_11 main_v49 (broadcastInDim S262144 ![] bcast_S_S262144 : (⟨S_, .i32⟩ : BufTy).Contents (Elt F) → (⟨S262144, .i32⟩ : BufTy).Contents (Elt F)),
    binary main_v2 main_v49 main_v50 (addi : (⟨S262144, .i32⟩ : BufTy).Contents (Elt F) → (⟨S262144, .i32⟩ : BufTy).Contents (Elt F) → (⟨S262144, .i32⟩ : BufTy).Contents (Elt F)),
    nullary main_c_12 (constantI S_ 32 3072#32),
    unary main_c_12 main_v51 (broadcastInDim S262144 ![] bcast_S_S262144 : (⟨S_, .i32⟩ : BufTy).Contents (Elt F) → (⟨S262144, .i32⟩ : BufTy).Contents (Elt F)),
    binary main_v6 main_v51 main_v52 (addi : (⟨S262144, .i32⟩ : BufTy).Contents (Elt F) → (⟨S262144, .i32⟩ : BufTy).Contents (Elt F) → (⟨S262144, .i32⟩ : BufTy).Contents (Elt F)),
    unary main_arg0 main_v53 ((extractStridedSlice S1x512x512 ![6, 0, 0] · slices_S8x512x512_S1x512x512_6_0_0) : (⟨S8x512x512, .f32⟩ : BufTy).Contents (Elt F) → (⟨S1x512x512, .f32⟩ : BufTy).Contents (Elt F)),
    reshape main_v53 main_v54 rfl shapeCasts_S1x512x512_S512x512,
    reshape main_v54 main_v55 rfl shapeCasts_S512x512_S262144,
    nullary main_c_13 (constantI S_ 32 3584#32),
    unary main_c_13 main_v56 (broadcastInDim S262144 ![] bcast_S_S262144 : (⟨S_, .i32⟩ : BufTy).Contents (Elt F) → (⟨S262144, .i32⟩ : BufTy).Contents (Elt F)),
    binary main_v2 main_v56 main_v57 (addi : (⟨S262144, .i32⟩ : BufTy).Contents (Elt F) → (⟨S262144, .i32⟩ : BufTy).Contents (Elt F) → (⟨S262144, .i32⟩ : BufTy).Contents (Elt F)),
    nullary main_c_14 (constantI S_ 32 3584#32) ]
theorem s6_sub : (s6 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., unary_bufs_sub .., reshape_bufs_sub .., reshape_bufs_sub .., nullary_bufs_sub .., unary_bufs_sub .., binary_bufs_sub .., nullary_bufs_sub ..⟩
theorem s6_fresh : ∀ op ∈ (s6 : List (HloOp τ sig (Elt F))), op.fresh = ∅ := by
  intro _ h; (repeat (cases h with | head => rfl | tail _ h => ?_)); exact nomatch h
/-- The buffers these operations write. -/
abbrev s6_W : List (Ref sig .tc) := [main_v48, main_c_11, main_v49, main_v50, main_c_12, main_v51, main_v52, main_v53, main_v54, main_v55, main_c_13, main_v56, main_v57, main_c_14]
theorem s6_writes : (s6 : List (HloOp τ sig (Elt F))).Forall fun op => op.writes ⊆ (s6_W.map (Proc.devRef (τ := τ) .tc)).toFinset := by
  simp only [s6, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 74. -/
def W6 (V0 : Valuation τ sig (Elt F)) : Valuation τ sig (Elt F) := after s6 (W5 V0)
theorem W6_keep (V0 : Valuation τ sig (Elt F)) (r : Ref sig .tc) (h : r ∉ s6_W) :
    W6 V0 (Proc.devRef .tc r) = W5 V0 (Proc.devRef .tc r) :=
  after_of_writes_sub s6 _ s6_writes h
theorem W6_main_arg0 (V0 : Valuation τ sig (Elt F)) : W6 V0 (no_index (Proc.devRef .tc main_arg0)) = V0 (Proc.devRef .tc main_arg0) :=
  (W6_keep V0 main_arg0 (by decide)).trans (W5_main_arg0 V0)
theorem W6_main_arg1 (V0 : Valuation τ sig (Elt F)) : W6 V0 (no_index (Proc.devRef .tc main_arg1)) = V0 (Proc.devRef .tc main_arg1) :=
  (W6_keep V0 main_arg1 (by decide)).trans (W5_main_arg1 V0)
theorem W6_main_arg2 (V0 : Valuation τ sig (Elt F)) : W6 V0 (no_index (Proc.devRef .tc main_arg2)) = V0 (Proc.devRef .tc main_arg2) :=
  (W6_keep V0 main_arg2 (by decide)).trans (W5_main_arg2 V0)
theorem W6_main_arg3 (V0 : Valuation τ sig (Elt F)) : W6 V0 (no_index (Proc.devRef .tc main_arg3)) = V0 (Proc.devRef .tc main_arg3) :=
  (W6_keep V0 main_arg3 (by decide)).trans (W5_main_arg3 V0)
theorem W6_main_arg4 (V0 : Valuation τ sig (Elt F)) : W6 V0 (no_index (Proc.devRef .tc main_arg4)) = V0 (Proc.devRef .tc main_arg4) :=
  (W6_keep V0 main_arg4 (by decide)).trans (W5_main_arg4 V0)
theorem W6_main_arg5 (V0 : Valuation τ sig (Elt F)) : W6 V0 (no_index (Proc.devRef .tc main_arg5)) = V0 (Proc.devRef .tc main_arg5) :=
  (W6_keep V0 main_arg5 (by decide)).trans (W5_main_arg5 V0)
theorem W6_main_arg6 (V0 : Valuation τ sig (Elt F)) : W6 V0 (no_index (Proc.devRef .tc main_arg6)) = V0 (Proc.devRef .tc main_arg6) :=
  (W6_keep V0 main_arg6 (by decide)).trans (W5_main_arg6 V0)
theorem W6_main_arg7 (V0 : Valuation τ sig (Elt F)) : W6 V0 (no_index (Proc.devRef .tc main_arg7)) = V0 (Proc.devRef .tc main_arg7) :=
  (W6_keep V0 main_arg7 (by decide)).trans (W5_main_arg7 V0)
theorem W6_main_v6 (V0 : Valuation τ sig (Elt F)) : W6 V0 (no_index (Proc.devRef .tc main_v6)) = val_main_v6 (F := F) :=
  (W6_keep V0 main_v6 (by decide)).trans (W5_main_v6 V0)
theorem W6_main_v8 (V0 : Valuation τ sig (Elt F)) : W6 V0 (no_index (Proc.devRef .tc main_v8)) = val_main_v8 (F := F) :=
  (W6_keep V0 main_v8 (by decide)).trans (W5_main_v8 V0)
theorem W6_main_v10 (V0 : Valuation τ sig (Elt F)) : W6 V0 (no_index (Proc.devRef .tc main_v10)) = val_main_v10 (F := F) :=
  (W6_keep V0 main_v10 (by decide)).trans (W5_main_v10 V0)
theorem W6_main_v13 (V0 : Valuation τ sig (Elt F)) : W6 V0 (no_index (Proc.devRef .tc main_v13)) = val_main_v13 (F := F) (V0 (Proc.devRef .tc main_arg0)) :=
  (W6_keep V0 main_v13 (by decide)).trans (W5_main_v13 V0)
theorem W6_main_v15 (V0 : Valuation τ sig (Elt F)) : W6 V0 (no_index (Proc.devRef .tc main_v15)) = val_main_v15 (F := F) :=
  (W6_keep V0 main_v15 (by decide)).trans (W5_main_v15 V0)
theorem W6_main_v17 (V0 : Valuation τ sig (Elt F)) : W6 V0 (no_index (Proc.devRef .tc main_v17)) = val_main_v17 (F := F) :=
  (W6_keep V0 main_v17 (by decide)).trans (W5_main_v17 V0)
theorem W6_main_v20 (V0 : Valuation τ sig (Elt F)) : W6 V0 (no_index (Proc.devRef .tc main_v20)) = val_main_v20 (F := F) (V0 (Proc.devRef .tc main_arg0)) :=
  (W6_keep V0 main_v20 (by decide)).trans (W5_main_v20 V0)
theorem W6_main_v22 (V0 : Valuation τ sig (Elt F)) : W6 V0 (no_index (Proc.devRef .tc main_v22)) = val_main_v22 (F := F) :=
  (W6_keep V0 main_v22 (by decide)).trans (W5_main_v22 V0)
theorem W6_main_v24 (V0 : Valuation τ sig (Elt F)) : W6 V0 (no_index (Proc.devRef .tc main_v24)) = val_main_v24 (F := F) :=
  (W6_keep V0 main_v24 (by decide)).trans (W5_main_v24 V0)
theorem W6_main_v27 (V0 : Valuation τ sig (Elt F)) : W6 V0 (no_index (Proc.devRef .tc main_v27)) = val_main_v27 (F := F) (V0 (Proc.devRef .tc main_arg0)) :=
  (W6_keep V0 main_v27 (by decide)).trans (W5_main_v27 V0)
theorem W6_main_v29 (V0 : Valuation τ sig (Elt F)) : W6 V0 (no_index (Proc.devRef .tc main_v29)) = val_main_v29 (F := F) :=
  (W6_keep V0 main_v29 (by decide)).trans (W5_main_v29 V0)
theorem W6_main_v31 (V0 : Valuation τ sig (Elt F)) : W6 V0 (no_index (Proc.devRef .tc main_v31)) = val_main_v31 (F := F) :=
  (W6_keep V0 main_v31 (by decide)).trans (W5_main_v31 V0)
theorem W6_main_v34 (V0 : Valuation τ sig (Elt F)) : W6 V0 (no_index (Proc.devRef .tc main_v34)) = val_main_v34 (F := F) (V0 (Proc.devRef .tc main_arg0)) :=
  (W6_keep V0 main_v34 (by decide)).trans (W5_main_v34 V0)
theorem W6_main_v36 (V0 : Valuation τ sig (Elt F)) : W6 V0 (no_index (Proc.devRef .tc main_v36)) = val_main_v36 (F := F) :=
  (W6_keep V0 main_v36 (by decide)).trans (W5_main_v36 V0)
theorem W6_main_v38 (V0 : Valuation τ sig (Elt F)) : W6 V0 (no_index (Proc.devRef .tc main_v38)) = val_main_v38 (F := F) :=
  (W6_keep V0 main_v38 (by decide)).trans (W5_main_v38 V0)
theorem W6_main_v41 (V0 : Valuation τ sig (Elt F)) : W6 V0 (no_index (Proc.devRef .tc main_v41)) = val_main_v41 (F := F) (V0 (Proc.devRef .tc main_arg0)) :=
  (W6_keep V0 main_v41 (by decide)).trans (W5_main_v41 V0)
theorem W6_main_v43 (V0 : Valuation τ sig (Elt F)) : W6 V0 (no_index (Proc.devRef .tc main_v43)) = val_main_v43 (F := F) :=
  (W6_keep V0 main_v43 (by decide)).trans (W5_main_v43 V0)
theorem W6_main_v45 (V0 : Valuation τ sig (Elt F)) : W6 V0 (no_index (Proc.devRef .tc main_v45)) = val_main_v45 (F := F) :=
  (W6_keep V0 main_v45 (by decide)).trans (W5_main_v45 V0)
theorem W6_main_v48 (V0 : Valuation τ sig (Elt F)) : W6 V0 (no_index (Proc.devRef .tc main_v48)) = val_main_v48 (F := F) (V0 (Proc.devRef .tc main_arg0)) := by
  unfold W6
  simp only [s6]
  after_results_simp
  rw [W5_main_v47 V0]
  rfl
theorem W6_main_v50 (V0 : Valuation τ sig (Elt F)) : W6 V0 (no_index (Proc.devRef .tc main_v50)) = val_main_v50 (F := F) := by
  unfold W6
  simp only [s6]
  after_results_simp
  rw [W5_main_v2 V0]
  rfl
theorem W6_main_v52 (V0 : Valuation τ sig (Elt F)) : W6 V0 (no_index (Proc.devRef .tc main_v52)) = val_main_v52 (F := F) := by
  unfold W6
  simp only [s6]
  after_results_simp
  rw [W5_main_v6 V0]
  rfl
theorem W6_main_v55 (V0 : Valuation τ sig (Elt F)) : W6 V0 (no_index (Proc.devRef .tc main_v55)) = val_main_v55 (F := F) (V0 (Proc.devRef .tc main_arg0)) := by
  unfold W6
  simp only [s6]
  after_results_simp
  rw [W5_main_arg0 V0]
  rfl
theorem W6_main_v57 (V0 : Valuation τ sig (Elt F)) : W6 V0 (no_index (Proc.devRef .tc main_v57)) = val_main_v57 (F := F) := by
  unfold W6
  simp only [s6]
  after_results_simp
  rw [W5_main_v2 V0]
  rfl
theorem W6_main_c_14 (V0 : Valuation τ sig (Elt F)) : W6 V0 (no_index (Proc.devRef .tc main_c_14)) = val_main_c_14 (F := F) := by
  unfold W6
  simp only [s6]
  after_results_simp
  rfl

/-! ### Operations 75 … 79 -/

abbrev s7 : List (HloOp τ sig (Elt F)) :=
  [ unary main_c_14 main_v58 (broadcastInDim S262144 ![] bcast_S_S262144 : (⟨S_, .i32⟩ : BufTy).Contents (Elt F) → (⟨S262144, .i32⟩ : BufTy).Contents (Elt F)),
    binary main_v6 main_v58 main_v59 (addi : (⟨S262144, .i32⟩ : BufTy).Contents (Elt F) → (⟨S262144, .i32⟩ : BufTy).Contents (Elt F) → (⟨S262144, .i32⟩ : BufTy).Contents (Elt F)),
    unary main_arg0 main_v60 ((extractStridedSlice S1x512x512 ![7, 0, 0] · slices_S8x512x512_S1x512x512_7_0_0) : (⟨S8x512x512, .f32⟩ : BufTy).Contents (Elt F) → (⟨S1x512x512, .f32⟩ : BufTy).Contents (Elt F)),
    reshape main_v60 main_v61 rfl shapeCasts_S1x512x512_S512x512,
    reshape main_v61 main_v62 rfl shapeCasts_S512x512_S262144 ]
theorem s7_sub : (s7 : List (HloOp τ sig (Elt F))).Forall fun op => op.bufs ⊆ tcRefs τ sig :=
  ⟨unary_bufs_sub .., binary_bufs_sub .., unary_bufs_sub .., reshape_bufs_sub .., reshape_bufs_sub ..⟩
theorem s7_fresh : ∀ op ∈ (s7 : List (HloOp τ sig (Elt F))), op.fresh = ∅ := by
  intro _ h; (repeat (cases h with | head => rfl | tail _ h => ?_)); exact nomatch h
/-- The buffers these operations write. -/
abbrev s7_W : List (Ref sig .tc) := [main_v58, main_v59, main_v60, main_v61, main_v62]
theorem s7_writes : (s7 : List (HloOp τ sig (Elt F))).Forall fun op => op.writes ⊆ (s7_W.map (Proc.devRef (τ := τ) .tc)).toFinset := by
  simp only [s7, List.Forall, nullary_writes, unary_writes, binary_writes, ternary_writes, reshape_writes, nary_writes, Finset.singleton_subset_iff, List.mem_toFinset]
  refine ⟨?_, ?_, ?_, ?_, ?_⟩ <;> exact List.mem_map_of_mem (by decide)
/-- The buffers' contents after operation 79. -/
def W7 (V0 : Valuation τ sig (Elt F)) : Valuation τ sig (Elt F) := after s7 (W6 V0)
theorem W7_keep (V0 : Valuation τ sig (Elt F)) (r : Ref sig .tc) (h : r ∉ s7_W) :
    W7 V0 (Proc.devRef .tc r) = W6 V0 (Proc.devRef .tc r) :=
  after_of_writes_sub s7 _ s7_writes h
theorem W7_main_arg0 (V0 : Valuation τ sig (Elt F)) : W7 V0 (no_index (Proc.devRef .tc main_arg0)) = V0 (Proc.devRef .tc main_arg0) :=
  (W7_keep V0 main_arg0 (by decide)).trans (W6_main_arg0 V0)
theorem W7_main_arg1 (V0 : Valuation τ sig (Elt F)) : W7 V0 (no_index (Proc.devRef .tc main_arg1)) = V0 (Proc.devRef .tc main_arg1) :=
  (W7_keep V0 main_arg1 (by decide)).trans (W6_main_arg1 V0)
theorem W7_main_arg2 (V0 : Valuation τ sig (Elt F)) : W7 V0 (no_index (Proc.devRef .tc main_arg2)) = V0 (Proc.devRef .tc main_arg2) :=
  (W7_keep V0 main_arg2 (by decide)).trans (W6_main_arg2 V0)
theorem W7_main_arg3 (V0 : Valuation τ sig (Elt F)) : W7 V0 (no_index (Proc.devRef .tc main_arg3)) = V0 (Proc.devRef .tc main_arg3) :=
  (W7_keep V0 main_arg3 (by decide)).trans (W6_main_arg3 V0)
theorem W7_main_arg4 (V0 : Valuation τ sig (Elt F)) : W7 V0 (no_index (Proc.devRef .tc main_arg4)) = V0 (Proc.devRef .tc main_arg4) :=
  (W7_keep V0 main_arg4 (by decide)).trans (W6_main_arg4 V0)
theorem W7_main_arg5 (V0 : Valuation τ sig (Elt F)) : W7 V0 (no_index (Proc.devRef .tc main_arg5)) = V0 (Proc.devRef .tc main_arg5) :=
  (W7_keep V0 main_arg5 (by decide)).trans (W6_main_arg5 V0)
theorem W7_main_arg6 (V0 : Valuation τ sig (Elt F)) : W7 V0 (no_index (Proc.devRef .tc main_arg6)) = V0 (Proc.devRef .tc main_arg6) :=
  (W7_keep V0 main_arg6 (by decide)).trans (W6_main_arg6 V0)
theorem W7_main_arg7 (V0 : Valuation τ sig (Elt F)) : W7 V0 (no_index (Proc.devRef .tc main_arg7)) = V0 (Proc.devRef .tc main_arg7) :=
  (W7_keep V0 main_arg7 (by decide)).trans (W6_main_arg7 V0)
theorem W7_main_v8 (V0 : Valuation τ sig (Elt F)) : W7 V0 (no_index (Proc.devRef .tc main_v8)) = val_main_v8 (F := F) :=
  (W7_keep V0 main_v8 (by decide)).trans (W6_main_v8 V0)
theorem W7_main_v10 (V0 : Valuation τ sig (Elt F)) : W7 V0 (no_index (Proc.devRef .tc main_v10)) = val_main_v10 (F := F) :=
  (W7_keep V0 main_v10 (by decide)).trans (W6_main_v10 V0)
theorem W7_main_v13 (V0 : Valuation τ sig (Elt F)) : W7 V0 (no_index (Proc.devRef .tc main_v13)) = val_main_v13 (F := F) (V0 (Proc.devRef .tc main_arg0)) :=
  (W7_keep V0 main_v13 (by decide)).trans (W6_main_v13 V0)
theorem W7_main_v15 (V0 : Valuation τ sig (Elt F)) : W7 V0 (no_index (Proc.devRef .tc main_v15)) = val_main_v15 (F := F) :=
  (W7_keep V0 main_v15 (by decide)).trans (W6_main_v15 V0)
theorem W7_main_v17 (V0 : Valuation τ sig (Elt F)) : W7 V0 (no_index (Proc.devRef .tc main_v17)) = val_main_v17 (F := F) :=
  (W7_keep V0 main_v17 (by decide)).trans (W6_main_v17 V0)
theorem W7_main_v20 (V0 : Valuation τ sig (Elt F)) : W7 V0 (no_index (Proc.devRef .tc main_v20)) = val_main_v20 (F := F) (V0 (Proc.devRef .tc main_arg0)) :=
  (W7_keep V0 main_v20 (by decide)).trans (W6_main_v20 V0)
theorem W7_main_v22 (V0 : Valuation τ sig (Elt F)) : W7 V0 (no_index (Proc.devRef .tc main_v22)) = val_main_v22 (F := F) :=
  (W7_keep V0 main_v22 (by decide)).trans (W6_main_v22 V0)
theorem W7_main_v24 (V0 : Valuation τ sig (Elt F)) : W7 V0 (no_index (Proc.devRef .tc main_v24)) = val_main_v24 (F := F) :=
  (W7_keep V0 main_v24 (by decide)).trans (W6_main_v24 V0)
theorem W7_main_v27 (V0 : Valuation τ sig (Elt F)) : W7 V0 (no_index (Proc.devRef .tc main_v27)) = val_main_v27 (F := F) (V0 (Proc.devRef .tc main_arg0)) :=
  (W7_keep V0 main_v27 (by decide)).trans (W6_main_v27 V0)
theorem W7_main_v29 (V0 : Valuation τ sig (Elt F)) : W7 V0 (no_index (Proc.devRef .tc main_v29)) = val_main_v29 (F := F) :=
  (W7_keep V0 main_v29 (by decide)).trans (W6_main_v29 V0)
theorem W7_main_v31 (V0 : Valuation τ sig (Elt F)) : W7 V0 (no_index (Proc.devRef .tc main_v31)) = val_main_v31 (F := F) :=
  (W7_keep V0 main_v31 (by decide)).trans (W6_main_v31 V0)
theorem W7_main_v34 (V0 : Valuation τ sig (Elt F)) : W7 V0 (no_index (Proc.devRef .tc main_v34)) = val_main_v34 (F := F) (V0 (Proc.devRef .tc main_arg0)) :=
  (W7_keep V0 main_v34 (by decide)).trans (W6_main_v34 V0)
theorem W7_main_v36 (V0 : Valuation τ sig (Elt F)) : W7 V0 (no_index (Proc.devRef .tc main_v36)) = val_main_v36 (F := F) :=
  (W7_keep V0 main_v36 (by decide)).trans (W6_main_v36 V0)
theorem W7_main_v38 (V0 : Valuation τ sig (Elt F)) : W7 V0 (no_index (Proc.devRef .tc main_v38)) = val_main_v38 (F := F) :=
  (W7_keep V0 main_v38 (by decide)).trans (W6_main_v38 V0)
theorem W7_main_v41 (V0 : Valuation τ sig (Elt F)) : W7 V0 (no_index (Proc.devRef .tc main_v41)) = val_main_v41 (F := F) (V0 (Proc.devRef .tc main_arg0)) :=
  (W7_keep V0 main_v41 (by decide)).trans (W6_main_v41 V0)
theorem W7_main_v43 (V0 : Valuation τ sig (Elt F)) : W7 V0 (no_index (Proc.devRef .tc main_v43)) = val_main_v43 (F := F) :=
  (W7_keep V0 main_v43 (by decide)).trans (W6_main_v43 V0)
theorem W7_main_v45 (V0 : Valuation τ sig (Elt F)) : W7 V0 (no_index (Proc.devRef .tc main_v45)) = val_main_v45 (F := F) :=
  (W7_keep V0 main_v45 (by decide)).trans (W6_main_v45 V0)
theorem W7_main_v48 (V0 : Valuation τ sig (Elt F)) : W7 V0 (no_index (Proc.devRef .tc main_v48)) = val_main_v48 (F := F) (V0 (Proc.devRef .tc main_arg0)) :=
  (W7_keep V0 main_v48 (by decide)).trans (W6_main_v48 V0)
theorem W7_main_v50 (V0 : Valuation τ sig (Elt F)) : W7 V0 (no_index (Proc.devRef .tc main_v50)) = val_main_v50 (F := F) :=
  (W7_keep V0 main_v50 (by decide)).trans (W6_main_v50 V0)
theorem W7_main_v52 (V0 : Valuation τ sig (Elt F)) : W7 V0 (no_index (Proc.devRef .tc main_v52)) = val_main_v52 (F := F) :=
  (W7_keep V0 main_v52 (by decide)).trans (W6_main_v52 V0)
theorem W7_main_v55 (V0 : Valuation τ sig (Elt F)) : W7 V0 (no_index (Proc.devRef .tc main_v55)) = val_main_v55 (F := F) (V0 (Proc.devRef .tc main_arg0)) :=
  (W7_keep V0 main_v55 (by decide)).trans (W6_main_v55 V0)
theorem W7_main_v57 (V0 : Valuation τ sig (Elt F)) : W7 V0 (no_index (Proc.devRef .tc main_v57)) = val_main_v57 (F := F) :=
  (W7_keep V0 main_v57 (by decide)).trans (W6_main_v57 V0)
theorem W7_main_v59 (V0 : Valuation τ sig (Elt F)) : W7 V0 (no_index (Proc.devRef .tc main_v59)) = val_main_v59 (F := F) := by
  unfold W7
  simp only [s7]
  after_results_simp
  rw [W6_main_v6 V0, W6_main_c_14 V0]
  rfl
theorem W7_main_v62 (V0 : Valuation τ sig (Elt F)) : W7 V0 (no_index (Proc.devRef .tc main_v62)) = val_main_v62 (F := F) (V0 (Proc.devRef .tc main_arg0)) := by
  unfold W7
  simp only [s7]
  after_results_simp
  rw [W6_main_arg0 V0]
  rfl

/-! ### Operations 80 … 80 -/

abbrev s8 : List (HloOp τ sig (Elt F)) :=
  [ nary ![main_v8, main_v15, main_v22, main_v29, main_v36, main_v43, main_v50, main_v57] main_v63 (fun u => concatenate S2097152 0 [⟨S262144, u 0⟩, ⟨S262144, u 1⟩, ⟨S262144, u 2⟩, ⟨S262144, u 3⟩, ⟨S262144, u 4⟩, ⟨S262144, u 5⟩, ⟨S262144, u 6⟩, ⟨S262144, u 7⟩] concatenates_S262144_S262144_S262144_S262144_S262144_S262144_S262144_S262144_S2097152_d0) ]
theorem s8_sub : (s8 : List (HloOp τ sig (Elt F))).Forall fun op => op.bufs ⊆ tcRefs τ sig :=
  nary_bufs_sub ..
theorem s8_fresh : ∀ op ∈ (s8 : List (HloOp τ sig (Elt F))), op.fresh = ∅ := by
  intro _ h; (repeat (cases h with | head => rfl | tail _ h => ?_)); exact nomatch h
/-- The buffers these operations write. -/
abbrev s8_W : List (Ref sig .tc) := [main_v63]
theorem s8_writes : (s8 : List (HloOp τ sig (Elt F))).Forall fun op => op.writes ⊆ (s8_W.map (Proc.devRef (τ := τ) .tc)).toFinset := by
  simp only [s8, List.Forall, nullary_writes, unary_writes, binary_writes, ternary_writes, reshape_writes, nary_writes, Finset.singleton_subset_iff, List.mem_toFinset]
  exact List.mem_map_of_mem (by decide)
/-- The buffers' contents after operation 80. -/
def W8 (V0 : Valuation τ sig (Elt F)) : Valuation τ sig (Elt F) := after s8 (W7 V0)
theorem W8_keep (V0 : Valuation τ sig (Elt F)) (r : Ref sig .tc) (h : r ∉ s8_W) :
    W8 V0 (Proc.devRef .tc r) = W7 V0 (Proc.devRef .tc r) :=
  after_of_writes_sub s8 _ s8_writes h
theorem W8_main_arg0 (V0 : Valuation τ sig (Elt F)) : W8 V0 (no_index (Proc.devRef .tc main_arg0)) = V0 (Proc.devRef .tc main_arg0) :=
  (W8_keep V0 main_arg0 (by decide)).trans (W7_main_arg0 V0)
theorem W8_main_arg1 (V0 : Valuation τ sig (Elt F)) : W8 V0 (no_index (Proc.devRef .tc main_arg1)) = V0 (Proc.devRef .tc main_arg1) :=
  (W8_keep V0 main_arg1 (by decide)).trans (W7_main_arg1 V0)
theorem W8_main_arg2 (V0 : Valuation τ sig (Elt F)) : W8 V0 (no_index (Proc.devRef .tc main_arg2)) = V0 (Proc.devRef .tc main_arg2) :=
  (W8_keep V0 main_arg2 (by decide)).trans (W7_main_arg2 V0)
theorem W8_main_arg3 (V0 : Valuation τ sig (Elt F)) : W8 V0 (no_index (Proc.devRef .tc main_arg3)) = V0 (Proc.devRef .tc main_arg3) :=
  (W8_keep V0 main_arg3 (by decide)).trans (W7_main_arg3 V0)
theorem W8_main_arg4 (V0 : Valuation τ sig (Elt F)) : W8 V0 (no_index (Proc.devRef .tc main_arg4)) = V0 (Proc.devRef .tc main_arg4) :=
  (W8_keep V0 main_arg4 (by decide)).trans (W7_main_arg4 V0)
theorem W8_main_arg5 (V0 : Valuation τ sig (Elt F)) : W8 V0 (no_index (Proc.devRef .tc main_arg5)) = V0 (Proc.devRef .tc main_arg5) :=
  (W8_keep V0 main_arg5 (by decide)).trans (W7_main_arg5 V0)
theorem W8_main_arg6 (V0 : Valuation τ sig (Elt F)) : W8 V0 (no_index (Proc.devRef .tc main_arg6)) = V0 (Proc.devRef .tc main_arg6) :=
  (W8_keep V0 main_arg6 (by decide)).trans (W7_main_arg6 V0)
theorem W8_main_arg7 (V0 : Valuation τ sig (Elt F)) : W8 V0 (no_index (Proc.devRef .tc main_arg7)) = V0 (Proc.devRef .tc main_arg7) :=
  (W8_keep V0 main_arg7 (by decide)).trans (W7_main_arg7 V0)
theorem W8_main_v10 (V0 : Valuation τ sig (Elt F)) : W8 V0 (no_index (Proc.devRef .tc main_v10)) = val_main_v10 (F := F) :=
  (W8_keep V0 main_v10 (by decide)).trans (W7_main_v10 V0)
theorem W8_main_v13 (V0 : Valuation τ sig (Elt F)) : W8 V0 (no_index (Proc.devRef .tc main_v13)) = val_main_v13 (F := F) (V0 (Proc.devRef .tc main_arg0)) :=
  (W8_keep V0 main_v13 (by decide)).trans (W7_main_v13 V0)
theorem W8_main_v17 (V0 : Valuation τ sig (Elt F)) : W8 V0 (no_index (Proc.devRef .tc main_v17)) = val_main_v17 (F := F) :=
  (W8_keep V0 main_v17 (by decide)).trans (W7_main_v17 V0)
theorem W8_main_v20 (V0 : Valuation τ sig (Elt F)) : W8 V0 (no_index (Proc.devRef .tc main_v20)) = val_main_v20 (F := F) (V0 (Proc.devRef .tc main_arg0)) :=
  (W8_keep V0 main_v20 (by decide)).trans (W7_main_v20 V0)
theorem W8_main_v24 (V0 : Valuation τ sig (Elt F)) : W8 V0 (no_index (Proc.devRef .tc main_v24)) = val_main_v24 (F := F) :=
  (W8_keep V0 main_v24 (by decide)).trans (W7_main_v24 V0)
theorem W8_main_v27 (V0 : Valuation τ sig (Elt F)) : W8 V0 (no_index (Proc.devRef .tc main_v27)) = val_main_v27 (F := F) (V0 (Proc.devRef .tc main_arg0)) :=
  (W8_keep V0 main_v27 (by decide)).trans (W7_main_v27 V0)
theorem W8_main_v31 (V0 : Valuation τ sig (Elt F)) : W8 V0 (no_index (Proc.devRef .tc main_v31)) = val_main_v31 (F := F) :=
  (W8_keep V0 main_v31 (by decide)).trans (W7_main_v31 V0)
theorem W8_main_v34 (V0 : Valuation τ sig (Elt F)) : W8 V0 (no_index (Proc.devRef .tc main_v34)) = val_main_v34 (F := F) (V0 (Proc.devRef .tc main_arg0)) :=
  (W8_keep V0 main_v34 (by decide)).trans (W7_main_v34 V0)
theorem W8_main_v38 (V0 : Valuation τ sig (Elt F)) : W8 V0 (no_index (Proc.devRef .tc main_v38)) = val_main_v38 (F := F) :=
  (W8_keep V0 main_v38 (by decide)).trans (W7_main_v38 V0)
theorem W8_main_v41 (V0 : Valuation τ sig (Elt F)) : W8 V0 (no_index (Proc.devRef .tc main_v41)) = val_main_v41 (F := F) (V0 (Proc.devRef .tc main_arg0)) :=
  (W8_keep V0 main_v41 (by decide)).trans (W7_main_v41 V0)
theorem W8_main_v45 (V0 : Valuation τ sig (Elt F)) : W8 V0 (no_index (Proc.devRef .tc main_v45)) = val_main_v45 (F := F) :=
  (W8_keep V0 main_v45 (by decide)).trans (W7_main_v45 V0)
theorem W8_main_v48 (V0 : Valuation τ sig (Elt F)) : W8 V0 (no_index (Proc.devRef .tc main_v48)) = val_main_v48 (F := F) (V0 (Proc.devRef .tc main_arg0)) :=
  (W8_keep V0 main_v48 (by decide)).trans (W7_main_v48 V0)
theorem W8_main_v52 (V0 : Valuation τ sig (Elt F)) : W8 V0 (no_index (Proc.devRef .tc main_v52)) = val_main_v52 (F := F) :=
  (W8_keep V0 main_v52 (by decide)).trans (W7_main_v52 V0)
theorem W8_main_v55 (V0 : Valuation τ sig (Elt F)) : W8 V0 (no_index (Proc.devRef .tc main_v55)) = val_main_v55 (F := F) (V0 (Proc.devRef .tc main_arg0)) :=
  (W8_keep V0 main_v55 (by decide)).trans (W7_main_v55 V0)
theorem W8_main_v59 (V0 : Valuation τ sig (Elt F)) : W8 V0 (no_index (Proc.devRef .tc main_v59)) = val_main_v59 (F := F) :=
  (W8_keep V0 main_v59 (by decide)).trans (W7_main_v59 V0)
theorem W8_main_v62 (V0 : Valuation τ sig (Elt F)) : W8 V0 (no_index (Proc.devRef .tc main_v62)) = val_main_v62 (F := F) (V0 (Proc.devRef .tc main_arg0)) :=
  (W8_keep V0 main_v62 (by decide)).trans (W7_main_v62 V0)
theorem W8_main_v63 (V0 : Valuation τ sig (Elt F)) : W8 V0 (no_index (Proc.devRef .tc main_v63)) = val_main_v63 (F := F) := by
  unfold W8
  simp only [s8, after_cons, after_nil]
  rw [nary_result]
  show concatenate S2097152 0 [⟨S262144, (W7 V0 (Proc.devRef .tc main_v8))⟩, ⟨S262144, (W7 V0 (Proc.devRef .tc main_v15))⟩, ⟨S262144, (W7 V0 (Proc.devRef .tc main_v22))⟩, ⟨S262144, (W7 V0 (Proc.devRef .tc main_v29))⟩, ⟨S262144, (W7 V0 (Proc.devRef .tc main_v36))⟩, ⟨S262144, (W7 V0 (Proc.devRef .tc main_v43))⟩, ⟨S262144, (W7 V0 (Proc.devRef .tc main_v50))⟩, ⟨S262144, (W7 V0 (Proc.devRef .tc main_v57))⟩] concatenates_S262144_S262144_S262144_S262144_S262144_S262144_S262144_S262144_S2097152_d0 = _
  rw [W7_main_v8 V0, W7_main_v15 V0, W7_main_v22 V0, W7_main_v29 V0, W7_main_v36 V0, W7_main_v43 V0, W7_main_v50 V0, W7_main_v57 V0]
  rfl

/-! ### Operations 81 … 81 -/

abbrev s9 : List (HloOp τ sig (Elt F)) :=
  [ nary ![main_v10, main_v17, main_v24, main_v31, main_v38, main_v45, main_v52, main_v59] main_v64 (fun u => concatenate S2097152 0 [⟨S262144, u 0⟩, ⟨S262144, u 1⟩, ⟨S262144, u 2⟩, ⟨S262144, u 3⟩, ⟨S262144, u 4⟩, ⟨S262144, u 5⟩, ⟨S262144, u 6⟩, ⟨S262144, u 7⟩] concatenates_S262144_S262144_S262144_S262144_S262144_S262144_S262144_S262144_S2097152_d0) ]
theorem s9_sub : (s9 : List (HloOp τ sig (Elt F))).Forall fun op => op.bufs ⊆ tcRefs τ sig :=
  nary_bufs_sub ..
theorem s9_fresh : ∀ op ∈ (s9 : List (HloOp τ sig (Elt F))), op.fresh = ∅ := by
  intro _ h; (repeat (cases h with | head => rfl | tail _ h => ?_)); exact nomatch h
/-- The buffers these operations write. -/
abbrev s9_W : List (Ref sig .tc) := [main_v64]
theorem s9_writes : (s9 : List (HloOp τ sig (Elt F))).Forall fun op => op.writes ⊆ (s9_W.map (Proc.devRef (τ := τ) .tc)).toFinset := by
  simp only [s9, List.Forall, nullary_writes, unary_writes, binary_writes, ternary_writes, reshape_writes, nary_writes, Finset.singleton_subset_iff, List.mem_toFinset]
  exact List.mem_map_of_mem (by decide)
/-- The buffers' contents after operation 81. -/
def W9 (V0 : Valuation τ sig (Elt F)) : Valuation τ sig (Elt F) := after s9 (W8 V0)
theorem W9_keep (V0 : Valuation τ sig (Elt F)) (r : Ref sig .tc) (h : r ∉ s9_W) :
    W9 V0 (Proc.devRef .tc r) = W8 V0 (Proc.devRef .tc r) :=
  after_of_writes_sub s9 _ s9_writes h
theorem W9_main_arg0 (V0 : Valuation τ sig (Elt F)) : W9 V0 (no_index (Proc.devRef .tc main_arg0)) = V0 (Proc.devRef .tc main_arg0) :=
  (W9_keep V0 main_arg0 (by decide)).trans (W8_main_arg0 V0)
theorem W9_main_arg1 (V0 : Valuation τ sig (Elt F)) : W9 V0 (no_index (Proc.devRef .tc main_arg1)) = V0 (Proc.devRef .tc main_arg1) :=
  (W9_keep V0 main_arg1 (by decide)).trans (W8_main_arg1 V0)
theorem W9_main_arg2 (V0 : Valuation τ sig (Elt F)) : W9 V0 (no_index (Proc.devRef .tc main_arg2)) = V0 (Proc.devRef .tc main_arg2) :=
  (W9_keep V0 main_arg2 (by decide)).trans (W8_main_arg2 V0)
theorem W9_main_arg3 (V0 : Valuation τ sig (Elt F)) : W9 V0 (no_index (Proc.devRef .tc main_arg3)) = V0 (Proc.devRef .tc main_arg3) :=
  (W9_keep V0 main_arg3 (by decide)).trans (W8_main_arg3 V0)
theorem W9_main_arg4 (V0 : Valuation τ sig (Elt F)) : W9 V0 (no_index (Proc.devRef .tc main_arg4)) = V0 (Proc.devRef .tc main_arg4) :=
  (W9_keep V0 main_arg4 (by decide)).trans (W8_main_arg4 V0)
theorem W9_main_arg5 (V0 : Valuation τ sig (Elt F)) : W9 V0 (no_index (Proc.devRef .tc main_arg5)) = V0 (Proc.devRef .tc main_arg5) :=
  (W9_keep V0 main_arg5 (by decide)).trans (W8_main_arg5 V0)
theorem W9_main_arg6 (V0 : Valuation τ sig (Elt F)) : W9 V0 (no_index (Proc.devRef .tc main_arg6)) = V0 (Proc.devRef .tc main_arg6) :=
  (W9_keep V0 main_arg6 (by decide)).trans (W8_main_arg6 V0)
theorem W9_main_arg7 (V0 : Valuation τ sig (Elt F)) : W9 V0 (no_index (Proc.devRef .tc main_arg7)) = V0 (Proc.devRef .tc main_arg7) :=
  (W9_keep V0 main_arg7 (by decide)).trans (W8_main_arg7 V0)
theorem W9_main_v13 (V0 : Valuation τ sig (Elt F)) : W9 V0 (no_index (Proc.devRef .tc main_v13)) = val_main_v13 (F := F) (V0 (Proc.devRef .tc main_arg0)) :=
  (W9_keep V0 main_v13 (by decide)).trans (W8_main_v13 V0)
theorem W9_main_v20 (V0 : Valuation τ sig (Elt F)) : W9 V0 (no_index (Proc.devRef .tc main_v20)) = val_main_v20 (F := F) (V0 (Proc.devRef .tc main_arg0)) :=
  (W9_keep V0 main_v20 (by decide)).trans (W8_main_v20 V0)
theorem W9_main_v27 (V0 : Valuation τ sig (Elt F)) : W9 V0 (no_index (Proc.devRef .tc main_v27)) = val_main_v27 (F := F) (V0 (Proc.devRef .tc main_arg0)) :=
  (W9_keep V0 main_v27 (by decide)).trans (W8_main_v27 V0)
theorem W9_main_v34 (V0 : Valuation τ sig (Elt F)) : W9 V0 (no_index (Proc.devRef .tc main_v34)) = val_main_v34 (F := F) (V0 (Proc.devRef .tc main_arg0)) :=
  (W9_keep V0 main_v34 (by decide)).trans (W8_main_v34 V0)
theorem W9_main_v41 (V0 : Valuation τ sig (Elt F)) : W9 V0 (no_index (Proc.devRef .tc main_v41)) = val_main_v41 (F := F) (V0 (Proc.devRef .tc main_arg0)) :=
  (W9_keep V0 main_v41 (by decide)).trans (W8_main_v41 V0)
theorem W9_main_v48 (V0 : Valuation τ sig (Elt F)) : W9 V0 (no_index (Proc.devRef .tc main_v48)) = val_main_v48 (F := F) (V0 (Proc.devRef .tc main_arg0)) :=
  (W9_keep V0 main_v48 (by decide)).trans (W8_main_v48 V0)
theorem W9_main_v55 (V0 : Valuation τ sig (Elt F)) : W9 V0 (no_index (Proc.devRef .tc main_v55)) = val_main_v55 (F := F) (V0 (Proc.devRef .tc main_arg0)) :=
  (W9_keep V0 main_v55 (by decide)).trans (W8_main_v55 V0)
theorem W9_main_v62 (V0 : Valuation τ sig (Elt F)) : W9 V0 (no_index (Proc.devRef .tc main_v62)) = val_main_v62 (F := F) (V0 (Proc.devRef .tc main_arg0)) :=
  (W9_keep V0 main_v62 (by decide)).trans (W8_main_v62 V0)
theorem W9_main_v63 (V0 : Valuation τ sig (Elt F)) : W9 V0 (no_index (Proc.devRef .tc main_v63)) = val_main_v63 (F := F) :=
  (W9_keep V0 main_v63 (by decide)).trans (W8_main_v63 V0)
theorem W9_main_v64 (V0 : Valuation τ sig (Elt F)) : W9 V0 (no_index (Proc.devRef .tc main_v64)) = val_main_v64 (F := F) := by
  unfold W9
  simp only [s9, after_cons, after_nil]
  rw [nary_result]
  show concatenate S2097152 0 [⟨S262144, (W8 V0 (Proc.devRef .tc main_v10))⟩, ⟨S262144, (W8 V0 (Proc.devRef .tc main_v17))⟩, ⟨S262144, (W8 V0 (Proc.devRef .tc main_v24))⟩, ⟨S262144, (W8 V0 (Proc.devRef .tc main_v31))⟩, ⟨S262144, (W8 V0 (Proc.devRef .tc main_v38))⟩, ⟨S262144, (W8 V0 (Proc.devRef .tc main_v45))⟩, ⟨S262144, (W8 V0 (Proc.devRef .tc main_v52))⟩, ⟨S262144, (W8 V0 (Proc.devRef .tc main_v59))⟩] concatenates_S262144_S262144_S262144_S262144_S262144_S262144_S262144_S262144_S2097152_d0 = _
  rw [W8_main_v10 V0, W8_main_v17 V0, W8_main_v24 V0, W8_main_v31 V0, W8_main_v38 V0, W8_main_v45 V0, W8_main_v52 V0, W8_main_v59 V0]
  rfl

/-! ### Operations 82 … 82 -/

abbrev s10 : List (HloOp τ sig (Elt F)) :=
  [ nary ![main_v13, main_v20, main_v27, main_v34, main_v41, main_v48, main_v55, main_v62] main_v65 (fun u => concatenate S2097152 0 [⟨S262144, u 0⟩, ⟨S262144, u 1⟩, ⟨S262144, u 2⟩, ⟨S262144, u 3⟩, ⟨S262144, u 4⟩, ⟨S262144, u 5⟩, ⟨S262144, u 6⟩, ⟨S262144, u 7⟩] concatenates_S262144_S262144_S262144_S262144_S262144_S262144_S262144_S262144_S2097152_d0) ]
theorem s10_sub : (s10 : List (HloOp τ sig (Elt F))).Forall fun op => op.bufs ⊆ tcRefs τ sig :=
  nary_bufs_sub ..
theorem s10_fresh : ∀ op ∈ (s10 : List (HloOp τ sig (Elt F))), op.fresh = ∅ := by
  intro _ h; (repeat (cases h with | head => rfl | tail _ h => ?_)); exact nomatch h
/-- The buffers these operations write. -/
abbrev s10_W : List (Ref sig .tc) := [main_v65]
theorem s10_writes : (s10 : List (HloOp τ sig (Elt F))).Forall fun op => op.writes ⊆ (s10_W.map (Proc.devRef (τ := τ) .tc)).toFinset := by
  simp only [s10, List.Forall, nullary_writes, unary_writes, binary_writes, ternary_writes, reshape_writes, nary_writes, Finset.singleton_subset_iff, List.mem_toFinset]
  exact List.mem_map_of_mem (by decide)
/-- The buffers' contents after operation 82. -/
def W10 (V0 : Valuation τ sig (Elt F)) : Valuation τ sig (Elt F) := after s10 (W9 V0)
theorem W10_keep (V0 : Valuation τ sig (Elt F)) (r : Ref sig .tc) (h : r ∉ s10_W) :
    W10 V0 (Proc.devRef .tc r) = W9 V0 (Proc.devRef .tc r) :=
  after_of_writes_sub s10 _ s10_writes h
theorem W10_main_arg0 (V0 : Valuation τ sig (Elt F)) : W10 V0 (no_index (Proc.devRef .tc main_arg0)) = V0 (Proc.devRef .tc main_arg0) :=
  (W10_keep V0 main_arg0 (by decide)).trans (W9_main_arg0 V0)
theorem W10_main_arg1 (V0 : Valuation τ sig (Elt F)) : W10 V0 (no_index (Proc.devRef .tc main_arg1)) = V0 (Proc.devRef .tc main_arg1) :=
  (W10_keep V0 main_arg1 (by decide)).trans (W9_main_arg1 V0)
theorem W10_main_arg2 (V0 : Valuation τ sig (Elt F)) : W10 V0 (no_index (Proc.devRef .tc main_arg2)) = V0 (Proc.devRef .tc main_arg2) :=
  (W10_keep V0 main_arg2 (by decide)).trans (W9_main_arg2 V0)
theorem W10_main_arg3 (V0 : Valuation τ sig (Elt F)) : W10 V0 (no_index (Proc.devRef .tc main_arg3)) = V0 (Proc.devRef .tc main_arg3) :=
  (W10_keep V0 main_arg3 (by decide)).trans (W9_main_arg3 V0)
theorem W10_main_arg4 (V0 : Valuation τ sig (Elt F)) : W10 V0 (no_index (Proc.devRef .tc main_arg4)) = V0 (Proc.devRef .tc main_arg4) :=
  (W10_keep V0 main_arg4 (by decide)).trans (W9_main_arg4 V0)
theorem W10_main_arg5 (V0 : Valuation τ sig (Elt F)) : W10 V0 (no_index (Proc.devRef .tc main_arg5)) = V0 (Proc.devRef .tc main_arg5) :=
  (W10_keep V0 main_arg5 (by decide)).trans (W9_main_arg5 V0)
theorem W10_main_arg6 (V0 : Valuation τ sig (Elt F)) : W10 V0 (no_index (Proc.devRef .tc main_arg6)) = V0 (Proc.devRef .tc main_arg6) :=
  (W10_keep V0 main_arg6 (by decide)).trans (W9_main_arg6 V0)
theorem W10_main_arg7 (V0 : Valuation τ sig (Elt F)) : W10 V0 (no_index (Proc.devRef .tc main_arg7)) = V0 (Proc.devRef .tc main_arg7) :=
  (W10_keep V0 main_arg7 (by decide)).trans (W9_main_arg7 V0)
theorem W10_main_v63 (V0 : Valuation τ sig (Elt F)) : W10 V0 (no_index (Proc.devRef .tc main_v63)) = val_main_v63 (F := F) :=
  (W10_keep V0 main_v63 (by decide)).trans (W9_main_v63 V0)
theorem W10_main_v64 (V0 : Valuation τ sig (Elt F)) : W10 V0 (no_index (Proc.devRef .tc main_v64)) = val_main_v64 (F := F) :=
  (W10_keep V0 main_v64 (by decide)).trans (W9_main_v64 V0)
theorem W10_main_v65 (V0 : Valuation τ sig (Elt F)) : W10 V0 (no_index (Proc.devRef .tc main_v65)) = val_main_v65 (F := F) (V0 (Proc.devRef .tc main_arg0)) := by
  unfold W10
  simp only [s10, after_cons, after_nil]
  rw [nary_result]
  show concatenate S2097152 0 [⟨S262144, (W9 V0 (Proc.devRef .tc main_v13))⟩, ⟨S262144, (W9 V0 (Proc.devRef .tc main_v20))⟩, ⟨S262144, (W9 V0 (Proc.devRef .tc main_v27))⟩, ⟨S262144, (W9 V0 (Proc.devRef .tc main_v34))⟩, ⟨S262144, (W9 V0 (Proc.devRef .tc main_v41))⟩, ⟨S262144, (W9 V0 (Proc.devRef .tc main_v48))⟩, ⟨S262144, (W9 V0 (Proc.devRef .tc main_v55))⟩, ⟨S262144, (W9 V0 (Proc.devRef .tc main_v62))⟩] concatenates_S262144_S262144_S262144_S262144_S262144_S262144_S262144_S262144_S2097152_d0 = _
  rw [W9_main_v13 V0, W9_main_v20 V0, W9_main_v27 V0, W9_main_v34 V0, W9_main_v41 V0, W9_main_v48 V0, W9_main_v55 V0, W9_main_v62 V0]
  rfl

/-! ### Operations 83 … 87 -/

abbrev s11 : List (HloOp τ sig (Elt F)) :=
  [ reshape main_arg1 main_v66 rfl shapeCasts_S512x3_S1x512x1x3,
    unary main_v66 main_v67 (broadcastInDim S8x512x1x3 ![0, 1, 2, 3] bcast_S1x512x1x3_S8x512x1x3_0_1_2_3 : (⟨S1x512x1x3, .f32⟩ : BufTy).Contents (Elt F) → (⟨S8x512x1x3, .f32⟩ : BufTy).Contents (Elt F)),
    reshape main_v67 main_v68 rfl shapeCasts_S8x512x1x3_S4096x3,
    binary main_v68 main_arg2 main_v69 ((fun l r => Host.dotGeneral dot_S4096x3_S3x16_S4096x16_1_0_0_1_n_n none l r) : (⟨S4096x3, .f32⟩ : BufTy).Contents (Elt F) → (⟨S3x16, .f32⟩ : BufTy).Contents (Elt F) → (⟨S4096x16, .f32⟩ : BufTy).Contents (Elt F)),
    nullary main_v70 (iotaInDim S4096 32 0) ]
theorem s11_sub : (s11 : List (HloOp τ sig (Elt F))).Forall fun op => op.bufs ⊆ tcRefs τ sig :=
  ⟨reshape_bufs_sub .., unary_bufs_sub .., reshape_bufs_sub .., binary_bufs_sub .., nullary_bufs_sub ..⟩
theorem s11_fresh : ∀ op ∈ (s11 : List (HloOp τ sig (Elt F))), op.fresh = ∅ := by
  intro _ h; (repeat (cases h with | head => rfl | tail _ h => ?_)); exact nomatch h
/-- The buffers these operations write. -/
abbrev s11_W : List (Ref sig .tc) := [main_v66, main_v67, main_v68, main_v69, main_v70]
theorem s11_writes : (s11 : List (HloOp τ sig (Elt F))).Forall fun op => op.writes ⊆ (s11_W.map (Proc.devRef (τ := τ) .tc)).toFinset := by
  simp only [s11, List.Forall, nullary_writes, unary_writes, binary_writes, ternary_writes, reshape_writes, nary_writes, Finset.singleton_subset_iff, List.mem_toFinset]
  refine ⟨?_, ?_, ?_, ?_, ?_⟩ <;> exact List.mem_map_of_mem (by decide)
/-- The buffers' contents after operation 87. -/
def W11 (V0 : Valuation τ sig (Elt F)) : Valuation τ sig (Elt F) := after s11 (W10 V0)
theorem W11_keep (V0 : Valuation τ sig (Elt F)) (r : Ref sig .tc) (h : r ∉ s11_W) :
    W11 V0 (Proc.devRef .tc r) = W10 V0 (Proc.devRef .tc r) :=
  after_of_writes_sub s11 _ s11_writes h
theorem W11_main_arg0 (V0 : Valuation τ sig (Elt F)) : W11 V0 (no_index (Proc.devRef .tc main_arg0)) = V0 (Proc.devRef .tc main_arg0) :=
  (W11_keep V0 main_arg0 (by decide)).trans (W10_main_arg0 V0)
theorem W11_main_arg1 (V0 : Valuation τ sig (Elt F)) : W11 V0 (no_index (Proc.devRef .tc main_arg1)) = V0 (Proc.devRef .tc main_arg1) :=
  (W11_keep V0 main_arg1 (by decide)).trans (W10_main_arg1 V0)
theorem W11_main_arg2 (V0 : Valuation τ sig (Elt F)) : W11 V0 (no_index (Proc.devRef .tc main_arg2)) = V0 (Proc.devRef .tc main_arg2) :=
  (W11_keep V0 main_arg2 (by decide)).trans (W10_main_arg2 V0)
theorem W11_main_arg3 (V0 : Valuation τ sig (Elt F)) : W11 V0 (no_index (Proc.devRef .tc main_arg3)) = V0 (Proc.devRef .tc main_arg3) :=
  (W11_keep V0 main_arg3 (by decide)).trans (W10_main_arg3 V0)
theorem W11_main_arg4 (V0 : Valuation τ sig (Elt F)) : W11 V0 (no_index (Proc.devRef .tc main_arg4)) = V0 (Proc.devRef .tc main_arg4) :=
  (W11_keep V0 main_arg4 (by decide)).trans (W10_main_arg4 V0)
theorem W11_main_arg5 (V0 : Valuation τ sig (Elt F)) : W11 V0 (no_index (Proc.devRef .tc main_arg5)) = V0 (Proc.devRef .tc main_arg5) :=
  (W11_keep V0 main_arg5 (by decide)).trans (W10_main_arg5 V0)
theorem W11_main_arg6 (V0 : Valuation τ sig (Elt F)) : W11 V0 (no_index (Proc.devRef .tc main_arg6)) = V0 (Proc.devRef .tc main_arg6) :=
  (W11_keep V0 main_arg6 (by decide)).trans (W10_main_arg6 V0)
theorem W11_main_arg7 (V0 : Valuation τ sig (Elt F)) : W11 V0 (no_index (Proc.devRef .tc main_arg7)) = V0 (Proc.devRef .tc main_arg7) :=
  (W11_keep V0 main_arg7 (by decide)).trans (W10_main_arg7 V0)
theorem W11_main_v63 (V0 : Valuation τ sig (Elt F)) : W11 V0 (no_index (Proc.devRef .tc main_v63)) = val_main_v63 (F := F) :=
  (W11_keep V0 main_v63 (by decide)).trans (W10_main_v63 V0)
theorem W11_main_v64 (V0 : Valuation τ sig (Elt F)) : W11 V0 (no_index (Proc.devRef .tc main_v64)) = val_main_v64 (F := F) :=
  (W11_keep V0 main_v64 (by decide)).trans (W10_main_v64 V0)
theorem W11_main_v65 (V0 : Valuation τ sig (Elt F)) : W11 V0 (no_index (Proc.devRef .tc main_v65)) = val_main_v65 (F := F) (V0 (Proc.devRef .tc main_arg0)) :=
  (W11_keep V0 main_v65 (by decide)).trans (W10_main_v65 V0)
theorem W11_main_v69 (V0 : Valuation τ sig (Elt F)) : W11 V0 (no_index (Proc.devRef .tc main_v69)) = val_main_v69 (F := F) (V0 (Proc.devRef .tc main_arg1)) (V0 (Proc.devRef .tc main_arg2)) := by
  unfold W11
  simp only [s11]
  after_results_simp
  rw [W10_main_arg1 V0, W10_main_arg2 V0]
  rfl
theorem W11_main_v70 (V0 : Valuation τ sig (Elt F)) : W11 V0 (no_index (Proc.devRef .tc main_v70)) = val_main_v70 (F := F) := by
  unfold W11
  simp only [s11]
  after_results_simp
  rfl

/-! ### Operations 88 … 88 -/

abbrev s12 : List (HloOp τ sig (Elt F)) :=
  [ binary main_v63 main_v70 main_v71 ((fun a b => concatenate S2101248 0 [⟨S2097152, a⟩, ⟨S4096, b⟩] concatenates_S2097152_S4096_S2101248_d0) : (⟨S2097152, .i32⟩ : BufTy).Contents (Elt F) → (⟨S4096, .i32⟩ : BufTy).Contents (Elt F) → (⟨S2101248, .i32⟩ : BufTy).Contents (Elt F)) ]
theorem s12_sub : (s12 : List (HloOp τ sig (Elt F))).Forall fun op => op.bufs ⊆ tcRefs τ sig :=
  binary_bufs_sub ..
theorem s12_fresh : ∀ op ∈ (s12 : List (HloOp τ sig (Elt F))), op.fresh = ∅ := by
  intro _ h; (repeat (cases h with | head => rfl | tail _ h => ?_)); exact nomatch h
/-- The buffers these operations write. -/
abbrev s12_W : List (Ref sig .tc) := [main_v71]
theorem s12_writes : (s12 : List (HloOp τ sig (Elt F))).Forall fun op => op.writes ⊆ (s12_W.map (Proc.devRef (τ := τ) .tc)).toFinset := by
  simp only [s12, List.Forall, nullary_writes, unary_writes, binary_writes, ternary_writes, reshape_writes, nary_writes, Finset.singleton_subset_iff, List.mem_toFinset]
  exact List.mem_map_of_mem (by decide)
/-- The buffers' contents after operation 88. -/
def W12 (V0 : Valuation τ sig (Elt F)) : Valuation τ sig (Elt F) := after s12 (W11 V0)
theorem W12_keep (V0 : Valuation τ sig (Elt F)) (r : Ref sig .tc) (h : r ∉ s12_W) :
    W12 V0 (Proc.devRef .tc r) = W11 V0 (Proc.devRef .tc r) :=
  after_of_writes_sub s12 _ s12_writes h
theorem W12_main_arg0 (V0 : Valuation τ sig (Elt F)) : W12 V0 (no_index (Proc.devRef .tc main_arg0)) = V0 (Proc.devRef .tc main_arg0) :=
  (W12_keep V0 main_arg0 (by decide)).trans (W11_main_arg0 V0)
theorem W12_main_arg1 (V0 : Valuation τ sig (Elt F)) : W12 V0 (no_index (Proc.devRef .tc main_arg1)) = V0 (Proc.devRef .tc main_arg1) :=
  (W12_keep V0 main_arg1 (by decide)).trans (W11_main_arg1 V0)
theorem W12_main_arg2 (V0 : Valuation τ sig (Elt F)) : W12 V0 (no_index (Proc.devRef .tc main_arg2)) = V0 (Proc.devRef .tc main_arg2) :=
  (W12_keep V0 main_arg2 (by decide)).trans (W11_main_arg2 V0)
theorem W12_main_arg3 (V0 : Valuation τ sig (Elt F)) : W12 V0 (no_index (Proc.devRef .tc main_arg3)) = V0 (Proc.devRef .tc main_arg3) :=
  (W12_keep V0 main_arg3 (by decide)).trans (W11_main_arg3 V0)
theorem W12_main_arg4 (V0 : Valuation τ sig (Elt F)) : W12 V0 (no_index (Proc.devRef .tc main_arg4)) = V0 (Proc.devRef .tc main_arg4) :=
  (W12_keep V0 main_arg4 (by decide)).trans (W11_main_arg4 V0)
theorem W12_main_arg5 (V0 : Valuation τ sig (Elt F)) : W12 V0 (no_index (Proc.devRef .tc main_arg5)) = V0 (Proc.devRef .tc main_arg5) :=
  (W12_keep V0 main_arg5 (by decide)).trans (W11_main_arg5 V0)
theorem W12_main_arg6 (V0 : Valuation τ sig (Elt F)) : W12 V0 (no_index (Proc.devRef .tc main_arg6)) = V0 (Proc.devRef .tc main_arg6) :=
  (W12_keep V0 main_arg6 (by decide)).trans (W11_main_arg6 V0)
theorem W12_main_arg7 (V0 : Valuation τ sig (Elt F)) : W12 V0 (no_index (Proc.devRef .tc main_arg7)) = V0 (Proc.devRef .tc main_arg7) :=
  (W12_keep V0 main_arg7 (by decide)).trans (W11_main_arg7 V0)
theorem W12_main_v63 (V0 : Valuation τ sig (Elt F)) : W12 V0 (no_index (Proc.devRef .tc main_v63)) = val_main_v63 (F := F) :=
  (W12_keep V0 main_v63 (by decide)).trans (W11_main_v63 V0)
theorem W12_main_v64 (V0 : Valuation τ sig (Elt F)) : W12 V0 (no_index (Proc.devRef .tc main_v64)) = val_main_v64 (F := F) :=
  (W12_keep V0 main_v64 (by decide)).trans (W11_main_v64 V0)
theorem W12_main_v65 (V0 : Valuation τ sig (Elt F)) : W12 V0 (no_index (Proc.devRef .tc main_v65)) = val_main_v65 (F := F) (V0 (Proc.devRef .tc main_arg0)) :=
  (W12_keep V0 main_v65 (by decide)).trans (W11_main_v65 V0)
theorem W12_main_v69 (V0 : Valuation τ sig (Elt F)) : W12 V0 (no_index (Proc.devRef .tc main_v69)) = val_main_v69 (F := F) (V0 (Proc.devRef .tc main_arg1)) (V0 (Proc.devRef .tc main_arg2)) :=
  (W12_keep V0 main_v69 (by decide)).trans (W11_main_v69 V0)
theorem W12_main_v70 (V0 : Valuation τ sig (Elt F)) : W12 V0 (no_index (Proc.devRef .tc main_v70)) = val_main_v70 (F := F) :=
  (W12_keep V0 main_v70 (by decide)).trans (W11_main_v70 V0)
theorem W12_main_v71 (V0 : Valuation τ sig (Elt F)) : W12 V0 (no_index (Proc.devRef .tc main_v71)) = val_main_v71 (F := F) := by
  unfold W12
  simp only [s12, after_cons, after_nil]
  rw [binary_result]
  rw [W11_main_v63 V0, W11_main_v70 V0]
  rfl

/-! ### Operations 89 … 89 -/

abbrev s13 : List (HloOp τ sig (Elt F)) :=
  [ binary main_v64 main_v70 main_v72 ((fun a b => concatenate S2101248 0 [⟨S2097152, a⟩, ⟨S4096, b⟩] concatenates_S2097152_S4096_S2101248_d0) : (⟨S2097152, .i32⟩ : BufTy).Contents (Elt F) → (⟨S4096, .i32⟩ : BufTy).Contents (Elt F) → (⟨S2101248, .i32⟩ : BufTy).Contents (Elt F)) ]
theorem s13_sub : (s13 : List (HloOp τ sig (Elt F))).Forall fun op => op.bufs ⊆ tcRefs τ sig :=
  binary_bufs_sub ..
theorem s13_fresh : ∀ op ∈ (s13 : List (HloOp τ sig (Elt F))), op.fresh = ∅ := by
  intro _ h; (repeat (cases h with | head => rfl | tail _ h => ?_)); exact nomatch h
/-- The buffers these operations write. -/
abbrev s13_W : List (Ref sig .tc) := [main_v72]
theorem s13_writes : (s13 : List (HloOp τ sig (Elt F))).Forall fun op => op.writes ⊆ (s13_W.map (Proc.devRef (τ := τ) .tc)).toFinset := by
  simp only [s13, List.Forall, nullary_writes, unary_writes, binary_writes, ternary_writes, reshape_writes, nary_writes, Finset.singleton_subset_iff, List.mem_toFinset]
  exact List.mem_map_of_mem (by decide)
/-- The buffers' contents after operation 89. -/
def W13 (V0 : Valuation τ sig (Elt F)) : Valuation τ sig (Elt F) := after s13 (W12 V0)
theorem W13_keep (V0 : Valuation τ sig (Elt F)) (r : Ref sig .tc) (h : r ∉ s13_W) :
    W13 V0 (Proc.devRef .tc r) = W12 V0 (Proc.devRef .tc r) :=
  after_of_writes_sub s13 _ s13_writes h
theorem W13_main_arg0 (V0 : Valuation τ sig (Elt F)) : W13 V0 (no_index (Proc.devRef .tc main_arg0)) = V0 (Proc.devRef .tc main_arg0) :=
  (W13_keep V0 main_arg0 (by decide)).trans (W12_main_arg0 V0)
theorem W13_main_arg1 (V0 : Valuation τ sig (Elt F)) : W13 V0 (no_index (Proc.devRef .tc main_arg1)) = V0 (Proc.devRef .tc main_arg1) :=
  (W13_keep V0 main_arg1 (by decide)).trans (W12_main_arg1 V0)
theorem W13_main_arg2 (V0 : Valuation τ sig (Elt F)) : W13 V0 (no_index (Proc.devRef .tc main_arg2)) = V0 (Proc.devRef .tc main_arg2) :=
  (W13_keep V0 main_arg2 (by decide)).trans (W12_main_arg2 V0)
theorem W13_main_arg3 (V0 : Valuation τ sig (Elt F)) : W13 V0 (no_index (Proc.devRef .tc main_arg3)) = V0 (Proc.devRef .tc main_arg3) :=
  (W13_keep V0 main_arg3 (by decide)).trans (W12_main_arg3 V0)
theorem W13_main_arg4 (V0 : Valuation τ sig (Elt F)) : W13 V0 (no_index (Proc.devRef .tc main_arg4)) = V0 (Proc.devRef .tc main_arg4) :=
  (W13_keep V0 main_arg4 (by decide)).trans (W12_main_arg4 V0)
theorem W13_main_arg5 (V0 : Valuation τ sig (Elt F)) : W13 V0 (no_index (Proc.devRef .tc main_arg5)) = V0 (Proc.devRef .tc main_arg5) :=
  (W13_keep V0 main_arg5 (by decide)).trans (W12_main_arg5 V0)
theorem W13_main_arg6 (V0 : Valuation τ sig (Elt F)) : W13 V0 (no_index (Proc.devRef .tc main_arg6)) = V0 (Proc.devRef .tc main_arg6) :=
  (W13_keep V0 main_arg6 (by decide)).trans (W12_main_arg6 V0)
theorem W13_main_arg7 (V0 : Valuation τ sig (Elt F)) : W13 V0 (no_index (Proc.devRef .tc main_arg7)) = V0 (Proc.devRef .tc main_arg7) :=
  (W13_keep V0 main_arg7 (by decide)).trans (W12_main_arg7 V0)
theorem W13_main_v63 (V0 : Valuation τ sig (Elt F)) : W13 V0 (no_index (Proc.devRef .tc main_v63)) = val_main_v63 (F := F) :=
  (W13_keep V0 main_v63 (by decide)).trans (W12_main_v63 V0)
theorem W13_main_v64 (V0 : Valuation τ sig (Elt F)) : W13 V0 (no_index (Proc.devRef .tc main_v64)) = val_main_v64 (F := F) :=
  (W13_keep V0 main_v64 (by decide)).trans (W12_main_v64 V0)
theorem W13_main_v65 (V0 : Valuation τ sig (Elt F)) : W13 V0 (no_index (Proc.devRef .tc main_v65)) = val_main_v65 (F := F) (V0 (Proc.devRef .tc main_arg0)) :=
  (W13_keep V0 main_v65 (by decide)).trans (W12_main_v65 V0)
theorem W13_main_v69 (V0 : Valuation τ sig (Elt F)) : W13 V0 (no_index (Proc.devRef .tc main_v69)) = val_main_v69 (F := F) (V0 (Proc.devRef .tc main_arg1)) (V0 (Proc.devRef .tc main_arg2)) :=
  (W13_keep V0 main_v69 (by decide)).trans (W12_main_v69 V0)
theorem W13_main_v71 (V0 : Valuation τ sig (Elt F)) : W13 V0 (no_index (Proc.devRef .tc main_v71)) = val_main_v71 (F := F) :=
  (W13_keep V0 main_v71 (by decide)).trans (W12_main_v71 V0)
theorem W13_main_v72 (V0 : Valuation τ sig (Elt F)) : W13 V0 (no_index (Proc.devRef .tc main_v72)) = val_main_v72 (F := F) := by
  unfold W13
  simp only [s13, after_cons, after_nil]
  rw [binary_result]
  rw [W12_main_v64 V0, W12_main_v70 V0]
  rfl

/-! ### Operations 90 … 91 -/

abbrev s14 : List (HloOp τ sig (Elt F)) :=
  [ nullary main_cst (constant S_ .f32 0x3F800000#32),
    unary main_cst main_v73 (broadcastInDim S4096 ![] bcast_S_S4096 : (⟨S_, .f32⟩ : BufTy).Contents (Elt F) → (⟨S4096, .f32⟩ : BufTy).Contents (Elt F)) ]
theorem s14_sub : (s14 : List (HloOp τ sig (Elt F))).Forall fun op => op.bufs ⊆ tcRefs τ sig :=
  ⟨nullary_bufs_sub .., unary_bufs_sub ..⟩
theorem s14_fresh : ∀ op ∈ (s14 : List (HloOp τ sig (Elt F))), op.fresh = ∅ := by
  intro _ h; (repeat (cases h with | head => rfl | tail _ h => ?_)); exact nomatch h
/-- The buffers these operations write. -/
abbrev s14_W : List (Ref sig .tc) := [main_cst, main_v73]
theorem s14_writes : (s14 : List (HloOp τ sig (Elt F))).Forall fun op => op.writes ⊆ (s14_W.map (Proc.devRef (τ := τ) .tc)).toFinset := by
  simp only [s14, List.Forall, nullary_writes, unary_writes, binary_writes, ternary_writes, reshape_writes, nary_writes, Finset.singleton_subset_iff, List.mem_toFinset]
  refine ⟨?_, ?_⟩ <;> exact List.mem_map_of_mem (by decide)
/-- The buffers' contents after operation 91. -/
def W14 (V0 : Valuation τ sig (Elt F)) : Valuation τ sig (Elt F) := after s14 (W13 V0)
theorem W14_keep (V0 : Valuation τ sig (Elt F)) (r : Ref sig .tc) (h : r ∉ s14_W) :
    W14 V0 (Proc.devRef .tc r) = W13 V0 (Proc.devRef .tc r) :=
  after_of_writes_sub s14 _ s14_writes h
theorem W14_main_arg0 (V0 : Valuation τ sig (Elt F)) : W14 V0 (no_index (Proc.devRef .tc main_arg0)) = V0 (Proc.devRef .tc main_arg0) :=
  (W14_keep V0 main_arg0 (by decide)).trans (W13_main_arg0 V0)
theorem W14_main_arg1 (V0 : Valuation τ sig (Elt F)) : W14 V0 (no_index (Proc.devRef .tc main_arg1)) = V0 (Proc.devRef .tc main_arg1) :=
  (W14_keep V0 main_arg1 (by decide)).trans (W13_main_arg1 V0)
theorem W14_main_arg2 (V0 : Valuation τ sig (Elt F)) : W14 V0 (no_index (Proc.devRef .tc main_arg2)) = V0 (Proc.devRef .tc main_arg2) :=
  (W14_keep V0 main_arg2 (by decide)).trans (W13_main_arg2 V0)
theorem W14_main_arg3 (V0 : Valuation τ sig (Elt F)) : W14 V0 (no_index (Proc.devRef .tc main_arg3)) = V0 (Proc.devRef .tc main_arg3) :=
  (W14_keep V0 main_arg3 (by decide)).trans (W13_main_arg3 V0)
theorem W14_main_arg4 (V0 : Valuation τ sig (Elt F)) : W14 V0 (no_index (Proc.devRef .tc main_arg4)) = V0 (Proc.devRef .tc main_arg4) :=
  (W14_keep V0 main_arg4 (by decide)).trans (W13_main_arg4 V0)
theorem W14_main_arg5 (V0 : Valuation τ sig (Elt F)) : W14 V0 (no_index (Proc.devRef .tc main_arg5)) = V0 (Proc.devRef .tc main_arg5) :=
  (W14_keep V0 main_arg5 (by decide)).trans (W13_main_arg5 V0)
theorem W14_main_arg6 (V0 : Valuation τ sig (Elt F)) : W14 V0 (no_index (Proc.devRef .tc main_arg6)) = V0 (Proc.devRef .tc main_arg6) :=
  (W14_keep V0 main_arg6 (by decide)).trans (W13_main_arg6 V0)
theorem W14_main_arg7 (V0 : Valuation τ sig (Elt F)) : W14 V0 (no_index (Proc.devRef .tc main_arg7)) = V0 (Proc.devRef .tc main_arg7) :=
  (W14_keep V0 main_arg7 (by decide)).trans (W13_main_arg7 V0)
theorem W14_main_v63 (V0 : Valuation τ sig (Elt F)) : W14 V0 (no_index (Proc.devRef .tc main_v63)) = val_main_v63 (F := F) :=
  (W14_keep V0 main_v63 (by decide)).trans (W13_main_v63 V0)
theorem W14_main_v64 (V0 : Valuation τ sig (Elt F)) : W14 V0 (no_index (Proc.devRef .tc main_v64)) = val_main_v64 (F := F) :=
  (W14_keep V0 main_v64 (by decide)).trans (W13_main_v64 V0)
theorem W14_main_v65 (V0 : Valuation τ sig (Elt F)) : W14 V0 (no_index (Proc.devRef .tc main_v65)) = val_main_v65 (F := F) (V0 (Proc.devRef .tc main_arg0)) :=
  (W14_keep V0 main_v65 (by decide)).trans (W13_main_v65 V0)
theorem W14_main_v69 (V0 : Valuation τ sig (Elt F)) : W14 V0 (no_index (Proc.devRef .tc main_v69)) = val_main_v69 (F := F) (V0 (Proc.devRef .tc main_arg1)) (V0 (Proc.devRef .tc main_arg2)) :=
  (W14_keep V0 main_v69 (by decide)).trans (W13_main_v69 V0)
theorem W14_main_v71 (V0 : Valuation τ sig (Elt F)) : W14 V0 (no_index (Proc.devRef .tc main_v71)) = val_main_v71 (F := F) :=
  (W14_keep V0 main_v71 (by decide)).trans (W13_main_v71 V0)
theorem W14_main_v72 (V0 : Valuation τ sig (Elt F)) : W14 V0 (no_index (Proc.devRef .tc main_v72)) = val_main_v72 (F := F) :=
  (W14_keep V0 main_v72 (by decide)).trans (W13_main_v72 V0)
theorem W14_main_v73 (V0 : Valuation τ sig (Elt F)) : W14 V0 (no_index (Proc.devRef .tc main_v73)) = val_main_v73 (F := F) := by
  unfold W14
  simp only [s14]
  after_results_simp
  rfl

/-! ### Operations 92 … 92 -/

abbrev s15 : List (HloOp τ sig (Elt F)) :=
  [ binary main_v65 main_v73 main_v74 ((fun a b => concatenate S2101248 0 [⟨S2097152, a⟩, ⟨S4096, b⟩] concatenates_S2097152_S4096_S2101248_d0) : (⟨S2097152, .f32⟩ : BufTy).Contents (Elt F) → (⟨S4096, .f32⟩ : BufTy).Contents (Elt F) → (⟨S2101248, .f32⟩ : BufTy).Contents (Elt F)) ]
theorem s15_sub : (s15 : List (HloOp τ sig (Elt F))).Forall fun op => op.bufs ⊆ tcRefs τ sig :=
  binary_bufs_sub ..
theorem s15_fresh : ∀ op ∈ (s15 : List (HloOp τ sig (Elt F))), op.fresh = ∅ := by
  intro _ h; (repeat (cases h with | head => rfl | tail _ h => ?_)); exact nomatch h
/-- The buffers these operations write. -/
abbrev s15_W : List (Ref sig .tc) := [main_v74]
theorem s15_writes : (s15 : List (HloOp τ sig (Elt F))).Forall fun op => op.writes ⊆ (s15_W.map (Proc.devRef (τ := τ) .tc)).toFinset := by
  simp only [s15, List.Forall, nullary_writes, unary_writes, binary_writes, ternary_writes, reshape_writes, nary_writes, Finset.singleton_subset_iff, List.mem_toFinset]
  exact List.mem_map_of_mem (by decide)
/-- The buffers' contents after operation 92. -/
def W15 (V0 : Valuation τ sig (Elt F)) : Valuation τ sig (Elt F) := after s15 (W14 V0)
theorem W15_keep (V0 : Valuation τ sig (Elt F)) (r : Ref sig .tc) (h : r ∉ s15_W) :
    W15 V0 (Proc.devRef .tc r) = W14 V0 (Proc.devRef .tc r) :=
  after_of_writes_sub s15 _ s15_writes h
theorem W15_main_arg0 (V0 : Valuation τ sig (Elt F)) : W15 V0 (no_index (Proc.devRef .tc main_arg0)) = V0 (Proc.devRef .tc main_arg0) :=
  (W15_keep V0 main_arg0 (by decide)).trans (W14_main_arg0 V0)
theorem W15_main_arg1 (V0 : Valuation τ sig (Elt F)) : W15 V0 (no_index (Proc.devRef .tc main_arg1)) = V0 (Proc.devRef .tc main_arg1) :=
  (W15_keep V0 main_arg1 (by decide)).trans (W14_main_arg1 V0)
theorem W15_main_arg2 (V0 : Valuation τ sig (Elt F)) : W15 V0 (no_index (Proc.devRef .tc main_arg2)) = V0 (Proc.devRef .tc main_arg2) :=
  (W15_keep V0 main_arg2 (by decide)).trans (W14_main_arg2 V0)
theorem W15_main_arg3 (V0 : Valuation τ sig (Elt F)) : W15 V0 (no_index (Proc.devRef .tc main_arg3)) = V0 (Proc.devRef .tc main_arg3) :=
  (W15_keep V0 main_arg3 (by decide)).trans (W14_main_arg3 V0)
theorem W15_main_arg4 (V0 : Valuation τ sig (Elt F)) : W15 V0 (no_index (Proc.devRef .tc main_arg4)) = V0 (Proc.devRef .tc main_arg4) :=
  (W15_keep V0 main_arg4 (by decide)).trans (W14_main_arg4 V0)
theorem W15_main_arg5 (V0 : Valuation τ sig (Elt F)) : W15 V0 (no_index (Proc.devRef .tc main_arg5)) = V0 (Proc.devRef .tc main_arg5) :=
  (W15_keep V0 main_arg5 (by decide)).trans (W14_main_arg5 V0)
theorem W15_main_arg6 (V0 : Valuation τ sig (Elt F)) : W15 V0 (no_index (Proc.devRef .tc main_arg6)) = V0 (Proc.devRef .tc main_arg6) :=
  (W15_keep V0 main_arg6 (by decide)).trans (W14_main_arg6 V0)
theorem W15_main_arg7 (V0 : Valuation τ sig (Elt F)) : W15 V0 (no_index (Proc.devRef .tc main_arg7)) = V0 (Proc.devRef .tc main_arg7) :=
  (W15_keep V0 main_arg7 (by decide)).trans (W14_main_arg7 V0)
theorem W15_main_v63 (V0 : Valuation τ sig (Elt F)) : W15 V0 (no_index (Proc.devRef .tc main_v63)) = val_main_v63 (F := F) :=
  (W15_keep V0 main_v63 (by decide)).trans (W14_main_v63 V0)
theorem W15_main_v64 (V0 : Valuation τ sig (Elt F)) : W15 V0 (no_index (Proc.devRef .tc main_v64)) = val_main_v64 (F := F) :=
  (W15_keep V0 main_v64 (by decide)).trans (W14_main_v64 V0)
theorem W15_main_v65 (V0 : Valuation τ sig (Elt F)) : W15 V0 (no_index (Proc.devRef .tc main_v65)) = val_main_v65 (F := F) (V0 (Proc.devRef .tc main_arg0)) :=
  (W15_keep V0 main_v65 (by decide)).trans (W14_main_v65 V0)
theorem W15_main_v69 (V0 : Valuation τ sig (Elt F)) : W15 V0 (no_index (Proc.devRef .tc main_v69)) = val_main_v69 (F := F) (V0 (Proc.devRef .tc main_arg1)) (V0 (Proc.devRef .tc main_arg2)) :=
  (W15_keep V0 main_v69 (by decide)).trans (W14_main_v69 V0)
theorem W15_main_v71 (V0 : Valuation τ sig (Elt F)) : W15 V0 (no_index (Proc.devRef .tc main_v71)) = val_main_v71 (F := F) :=
  (W15_keep V0 main_v71 (by decide)).trans (W14_main_v71 V0)
theorem W15_main_v72 (V0 : Valuation τ sig (Elt F)) : W15 V0 (no_index (Proc.devRef .tc main_v72)) = val_main_v72 (F := F) :=
  (W15_keep V0 main_v72 (by decide)).trans (W14_main_v72 V0)
theorem W15_main_v74 (V0 : Valuation τ sig (Elt F)) : W15 V0 (no_index (Proc.devRef .tc main_v74)) = val_main_v74 (F := F) (V0 (Proc.devRef .tc main_arg0)) := by
  unfold W15
  simp only [s15, after_cons, after_nil]
  rw [binary_result]
  rw [W14_main_v65 V0, W14_main_v73 V0]
  rfl

/-! ### Operations 93 … 106 -/

abbrev s16 : List (HloOp τ sig (Elt F)) :=
  [ nullary main_cst_15 (constant S_ .f32 0x00000000#32),
    unary main_cst_15 main_v75 (broadcastInDim S4096 ![] bcast_S_S4096 : (⟨S_, .f32⟩ : BufTy).Contents (Elt F) → (⟨S4096, .f32⟩ : BufTy).Contents (Elt F)),
    unary main_v72 main_v76 (broadcastInDim S2101248x1 ![0] bcast_S2101248_S2101248x1_0 : (⟨S2101248, .i32⟩ : BufTy).Contents (Elt F) → (⟨S2101248x1, .i32⟩ : BufTy).Contents (Elt F)),
    ternary main_v75 main_v76 main_v74 main_v77 ((fun x i u => Host.scatterAdd scatter_S4096_S2101248x1_S2101248_n_0_0_1 x i u) : (⟨S4096, .f32⟩ : BufTy).Contents (Elt F) → (⟨S2101248x1, .i32⟩ : BufTy).Contents (Elt F) → (⟨S2101248, .f32⟩ : BufTy).Contents (Elt F) → (⟨S4096, .f32⟩ : BufTy).Contents (Elt F)),
    nullary main_cst_16 (constant S_ .f32 0x00000000#32),
    unary main_cst_16 main_v78 (broadcastInDim S4096 ![] bcast_S_S4096 : (⟨S_, .f32⟩ : BufTy).Contents (Elt F) → (⟨S4096, .f32⟩ : BufTy).Contents (Elt F)),
    binary main_v77 main_v78 main_v79 (cmpf .ogt : (⟨S4096, .f32⟩ : BufTy).Contents (Elt F) → (⟨S4096, .f32⟩ : BufTy).Contents (Elt F) → (⟨S4096, .i1⟩ : BufTy).Contents (Elt F)),
    nullary main_cst_17 (constant S_ .f32 0xBF000000#32),
    unary main_cst_17 main_v80 (broadcastInDim S4096 ![] bcast_S_S4096 : (⟨S_, .f32⟩ : BufTy).Contents (Elt F) → (⟨S4096, .f32⟩ : BufTy).Contents (Elt F)),
    binary main_v77 main_v80 main_v81 (Host.powf : (⟨S4096, .f32⟩ : BufTy).Contents (Elt F) → (⟨S4096, .f32⟩ : BufTy).Contents (Elt F) → (⟨S4096, .f32⟩ : BufTy).Contents (Elt F)),
    nullary main_cst_18 (constant S_ .f32 0x00000000#32),
    TRef.unary (TRef.of (T := ⟨S_, .f32⟩) main_cst_18) (TRef.of (T := ⟨S_, .f32⟩) main_call0_v0) id,
    TRef.unary (TRef.of (T := ⟨S_, .f32⟩) main_call0_v0) (TRef.of (T := ⟨S4096, .f32⟩) main_call0_v1) (broadcastInDim S4096 ![] bcast_S_S4096),
    TRef.ternary (TRef.of (T := ⟨S4096, .i1⟩) main_v79) (TRef.of (T := ⟨S4096, .f32⟩) main_v81) (TRef.of (T := ⟨S4096, .f32⟩) main_call0_v1) (TRef.of (T := ⟨S4096, .f32⟩) main_v82) select ]
theorem s16_sub : (s16 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩
theorem s16_fresh : ∀ op ∈ (s16 : List (HloOp τ sig (Elt F))), op.fresh = ∅ := by
  intro _ h; (repeat (cases h with | head => rfl | tail _ h => ?_)); exact nomatch h
/-- The buffers these operations write. -/
abbrev s16_W : List (Ref sig .tc) := [main_cst_15, main_v75, main_v76, main_v77, main_cst_16, main_v78, main_v79, main_cst_17, main_v80, main_v81, main_cst_18, main_call0_v0, main_call0_v1, main_v82]
theorem s16_writes : (s16 : List (HloOp τ sig (Elt F))).Forall fun op => op.writes ⊆ (s16_W.map (Proc.devRef (τ := τ) .tc)).toFinset := by
  simp only [s16, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 106. -/
def W16 (V0 : Valuation τ sig (Elt F)) : Valuation τ sig (Elt F) := after s16 (W15 V0)
theorem W16_keep (V0 : Valuation τ sig (Elt F)) (r : Ref sig .tc) (h : r ∉ s16_W) :
    W16 V0 (Proc.devRef .tc r) = W15 V0 (Proc.devRef .tc r) :=
  after_of_writes_sub s16 _ s16_writes h
theorem W16_main_arg0 (V0 : Valuation τ sig (Elt F)) : W16 V0 (no_index (Proc.devRef .tc main_arg0)) = V0 (Proc.devRef .tc main_arg0) :=
  (W16_keep V0 main_arg0 (by decide)).trans (W15_main_arg0 V0)
theorem W16_main_arg1 (V0 : Valuation τ sig (Elt F)) : W16 V0 (no_index (Proc.devRef .tc main_arg1)) = V0 (Proc.devRef .tc main_arg1) :=
  (W16_keep V0 main_arg1 (by decide)).trans (W15_main_arg1 V0)
theorem W16_main_arg2 (V0 : Valuation τ sig (Elt F)) : W16 V0 (no_index (Proc.devRef .tc main_arg2)) = V0 (Proc.devRef .tc main_arg2) :=
  (W16_keep V0 main_arg2 (by decide)).trans (W15_main_arg2 V0)
theorem W16_main_arg3 (V0 : Valuation τ sig (Elt F)) : W16 V0 (no_index (Proc.devRef .tc main_arg3)) = V0 (Proc.devRef .tc main_arg3) :=
  (W16_keep V0 main_arg3 (by decide)).trans (W15_main_arg3 V0)
theorem W16_main_arg4 (V0 : Valuation τ sig (Elt F)) : W16 V0 (no_index (Proc.devRef .tc main_arg4)) = V0 (Proc.devRef .tc main_arg4) :=
  (W16_keep V0 main_arg4 (by decide)).trans (W15_main_arg4 V0)
theorem W16_main_arg5 (V0 : Valuation τ sig (Elt F)) : W16 V0 (no_index (Proc.devRef .tc main_arg5)) = V0 (Proc.devRef .tc main_arg5) :=
  (W16_keep V0 main_arg5 (by decide)).trans (W15_main_arg5 V0)
theorem W16_main_arg6 (V0 : Valuation τ sig (Elt F)) : W16 V0 (no_index (Proc.devRef .tc main_arg6)) = V0 (Proc.devRef .tc main_arg6) :=
  (W16_keep V0 main_arg6 (by decide)).trans (W15_main_arg6 V0)
theorem W16_main_arg7 (V0 : Valuation τ sig (Elt F)) : W16 V0 (no_index (Proc.devRef .tc main_arg7)) = V0 (Proc.devRef .tc main_arg7) :=
  (W16_keep V0 main_arg7 (by decide)).trans (W15_main_arg7 V0)
theorem W16_main_v63 (V0 : Valuation τ sig (Elt F)) : W16 V0 (no_index (Proc.devRef .tc main_v63)) = val_main_v63 (F := F) :=
  (W16_keep V0 main_v63 (by decide)).trans (W15_main_v63 V0)
theorem W16_main_v64 (V0 : Valuation τ sig (Elt F)) : W16 V0 (no_index (Proc.devRef .tc main_v64)) = val_main_v64 (F := F) :=
  (W16_keep V0 main_v64 (by decide)).trans (W15_main_v64 V0)
theorem W16_main_v65 (V0 : Valuation τ sig (Elt F)) : W16 V0 (no_index (Proc.devRef .tc main_v65)) = val_main_v65 (F := F) (V0 (Proc.devRef .tc main_arg0)) :=
  (W16_keep V0 main_v65 (by decide)).trans (W15_main_v65 V0)
theorem W16_main_v69 (V0 : Valuation τ sig (Elt F)) : W16 V0 (no_index (Proc.devRef .tc main_v69)) = val_main_v69 (F := F) (V0 (Proc.devRef .tc main_arg1)) (V0 (Proc.devRef .tc main_arg2)) :=
  (W16_keep V0 main_v69 (by decide)).trans (W15_main_v69 V0)
theorem W16_main_v71 (V0 : Valuation τ sig (Elt F)) : W16 V0 (no_index (Proc.devRef .tc main_v71)) = val_main_v71 (F := F) :=
  (W16_keep V0 main_v71 (by decide)).trans (W15_main_v71 V0)
theorem W16_main_v72 (V0 : Valuation τ sig (Elt F)) : W16 V0 (no_index (Proc.devRef .tc main_v72)) = val_main_v72 (F := F) :=
  (W16_keep V0 main_v72 (by decide)).trans (W15_main_v72 V0)
theorem W16_main_v74 (V0 : Valuation τ sig (Elt F)) : W16 V0 (no_index (Proc.devRef .tc main_v74)) = val_main_v74 (F := F) (V0 (Proc.devRef .tc main_arg0)) :=
  (W16_keep V0 main_v74 (by decide)).trans (W15_main_v74 V0)
theorem W16_main_v82 (V0 : Valuation τ sig (Elt F)) : W16 V0 (no_index (Proc.devRef .tc main_v82)) = val_main_v82 (F := F) (V0 (Proc.devRef .tc main_arg0)) := by
  unfold W16
  simp only [s16]
  after_results_simp
  rw [W15_main_v72 V0, W15_main_v74 V0]
  try simp only [TRef.ofBuf, TRef.toBuf, cast_eq]
  rfl

/-! ### Operations 107 … 120 -/

abbrev s17 : List (HloOp τ sig (Elt F)) :=
  [ nullary main_c_19 (constantI S_ 32 0#32),
    unary main_c_19 main_v83 (broadcastInDim S2101248 ![] bcast_S_S2101248 : (⟨S_, .i32⟩ : BufTy).Contents (Elt F) → (⟨S2101248, .i32⟩ : BufTy).Contents (Elt F)),
    binary main_v71 main_v83 main_v84 (cmpi .slt : (⟨S2101248, .i32⟩ : BufTy).Contents (Elt F) → (⟨S2101248, .i32⟩ : BufTy).Contents (Elt F) → (⟨S2101248, .i1⟩ : BufTy).Contents (Elt F)),
    nullary main_c_20 (constantI S_ 32 4096#32),
    unary main_c_20 main_v85 (broadcastInDim S2101248 ![] bcast_S_S2101248 : (⟨S_, .i32⟩ : BufTy).Contents (Elt F) → (⟨S2101248, .i32⟩ : BufTy).Contents (Elt F)),
    binary main_v71 main_v85 main_v86 (addi : (⟨S2101248, .i32⟩ : BufTy).Contents (Elt F) → (⟨S2101248, .i32⟩ : BufTy).Contents (Elt F) → (⟨S2101248, .i32⟩ : BufTy).Contents (Elt F)),
    ternary main_v84 main_v86 main_v71 main_v87 (select : (⟨S2101248, .i1⟩ : BufTy).Contents (Elt F) → (⟨S2101248, .i32⟩ : BufTy).Contents (Elt F) → (⟨S2101248, .i32⟩ : BufTy).Contents (Elt F) → (⟨S2101248, .i32⟩ : BufTy).Contents (Elt F)),
    unary main_v87 main_v88 (broadcastInDim S2101248x1 ![0] bcast_S2101248_S2101248x1_0 : (⟨S2101248, .i32⟩ : BufTy).Contents (Elt F) → (⟨S2101248x1, .i32⟩ : BufTy).Contents (Elt F)),
    binary main_v82 main_v88 main_v89 ((fun x i => Host.gather gather_S4096_S2101248x1_S2101248_n_0_n_n_0_1_1 x i) : (⟨S4096, .f32⟩ : BufTy).Contents (Elt F) → (⟨S2101248x1, .i32⟩ : BufTy).Contents (Elt F) → (⟨S2101248, .f32⟩ : BufTy).Contents (Elt F)),
    nullary main_c_21 (constantI S_ 32 0#32),
    unary main_c_21 main_v90 (broadcastInDim S2101248 ![] bcast_S_S2101248 : (⟨S_, .i32⟩ : BufTy).Contents (Elt F) → (⟨S2101248, .i32⟩ : BufTy).Contents (Elt F)),
    binary main_v72 main_v90 main_v91 (cmpi .slt : (⟨S2101248, .i32⟩ : BufTy).Contents (Elt F) → (⟨S2101248, .i32⟩ : BufTy).Contents (Elt F) → (⟨S2101248, .i1⟩ : BufTy).Contents (Elt F)),
    nullary main_c_22 (constantI S_ 32 4096#32),
    unary main_c_22 main_v92 (broadcastInDim S2101248 ![] bcast_S_S2101248 : (⟨S_, .i32⟩ : BufTy).Contents (Elt F) → (⟨S2101248, .i32⟩ : BufTy).Contents (Elt F)) ]
theorem s17_sub : (s17 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩
theorem s17_fresh : ∀ op ∈ (s17 : List (HloOp τ sig (Elt F))), op.fresh = ∅ := by
  intro _ h; (repeat (cases h with | head => rfl | tail _ h => ?_)); exact nomatch h
/-- The buffers these operations write. -/
abbrev s17_W : List (Ref sig .tc) := [main_c_19, main_v83, main_v84, main_c_20, main_v85, main_v86, main_v87, main_v88, main_v89, main_c_21, main_v90, main_v91, main_c_22, main_v92]
theorem s17_writes : (s17 : List (HloOp τ sig (Elt F))).Forall fun op => op.writes ⊆ (s17_W.map (Proc.devRef (τ := τ) .tc)).toFinset := by
  simp only [s17, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 120. -/
def W17 (V0 : Valuation τ sig (Elt F)) : Valuation τ sig (Elt F) := after s17 (W16 V0)
theorem W17_keep (V0 : Valuation τ sig (Elt F)) (r : Ref sig .tc) (h : r ∉ s17_W) :
    W17 V0 (Proc.devRef .tc r) = W16 V0 (Proc.devRef .tc r) :=
  after_of_writes_sub s17 _ s17_writes h
theorem W17_main_arg0 (V0 : Valuation τ sig (Elt F)) : W17 V0 (no_index (Proc.devRef .tc main_arg0)) = V0 (Proc.devRef .tc main_arg0) :=
  (W17_keep V0 main_arg0 (by decide)).trans (W16_main_arg0 V0)
theorem W17_main_arg1 (V0 : Valuation τ sig (Elt F)) : W17 V0 (no_index (Proc.devRef .tc main_arg1)) = V0 (Proc.devRef .tc main_arg1) :=
  (W17_keep V0 main_arg1 (by decide)).trans (W16_main_arg1 V0)
theorem W17_main_arg2 (V0 : Valuation τ sig (Elt F)) : W17 V0 (no_index (Proc.devRef .tc main_arg2)) = V0 (Proc.devRef .tc main_arg2) :=
  (W17_keep V0 main_arg2 (by decide)).trans (W16_main_arg2 V0)
theorem W17_main_arg3 (V0 : Valuation τ sig (Elt F)) : W17 V0 (no_index (Proc.devRef .tc main_arg3)) = V0 (Proc.devRef .tc main_arg3) :=
  (W17_keep V0 main_arg3 (by decide)).trans (W16_main_arg3 V0)
theorem W17_main_arg4 (V0 : Valuation τ sig (Elt F)) : W17 V0 (no_index (Proc.devRef .tc main_arg4)) = V0 (Proc.devRef .tc main_arg4) :=
  (W17_keep V0 main_arg4 (by decide)).trans (W16_main_arg4 V0)
theorem W17_main_arg5 (V0 : Valuation τ sig (Elt F)) : W17 V0 (no_index (Proc.devRef .tc main_arg5)) = V0 (Proc.devRef .tc main_arg5) :=
  (W17_keep V0 main_arg5 (by decide)).trans (W16_main_arg5 V0)
theorem W17_main_arg6 (V0 : Valuation τ sig (Elt F)) : W17 V0 (no_index (Proc.devRef .tc main_arg6)) = V0 (Proc.devRef .tc main_arg6) :=
  (W17_keep V0 main_arg6 (by decide)).trans (W16_main_arg6 V0)
theorem W17_main_arg7 (V0 : Valuation τ sig (Elt F)) : W17 V0 (no_index (Proc.devRef .tc main_arg7)) = V0 (Proc.devRef .tc main_arg7) :=
  (W17_keep V0 main_arg7 (by decide)).trans (W16_main_arg7 V0)
theorem W17_main_v63 (V0 : Valuation τ sig (Elt F)) : W17 V0 (no_index (Proc.devRef .tc main_v63)) = val_main_v63 (F := F) :=
  (W17_keep V0 main_v63 (by decide)).trans (W16_main_v63 V0)
theorem W17_main_v64 (V0 : Valuation τ sig (Elt F)) : W17 V0 (no_index (Proc.devRef .tc main_v64)) = val_main_v64 (F := F) :=
  (W17_keep V0 main_v64 (by decide)).trans (W16_main_v64 V0)
theorem W17_main_v65 (V0 : Valuation τ sig (Elt F)) : W17 V0 (no_index (Proc.devRef .tc main_v65)) = val_main_v65 (F := F) (V0 (Proc.devRef .tc main_arg0)) :=
  (W17_keep V0 main_v65 (by decide)).trans (W16_main_v65 V0)
theorem W17_main_v69 (V0 : Valuation τ sig (Elt F)) : W17 V0 (no_index (Proc.devRef .tc main_v69)) = val_main_v69 (F := F) (V0 (Proc.devRef .tc main_arg1)) (V0 (Proc.devRef .tc main_arg2)) :=
  (W17_keep V0 main_v69 (by decide)).trans (W16_main_v69 V0)
theorem W17_main_v71 (V0 : Valuation τ sig (Elt F)) : W17 V0 (no_index (Proc.devRef .tc main_v71)) = val_main_v71 (F := F) :=
  (W17_keep V0 main_v71 (by decide)).trans (W16_main_v71 V0)
theorem W17_main_v72 (V0 : Valuation τ sig (Elt F)) : W17 V0 (no_index (Proc.devRef .tc main_v72)) = val_main_v72 (F := F) :=
  (W17_keep V0 main_v72 (by decide)).trans (W16_main_v72 V0)
theorem W17_main_v74 (V0 : Valuation τ sig (Elt F)) : W17 V0 (no_index (Proc.devRef .tc main_v74)) = val_main_v74 (F := F) (V0 (Proc.devRef .tc main_arg0)) :=
  (W17_keep V0 main_v74 (by decide)).trans (W16_main_v74 V0)
theorem W17_main_v82 (V0 : Valuation τ sig (Elt F)) : W17 V0 (no_index (Proc.devRef .tc main_v82)) = val_main_v82 (F := F) (V0 (Proc.devRef .tc main_arg0)) :=
  (W17_keep V0 main_v82 (by decide)).trans (W16_main_v82 V0)
theorem W17_main_v89 (V0 : Valuation τ sig (Elt F)) : W17 V0 (no_index (Proc.devRef .tc main_v89)) = val_main_v89 (F := F) (V0 (Proc.devRef .tc main_arg0)) := by
  unfold W17
  simp only [s17]
  after_results_simp
  rw [W16_main_v82 V0, W16_main_v71 V0]
  rfl
theorem W17_main_v91 (V0 : Valuation τ sig (Elt F)) : W17 V0 (no_index (Proc.devRef .tc main_v91)) = val_main_v91 (F := F) := by
  unfold W17
  simp only [s17]
  after_results_simp
  rw [W16_main_v72 V0]
  rfl
theorem W17_main_v92 (V0 : Valuation τ sig (Elt F)) : W17 V0 (no_index (Proc.devRef .tc main_v92)) = val_main_v92 (F := F) := by
  unfold W17
  simp only [s17]
  after_results_simp
  rfl

/-! ### Operations 121 … 122 -/

abbrev s18 : List (HloOp τ sig (Elt F)) :=
  [ binary main_v72 main_v92 main_v93 (addi : (⟨S2101248, .i32⟩ : BufTy).Contents (Elt F) → (⟨S2101248, .i32⟩ : BufTy).Contents (Elt F) → (⟨S2101248, .i32⟩ : BufTy).Contents (Elt F)),
    ternary main_v91 main_v93 main_v72 main_v94 (select : (⟨S2101248, .i1⟩ : BufTy).Contents (Elt F) → (⟨S2101248, .i32⟩ : BufTy).Contents (Elt F) → (⟨S2101248, .i32⟩ : BufTy).Contents (Elt F) → (⟨S2101248, .i32⟩ : BufTy).Contents (Elt F)) ]
theorem s18_sub : (s18 : List (HloOp τ sig (Elt F))).Forall fun op => op.bufs ⊆ tcRefs τ sig :=
  ⟨binary_bufs_sub .., ternary_bufs_sub ..⟩
theorem s18_fresh : ∀ op ∈ (s18 : List (HloOp τ sig (Elt F))), op.fresh = ∅ := by
  intro _ h; (repeat (cases h with | head => rfl | tail _ h => ?_)); exact nomatch h
/-- The buffers these operations write. -/
abbrev s18_W : List (Ref sig .tc) := [main_v93, main_v94]
theorem s18_writes : (s18 : List (HloOp τ sig (Elt F))).Forall fun op => op.writes ⊆ (s18_W.map (Proc.devRef (τ := τ) .tc)).toFinset := by
  simp only [s18, List.Forall, nullary_writes, unary_writes, binary_writes, ternary_writes, reshape_writes, nary_writes, Finset.singleton_subset_iff, List.mem_toFinset]
  refine ⟨?_, ?_⟩ <;> exact List.mem_map_of_mem (by decide)
/-- The buffers' contents after operation 122. -/
def W18 (V0 : Valuation τ sig (Elt F)) : Valuation τ sig (Elt F) := after s18 (W17 V0)
theorem W18_keep (V0 : Valuation τ sig (Elt F)) (r : Ref sig .tc) (h : r ∉ s18_W) :
    W18 V0 (Proc.devRef .tc r) = W17 V0 (Proc.devRef .tc r) :=
  after_of_writes_sub s18 _ s18_writes h
theorem W18_main_arg0 (V0 : Valuation τ sig (Elt F)) : W18 V0 (no_index (Proc.devRef .tc main_arg0)) = V0 (Proc.devRef .tc main_arg0) :=
  (W18_keep V0 main_arg0 (by decide)).trans (W17_main_arg0 V0)
theorem W18_main_arg1 (V0 : Valuation τ sig (Elt F)) : W18 V0 (no_index (Proc.devRef .tc main_arg1)) = V0 (Proc.devRef .tc main_arg1) :=
  (W18_keep V0 main_arg1 (by decide)).trans (W17_main_arg1 V0)
theorem W18_main_arg2 (V0 : Valuation τ sig (Elt F)) : W18 V0 (no_index (Proc.devRef .tc main_arg2)) = V0 (Proc.devRef .tc main_arg2) :=
  (W18_keep V0 main_arg2 (by decide)).trans (W17_main_arg2 V0)
theorem W18_main_arg3 (V0 : Valuation τ sig (Elt F)) : W18 V0 (no_index (Proc.devRef .tc main_arg3)) = V0 (Proc.devRef .tc main_arg3) :=
  (W18_keep V0 main_arg3 (by decide)).trans (W17_main_arg3 V0)
theorem W18_main_arg4 (V0 : Valuation τ sig (Elt F)) : W18 V0 (no_index (Proc.devRef .tc main_arg4)) = V0 (Proc.devRef .tc main_arg4) :=
  (W18_keep V0 main_arg4 (by decide)).trans (W17_main_arg4 V0)
theorem W18_main_arg5 (V0 : Valuation τ sig (Elt F)) : W18 V0 (no_index (Proc.devRef .tc main_arg5)) = V0 (Proc.devRef .tc main_arg5) :=
  (W18_keep V0 main_arg5 (by decide)).trans (W17_main_arg5 V0)
theorem W18_main_arg6 (V0 : Valuation τ sig (Elt F)) : W18 V0 (no_index (Proc.devRef .tc main_arg6)) = V0 (Proc.devRef .tc main_arg6) :=
  (W18_keep V0 main_arg6 (by decide)).trans (W17_main_arg6 V0)
theorem W18_main_arg7 (V0 : Valuation τ sig (Elt F)) : W18 V0 (no_index (Proc.devRef .tc main_arg7)) = V0 (Proc.devRef .tc main_arg7) :=
  (W18_keep V0 main_arg7 (by decide)).trans (W17_main_arg7 V0)
theorem W18_main_v63 (V0 : Valuation τ sig (Elt F)) : W18 V0 (no_index (Proc.devRef .tc main_v63)) = val_main_v63 (F := F) :=
  (W18_keep V0 main_v63 (by decide)).trans (W17_main_v63 V0)
theorem W18_main_v64 (V0 : Valuation τ sig (Elt F)) : W18 V0 (no_index (Proc.devRef .tc main_v64)) = val_main_v64 (F := F) :=
  (W18_keep V0 main_v64 (by decide)).trans (W17_main_v64 V0)
theorem W18_main_v65 (V0 : Valuation τ sig (Elt F)) : W18 V0 (no_index (Proc.devRef .tc main_v65)) = val_main_v65 (F := F) (V0 (Proc.devRef .tc main_arg0)) :=
  (W18_keep V0 main_v65 (by decide)).trans (W17_main_v65 V0)
theorem W18_main_v69 (V0 : Valuation τ sig (Elt F)) : W18 V0 (no_index (Proc.devRef .tc main_v69)) = val_main_v69 (F := F) (V0 (Proc.devRef .tc main_arg1)) (V0 (Proc.devRef .tc main_arg2)) :=
  (W18_keep V0 main_v69 (by decide)).trans (W17_main_v69 V0)
theorem W18_main_v71 (V0 : Valuation τ sig (Elt F)) : W18 V0 (no_index (Proc.devRef .tc main_v71)) = val_main_v71 (F := F) :=
  (W18_keep V0 main_v71 (by decide)).trans (W17_main_v71 V0)
theorem W18_main_v72 (V0 : Valuation τ sig (Elt F)) : W18 V0 (no_index (Proc.devRef .tc main_v72)) = val_main_v72 (F := F) :=
  (W18_keep V0 main_v72 (by decide)).trans (W17_main_v72 V0)
theorem W18_main_v74 (V0 : Valuation τ sig (Elt F)) : W18 V0 (no_index (Proc.devRef .tc main_v74)) = val_main_v74 (F := F) (V0 (Proc.devRef .tc main_arg0)) :=
  (W18_keep V0 main_v74 (by decide)).trans (W17_main_v74 V0)
theorem W18_main_v82 (V0 : Valuation τ sig (Elt F)) : W18 V0 (no_index (Proc.devRef .tc main_v82)) = val_main_v82 (F := F) (V0 (Proc.devRef .tc main_arg0)) :=
  (W18_keep V0 main_v82 (by decide)).trans (W17_main_v82 V0)
theorem W18_main_v89 (V0 : Valuation τ sig (Elt F)) : W18 V0 (no_index (Proc.devRef .tc main_v89)) = val_main_v89 (F := F) (V0 (Proc.devRef .tc main_arg0)) :=
  (W18_keep V0 main_v89 (by decide)).trans (W17_main_v89 V0)
theorem W18_main_v94 (V0 : Valuation τ sig (Elt F)) : W18 V0 (no_index (Proc.devRef .tc main_v94)) = val_main_v94 (F := F) := by
  unfold W18
  simp only [s18]
  after_results_simp
  rw [W17_main_v91 V0, W17_main_v72 V0, W17_main_v92 V0]
  rfl

/-! ### Operations 123 … 136 -/

abbrev s19 : List (HloOp τ sig (Elt F)) :=
  [ unary main_v94 main_v95 (broadcastInDim S2101248x1 ![0] bcast_S2101248_S2101248x1_0 : (⟨S2101248, .i32⟩ : BufTy).Contents (Elt F) → (⟨S2101248x1, .i32⟩ : BufTy).Contents (Elt F)),
    binary main_v82 main_v95 main_v96 ((fun x i => Host.gather gather_S4096_S2101248x1_S2101248_n_0_n_n_0_1_1 x i) : (⟨S4096, .f32⟩ : BufTy).Contents (Elt F) → (⟨S2101248x1, .i32⟩ : BufTy).Contents (Elt F) → (⟨S2101248, .f32⟩ : BufTy).Contents (Elt F)),
    binary main_v89 main_v96 main_v97 (mulf : (⟨S2101248, .f32⟩ : BufTy).Contents (Elt F) → (⟨S2101248, .f32⟩ : BufTy).Contents (Elt F) → (⟨S2101248, .f32⟩ : BufTy).Contents (Elt F)),
    nullary main_c_23 (constantI S_ 32 0#32),
    unary main_c_23 main_v98 (broadcastInDim S2101248 ![] bcast_S_S2101248 : (⟨S_, .i32⟩ : BufTy).Contents (Elt F) → (⟨S2101248, .i32⟩ : BufTy).Contents (Elt F)),
    binary main_v71 main_v98 main_v99 (cmpi .slt : (⟨S2101248, .i32⟩ : BufTy).Contents (Elt F) → (⟨S2101248, .i32⟩ : BufTy).Contents (Elt F) → (⟨S2101248, .i1⟩ : BufTy).Contents (Elt F)),
    nullary main_c_24 (constantI S_ 32 4096#32),
    unary main_c_24 main_v100 (broadcastInDim S2101248 ![] bcast_S_S2101248 : (⟨S_, .i32⟩ : BufTy).Contents (Elt F) → (⟨S2101248, .i32⟩ : BufTy).Contents (Elt F)),
    binary main_v71 main_v100 main_v101 (addi : (⟨S2101248, .i32⟩ : BufTy).Contents (Elt F) → (⟨S2101248, .i32⟩ : BufTy).Contents (Elt F) → (⟨S2101248, .i32⟩ : BufTy).Contents (Elt F)),
    ternary main_v99 main_v101 main_v71 main_v102 (select : (⟨S2101248, .i1⟩ : BufTy).Contents (Elt F) → (⟨S2101248, .i32⟩ : BufTy).Contents (Elt F) → (⟨S2101248, .i32⟩ : BufTy).Contents (Elt F) → (⟨S2101248, .i32⟩ : BufTy).Contents (Elt F)),
    unary main_v102 main_v103 (broadcastInDim S2101248x1 ![0] bcast_S2101248_S2101248x1_0 : (⟨S2101248, .i32⟩ : BufTy).Contents (Elt F) → (⟨S2101248x1, .i32⟩ : BufTy).Contents (Elt F)),
    binary main_v69 main_v103 main_v104 ((fun x i => Host.gather gather_S4096x16_S2101248x1_S2101248x16_1_0_n_n_0_1_116 x i) : (⟨S4096x16, .f32⟩ : BufTy).Contents (Elt F) → (⟨S2101248x1, .i32⟩ : BufTy).Contents (Elt F) → (⟨S2101248x16, .f32⟩ : BufTy).Contents (Elt F)),
    binary main_v74 main_v97 main_v105 (mulf : (⟨S2101248, .f32⟩ : BufTy).Contents (Elt F) → (⟨S2101248, .f32⟩ : BufTy).Contents (Elt F) → (⟨S2101248, .f32⟩ : BufTy).Contents (Elt F)),
    unary main_v105 main_v106 (broadcastInDim S2101248x1 ![0] bcast_S2101248_S2101248x1_0 : (⟨S2101248, .f32⟩ : BufTy).Contents (Elt F) → (⟨S2101248x1, .f32⟩ : BufTy).Contents (Elt F)) ]
theorem s19_sub : (s19 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩
theorem s19_fresh : ∀ op ∈ (s19 : List (HloOp τ sig (Elt F))), op.fresh = ∅ := by
  intro _ h; (repeat (cases h with | head => rfl | tail _ h => ?_)); exact nomatch h
/-- The buffers these operations write. -/
abbrev s19_W : List (Ref sig .tc) := [main_v95, main_v96, main_v97, main_c_23, main_v98, main_v99, main_c_24, main_v100, main_v101, main_v102, main_v103, main_v104, main_v105, main_v106]
theorem s19_writes : (s19 : List (HloOp τ sig (Elt F))).Forall fun op => op.writes ⊆ (s19_W.map (Proc.devRef (τ := τ) .tc)).toFinset := by
  simp only [s19, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 136. -/
def W19 (V0 : Valuation τ sig (Elt F)) : Valuation τ sig (Elt F) := after s19 (W18 V0)
theorem W19_keep (V0 : Valuation τ sig (Elt F)) (r : Ref sig .tc) (h : r ∉ s19_W) :
    W19 V0 (Proc.devRef .tc r) = W18 V0 (Proc.devRef .tc r) :=
  after_of_writes_sub s19 _ s19_writes h
theorem W19_main_arg0 (V0 : Valuation τ sig (Elt F)) : W19 V0 (no_index (Proc.devRef .tc main_arg0)) = V0 (Proc.devRef .tc main_arg0) :=
  (W19_keep V0 main_arg0 (by decide)).trans (W18_main_arg0 V0)
theorem W19_main_arg1 (V0 : Valuation τ sig (Elt F)) : W19 V0 (no_index (Proc.devRef .tc main_arg1)) = V0 (Proc.devRef .tc main_arg1) :=
  (W19_keep V0 main_arg1 (by decide)).trans (W18_main_arg1 V0)
theorem W19_main_arg2 (V0 : Valuation τ sig (Elt F)) : W19 V0 (no_index (Proc.devRef .tc main_arg2)) = V0 (Proc.devRef .tc main_arg2) :=
  (W19_keep V0 main_arg2 (by decide)).trans (W18_main_arg2 V0)
theorem W19_main_arg3 (V0 : Valuation τ sig (Elt F)) : W19 V0 (no_index (Proc.devRef .tc main_arg3)) = V0 (Proc.devRef .tc main_arg3) :=
  (W19_keep V0 main_arg3 (by decide)).trans (W18_main_arg3 V0)
theorem W19_main_arg4 (V0 : Valuation τ sig (Elt F)) : W19 V0 (no_index (Proc.devRef .tc main_arg4)) = V0 (Proc.devRef .tc main_arg4) :=
  (W19_keep V0 main_arg4 (by decide)).trans (W18_main_arg4 V0)
theorem W19_main_arg5 (V0 : Valuation τ sig (Elt F)) : W19 V0 (no_index (Proc.devRef .tc main_arg5)) = V0 (Proc.devRef .tc main_arg5) :=
  (W19_keep V0 main_arg5 (by decide)).trans (W18_main_arg5 V0)
theorem W19_main_arg6 (V0 : Valuation τ sig (Elt F)) : W19 V0 (no_index (Proc.devRef .tc main_arg6)) = V0 (Proc.devRef .tc main_arg6) :=
  (W19_keep V0 main_arg6 (by decide)).trans (W18_main_arg6 V0)
theorem W19_main_arg7 (V0 : Valuation τ sig (Elt F)) : W19 V0 (no_index (Proc.devRef .tc main_arg7)) = V0 (Proc.devRef .tc main_arg7) :=
  (W19_keep V0 main_arg7 (by decide)).trans (W18_main_arg7 V0)
theorem W19_main_v63 (V0 : Valuation τ sig (Elt F)) : W19 V0 (no_index (Proc.devRef .tc main_v63)) = val_main_v63 (F := F) :=
  (W19_keep V0 main_v63 (by decide)).trans (W18_main_v63 V0)
theorem W19_main_v64 (V0 : Valuation τ sig (Elt F)) : W19 V0 (no_index (Proc.devRef .tc main_v64)) = val_main_v64 (F := F) :=
  (W19_keep V0 main_v64 (by decide)).trans (W18_main_v64 V0)
theorem W19_main_v65 (V0 : Valuation τ sig (Elt F)) : W19 V0 (no_index (Proc.devRef .tc main_v65)) = val_main_v65 (F := F) (V0 (Proc.devRef .tc main_arg0)) :=
  (W19_keep V0 main_v65 (by decide)).trans (W18_main_v65 V0)
theorem W19_main_v72 (V0 : Valuation τ sig (Elt F)) : W19 V0 (no_index (Proc.devRef .tc main_v72)) = val_main_v72 (F := F) :=
  (W19_keep V0 main_v72 (by decide)).trans (W18_main_v72 V0)
theorem W19_main_v104 (V0 : Valuation τ sig (Elt F)) : W19 V0 (no_index (Proc.devRef .tc main_v104)) = val_main_v104 (F := F) (V0 (Proc.devRef .tc main_arg1)) (V0 (Proc.devRef .tc main_arg2)) := by
  unfold W19
  simp only [s19]
  after_results_simp
  rw [W18_main_v69 V0, W18_main_v71 V0]
  rfl
theorem W19_main_v106 (V0 : Valuation τ sig (Elt F)) : W19 V0 (no_index (Proc.devRef .tc main_v106)) = val_main_v106 (F := F) (V0 (Proc.devRef .tc main_arg0)) := by
  unfold W19
  simp only [s19]
  after_results_simp
  rw [W18_main_v74 V0, W18_main_v89 V0, W18_main_v82 V0, W18_main_v94 V0]
  rfl

/-! ### Operations 137 … 150 -/

abbrev s20 : List (HloOp τ sig (Elt F)) :=
  [ unary main_v106 main_v107 (broadcastInDim S2101248x16 ![0, 1] bcast_S2101248x1_S2101248x16_0_1 : (⟨S2101248x1, .f32⟩ : BufTy).Contents (Elt F) → (⟨S2101248x16, .f32⟩ : BufTy).Contents (Elt F)),
    binary main_v104 main_v107 main_v108 (mulf : (⟨S2101248x16, .f32⟩ : BufTy).Contents (Elt F) → (⟨S2101248x16, .f32⟩ : BufTy).Contents (Elt F) → (⟨S2101248x16, .f32⟩ : BufTy).Contents (Elt F)),
    nullary main_cst_25 (constant S_ .f32 0x00000000#32),
    unary main_cst_25 main_v109 (broadcastInDim S4096x16 ![] bcast_S_S4096x16 : (⟨S_, .f32⟩ : BufTy).Contents (Elt F) → (⟨S4096x16, .f32⟩ : BufTy).Contents (Elt F)),
    unary main_v72 main_v110 (broadcastInDim S2101248x1 ![0] bcast_S2101248_S2101248x1_0 : (⟨S2101248, .i32⟩ : BufTy).Contents (Elt F) → (⟨S2101248x1, .i32⟩ : BufTy).Contents (Elt F)),
    ternary main_v109 main_v110 main_v108 main_v111 ((fun x i u => Host.scatterAdd scatter_S4096x16_S2101248x1_S2101248x16_1_0_0_1 x i u) : (⟨S4096x16, .f32⟩ : BufTy).Contents (Elt F) → (⟨S2101248x1, .i32⟩ : BufTy).Contents (Elt F) → (⟨S2101248x16, .f32⟩ : BufTy).Contents (Elt F) → (⟨S4096x16, .f32⟩ : BufTy).Contents (Elt F)),
    unary main_arg3 main_v112 (broadcastInDim S1x16 ![1] bcast_S16_S1x16_1 : (⟨S16, .f32⟩ : BufTy).Contents (Elt F) → (⟨S1x16, .f32⟩ : BufTy).Contents (Elt F)),
    unary main_v112 main_v113 (broadcastInDim S4096x16 ![0, 1] bcast_S1x16_S4096x16_0_1 : (⟨S1x16, .f32⟩ : BufTy).Contents (Elt F) → (⟨S4096x16, .f32⟩ : BufTy).Contents (Elt F)),
    binary main_v111 main_v113 main_v114 (addf : (⟨S4096x16, .f32⟩ : BufTy).Contents (Elt F) → (⟨S4096x16, .f32⟩ : BufTy).Contents (Elt F) → (⟨S4096x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x16, .f32⟩) main_call1_v0) (broadcastInDim S4096x16 ![] bcast_S_S4096x16),
    TRef.binary (TRef.of (T := ⟨S4096x16, .f32⟩) main_v114) (TRef.of (T := ⟨S4096x16, .f32⟩) main_call1_v0) (TRef.of (T := ⟨S4096x16, .f32⟩) main_v115) maximumf,
    binary main_v115 main_arg4 main_v116 ((fun l r => Host.dotGeneral dot_S4096x16_S16x32_S4096x32_1_0_0_1_n_n none l r) : (⟨S4096x16, .f32⟩ : BufTy).Contents (Elt F) → (⟨S16x32, .f32⟩ : BufTy).Contents (Elt F) → (⟨S4096x32, .f32⟩ : BufTy).Contents (Elt F)),
    nullary main_v117 (iotaInDim S4096 32 0) ]
theorem s20_sub : (s20 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub ..⟩
theorem s20_fresh : ∀ op ∈ (s20 : List (HloOp τ sig (Elt F))), op.fresh = ∅ := by
  intro _ h; (repeat (cases h with | head => rfl | tail _ h => ?_)); exact nomatch h
/-- The buffers these operations write. -/
abbrev s20_W : List (Ref sig .tc) := [main_v107, main_v108, main_cst_25, main_v109, main_v110, main_v111, main_v112, main_v113, main_v114, main_call1_cst, main_call1_v0, main_v115, main_v116, main_v117]
theorem s20_writes : (s20 : List (HloOp τ sig (Elt F))).Forall fun op => op.writes ⊆ (s20_W.map (Proc.devRef (τ := τ) .tc)).toFinset := by
  simp only [s20, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 150. -/
def W20 (V0 : Valuation τ sig (Elt F)) : Valuation τ sig (Elt F) := after s20 (W19 V0)
theorem W20_keep (V0 : Valuation τ sig (Elt F)) (r : Ref sig .tc) (h : r ∉ s20_W) :
    W20 V0 (Proc.devRef .tc r) = W19 V0 (Proc.devRef .tc r) :=
  after_of_writes_sub s20 _ s20_writes h
theorem W20_main_arg0 (V0 : Valuation τ sig (Elt F)) : W20 V0 (no_index (Proc.devRef .tc main_arg0)) = V0 (Proc.devRef .tc main_arg0) :=
  (W20_keep V0 main_arg0 (by decide)).trans (W19_main_arg0 V0)
theorem W20_main_arg1 (V0 : Valuation τ sig (Elt F)) : W20 V0 (no_index (Proc.devRef .tc main_arg1)) = V0 (Proc.devRef .tc main_arg1) :=
  (W20_keep V0 main_arg1 (by decide)).trans (W19_main_arg1 V0)
theorem W20_main_arg2 (V0 : Valuation τ sig (Elt F)) : W20 V0 (no_index (Proc.devRef .tc main_arg2)) = V0 (Proc.devRef .tc main_arg2) :=
  (W20_keep V0 main_arg2 (by decide)).trans (W19_main_arg2 V0)
theorem W20_main_arg3 (V0 : Valuation τ sig (Elt F)) : W20 V0 (no_index (Proc.devRef .tc main_arg3)) = V0 (Proc.devRef .tc main_arg3) :=
  (W20_keep V0 main_arg3 (by decide)).trans (W19_main_arg3 V0)
theorem W20_main_arg4 (V0 : Valuation τ sig (Elt F)) : W20 V0 (no_index (Proc.devRef .tc main_arg4)) = V0 (Proc.devRef .tc main_arg4) :=
  (W20_keep V0 main_arg4 (by decide)).trans (W19_main_arg4 V0)
theorem W20_main_arg5 (V0 : Valuation τ sig (Elt F)) : W20 V0 (no_index (Proc.devRef .tc main_arg5)) = V0 (Proc.devRef .tc main_arg5) :=
  (W20_keep V0 main_arg5 (by decide)).trans (W19_main_arg5 V0)
theorem W20_main_arg6 (V0 : Valuation τ sig (Elt F)) : W20 V0 (no_index (Proc.devRef .tc main_arg6)) = V0 (Proc.devRef .tc main_arg6) :=
  (W20_keep V0 main_arg6 (by decide)).trans (W19_main_arg6 V0)
theorem W20_main_arg7 (V0 : Valuation τ sig (Elt F)) : W20 V0 (no_index (Proc.devRef .tc main_arg7)) = V0 (Proc.devRef .tc main_arg7) :=
  (W20_keep V0 main_arg7 (by decide)).trans (W19_main_arg7 V0)
theorem W20_main_v63 (V0 : Valuation τ sig (Elt F)) : W20 V0 (no_index (Proc.devRef .tc main_v63)) = val_main_v63 (F := F) :=
  (W20_keep V0 main_v63 (by decide)).trans (W19_main_v63 V0)
theorem W20_main_v64 (V0 : Valuation τ sig (Elt F)) : W20 V0 (no_index (Proc.devRef .tc main_v64)) = val_main_v64 (F := F) :=
  (W20_keep V0 main_v64 (by decide)).trans (W19_main_v64 V0)
theorem W20_main_v65 (V0 : Valuation τ sig (Elt F)) : W20 V0 (no_index (Proc.devRef .tc main_v65)) = val_main_v65 (F := F) (V0 (Proc.devRef .tc main_arg0)) :=
  (W20_keep V0 main_v65 (by decide)).trans (W19_main_v65 V0)
theorem W20_main_v116 (V0 : Valuation τ sig (Elt F)) : W20 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) := by
  unfold W20
  simp only [s20]
  after_results_simp
  rw [W19_main_v72 V0, W19_main_v104 V0, W19_main_v106 V0, W19_main_arg3 V0, W19_main_arg4 V0]
  try simp only [TRef.ofBuf, TRef.toBuf, cast_eq]
  rfl
theorem W20_main_v117 (V0 : Valuation τ sig (Elt F)) : W20 V0 (no_index (Proc.devRef .tc main_v117)) = val_main_v117 (F := F) := by
  unfold W20
  simp only [s20]
  after_results_simp
  rfl

/-! ### Operations 151 … 151 -/

abbrev s21 : List (HloOp τ sig (Elt F)) :=
  [ binary main_v63 main_v117 main_v118 ((fun a b => concatenate S2101248 0 [⟨S2097152, a⟩, ⟨S4096, b⟩] concatenates_S2097152_S4096_S2101248_d0) : (⟨S2097152, .i32⟩ : BufTy).Contents (Elt F) → (⟨S4096, .i32⟩ : BufTy).Contents (Elt F) → (⟨S2101248, .i32⟩ : BufTy).Contents (Elt F)) ]
theorem s21_sub : (s21 : List (HloOp τ sig (Elt F))).Forall fun op => op.bufs ⊆ tcRefs τ sig :=
  binary_bufs_sub ..
theorem s21_fresh : ∀ op ∈ (s21 : List (HloOp τ sig (Elt F))), op.fresh = ∅ := by
  intro _ h; (repeat (cases h with | head => rfl | tail _ h => ?_)); exact nomatch h
/-- The buffers these operations write. -/
abbrev s21_W : List (Ref sig .tc) := [main_v118]
theorem s21_writes : (s21 : List (HloOp τ sig (Elt F))).Forall fun op => op.writes ⊆ (s21_W.map (Proc.devRef (τ := τ) .tc)).toFinset := by
  simp only [s21, List.Forall, nullary_writes, unary_writes, binary_writes, ternary_writes, reshape_writes, nary_writes, Finset.singleton_subset_iff, List.mem_toFinset]
  exact List.mem_map_of_mem (by decide)
/-- The buffers' contents after operation 151. -/
def W21 (V0 : Valuation τ sig (Elt F)) : Valuation τ sig (Elt F) := after s21 (W20 V0)
theorem W21_keep (V0 : Valuation τ sig (Elt F)) (r : Ref sig .tc) (h : r ∉ s21_W) :
    W21 V0 (Proc.devRef .tc r) = W20 V0 (Proc.devRef .tc r) :=
  after_of_writes_sub s21 _ s21_writes h
theorem W21_main_arg0 (V0 : Valuation τ sig (Elt F)) : W21 V0 (no_index (Proc.devRef .tc main_arg0)) = V0 (Proc.devRef .tc main_arg0) :=
  (W21_keep V0 main_arg0 (by decide)).trans (W20_main_arg0 V0)
theorem W21_main_arg1 (V0 : Valuation τ sig (Elt F)) : W21 V0 (no_index (Proc.devRef .tc main_arg1)) = V0 (Proc.devRef .tc main_arg1) :=
  (W21_keep V0 main_arg1 (by decide)).trans (W20_main_arg1 V0)
theorem W21_main_arg2 (V0 : Valuation τ sig (Elt F)) : W21 V0 (no_index (Proc.devRef .tc main_arg2)) = V0 (Proc.devRef .tc main_arg2) :=
  (W21_keep V0 main_arg2 (by decide)).trans (W20_main_arg2 V0)
theorem W21_main_arg3 (V0 : Valuation τ sig (Elt F)) : W21 V0 (no_index (Proc.devRef .tc main_arg3)) = V0 (Proc.devRef .tc main_arg3) :=
  (W21_keep V0 main_arg3 (by decide)).trans (W20_main_arg3 V0)
theorem W21_main_arg4 (V0 : Valuation τ sig (Elt F)) : W21 V0 (no_index (Proc.devRef .tc main_arg4)) = V0 (Proc.devRef .tc main_arg4) :=
  (W21_keep V0 main_arg4 (by decide)).trans (W20_main_arg4 V0)
theorem W21_main_arg5 (V0 : Valuation τ sig (Elt F)) : W21 V0 (no_index (Proc.devRef .tc main_arg5)) = V0 (Proc.devRef .tc main_arg5) :=
  (W21_keep V0 main_arg5 (by decide)).trans (W20_main_arg5 V0)
theorem W21_main_arg6 (V0 : Valuation τ sig (Elt F)) : W21 V0 (no_index (Proc.devRef .tc main_arg6)) = V0 (Proc.devRef .tc main_arg6) :=
  (W21_keep V0 main_arg6 (by decide)).trans (W20_main_arg6 V0)
theorem W21_main_arg7 (V0 : Valuation τ sig (Elt F)) : W21 V0 (no_index (Proc.devRef .tc main_arg7)) = V0 (Proc.devRef .tc main_arg7) :=
  (W21_keep V0 main_arg7 (by decide)).trans (W20_main_arg7 V0)
theorem W21_main_v63 (V0 : Valuation τ sig (Elt F)) : W21 V0 (no_index (Proc.devRef .tc main_v63)) = val_main_v63 (F := F) :=
  (W21_keep V0 main_v63 (by decide)).trans (W20_main_v63 V0)
theorem W21_main_v64 (V0 : Valuation τ sig (Elt F)) : W21 V0 (no_index (Proc.devRef .tc main_v64)) = val_main_v64 (F := F) :=
  (W21_keep V0 main_v64 (by decide)).trans (W20_main_v64 V0)
theorem W21_main_v65 (V0 : Valuation τ sig (Elt F)) : W21 V0 (no_index (Proc.devRef .tc main_v65)) = val_main_v65 (F := F) (V0 (Proc.devRef .tc main_arg0)) :=
  (W21_keep V0 main_v65 (by decide)).trans (W20_main_v65 V0)
theorem W21_main_v116 (V0 : Valuation τ sig (Elt F)) : W21 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) :=
  (W21_keep V0 main_v116 (by decide)).trans (W20_main_v116 V0)
theorem W21_main_v117 (V0 : Valuation τ sig (Elt F)) : W21 V0 (no_index (Proc.devRef .tc main_v117)) = val_main_v117 (F := F) :=
  (W21_keep V0 main_v117 (by decide)).trans (W20_main_v117 V0)
theorem W21_main_v118 (V0 : Valuation τ sig (Elt F)) : W21 V0 (no_index (Proc.devRef .tc main_v118)) = val_main_v118 (F := F) := by
  unfold W21
  simp only [s21, after_cons, after_nil]
  rw [binary_result]
  rw [W20_main_v63 V0, W20_main_v117 V0]
  rfl

/-! ### Operations 152 … 152 -/

abbrev s22 : List (HloOp τ sig (Elt F)) :=
  [ binary main_v64 main_v117 main_v119 ((fun a b => concatenate S2101248 0 [⟨S2097152, a⟩, ⟨S4096, b⟩] concatenates_S2097152_S4096_S2101248_d0) : (⟨S2097152, .i32⟩ : BufTy).Contents (Elt F) → (⟨S4096, .i32⟩ : BufTy).Contents (Elt F) → (⟨S2101248, .i32⟩ : BufTy).Contents (Elt F)) ]
theorem s22_sub : (s22 : List (HloOp τ sig (Elt F))).Forall fun op => op.bufs ⊆ tcRefs τ sig :=
  binary_bufs_sub ..
theorem s22_fresh : ∀ op ∈ (s22 : List (HloOp τ sig (Elt F))), op.fresh = ∅ := by
  intro _ h; (repeat (cases h with | head => rfl | tail _ h => ?_)); exact nomatch h
/-- The buffers these operations write. -/
abbrev s22_W : List (Ref sig .tc) := [main_v119]
theorem s22_writes : (s22 : List (HloOp τ sig (Elt F))).Forall fun op => op.writes ⊆ (s22_W.map (Proc.devRef (τ := τ) .tc)).toFinset := by
  simp only [s22, List.Forall, nullary_writes, unary_writes, binary_writes, ternary_writes, reshape_writes, nary_writes, Finset.singleton_subset_iff, List.mem_toFinset]
  exact List.mem_map_of_mem (by decide)
/-- The buffers' contents after operation 152. -/
def W22 (V0 : Valuation τ sig (Elt F)) : Valuation τ sig (Elt F) := after s22 (W21 V0)
theorem W22_keep (V0 : Valuation τ sig (Elt F)) (r : Ref sig .tc) (h : r ∉ s22_W) :
    W22 V0 (Proc.devRef .tc r) = W21 V0 (Proc.devRef .tc r) :=
  after_of_writes_sub s22 _ s22_writes h
theorem W22_main_arg0 (V0 : Valuation τ sig (Elt F)) : W22 V0 (no_index (Proc.devRef .tc main_arg0)) = V0 (Proc.devRef .tc main_arg0) :=
  (W22_keep V0 main_arg0 (by decide)).trans (W21_main_arg0 V0)
theorem W22_main_arg1 (V0 : Valuation τ sig (Elt F)) : W22 V0 (no_index (Proc.devRef .tc main_arg1)) = V0 (Proc.devRef .tc main_arg1) :=
  (W22_keep V0 main_arg1 (by decide)).trans (W21_main_arg1 V0)
theorem W22_main_arg2 (V0 : Valuation τ sig (Elt F)) : W22 V0 (no_index (Proc.devRef .tc main_arg2)) = V0 (Proc.devRef .tc main_arg2) :=
  (W22_keep V0 main_arg2 (by decide)).trans (W21_main_arg2 V0)
theorem W22_main_arg3 (V0 : Valuation τ sig (Elt F)) : W22 V0 (no_index (Proc.devRef .tc main_arg3)) = V0 (Proc.devRef .tc main_arg3) :=
  (W22_keep V0 main_arg3 (by decide)).trans (W21_main_arg3 V0)
theorem W22_main_arg4 (V0 : Valuation τ sig (Elt F)) : W22 V0 (no_index (Proc.devRef .tc main_arg4)) = V0 (Proc.devRef .tc main_arg4) :=
  (W22_keep V0 main_arg4 (by decide)).trans (W21_main_arg4 V0)
theorem W22_main_arg5 (V0 : Valuation τ sig (Elt F)) : W22 V0 (no_index (Proc.devRef .tc main_arg5)) = V0 (Proc.devRef .tc main_arg5) :=
  (W22_keep V0 main_arg5 (by decide)).trans (W21_main_arg5 V0)
theorem W22_main_arg6 (V0 : Valuation τ sig (Elt F)) : W22 V0 (no_index (Proc.devRef .tc main_arg6)) = V0 (Proc.devRef .tc main_arg6) :=
  (W22_keep V0 main_arg6 (by decide)).trans (W21_main_arg6 V0)
theorem W22_main_arg7 (V0 : Valuation τ sig (Elt F)) : W22 V0 (no_index (Proc.devRef .tc main_arg7)) = V0 (Proc.devRef .tc main_arg7) :=
  (W22_keep V0 main_arg7 (by decide)).trans (W21_main_arg7 V0)
theorem W22_main_v63 (V0 : Valuation τ sig (Elt F)) : W22 V0 (no_index (Proc.devRef .tc main_v63)) = val_main_v63 (F := F) :=
  (W22_keep V0 main_v63 (by decide)).trans (W21_main_v63 V0)
theorem W22_main_v64 (V0 : Valuation τ sig (Elt F)) : W22 V0 (no_index (Proc.devRef .tc main_v64)) = val_main_v64 (F := F) :=
  (W22_keep V0 main_v64 (by decide)).trans (W21_main_v64 V0)
theorem W22_main_v65 (V0 : Valuation τ sig (Elt F)) : W22 V0 (no_index (Proc.devRef .tc main_v65)) = val_main_v65 (F := F) (V0 (Proc.devRef .tc main_arg0)) :=
  (W22_keep V0 main_v65 (by decide)).trans (W21_main_v65 V0)
theorem W22_main_v116 (V0 : Valuation τ sig (Elt F)) : W22 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) :=
  (W22_keep V0 main_v116 (by decide)).trans (W21_main_v116 V0)
theorem W22_main_v118 (V0 : Valuation τ sig (Elt F)) : W22 V0 (no_index (Proc.devRef .tc main_v118)) = val_main_v118 (F := F) :=
  (W22_keep V0 main_v118 (by decide)).trans (W21_main_v118 V0)
theorem W22_main_v119 (V0 : Valuation τ sig (Elt F)) : W22 V0 (no_index (Proc.devRef .tc main_v119)) = val_main_v119 (F := F) := by
  unfold W22
  simp only [s22, after_cons, after_nil]
  rw [binary_result]
  rw [W21_main_v64 V0, W21_main_v117 V0]
  rfl

/-! ### Operations 153 … 154 -/

abbrev s23 : List (HloOp τ sig (Elt F)) :=
  [ nullary main_cst_26 (constant S_ .f32 0x3F800000#32),
    unary main_cst_26 main_v120 (broadcastInDim S4096 ![] bcast_S_S4096 : (⟨S_, .f32⟩ : BufTy).Contents (Elt F) → (⟨S4096, .f32⟩ : BufTy).Contents (Elt F)) ]
theorem s23_sub : (s23 : List (HloOp τ sig (Elt F))).Forall fun op => op.bufs ⊆ tcRefs τ sig :=
  ⟨nullary_bufs_sub .., unary_bufs_sub ..⟩
theorem s23_fresh : ∀ op ∈ (s23 : List (HloOp τ sig (Elt F))), op.fresh = ∅ := by
  intro _ h; (repeat (cases h with | head => rfl | tail _ h => ?_)); exact nomatch h
/-- The buffers these operations write. -/
abbrev s23_W : List (Ref sig .tc) := [main_cst_26, main_v120]
theorem s23_writes : (s23 : List (HloOp τ sig (Elt F))).Forall fun op => op.writes ⊆ (s23_W.map (Proc.devRef (τ := τ) .tc)).toFinset := by
  simp only [s23, List.Forall, nullary_writes, unary_writes, binary_writes, ternary_writes, reshape_writes, nary_writes, Finset.singleton_subset_iff, List.mem_toFinset]
  refine ⟨?_, ?_⟩ <;> exact List.mem_map_of_mem (by decide)
/-- The buffers' contents after operation 154. -/
def W23 (V0 : Valuation τ sig (Elt F)) : Valuation τ sig (Elt F) := after s23 (W22 V0)
theorem W23_keep (V0 : Valuation τ sig (Elt F)) (r : Ref sig .tc) (h : r ∉ s23_W) :
    W23 V0 (Proc.devRef .tc r) = W22 V0 (Proc.devRef .tc r) :=
  after_of_writes_sub s23 _ s23_writes h
theorem W23_main_arg0 (V0 : Valuation τ sig (Elt F)) : W23 V0 (no_index (Proc.devRef .tc main_arg0)) = V0 (Proc.devRef .tc main_arg0) :=
  (W23_keep V0 main_arg0 (by decide)).trans (W22_main_arg0 V0)
theorem W23_main_arg1 (V0 : Valuation τ sig (Elt F)) : W23 V0 (no_index (Proc.devRef .tc main_arg1)) = V0 (Proc.devRef .tc main_arg1) :=
  (W23_keep V0 main_arg1 (by decide)).trans (W22_main_arg1 V0)
theorem W23_main_arg2 (V0 : Valuation τ sig (Elt F)) : W23 V0 (no_index (Proc.devRef .tc main_arg2)) = V0 (Proc.devRef .tc main_arg2) :=
  (W23_keep V0 main_arg2 (by decide)).trans (W22_main_arg2 V0)
theorem W23_main_arg3 (V0 : Valuation τ sig (Elt F)) : W23 V0 (no_index (Proc.devRef .tc main_arg3)) = V0 (Proc.devRef .tc main_arg3) :=
  (W23_keep V0 main_arg3 (by decide)).trans (W22_main_arg3 V0)
theorem W23_main_arg4 (V0 : Valuation τ sig (Elt F)) : W23 V0 (no_index (Proc.devRef .tc main_arg4)) = V0 (Proc.devRef .tc main_arg4) :=
  (W23_keep V0 main_arg4 (by decide)).trans (W22_main_arg4 V0)
theorem W23_main_arg5 (V0 : Valuation τ sig (Elt F)) : W23 V0 (no_index (Proc.devRef .tc main_arg5)) = V0 (Proc.devRef .tc main_arg5) :=
  (W23_keep V0 main_arg5 (by decide)).trans (W22_main_arg5 V0)
theorem W23_main_arg6 (V0 : Valuation τ sig (Elt F)) : W23 V0 (no_index (Proc.devRef .tc main_arg6)) = V0 (Proc.devRef .tc main_arg6) :=
  (W23_keep V0 main_arg6 (by decide)).trans (W22_main_arg6 V0)
theorem W23_main_arg7 (V0 : Valuation τ sig (Elt F)) : W23 V0 (no_index (Proc.devRef .tc main_arg7)) = V0 (Proc.devRef .tc main_arg7) :=
  (W23_keep V0 main_arg7 (by decide)).trans (W22_main_arg7 V0)
theorem W23_main_v63 (V0 : Valuation τ sig (Elt F)) : W23 V0 (no_index (Proc.devRef .tc main_v63)) = val_main_v63 (F := F) :=
  (W23_keep V0 main_v63 (by decide)).trans (W22_main_v63 V0)
theorem W23_main_v64 (V0 : Valuation τ sig (Elt F)) : W23 V0 (no_index (Proc.devRef .tc main_v64)) = val_main_v64 (F := F) :=
  (W23_keep V0 main_v64 (by decide)).trans (W22_main_v64 V0)
theorem W23_main_v65 (V0 : Valuation τ sig (Elt F)) : W23 V0 (no_index (Proc.devRef .tc main_v65)) = val_main_v65 (F := F) (V0 (Proc.devRef .tc main_arg0)) :=
  (W23_keep V0 main_v65 (by decide)).trans (W22_main_v65 V0)
theorem W23_main_v116 (V0 : Valuation τ sig (Elt F)) : W23 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) :=
  (W23_keep V0 main_v116 (by decide)).trans (W22_main_v116 V0)
theorem W23_main_v118 (V0 : Valuation τ sig (Elt F)) : W23 V0 (no_index (Proc.devRef .tc main_v118)) = val_main_v118 (F := F) :=
  (W23_keep V0 main_v118 (by decide)).trans (W22_main_v118 V0)
theorem W23_main_v119 (V0 : Valuation τ sig (Elt F)) : W23 V0 (no_index (Proc.devRef .tc main_v119)) = val_main_v119 (F := F) :=
  (W23_keep V0 main_v119 (by decide)).trans (W22_main_v119 V0)
theorem W23_main_v120 (V0 : Valuation τ sig (Elt F)) : W23 V0 (no_index (Proc.devRef .tc main_v120)) = val_main_v120 (F := F) := by
  unfold W23
  simp only [s23]
  after_results_simp
  rfl

/-! ### Operations 155 … 155 -/

abbrev s24 : List (HloOp τ sig (Elt F)) :=
  [ binary main_v65 main_v120 main_v121 ((fun a b => concatenate S2101248 0 [⟨S2097152, a⟩, ⟨S4096, b⟩] concatenates_S2097152_S4096_S2101248_d0) : (⟨S2097152, .f32⟩ : BufTy).Contents (Elt F) → (⟨S4096, .f32⟩ : BufTy).Contents (Elt F) → (⟨S2101248, .f32⟩ : BufTy).Contents (Elt F)) ]
theorem s24_sub : (s24 : List (HloOp τ sig (Elt F))).Forall fun op => op.bufs ⊆ tcRefs τ sig :=
  binary_bufs_sub ..
theorem s24_fresh : ∀ op ∈ (s24 : List (HloOp τ sig (Elt F))), op.fresh = ∅ := by
  intro _ h; (repeat (cases h with | head => rfl | tail _ h => ?_)); exact nomatch h
/-- The buffers these operations write. -/
abbrev s24_W : List (Ref sig .tc) := [main_v121]
theorem s24_writes : (s24 : List (HloOp τ sig (Elt F))).Forall fun op => op.writes ⊆ (s24_W.map (Proc.devRef (τ := τ) .tc)).toFinset := by
  simp only [s24, List.Forall, nullary_writes, unary_writes, binary_writes, ternary_writes, reshape_writes, nary_writes, Finset.singleton_subset_iff, List.mem_toFinset]
  exact List.mem_map_of_mem (by decide)
/-- The buffers' contents after operation 155. -/
def W24 (V0 : Valuation τ sig (Elt F)) : Valuation τ sig (Elt F) := after s24 (W23 V0)
theorem W24_keep (V0 : Valuation τ sig (Elt F)) (r : Ref sig .tc) (h : r ∉ s24_W) :
    W24 V0 (Proc.devRef .tc r) = W23 V0 (Proc.devRef .tc r) :=
  after_of_writes_sub s24 _ s24_writes h
theorem W24_main_arg0 (V0 : Valuation τ sig (Elt F)) : W24 V0 (no_index (Proc.devRef .tc main_arg0)) = V0 (Proc.devRef .tc main_arg0) :=
  (W24_keep V0 main_arg0 (by decide)).trans (W23_main_arg0 V0)
theorem W24_main_arg1 (V0 : Valuation τ sig (Elt F)) : W24 V0 (no_index (Proc.devRef .tc main_arg1)) = V0 (Proc.devRef .tc main_arg1) :=
  (W24_keep V0 main_arg1 (by decide)).trans (W23_main_arg1 V0)
theorem W24_main_arg2 (V0 : Valuation τ sig (Elt F)) : W24 V0 (no_index (Proc.devRef .tc main_arg2)) = V0 (Proc.devRef .tc main_arg2) :=
  (W24_keep V0 main_arg2 (by decide)).trans (W23_main_arg2 V0)
theorem W24_main_arg3 (V0 : Valuation τ sig (Elt F)) : W24 V0 (no_index (Proc.devRef .tc main_arg3)) = V0 (Proc.devRef .tc main_arg3) :=
  (W24_keep V0 main_arg3 (by decide)).trans (W23_main_arg3 V0)
theorem W24_main_arg4 (V0 : Valuation τ sig (Elt F)) : W24 V0 (no_index (Proc.devRef .tc main_arg4)) = V0 (Proc.devRef .tc main_arg4) :=
  (W24_keep V0 main_arg4 (by decide)).trans (W23_main_arg4 V0)
theorem W24_main_arg5 (V0 : Valuation τ sig (Elt F)) : W24 V0 (no_index (Proc.devRef .tc main_arg5)) = V0 (Proc.devRef .tc main_arg5) :=
  (W24_keep V0 main_arg5 (by decide)).trans (W23_main_arg5 V0)
theorem W24_main_arg6 (V0 : Valuation τ sig (Elt F)) : W24 V0 (no_index (Proc.devRef .tc main_arg6)) = V0 (Proc.devRef .tc main_arg6) :=
  (W24_keep V0 main_arg6 (by decide)).trans (W23_main_arg6 V0)
theorem W24_main_arg7 (V0 : Valuation τ sig (Elt F)) : W24 V0 (no_index (Proc.devRef .tc main_arg7)) = V0 (Proc.devRef .tc main_arg7) :=
  (W24_keep V0 main_arg7 (by decide)).trans (W23_main_arg7 V0)
theorem W24_main_v63 (V0 : Valuation τ sig (Elt F)) : W24 V0 (no_index (Proc.devRef .tc main_v63)) = val_main_v63 (F := F) :=
  (W24_keep V0 main_v63 (by decide)).trans (W23_main_v63 V0)
theorem W24_main_v64 (V0 : Valuation τ sig (Elt F)) : W24 V0 (no_index (Proc.devRef .tc main_v64)) = val_main_v64 (F := F) :=
  (W24_keep V0 main_v64 (by decide)).trans (W23_main_v64 V0)
theorem W24_main_v65 (V0 : Valuation τ sig (Elt F)) : W24 V0 (no_index (Proc.devRef .tc main_v65)) = val_main_v65 (F := F) (V0 (Proc.devRef .tc main_arg0)) :=
  (W24_keep V0 main_v65 (by decide)).trans (W23_main_v65 V0)
theorem W24_main_v116 (V0 : Valuation τ sig (Elt F)) : W24 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) :=
  (W24_keep V0 main_v116 (by decide)).trans (W23_main_v116 V0)
theorem W24_main_v118 (V0 : Valuation τ sig (Elt F)) : W24 V0 (no_index (Proc.devRef .tc main_v118)) = val_main_v118 (F := F) :=
  (W24_keep V0 main_v118 (by decide)).trans (W23_main_v118 V0)
theorem W24_main_v119 (V0 : Valuation τ sig (Elt F)) : W24 V0 (no_index (Proc.devRef .tc main_v119)) = val_main_v119 (F := F) :=
  (W24_keep V0 main_v119 (by decide)).trans (W23_main_v119 V0)
theorem W24_main_v121 (V0 : Valuation τ sig (Elt F)) : W24 V0 (no_index (Proc.devRef .tc main_v121)) = val_main_v121 (F := F) (V0 (Proc.devRef .tc main_arg0)) := by
  unfold W24
  simp only [s24, after_cons, after_nil]
  rw [binary_result]
  rw [W23_main_v65 V0, W23_main_v120 V0]
  rfl

/-! ### Operations 156 … 169 -/

abbrev s25 : List (HloOp τ sig (Elt F)) :=
  [ nullary main_cst_27 (constant S_ .f32 0x00000000#32),
    unary main_cst_27 main_v122 (broadcastInDim S4096 ![] bcast_S_S4096 : (⟨S_, .f32⟩ : BufTy).Contents (Elt F) → (⟨S4096, .f32⟩ : BufTy).Contents (Elt F)),
    unary main_v119 main_v123 (broadcastInDim S2101248x1 ![0] bcast_S2101248_S2101248x1_0 : (⟨S2101248, .i32⟩ : BufTy).Contents (Elt F) → (⟨S2101248x1, .i32⟩ : BufTy).Contents (Elt F)),
    ternary main_v122 main_v123 main_v121 main_v124 ((fun x i u => Host.scatterAdd scatter_S4096_S2101248x1_S2101248_n_0_0_1 x i u) : (⟨S4096, .f32⟩ : BufTy).Contents (Elt F) → (⟨S2101248x1, .i32⟩ : BufTy).Contents (Elt F) → (⟨S2101248, .f32⟩ : BufTy).Contents (Elt F) → (⟨S4096, .f32⟩ : BufTy).Contents (Elt F)),
    nullary main_cst_28 (constant S_ .f32 0x00000000#32),
    unary main_cst_28 main_v125 (broadcastInDim S4096 ![] bcast_S_S4096 : (⟨S_, .f32⟩ : BufTy).Contents (Elt F) → (⟨S4096, .f32⟩ : BufTy).Contents (Elt F)),
    binary main_v124 main_v125 main_v126 (cmpf .ogt : (⟨S4096, .f32⟩ : BufTy).Contents (Elt F) → (⟨S4096, .f32⟩ : BufTy).Contents (Elt F) → (⟨S4096, .i1⟩ : BufTy).Contents (Elt F)),
    nullary main_cst_29 (constant S_ .f32 0xBF000000#32),
    unary main_cst_29 main_v127 (broadcastInDim S4096 ![] bcast_S_S4096 : (⟨S_, .f32⟩ : BufTy).Contents (Elt F) → (⟨S4096, .f32⟩ : BufTy).Contents (Elt F)),
    binary main_v124 main_v127 main_v128 (Host.powf : (⟨S4096, .f32⟩ : BufTy).Contents (Elt F) → (⟨S4096, .f32⟩ : BufTy).Contents (Elt F) → (⟨S4096, .f32⟩ : BufTy).Contents (Elt F)),
    nullary main_cst_30 (constant S_ .f32 0x00000000#32),
    TRef.unary (TRef.of (T := ⟨S_, .f32⟩) main_cst_30) (TRef.of (T := ⟨S_, .f32⟩) main_call2_v0) id,
    TRef.unary (TRef.of (T := ⟨S_, .f32⟩) main_call2_v0) (TRef.of (T := ⟨S4096, .f32⟩) main_call2_v1) (broadcastInDim S4096 ![] bcast_S_S4096),
    TRef.ternary (TRef.of (T := ⟨S4096, .i1⟩) main_v126) (TRef.of (T := ⟨S4096, .f32⟩) main_v128) (TRef.of (T := ⟨S4096, .f32⟩) main_call2_v1) (TRef.of (T := ⟨S4096, .f32⟩) main_v129) select ]
theorem s25_sub : (s25 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩
theorem s25_fresh : ∀ op ∈ (s25 : List (HloOp τ sig (Elt F))), op.fresh = ∅ := by
  intro _ h; (repeat (cases h with | head => rfl | tail _ h => ?_)); exact nomatch h
/-- The buffers these operations write. -/
abbrev s25_W : List (Ref sig .tc) := [main_cst_27, main_v122, main_v123, main_v124, main_cst_28, main_v125, main_v126, main_cst_29, main_v127, main_v128, main_cst_30, main_call2_v0, main_call2_v1, main_v129]
theorem s25_writes : (s25 : List (HloOp τ sig (Elt F))).Forall fun op => op.writes ⊆ (s25_W.map (Proc.devRef (τ := τ) .tc)).toFinset := by
  simp only [s25, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 169. -/
def W25 (V0 : Valuation τ sig (Elt F)) : Valuation τ sig (Elt F) := after s25 (W24 V0)
theorem W25_keep (V0 : Valuation τ sig (Elt F)) (r : Ref sig .tc) (h : r ∉ s25_W) :
    W25 V0 (Proc.devRef .tc r) = W24 V0 (Proc.devRef .tc r) :=
  after_of_writes_sub s25 _ s25_writes h
theorem W25_main_arg0 (V0 : Valuation τ sig (Elt F)) : W25 V0 (no_index (Proc.devRef .tc main_arg0)) = V0 (Proc.devRef .tc main_arg0) :=
  (W25_keep V0 main_arg0 (by decide)).trans (W24_main_arg0 V0)
theorem W25_main_arg1 (V0 : Valuation τ sig (Elt F)) : W25 V0 (no_index (Proc.devRef .tc main_arg1)) = V0 (Proc.devRef .tc main_arg1) :=
  (W25_keep V0 main_arg1 (by decide)).trans (W24_main_arg1 V0)
theorem W25_main_arg2 (V0 : Valuation τ sig (Elt F)) : W25 V0 (no_index (Proc.devRef .tc main_arg2)) = V0 (Proc.devRef .tc main_arg2) :=
  (W25_keep V0 main_arg2 (by decide)).trans (W24_main_arg2 V0)
theorem W25_main_arg3 (V0 : Valuation τ sig (Elt F)) : W25 V0 (no_index (Proc.devRef .tc main_arg3)) = V0 (Proc.devRef .tc main_arg3) :=
  (W25_keep V0 main_arg3 (by decide)).trans (W24_main_arg3 V0)
theorem W25_main_arg4 (V0 : Valuation τ sig (Elt F)) : W25 V0 (no_index (Proc.devRef .tc main_arg4)) = V0 (Proc.devRef .tc main_arg4) :=
  (W25_keep V0 main_arg4 (by decide)).trans (W24_main_arg4 V0)
theorem W25_main_arg5 (V0 : Valuation τ sig (Elt F)) : W25 V0 (no_index (Proc.devRef .tc main_arg5)) = V0 (Proc.devRef .tc main_arg5) :=
  (W25_keep V0 main_arg5 (by decide)).trans (W24_main_arg5 V0)
theorem W25_main_arg6 (V0 : Valuation τ sig (Elt F)) : W25 V0 (no_index (Proc.devRef .tc main_arg6)) = V0 (Proc.devRef .tc main_arg6) :=
  (W25_keep V0 main_arg6 (by decide)).trans (W24_main_arg6 V0)
theorem W25_main_arg7 (V0 : Valuation τ sig (Elt F)) : W25 V0 (no_index (Proc.devRef .tc main_arg7)) = V0 (Proc.devRef .tc main_arg7) :=
  (W25_keep V0 main_arg7 (by decide)).trans (W24_main_arg7 V0)
theorem W25_main_v63 (V0 : Valuation τ sig (Elt F)) : W25 V0 (no_index (Proc.devRef .tc main_v63)) = val_main_v63 (F := F) :=
  (W25_keep V0 main_v63 (by decide)).trans (W24_main_v63 V0)
theorem W25_main_v64 (V0 : Valuation τ sig (Elt F)) : W25 V0 (no_index (Proc.devRef .tc main_v64)) = val_main_v64 (F := F) :=
  (W25_keep V0 main_v64 (by decide)).trans (W24_main_v64 V0)
theorem W25_main_v65 (V0 : Valuation τ sig (Elt F)) : W25 V0 (no_index (Proc.devRef .tc main_v65)) = val_main_v65 (F := F) (V0 (Proc.devRef .tc main_arg0)) :=
  (W25_keep V0 main_v65 (by decide)).trans (W24_main_v65 V0)
theorem W25_main_v116 (V0 : Valuation τ sig (Elt F)) : W25 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) :=
  (W25_keep V0 main_v116 (by decide)).trans (W24_main_v116 V0)
theorem W25_main_v118 (V0 : Valuation τ sig (Elt F)) : W25 V0 (no_index (Proc.devRef .tc main_v118)) = val_main_v118 (F := F) :=
  (W25_keep V0 main_v118 (by decide)).trans (W24_main_v118 V0)
theorem W25_main_v119 (V0 : Valuation τ sig (Elt F)) : W25 V0 (no_index (Proc.devRef .tc main_v119)) = val_main_v119 (F := F) :=
  (W25_keep V0 main_v119 (by decide)).trans (W24_main_v119 V0)
theorem W25_main_v121 (V0 : Valuation τ sig (Elt F)) : W25 V0 (no_index (Proc.devRef .tc main_v121)) = val_main_v121 (F := F) (V0 (Proc.devRef .tc main_arg0)) :=
  (W25_keep V0 main_v121 (by decide)).trans (W24_main_v121 V0)
theorem W25_main_v129 (V0 : Valuation τ sig (Elt F)) : W25 V0 (no_index (Proc.devRef .tc main_v129)) = val_main_v129 (F := F) (V0 (Proc.devRef .tc main_arg0)) := by
  unfold W25
  simp only [s25]
  after_results_simp
  rw [W24_main_v119 V0, W24_main_v121 V0]
  try simp only [TRef.ofBuf, TRef.toBuf, cast_eq]
  rfl

/-! ### Operations 170 … 183 -/

abbrev s26 : List (HloOp τ sig (Elt F)) :=
  [ nullary main_c_31 (constantI S_ 32 0#32),
    unary main_c_31 main_v130 (broadcastInDim S2101248 ![] bcast_S_S2101248 : (⟨S_, .i32⟩ : BufTy).Contents (Elt F) → (⟨S2101248, .i32⟩ : BufTy).Contents (Elt F)),
    binary main_v118 main_v130 main_v131 (cmpi .slt : (⟨S2101248, .i32⟩ : BufTy).Contents (Elt F) → (⟨S2101248, .i32⟩ : BufTy).Contents (Elt F) → (⟨S2101248, .i1⟩ : BufTy).Contents (Elt F)),
    nullary main_c_32 (constantI S_ 32 4096#32),
    unary main_c_32 main_v132 (broadcastInDim S2101248 ![] bcast_S_S2101248 : (⟨S_, .i32⟩ : BufTy).Contents (Elt F) → (⟨S2101248, .i32⟩ : BufTy).Contents (Elt F)),
    binary main_v118 main_v132 main_v133 (addi : (⟨S2101248, .i32⟩ : BufTy).Contents (Elt F) → (⟨S2101248, .i32⟩ : BufTy).Contents (Elt F) → (⟨S2101248, .i32⟩ : BufTy).Contents (Elt F)),
    ternary main_v131 main_v133 main_v118 main_v134 (select : (⟨S2101248, .i1⟩ : BufTy).Contents (Elt F) → (⟨S2101248, .i32⟩ : BufTy).Contents (Elt F) → (⟨S2101248, .i32⟩ : BufTy).Contents (Elt F) → (⟨S2101248, .i32⟩ : BufTy).Contents (Elt F)),
    unary main_v134 main_v135 (broadcastInDim S2101248x1 ![0] bcast_S2101248_S2101248x1_0 : (⟨S2101248, .i32⟩ : BufTy).Contents (Elt F) → (⟨S2101248x1, .i32⟩ : BufTy).Contents (Elt F)),
    binary main_v129 main_v135 main_v136 ((fun x i => Host.gather gather_S4096_S2101248x1_S2101248_n_0_n_n_0_1_1 x i) : (⟨S4096, .f32⟩ : BufTy).Contents (Elt F) → (⟨S2101248x1, .i32⟩ : BufTy).Contents (Elt F) → (⟨S2101248, .f32⟩ : BufTy).Contents (Elt F)),
    nullary main_c_33 (constantI S_ 32 0#32),
    unary main_c_33 main_v137 (broadcastInDim S2101248 ![] bcast_S_S2101248 : (⟨S_, .i32⟩ : BufTy).Contents (Elt F) → (⟨S2101248, .i32⟩ : BufTy).Contents (Elt F)),
    binary main_v119 main_v137 main_v138 (cmpi .slt : (⟨S2101248, .i32⟩ : BufTy).Contents (Elt F) → (⟨S2101248, .i32⟩ : BufTy).Contents (Elt F) → (⟨S2101248, .i1⟩ : BufTy).Contents (Elt F)),
    nullary main_c_34 (constantI S_ 32 4096#32),
    unary main_c_34 main_v139 (broadcastInDim S2101248 ![] bcast_S_S2101248 : (⟨S_, .i32⟩ : BufTy).Contents (Elt F) → (⟨S2101248, .i32⟩ : BufTy).Contents (Elt F)) ]
theorem s26_sub : (s26 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩
theorem s26_fresh : ∀ op ∈ (s26 : List (HloOp τ sig (Elt F))), op.fresh = ∅ := by
  intro _ h; (repeat (cases h with | head => rfl | tail _ h => ?_)); exact nomatch h
/-- The buffers these operations write. -/
abbrev s26_W : List (Ref sig .tc) := [main_c_31, main_v130, main_v131, main_c_32, main_v132, main_v133, main_v134, main_v135, main_v136, main_c_33, main_v137, main_v138, main_c_34, main_v139]
theorem s26_writes : (s26 : List (HloOp τ sig (Elt F))).Forall fun op => op.writes ⊆ (s26_W.map (Proc.devRef (τ := τ) .tc)).toFinset := by
  simp only [s26, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 183. -/
def W26 (V0 : Valuation τ sig (Elt F)) : Valuation τ sig (Elt F) := after s26 (W25 V0)
theorem W26_keep (V0 : Valuation τ sig (Elt F)) (r : Ref sig .tc) (h : r ∉ s26_W) :
    W26 V0 (Proc.devRef .tc r) = W25 V0 (Proc.devRef .tc r) :=
  after_of_writes_sub s26 _ s26_writes h
theorem W26_main_arg0 (V0 : Valuation τ sig (Elt F)) : W26 V0 (no_index (Proc.devRef .tc main_arg0)) = V0 (Proc.devRef .tc main_arg0) :=
  (W26_keep V0 main_arg0 (by decide)).trans (W25_main_arg0 V0)
theorem W26_main_arg1 (V0 : Valuation τ sig (Elt F)) : W26 V0 (no_index (Proc.devRef .tc main_arg1)) = V0 (Proc.devRef .tc main_arg1) :=
  (W26_keep V0 main_arg1 (by decide)).trans (W25_main_arg1 V0)
theorem W26_main_arg2 (V0 : Valuation τ sig (Elt F)) : W26 V0 (no_index (Proc.devRef .tc main_arg2)) = V0 (Proc.devRef .tc main_arg2) :=
  (W26_keep V0 main_arg2 (by decide)).trans (W25_main_arg2 V0)
theorem W26_main_arg3 (V0 : Valuation τ sig (Elt F)) : W26 V0 (no_index (Proc.devRef .tc main_arg3)) = V0 (Proc.devRef .tc main_arg3) :=
  (W26_keep V0 main_arg3 (by decide)).trans (W25_main_arg3 V0)
theorem W26_main_arg4 (V0 : Valuation τ sig (Elt F)) : W26 V0 (no_index (Proc.devRef .tc main_arg4)) = V0 (Proc.devRef .tc main_arg4) :=
  (W26_keep V0 main_arg4 (by decide)).trans (W25_main_arg4 V0)
theorem W26_main_arg5 (V0 : Valuation τ sig (Elt F)) : W26 V0 (no_index (Proc.devRef .tc main_arg5)) = V0 (Proc.devRef .tc main_arg5) :=
  (W26_keep V0 main_arg5 (by decide)).trans (W25_main_arg5 V0)
theorem W26_main_arg6 (V0 : Valuation τ sig (Elt F)) : W26 V0 (no_index (Proc.devRef .tc main_arg6)) = V0 (Proc.devRef .tc main_arg6) :=
  (W26_keep V0 main_arg6 (by decide)).trans (W25_main_arg6 V0)
theorem W26_main_arg7 (V0 : Valuation τ sig (Elt F)) : W26 V0 (no_index (Proc.devRef .tc main_arg7)) = V0 (Proc.devRef .tc main_arg7) :=
  (W26_keep V0 main_arg7 (by decide)).trans (W25_main_arg7 V0)
theorem W26_main_v63 (V0 : Valuation τ sig (Elt F)) : W26 V0 (no_index (Proc.devRef .tc main_v63)) = val_main_v63 (F := F) :=
  (W26_keep V0 main_v63 (by decide)).trans (W25_main_v63 V0)
theorem W26_main_v64 (V0 : Valuation τ sig (Elt F)) : W26 V0 (no_index (Proc.devRef .tc main_v64)) = val_main_v64 (F := F) :=
  (W26_keep V0 main_v64 (by decide)).trans (W25_main_v64 V0)
theorem W26_main_v65 (V0 : Valuation τ sig (Elt F)) : W26 V0 (no_index (Proc.devRef .tc main_v65)) = val_main_v65 (F := F) (V0 (Proc.devRef .tc main_arg0)) :=
  (W26_keep V0 main_v65 (by decide)).trans (W25_main_v65 V0)
theorem W26_main_v116 (V0 : Valuation τ sig (Elt F)) : W26 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) :=
  (W26_keep V0 main_v116 (by decide)).trans (W25_main_v116 V0)
theorem W26_main_v118 (V0 : Valuation τ sig (Elt F)) : W26 V0 (no_index (Proc.devRef .tc main_v118)) = val_main_v118 (F := F) :=
  (W26_keep V0 main_v118 (by decide)).trans (W25_main_v118 V0)
theorem W26_main_v119 (V0 : Valuation τ sig (Elt F)) : W26 V0 (no_index (Proc.devRef .tc main_v119)) = val_main_v119 (F := F) :=
  (W26_keep V0 main_v119 (by decide)).trans (W25_main_v119 V0)
theorem W26_main_v121 (V0 : Valuation τ sig (Elt F)) : W26 V0 (no_index (Proc.devRef .tc main_v121)) = val_main_v121 (F := F) (V0 (Proc.devRef .tc main_arg0)) :=
  (W26_keep V0 main_v121 (by decide)).trans (W25_main_v121 V0)
theorem W26_main_v129 (V0 : Valuation τ sig (Elt F)) : W26 V0 (no_index (Proc.devRef .tc main_v129)) = val_main_v129 (F := F) (V0 (Proc.devRef .tc main_arg0)) :=
  (W26_keep V0 main_v129 (by decide)).trans (W25_main_v129 V0)
theorem W26_main_v136 (V0 : Valuation τ sig (Elt F)) : W26 V0 (no_index (Proc.devRef .tc main_v136)) = val_main_v136 (F := F) (V0 (Proc.devRef .tc main_arg0)) := by
  unfold W26
  simp only [s26]
  after_results_simp
  rw [W25_main_v129 V0, W25_main_v118 V0]
  rfl
theorem W26_main_v138 (V0 : Valuation τ sig (Elt F)) : W26 V0 (no_index (Proc.devRef .tc main_v138)) = val_main_v138 (F := F) := by
  unfold W26
  simp only [s26]
  after_results_simp
  rw [W25_main_v119 V0]
  rfl
theorem W26_main_v139 (V0 : Valuation τ sig (Elt F)) : W26 V0 (no_index (Proc.devRef .tc main_v139)) = val_main_v139 (F := F) := by
  unfold W26
  simp only [s26]
  after_results_simp
  rfl

/-! ### Operations 184 … 186 -/

abbrev s27 : List (HloOp τ sig (Elt F)) :=
  [ binary main_v119 main_v139 main_v140 (addi : (⟨S2101248, .i32⟩ : BufTy).Contents (Elt F) → (⟨S2101248, .i32⟩ : BufTy).Contents (Elt F) → (⟨S2101248, .i32⟩ : BufTy).Contents (Elt F)),
    ternary main_v138 main_v140 main_v119 main_v141 (select : (⟨S2101248, .i1⟩ : BufTy).Contents (Elt F) → (⟨S2101248, .i32⟩ : BufTy).Contents (Elt F) → (⟨S2101248, .i32⟩ : BufTy).Contents (Elt F) → (⟨S2101248, .i32⟩ : BufTy).Contents (Elt F)),
    unary main_v141 main_v142 (broadcastInDim S2101248x1 ![0] bcast_S2101248_S2101248x1_0 : (⟨S2101248, .i32⟩ : BufTy).Contents (Elt F) → (⟨S2101248x1, .i32⟩ : BufTy).Contents (Elt F)) ]
theorem s27_sub : (s27 : List (HloOp τ sig (Elt F))).Forall fun op => op.bufs ⊆ tcRefs τ sig :=
  ⟨binary_bufs_sub .., ternary_bufs_sub .., unary_bufs_sub ..⟩
theorem s27_fresh : ∀ op ∈ (s27 : List (HloOp τ sig (Elt F))), op.fresh = ∅ := by
  intro _ h; (repeat (cases h with | head => rfl | tail _ h => ?_)); exact nomatch h
/-- The buffers these operations write. -/
abbrev s27_W : List (Ref sig .tc) := [main_v140, main_v141, main_v142]
theorem s27_writes : (s27 : List (HloOp τ sig (Elt F))).Forall fun op => op.writes ⊆ (s27_W.map (Proc.devRef (τ := τ) .tc)).toFinset := by
  simp only [s27, List.Forall, nullary_writes, unary_writes, binary_writes, ternary_writes, reshape_writes, nary_writes, Finset.singleton_subset_iff, List.mem_toFinset]
  refine ⟨?_, ?_, ?_⟩ <;> exact List.mem_map_of_mem (by decide)
/-- The buffers' contents after operation 186. -/
def W27 (V0 : Valuation τ sig (Elt F)) : Valuation τ sig (Elt F) := after s27 (W26 V0)
theorem W27_keep (V0 : Valuation τ sig (Elt F)) (r : Ref sig .tc) (h : r ∉ s27_W) :
    W27 V0 (Proc.devRef .tc r) = W26 V0 (Proc.devRef .tc r) :=
  after_of_writes_sub s27 _ s27_writes h
theorem W27_main_arg0 (V0 : Valuation τ sig (Elt F)) : W27 V0 (no_index (Proc.devRef .tc main_arg0)) = V0 (Proc.devRef .tc main_arg0) :=
  (W27_keep V0 main_arg0 (by decide)).trans (W26_main_arg0 V0)
theorem W27_main_arg1 (V0 : Valuation τ sig (Elt F)) : W27 V0 (no_index (Proc.devRef .tc main_arg1)) = V0 (Proc.devRef .tc main_arg1) :=
  (W27_keep V0 main_arg1 (by decide)).trans (W26_main_arg1 V0)
theorem W27_main_arg2 (V0 : Valuation τ sig (Elt F)) : W27 V0 (no_index (Proc.devRef .tc main_arg2)) = V0 (Proc.devRef .tc main_arg2) :=
  (W27_keep V0 main_arg2 (by decide)).trans (W26_main_arg2 V0)
theorem W27_main_arg3 (V0 : Valuation τ sig (Elt F)) : W27 V0 (no_index (Proc.devRef .tc main_arg3)) = V0 (Proc.devRef .tc main_arg3) :=
  (W27_keep V0 main_arg3 (by decide)).trans (W26_main_arg3 V0)
theorem W27_main_arg4 (V0 : Valuation τ sig (Elt F)) : W27 V0 (no_index (Proc.devRef .tc main_arg4)) = V0 (Proc.devRef .tc main_arg4) :=
  (W27_keep V0 main_arg4 (by decide)).trans (W26_main_arg4 V0)
theorem W27_main_arg5 (V0 : Valuation τ sig (Elt F)) : W27 V0 (no_index (Proc.devRef .tc main_arg5)) = V0 (Proc.devRef .tc main_arg5) :=
  (W27_keep V0 main_arg5 (by decide)).trans (W26_main_arg5 V0)
theorem W27_main_arg6 (V0 : Valuation τ sig (Elt F)) : W27 V0 (no_index (Proc.devRef .tc main_arg6)) = V0 (Proc.devRef .tc main_arg6) :=
  (W27_keep V0 main_arg6 (by decide)).trans (W26_main_arg6 V0)
theorem W27_main_arg7 (V0 : Valuation τ sig (Elt F)) : W27 V0 (no_index (Proc.devRef .tc main_arg7)) = V0 (Proc.devRef .tc main_arg7) :=
  (W27_keep V0 main_arg7 (by decide)).trans (W26_main_arg7 V0)
theorem W27_main_v63 (V0 : Valuation τ sig (Elt F)) : W27 V0 (no_index (Proc.devRef .tc main_v63)) = val_main_v63 (F := F) :=
  (W27_keep V0 main_v63 (by decide)).trans (W26_main_v63 V0)
theorem W27_main_v64 (V0 : Valuation τ sig (Elt F)) : W27 V0 (no_index (Proc.devRef .tc main_v64)) = val_main_v64 (F := F) :=
  (W27_keep V0 main_v64 (by decide)).trans (W26_main_v64 V0)
theorem W27_main_v65 (V0 : Valuation τ sig (Elt F)) : W27 V0 (no_index (Proc.devRef .tc main_v65)) = val_main_v65 (F := F) (V0 (Proc.devRef .tc main_arg0)) :=
  (W27_keep V0 main_v65 (by decide)).trans (W26_main_v65 V0)
theorem W27_main_v116 (V0 : Valuation τ sig (Elt F)) : W27 V0 (no_index (Proc.devRef .tc main_v116)) = val_main_v116 (F := F) (V0 (Proc.devRef .tc main_arg0)) (V0 (Proc.devRef .tc main_arg1)) (V0 (Proc.devRef .tc main_arg2)) (V0 (Proc.devRef .tc main_arg3)) (V0 (Proc.devRef .tc main_arg4)) :=
  (W27_keep V0 main_v116 (by decide)).trans (W26_main_v116 V0)
theorem W27_main_v118 (V0 : Valuation τ sig (Elt F)) : W27 V0 (no_index (Proc.devRef .tc main_v118)) = val_main_v118 (F := F) :=
  (W27_keep V0 main_v118 (by decide)).trans (W26_main_v118 V0)
theorem W27_main_v119 (V0 : Valuation τ sig (Elt F)) : W27 V0 (no_index (Proc.devRef .tc main_v119)) = val_main_v119 (F := F) :=
  (W27_keep V0 main_v119 (by decide)).trans (W26_main_v119 V0)
theorem W27_main_v121 (V0 : Valuation τ sig (Elt F)) : W27 V0 (no_index (Proc.devRef .tc main_v121)) = val_main_v121 (F := F) (V0 (Proc.devRef .tc main_arg0)) :=
  (W27_keep V0 main_v121 (by decide)).trans (W26_main_v121 V0)
theorem W27_main_v129 (V0 : Valuation τ sig (Elt F)) : W27 V0 (no_index (Proc.devRef .tc main_v129)) = val_main_v129 (F := F) (V0 (Proc.devRef .tc main_arg0)) :=
  (W27_keep V0 main_v129 (by decide)).trans (W26_main_v129 V0)
theorem W27_main_v136 (V0 : Valuation τ sig (Elt F)) : W27 V0 (no_index (Proc.devRef .tc main_v136)) = val_main_v136 (F := F) (V0 (Proc.devRef .tc main_arg0)) :=
  (W27_keep V0 main_v136 (by decide)).trans (W26_main_v136 V0)
theorem W27_main_v142 (V0 : Valuation τ sig (Elt F)) : W27 V0 (no_index (Proc.devRef .tc main_v142)) = val_main_v142 (F := F) := by
  unfold W27
  simp only [s27]
  after_results_simp
  rw [W26_main_v138 V0, W26_main_v119 V0, W26_main_v139 V0]
  rfl

/-! ### Operations 187 … 200 -/

abbrev s28 : List (HloOp τ sig (Elt F)) :=
  [ binary main_v129 main_v142 main_v143 ((fun x i => Host.gather gather_S4096_S2101248x1_S2101248_n_0_n_n_0_1_1 x i) : (⟨S4096, .f32⟩ : BufTy).Contents (Elt F) → (⟨S2101248x1, .i32⟩ : BufTy).Contents (Elt F) → (⟨S2101248, .f32⟩ : BufTy).Contents (Elt F)),
    binary main_v136 main_v143 main_v144 (mulf : (⟨S2101248, .f32⟩ : BufTy).Contents (Elt F) → (⟨S2101248, .f32⟩ : BufTy).Contents (Elt F) → (⟨S2101248, .f32⟩ : BufTy).Contents (Elt F)),
    nullary main_c_35 (constantI S_ 32 0#32),
    unary main_c_35 main_v145 (broadcastInDim S2101248 ![] bcast_S_S2101248 : (⟨S_, .i32⟩ : BufTy).Contents (Elt F) → (⟨S2101248, .i32⟩ : BufTy).Contents (Elt F)),
    binary main_v118 main_v145 main_v146 (cmpi .slt : (⟨S2101248, .i32⟩ : BufTy).Contents (Elt F) → (⟨S2101248, .i32⟩ : BufTy).Contents (Elt F) → (⟨S2101248, .i1⟩ : BufTy).Contents (Elt F)),
    nullary main_c_36 (constantI S_ 32 4096#32),
    unary main_c_36 main_v147 (broadcastInDim S2101248 ![] bcast_S_S2101248 : (⟨S_, .i32⟩ : BufTy).Contents (Elt F) → (⟨S2101248, .i32⟩ : BufTy).Contents (Elt F)),
    binary main_v118 main_v147 main_v148 (addi : (⟨S2101248, .i32⟩ : BufTy).Contents (Elt F) → (⟨S2101248, .i32⟩ : BufTy).Contents (Elt F) → (⟨S2101248, .i32⟩ : BufTy).Contents (Elt F)),
    ternary main_v146 main_v148 main_v118 main_v149 (select : (⟨S2101248, .i1⟩ : BufTy).Contents (Elt F) → (⟨S2101248, .i32⟩ : BufTy).Contents (Elt F) → (⟨S2101248, .i32⟩ : BufTy).Contents (Elt F) → (⟨S2101248, .i32⟩ : BufTy).Contents (Elt F)),
    unary main_v149 main_v150 (broadcastInDim S2101248x1 ![0] bcast_S2101248_S2101248x1_0 : (⟨S2101248, .i32⟩ : BufTy).Contents (Elt F) → (⟨S2101248x1, .i32⟩ : BufTy).Contents (Elt F)),
    binary main_v116 main_v150 main_v151 ((fun x i => Host.gather gather_S4096x32_S2101248x1_S2101248x32_1_0_n_n_0_1_132 x i) : (⟨S4096x32, .f32⟩ : BufTy).Contents (Elt F) → (⟨S2101248x1, .i32⟩ : BufTy).Contents (Elt F) → (⟨S2101248x32, .f32⟩ : BufTy).Contents (Elt F)),
    binary main_v121 main_v144 main_v152 (mulf : (⟨S2101248, .f32⟩ : BufTy).Contents (Elt F) → (⟨S2101248, .f32⟩ : BufTy).Contents (Elt F) → (⟨S2101248, .f32⟩ : BufTy).Contents (Elt F)),
    unary main_v152 main_v153 (broadcastInDim S2101248x1 ![0] bcast_S2101248_S2101248x1_0 : (⟨S2101248, .f32⟩ : BufTy).Contents (Elt F) → (⟨S2101248x1, .f32⟩ : BufTy).Contents (Elt F)),
    unary main_v153 main_v154 (broadcastInDim S2101248x32 ![0, 1] bcast_S2101248x1_S2101248x32_0_1 : (⟨S2101248x1, .f32⟩ : BufTy).Contents (Elt F) → (⟨S2101248x32, .f32⟩ : BufTy).Contents (Elt F)) ]
theorem s28_sub : (s28 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub ..⟩
theorem s28_fresh : ∀ op ∈ (s28 : List (HloOp τ sig (Elt F))), op.fresh = ∅ := by
  intro _ h; (repeat (cases h with | head => rfl | tail _ h => ?_)); exact nomatch h
/-- The buffers these operations write. -/
abbrev s28_W : List (Ref sig .tc) := [main_v143, main_v144, main_c_35, main_v145, main_v146, main_c_36, main_v147, main_v148, main_v149, main_v150, main_v151, main_v152, main_v153, main_v154]
theorem s28_writes : (s28 : List (HloOp τ sig (Elt F))).Forall fun op => op.writes ⊆ (s28_W.map (Proc.devRef (τ := τ) .tc)).toFinset := by
  simp only [s28, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 200. -/
def W28 (V0 : Valuation τ sig (Elt F)) : Valuation τ sig (Elt F) := after s28 (W27 V0)
theorem W28_keep (V0 : Valuation τ sig (Elt F)) (r : Ref sig .tc) (h : r ∉ s28_W) :
    W28 V0 (Proc.devRef .tc r) = W27 V0 (Proc.devRef .tc r) :=
  after_of_writes_sub s28 _ s28_writes h
theorem W28_main_arg0 (V0 : Valuation τ sig (Elt F)) : W28 V0 (no_index (Proc.devRef .tc main_arg0)) = V0 (Proc.devRef .tc main_arg0) :=
  (W28_keep V0 main_arg0 (by decide)).trans (W27_main_arg0 V0)
theorem W28_main_arg1 (V0 : Valuation τ sig (Elt F)) : W28 V0 (no_index (Proc.devRef .tc main_arg1)) = V0 (Proc.devRef .tc main_arg1) :=
  (W28_keep V0 main_arg1 (by decide)).trans (W27_main_arg1 V0)
theorem W28_main_arg2 (V0 : Valuation τ sig (Elt F)) : W28 V0 (no_index (Proc.devRef .tc main_arg2)) = V0 (Proc.devRef .tc main_arg2) :=
  (W28_keep V0 main_arg2 (by decide)).trans (W27_main_arg2 V0)
theorem W28_main_arg3 (V0 : Valuation τ sig (Elt F)) : W28 V0 (no_index (Proc.devRef .tc main_arg3)) = V0 (Proc.devRef .tc main_arg3) :=
  (W28_keep V0 main_arg3 (by decide)).trans (W27_main_arg3 V0)
theorem W28_main_arg4 (V0 : Valuation τ sig (Elt F)) : W28 V0 (no_index (Proc.devRef .tc main_arg4)) = V0 (Proc.devRef .tc main_arg4) :=
  (W28_keep V0 main_arg4 (by decide)).trans (W27_main_arg4 V0)
theorem W28_main_arg5 (V0 : Valuation τ sig (Elt F)) : W28 V0 (no_index (Proc.devRef .tc main_arg5)) = V0 (Proc.devRef .tc main_arg5) :=
  (W28_keep V0 main_arg5 (by decide)).trans (W27_main_arg5 V0)
theorem W28_main_arg6 (V0 : Valuation τ sig (Elt F)) : W28 V0 (no_index (Proc.devRef .tc main_arg6)) = V0 (Proc.devRef .tc main_arg6) :=
  (W28_keep V0 main_arg6 (by decide)).trans (W27_main_arg6 V0)
theorem W28_main_arg7 (V0 : Valuation τ sig (Elt F)) : W28 V0 (no_index (Proc.devRef .tc main_arg7)) = V0 (Proc.devRef .tc main_arg7) :=
  (W28_keep V0 main_arg7 (by decide)).trans (W27_main_arg7 V0)
theorem W28_main_v63 (V0 : Valuation τ sig (Elt F)) : W28 V0 (no_index (Proc.devRef .tc main_v63)) = val_main_v63 (F := F) :=
  (W28_keep V0 main_v63 (by decide)).trans (W27_main_v63 V0)
theorem W28_main_v64 (V0 : Valuation τ sig (Elt F)) : W28 V0 (no_index (Proc.devRef .tc main_v64)) = val_main_v64 (F := F) :=
  (W28_keep V0 main_v64 (by decide)).trans (W27_main_v64 V0)
theorem W28_main_v65 (V0 : Valuation τ sig (Elt F)) : W28 V0 (no_index (Proc.devRef .tc main_v65)) = val_main_v65 (F := F) (V0 (Proc.devRef .tc main_arg0)) :=
  (W28_keep V0 main_v65 (by decide)).trans (W27_main_v65 V0)
theorem W28_main_v119 (V0 : Valuation τ sig (Elt F)) : W28 V0 (no_index (Proc.devRef .tc main_v119)) = val_main_v119 (F := F) :=
  (W28_keep V0 main_v119 (by decide)).trans (W27_main_v119 V0)
theorem W28_main_v151 (V0 : Valuation τ sig (Elt F)) : W28 V0 (no_index (Proc.devRef .tc main_v151)) = val_main_v151 (F := F) (V0 (Proc.devRef .tc main_arg0)) (V0 (Proc.devRef .tc main_arg1)) (V0 (Proc.devRef .tc main_arg2)) (V0 (Proc.devRef .tc main_arg3)) (V0 (Proc.devRef .tc main_arg4)) := by
  unfold W28
  simp only [s28]
  after_results_simp
  rw [W27_main_v116 V0, W27_main_v118 V0]
  rfl
theorem W28_main_v154 (V0 : Valuation τ sig (Elt F)) : W28 V0 (no_index (Proc.devRef .tc main_v154)) = val_main_v154 (F := F) (V0 (Proc.devRef .tc main_arg0)) := by
  unfold W28
  simp only [s28]
  after_results_simp
  rw [W27_main_v121 V0, W27_main_v136 V0, W27_main_v129 V0, W27_main_v142 V0]
  rfl

/-! ### Operations 201 … 213 -/

abbrev s29 : List (HloOp τ sig (Elt F)) :=
  [ binary main_v151 main_v154 main_v155 (mulf : (⟨S2101248x32, .f32⟩ : BufTy).Contents (Elt F) → (⟨S2101248x32, .f32⟩ : BufTy).Contents (Elt F) → (⟨S2101248x32, .f32⟩ : BufTy).Contents (Elt F)),
    nullary main_cst_37 (constant S_ .f32 0x00000000#32),
    unary main_cst_37 main_v156 (broadcastInDim S4096x32 ![] bcast_S_S4096x32 : (⟨S_, .f32⟩ : BufTy).Contents (Elt F) → (⟨S4096x32, .f32⟩ : BufTy).Contents (Elt F)),
    unary main_v119 main_v157 (broadcastInDim S2101248x1 ![0] bcast_S2101248_S2101248x1_0 : (⟨S2101248, .i32⟩ : BufTy).Contents (Elt F) → (⟨S2101248x1, .i32⟩ : BufTy).Contents (Elt F)),
    ternary main_v156 main_v157 main_v155 main_v158 ((fun x i u => Host.scatterAdd scatter_S4096x32_S2101248x1_S2101248x32_1_0_0_1 x i u) : (⟨S4096x32, .f32⟩ : BufTy).Contents (Elt F) → (⟨S2101248x1, .i32⟩ : BufTy).Contents (Elt F) → (⟨S2101248x32, .f32⟩ : BufTy).Contents (Elt F) → (⟨S4096x32, .f32⟩ : BufTy).Contents (Elt F)),
    unary main_arg5 main_v159 (broadcastInDim S1x32 ![1] bcast_S32_S1x32_1 : (⟨S32, .f32⟩ : BufTy).Contents (Elt F) → (⟨S1x32, .f32⟩ : BufTy).Contents (Elt F)),
    unary main_v159 main_v160 (broadcastInDim S4096x32 ![0, 1] bcast_S1x32_S4096x32_0_1 : (⟨S1x32, .f32⟩ : BufTy).Contents (Elt F) → (⟨S4096x32, .f32⟩ : BufTy).Contents (Elt F)),
    binary main_v158 main_v160 main_v161 (addf : (⟨S4096x32, .f32⟩ : BufTy).Contents (Elt F) → (⟨S4096x32, .f32⟩ : BufTy).Contents (Elt F) → (⟨S4096x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096x32, .f32⟩) main_call3_v0) (broadcastInDim S4096x32 ![] bcast_S_S4096x32),
    TRef.binary (TRef.of (T := ⟨S4096x32, .f32⟩) main_v161) (TRef.of (T := ⟨S4096x32, .f32⟩) main_call3_v0) (TRef.of (T := ⟨S4096x32, .f32⟩) main_v162) maximumf,
    binary main_v162 main_arg6 main_v163 ((fun l r => Host.dotGeneral dot_S4096x32_S32x64_S4096x64_1_0_0_1_n_n none l r) : (⟨S4096x32, .f32⟩ : BufTy).Contents (Elt F) → (⟨S32x64, .f32⟩ : BufTy).Contents (Elt F) → (⟨S4096x64, .f32⟩ : BufTy).Contents (Elt F)),
    nullary main_v164 (iotaInDim S4096 32 0) ]
theorem s29_sub : (s29 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub ..⟩
theorem s29_fresh : ∀ op ∈ (s29 : List (HloOp τ sig (Elt F))), op.fresh = ∅ := by
  intro _ h; (repeat (cases h with | head => rfl | tail _ h => ?_)); exact nomatch h
/-- The buffers these operations write. -/
abbrev s29_W : List (Ref sig .tc) := [main_v155, main_cst_37, main_v156, main_v157, main_v158, main_v159, main_v160, main_v161, main_call3_cst, main_call3_v0, main_v162, main_v163, main_v164]
theorem s29_writes : (s29 : List (HloOp τ sig (Elt F))).Forall fun op => op.writes ⊆ (s29_W.map (Proc.devRef (τ := τ) .tc)).toFinset := by
  simp only [s29, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_⟩ <;> exact List.mem_map_of_mem (by decide)
/-- The buffers' contents after operation 213. -/
def W29 (V0 : Valuation τ sig (Elt F)) : Valuation τ sig (Elt F) := after s29 (W28 V0)
theorem W29_keep (V0 : Valuation τ sig (Elt F)) (r : Ref sig .tc) (h : r ∉ s29_W) :
    W29 V0 (Proc.devRef .tc r) = W28 V0 (Proc.devRef .tc r) :=
  after_of_writes_sub s29 _ s29_writes h
theorem W29_main_arg0 (V0 : Valuation τ sig (Elt F)) : W29 V0 (no_index (Proc.devRef .tc main_arg0)) = V0 (Proc.devRef .tc main_arg0) :=
  (W29_keep V0 main_arg0 (by decide)).trans (W28_main_arg0 V0)
theorem W29_main_arg1 (V0 : Valuation τ sig (Elt F)) : W29 V0 (no_index (Proc.devRef .tc main_arg1)) = V0 (Proc.devRef .tc main_arg1) :=
  (W29_keep V0 main_arg1 (by decide)).trans (W28_main_arg1 V0)
theorem W29_main_arg2 (V0 : Valuation τ sig (Elt F)) : W29 V0 (no_index (Proc.devRef .tc main_arg2)) = V0 (Proc.devRef .tc main_arg2) :=
  (W29_keep V0 main_arg2 (by decide)).trans (W28_main_arg2 V0)
theorem W29_main_arg3 (V0 : Valuation τ sig (Elt F)) : W29 V0 (no_index (Proc.devRef .tc main_arg3)) = V0 (Proc.devRef .tc main_arg3) :=
  (W29_keep V0 main_arg3 (by decide)).trans (W28_main_arg3 V0)
theorem W29_main_arg4 (V0 : Valuation τ sig (Elt F)) : W29 V0 (no_index (Proc.devRef .tc main_arg4)) = V0 (Proc.devRef .tc main_arg4) :=
  (W29_keep V0 main_arg4 (by decide)).trans (W28_main_arg4 V0)
theorem W29_main_arg5 (V0 : Valuation τ sig (Elt F)) : W29 V0 (no_index (Proc.devRef .tc main_arg5)) = V0 (Proc.devRef .tc main_arg5) :=
  (W29_keep V0 main_arg5 (by decide)).trans (W28_main_arg5 V0)
theorem W29_main_arg6 (V0 : Valuation τ sig (Elt F)) : W29 V0 (no_index (Proc.devRef .tc main_arg6)) = V0 (Proc.devRef .tc main_arg6) :=
  (W29_keep V0 main_arg6 (by decide)).trans (W28_main_arg6 V0)
theorem W29_main_arg7 (V0 : Valuation τ sig (Elt F)) : W29 V0 (no_index (Proc.devRef .tc main_arg7)) = V0 (Proc.devRef .tc main_arg7) :=
  (W29_keep V0 main_arg7 (by decide)).trans (W28_main_arg7 V0)
theorem W29_main_v63 (V0 : Valuation τ sig (Elt F)) : W29 V0 (no_index (Proc.devRef .tc main_v63)) = val_main_v63 (F := F) :=
  (W29_keep V0 main_v63 (by decide)).trans (W28_main_v63 V0)
theorem W29_main_v64 (V0 : Valuation τ sig (Elt F)) : W29 V0 (no_index (Proc.devRef .tc main_v64)) = val_main_v64 (F := F) :=
  (W29_keep V0 main_v64 (by decide)).trans (W28_main_v64 V0)
theorem W29_main_v65 (V0 : Valuation τ sig (Elt F)) : W29 V0 (no_index (Proc.devRef .tc main_v65)) = val_main_v65 (F := F) (V0 (Proc.devRef .tc main_arg0)) :=
  (W29_keep V0 main_v65 (by decide)).trans (W28_main_v65 V0)
theorem W29_main_v163 (V0 : Valuation τ sig (Elt F)) : W29 V0 (no_index (Proc.devRef .tc main_v163)) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold W29
  simp only [s29]
  after_results_simp
  rw [W28_main_v119 V0, W28_main_v151 V0, W28_main_v154 V0, W28_main_arg5 V0, W28_main_arg6 V0]
  try simp only [TRef.ofBuf, TRef.toBuf, cast_eq]
  rfl
theorem W29_main_v164 (V0 : Valuation τ sig (Elt F)) : W29 V0 (no_index (Proc.devRef .tc main_v164)) = val_main_v164 (F := F) := by
  unfold W29
  simp only [s29]
  after_results_simp
  rfl

/-! ### Operations 214 … 214 -/

abbrev s30 : List (HloOp τ sig (Elt F)) :=
  [ binary main_v63 main_v164 main_v165 ((fun a b => concatenate S2101248 0 [⟨S2097152, a⟩, ⟨S4096, b⟩] concatenates_S2097152_S4096_S2101248_d0) : (⟨S2097152, .i32⟩ : BufTy).Contents (Elt F) → (⟨S4096, .i32⟩ : BufTy).Contents (Elt F) → (⟨S2101248, .i32⟩ : BufTy).Contents (Elt F)) ]
theorem s30_sub : (s30 : List (HloOp τ sig (Elt F))).Forall fun op => op.bufs ⊆ tcRefs τ sig :=
  binary_bufs_sub ..
theorem s30_fresh : ∀ op ∈ (s30 : List (HloOp τ sig (Elt F))), op.fresh = ∅ := by
  intro _ h; (repeat (cases h with | head => rfl | tail _ h => ?_)); exact nomatch h
/-- The buffers these operations write. -/
abbrev s30_W : List (Ref sig .tc) := [main_v165]
theorem s30_writes : (s30 : List (HloOp τ sig (Elt F))).Forall fun op => op.writes ⊆ (s30_W.map (Proc.devRef (τ := τ) .tc)).toFinset := by
  simp only [s30, List.Forall, nullary_writes, unary_writes, binary_writes, ternary_writes, reshape_writes, nary_writes, Finset.singleton_subset_iff, List.mem_toFinset]
  exact List.mem_map_of_mem (by decide)
/-- The buffers' contents after operation 214. -/
def W30 (V0 : Valuation τ sig (Elt F)) : Valuation τ sig (Elt F) := after s30 (W29 V0)
theorem W30_keep (V0 : Valuation τ sig (Elt F)) (r : Ref sig .tc) (h : r ∉ s30_W) :
    W30 V0 (Proc.devRef .tc r) = W29 V0 (Proc.devRef .tc r) :=
  after_of_writes_sub s30 _ s30_writes h
theorem W30_main_arg0 (V0 : Valuation τ sig (Elt F)) : W30 V0 (no_index (Proc.devRef .tc main_arg0)) = V0 (Proc.devRef .tc main_arg0) :=
  (W30_keep V0 main_arg0 (by decide)).trans (W29_main_arg0 V0)
theorem W30_main_arg1 (V0 : Valuation τ sig (Elt F)) : W30 V0 (no_index (Proc.devRef .tc main_arg1)) = V0 (Proc.devRef .tc main_arg1) :=
  (W30_keep V0 main_arg1 (by decide)).trans (W29_main_arg1 V0)
theorem W30_main_arg2 (V0 : Valuation τ sig (Elt F)) : W30 V0 (no_index (Proc.devRef .tc main_arg2)) = V0 (Proc.devRef .tc main_arg2) :=
  (W30_keep V0 main_arg2 (by decide)).trans (W29_main_arg2 V0)
theorem W30_main_arg3 (V0 : Valuation τ sig (Elt F)) : W30 V0 (no_index (Proc.devRef .tc main_arg3)) = V0 (Proc.devRef .tc main_arg3) :=
  (W30_keep V0 main_arg3 (by decide)).trans (W29_main_arg3 V0)
theorem W30_main_arg4 (V0 : Valuation τ sig (Elt F)) : W30 V0 (no_index (Proc.devRef .tc main_arg4)) = V0 (Proc.devRef .tc main_arg4) :=
  (W30_keep V0 main_arg4 (by decide)).trans (W29_main_arg4 V0)
theorem W30_main_arg5 (V0 : Valuation τ sig (Elt F)) : W30 V0 (no_index (Proc.devRef .tc main_arg5)) = V0 (Proc.devRef .tc main_arg5) :=
  (W30_keep V0 main_arg5 (by decide)).trans (W29_main_arg5 V0)
theorem W30_main_arg6 (V0 : Valuation τ sig (Elt F)) : W30 V0 (no_index (Proc.devRef .tc main_arg6)) = V0 (Proc.devRef .tc main_arg6) :=
  (W30_keep V0 main_arg6 (by decide)).trans (W29_main_arg6 V0)
theorem W30_main_arg7 (V0 : Valuation τ sig (Elt F)) : W30 V0 (no_index (Proc.devRef .tc main_arg7)) = V0 (Proc.devRef .tc main_arg7) :=
  (W30_keep V0 main_arg7 (by decide)).trans (W29_main_arg7 V0)
theorem W30_main_v64 (V0 : Valuation τ sig (Elt F)) : W30 V0 (no_index (Proc.devRef .tc main_v64)) = val_main_v64 (F := F) :=
  (W30_keep V0 main_v64 (by decide)).trans (W29_main_v64 V0)
theorem W30_main_v65 (V0 : Valuation τ sig (Elt F)) : W30 V0 (no_index (Proc.devRef .tc main_v65)) = val_main_v65 (F := F) (V0 (Proc.devRef .tc main_arg0)) :=
  (W30_keep V0 main_v65 (by decide)).trans (W29_main_v65 V0)
theorem W30_main_v163 (V0 : Valuation τ sig (Elt F)) : W30 V0 (no_index (Proc.devRef .tc main_v163)) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (W30_keep V0 main_v163 (by decide)).trans (W29_main_v163 V0)
theorem W30_main_v164 (V0 : Valuation τ sig (Elt F)) : W30 V0 (no_index (Proc.devRef .tc main_v164)) = val_main_v164 (F := F) :=
  (W30_keep V0 main_v164 (by decide)).trans (W29_main_v164 V0)
theorem W30_main_v165 (V0 : Valuation τ sig (Elt F)) : W30 V0 (no_index (Proc.devRef .tc main_v165)) = val_main_v165 (F := F) := by
  unfold W30
  simp only [s30, after_cons, after_nil]
  rw [binary_result]
  rw [W29_main_v63 V0, W29_main_v164 V0]
  rfl

/-! ### Operations 215 … 215 -/

abbrev s31 : List (HloOp τ sig (Elt F)) :=
  [ binary main_v64 main_v164 main_v166 ((fun a b => concatenate S2101248 0 [⟨S2097152, a⟩, ⟨S4096, b⟩] concatenates_S2097152_S4096_S2101248_d0) : (⟨S2097152, .i32⟩ : BufTy).Contents (Elt F) → (⟨S4096, .i32⟩ : BufTy).Contents (Elt F) → (⟨S2101248, .i32⟩ : BufTy).Contents (Elt F)) ]
theorem s31_sub : (s31 : List (HloOp τ sig (Elt F))).Forall fun op => op.bufs ⊆ tcRefs τ sig :=
  binary_bufs_sub ..
theorem s31_fresh : ∀ op ∈ (s31 : List (HloOp τ sig (Elt F))), op.fresh = ∅ := by
  intro _ h; (repeat (cases h with | head => rfl | tail _ h => ?_)); exact nomatch h
/-- The buffers these operations write. -/
abbrev s31_W : List (Ref sig .tc) := [main_v166]
theorem s31_writes : (s31 : List (HloOp τ sig (Elt F))).Forall fun op => op.writes ⊆ (s31_W.map (Proc.devRef (τ := τ) .tc)).toFinset := by
  simp only [s31, List.Forall, nullary_writes, unary_writes, binary_writes, ternary_writes, reshape_writes, nary_writes, Finset.singleton_subset_iff, List.mem_toFinset]
  exact List.mem_map_of_mem (by decide)
/-- The buffers' contents after operation 215. -/
def W31 (V0 : Valuation τ sig (Elt F)) : Valuation τ sig (Elt F) := after s31 (W30 V0)
theorem W31_keep (V0 : Valuation τ sig (Elt F)) (r : Ref sig .tc) (h : r ∉ s31_W) :
    W31 V0 (Proc.devRef .tc r) = W30 V0 (Proc.devRef .tc r) :=
  after_of_writes_sub s31 _ s31_writes h
theorem W31_main_arg0 (V0 : Valuation τ sig (Elt F)) : W31 V0 (no_index (Proc.devRef .tc main_arg0)) = V0 (Proc.devRef .tc main_arg0) :=
  (W31_keep V0 main_arg0 (by decide)).trans (W30_main_arg0 V0)
theorem W31_main_arg1 (V0 : Valuation τ sig (Elt F)) : W31 V0 (no_index (Proc.devRef .tc main_arg1)) = V0 (Proc.devRef .tc main_arg1) :=
  (W31_keep V0 main_arg1 (by decide)).trans (W30_main_arg1 V0)
theorem W31_main_arg2 (V0 : Valuation τ sig (Elt F)) : W31 V0 (no_index (Proc.devRef .tc main_arg2)) = V0 (Proc.devRef .tc main_arg2) :=
  (W31_keep V0 main_arg2 (by decide)).trans (W30_main_arg2 V0)
theorem W31_main_arg3 (V0 : Valuation τ sig (Elt F)) : W31 V0 (no_index (Proc.devRef .tc main_arg3)) = V0 (Proc.devRef .tc main_arg3) :=
  (W31_keep V0 main_arg3 (by decide)).trans (W30_main_arg3 V0)
theorem W31_main_arg4 (V0 : Valuation τ sig (Elt F)) : W31 V0 (no_index (Proc.devRef .tc main_arg4)) = V0 (Proc.devRef .tc main_arg4) :=
  (W31_keep V0 main_arg4 (by decide)).trans (W30_main_arg4 V0)
theorem W31_main_arg5 (V0 : Valuation τ sig (Elt F)) : W31 V0 (no_index (Proc.devRef .tc main_arg5)) = V0 (Proc.devRef .tc main_arg5) :=
  (W31_keep V0 main_arg5 (by decide)).trans (W30_main_arg5 V0)
theorem W31_main_arg6 (V0 : Valuation τ sig (Elt F)) : W31 V0 (no_index (Proc.devRef .tc main_arg6)) = V0 (Proc.devRef .tc main_arg6) :=
  (W31_keep V0 main_arg6 (by decide)).trans (W30_main_arg6 V0)
theorem W31_main_arg7 (V0 : Valuation τ sig (Elt F)) : W31 V0 (no_index (Proc.devRef .tc main_arg7)) = V0 (Proc.devRef .tc main_arg7) :=
  (W31_keep V0 main_arg7 (by decide)).trans (W30_main_arg7 V0)
theorem W31_main_v65 (V0 : Valuation τ sig (Elt F)) : W31 V0 (no_index (Proc.devRef .tc main_v65)) = val_main_v65 (F := F) (V0 (Proc.devRef .tc main_arg0)) :=
  (W31_keep V0 main_v65 (by decide)).trans (W30_main_v65 V0)
theorem W31_main_v163 (V0 : Valuation τ sig (Elt F)) : W31 V0 (no_index (Proc.devRef .tc main_v163)) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (W31_keep V0 main_v163 (by decide)).trans (W30_main_v163 V0)
theorem W31_main_v165 (V0 : Valuation τ sig (Elt F)) : W31 V0 (no_index (Proc.devRef .tc main_v165)) = val_main_v165 (F := F) :=
  (W31_keep V0 main_v165 (by decide)).trans (W30_main_v165 V0)
theorem W31_main_v166 (V0 : Valuation τ sig (Elt F)) : W31 V0 (no_index (Proc.devRef .tc main_v166)) = val_main_v166 (F := F) := by
  unfold W31
  simp only [s31, after_cons, after_nil]
  rw [binary_result]
  rw [W30_main_v64 V0, W30_main_v164 V0]
  rfl

/-! ### Operations 216 … 217 -/

abbrev s32 : List (HloOp τ sig (Elt F)) :=
  [ nullary main_cst_38 (constant S_ .f32 0x3F800000#32),
    unary main_cst_38 main_v167 (broadcastInDim S4096 ![] bcast_S_S4096 : (⟨S_, .f32⟩ : BufTy).Contents (Elt F) → (⟨S4096, .f32⟩ : BufTy).Contents (Elt F)) ]
theorem s32_sub : (s32 : List (HloOp τ sig (Elt F))).Forall fun op => op.bufs ⊆ tcRefs τ sig :=
  ⟨nullary_bufs_sub .., unary_bufs_sub ..⟩
theorem s32_fresh : ∀ op ∈ (s32 : List (HloOp τ sig (Elt F))), op.fresh = ∅ := by
  intro _ h; (repeat (cases h with | head => rfl | tail _ h => ?_)); exact nomatch h
/-- The buffers these operations write. -/
abbrev s32_W : List (Ref sig .tc) := [main_cst_38, main_v167]
theorem s32_writes : (s32 : List (HloOp τ sig (Elt F))).Forall fun op => op.writes ⊆ (s32_W.map (Proc.devRef (τ := τ) .tc)).toFinset := by
  simp only [s32, List.Forall, nullary_writes, unary_writes, binary_writes, ternary_writes, reshape_writes, nary_writes, Finset.singleton_subset_iff, List.mem_toFinset]
  refine ⟨?_, ?_⟩ <;> exact List.mem_map_of_mem (by decide)
/-- The buffers' contents after operation 217. -/
def W32 (V0 : Valuation τ sig (Elt F)) : Valuation τ sig (Elt F) := after s32 (W31 V0)
theorem W32_keep (V0 : Valuation τ sig (Elt F)) (r : Ref sig .tc) (h : r ∉ s32_W) :
    W32 V0 (Proc.devRef .tc r) = W31 V0 (Proc.devRef .tc r) :=
  after_of_writes_sub s32 _ s32_writes h
theorem W32_main_arg0 (V0 : Valuation τ sig (Elt F)) : W32 V0 (no_index (Proc.devRef .tc main_arg0)) = V0 (Proc.devRef .tc main_arg0) :=
  (W32_keep V0 main_arg0 (by decide)).trans (W31_main_arg0 V0)
theorem W32_main_arg1 (V0 : Valuation τ sig (Elt F)) : W32 V0 (no_index (Proc.devRef .tc main_arg1)) = V0 (Proc.devRef .tc main_arg1) :=
  (W32_keep V0 main_arg1 (by decide)).trans (W31_main_arg1 V0)
theorem W32_main_arg2 (V0 : Valuation τ sig (Elt F)) : W32 V0 (no_index (Proc.devRef .tc main_arg2)) = V0 (Proc.devRef .tc main_arg2) :=
  (W32_keep V0 main_arg2 (by decide)).trans (W31_main_arg2 V0)
theorem W32_main_arg3 (V0 : Valuation τ sig (Elt F)) : W32 V0 (no_index (Proc.devRef .tc main_arg3)) = V0 (Proc.devRef .tc main_arg3) :=
  (W32_keep V0 main_arg3 (by decide)).trans (W31_main_arg3 V0)
theorem W32_main_arg4 (V0 : Valuation τ sig (Elt F)) : W32 V0 (no_index (Proc.devRef .tc main_arg4)) = V0 (Proc.devRef .tc main_arg4) :=
  (W32_keep V0 main_arg4 (by decide)).trans (W31_main_arg4 V0)
theorem W32_main_arg5 (V0 : Valuation τ sig (Elt F)) : W32 V0 (no_index (Proc.devRef .tc main_arg5)) = V0 (Proc.devRef .tc main_arg5) :=
  (W32_keep V0 main_arg5 (by decide)).trans (W31_main_arg5 V0)
theorem W32_main_arg6 (V0 : Valuation τ sig (Elt F)) : W32 V0 (no_index (Proc.devRef .tc main_arg6)) = V0 (Proc.devRef .tc main_arg6) :=
  (W32_keep V0 main_arg6 (by decide)).trans (W31_main_arg6 V0)
theorem W32_main_arg7 (V0 : Valuation τ sig (Elt F)) : W32 V0 (no_index (Proc.devRef .tc main_arg7)) = V0 (Proc.devRef .tc main_arg7) :=
  (W32_keep V0 main_arg7 (by decide)).trans (W31_main_arg7 V0)
theorem W32_main_v65 (V0 : Valuation τ sig (Elt F)) : W32 V0 (no_index (Proc.devRef .tc main_v65)) = val_main_v65 (F := F) (V0 (Proc.devRef .tc main_arg0)) :=
  (W32_keep V0 main_v65 (by decide)).trans (W31_main_v65 V0)
theorem W32_main_v163 (V0 : Valuation τ sig (Elt F)) : W32 V0 (no_index (Proc.devRef .tc main_v163)) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (W32_keep V0 main_v163 (by decide)).trans (W31_main_v163 V0)
theorem W32_main_v165 (V0 : Valuation τ sig (Elt F)) : W32 V0 (no_index (Proc.devRef .tc main_v165)) = val_main_v165 (F := F) :=
  (W32_keep V0 main_v165 (by decide)).trans (W31_main_v165 V0)
theorem W32_main_v166 (V0 : Valuation τ sig (Elt F)) : W32 V0 (no_index (Proc.devRef .tc main_v166)) = val_main_v166 (F := F) :=
  (W32_keep V0 main_v166 (by decide)).trans (W31_main_v166 V0)
theorem W32_main_v167 (V0 : Valuation τ sig (Elt F)) : W32 V0 (no_index (Proc.devRef .tc main_v167)) = val_main_v167 (F := F) := by
  unfold W32
  simp only [s32]
  after_results_simp
  rfl

/-! ### Operations 218 … 218 -/

abbrev s33 : List (HloOp τ sig (Elt F)) :=
  [ binary main_v65 main_v167 main_v168 ((fun a b => concatenate S2101248 0 [⟨S2097152, a⟩, ⟨S4096, b⟩] concatenates_S2097152_S4096_S2101248_d0) : (⟨S2097152, .f32⟩ : BufTy).Contents (Elt F) → (⟨S4096, .f32⟩ : BufTy).Contents (Elt F) → (⟨S2101248, .f32⟩ : BufTy).Contents (Elt F)) ]
theorem s33_sub : (s33 : List (HloOp τ sig (Elt F))).Forall fun op => op.bufs ⊆ tcRefs τ sig :=
  binary_bufs_sub ..
theorem s33_fresh : ∀ op ∈ (s33 : List (HloOp τ sig (Elt F))), op.fresh = ∅ := by
  intro _ h; (repeat (cases h with | head => rfl | tail _ h => ?_)); exact nomatch h
/-- The buffers these operations write. -/
abbrev s33_W : List (Ref sig .tc) := [main_v168]
theorem s33_writes : (s33 : List (HloOp τ sig (Elt F))).Forall fun op => op.writes ⊆ (s33_W.map (Proc.devRef (τ := τ) .tc)).toFinset := by
  simp only [s33, List.Forall, nullary_writes, unary_writes, binary_writes, ternary_writes, reshape_writes, nary_writes, Finset.singleton_subset_iff, List.mem_toFinset]
  exact List.mem_map_of_mem (by decide)
/-- The buffers' contents after operation 218. -/
def W33 (V0 : Valuation τ sig (Elt F)) : Valuation τ sig (Elt F) := after s33 (W32 V0)
theorem W33_keep (V0 : Valuation τ sig (Elt F)) (r : Ref sig .tc) (h : r ∉ s33_W) :
    W33 V0 (Proc.devRef .tc r) = W32 V0 (Proc.devRef .tc r) :=
  after_of_writes_sub s33 _ s33_writes h
theorem W33_main_arg0 (V0 : Valuation τ sig (Elt F)) : W33 V0 (no_index (Proc.devRef .tc main_arg0)) = V0 (Proc.devRef .tc main_arg0) :=
  (W33_keep V0 main_arg0 (by decide)).trans (W32_main_arg0 V0)
theorem W33_main_arg1 (V0 : Valuation τ sig (Elt F)) : W33 V0 (no_index (Proc.devRef .tc main_arg1)) = V0 (Proc.devRef .tc main_arg1) :=
  (W33_keep V0 main_arg1 (by decide)).trans (W32_main_arg1 V0)
theorem W33_main_arg2 (V0 : Valuation τ sig (Elt F)) : W33 V0 (no_index (Proc.devRef .tc main_arg2)) = V0 (Proc.devRef .tc main_arg2) :=
  (W33_keep V0 main_arg2 (by decide)).trans (W32_main_arg2 V0)
theorem W33_main_arg3 (V0 : Valuation τ sig (Elt F)) : W33 V0 (no_index (Proc.devRef .tc main_arg3)) = V0 (Proc.devRef .tc main_arg3) :=
  (W33_keep V0 main_arg3 (by decide)).trans (W32_main_arg3 V0)
theorem W33_main_arg4 (V0 : Valuation τ sig (Elt F)) : W33 V0 (no_index (Proc.devRef .tc main_arg4)) = V0 (Proc.devRef .tc main_arg4) :=
  (W33_keep V0 main_arg4 (by decide)).trans (W32_main_arg4 V0)
theorem W33_main_arg5 (V0 : Valuation τ sig (Elt F)) : W33 V0 (no_index (Proc.devRef .tc main_arg5)) = V0 (Proc.devRef .tc main_arg5) :=
  (W33_keep V0 main_arg5 (by decide)).trans (W32_main_arg5 V0)
theorem W33_main_arg6 (V0 : Valuation τ sig (Elt F)) : W33 V0 (no_index (Proc.devRef .tc main_arg6)) = V0 (Proc.devRef .tc main_arg6) :=
  (W33_keep V0 main_arg6 (by decide)).trans (W32_main_arg6 V0)
theorem W33_main_arg7 (V0 : Valuation τ sig (Elt F)) : W33 V0 (no_index (Proc.devRef .tc main_arg7)) = V0 (Proc.devRef .tc main_arg7) :=
  (W33_keep V0 main_arg7 (by decide)).trans (W32_main_arg7 V0)
theorem W33_main_v163 (V0 : Valuation τ sig (Elt F)) : W33 V0 (no_index (Proc.devRef .tc main_v163)) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (W33_keep V0 main_v163 (by decide)).trans (W32_main_v163 V0)
theorem W33_main_v165 (V0 : Valuation τ sig (Elt F)) : W33 V0 (no_index (Proc.devRef .tc main_v165)) = val_main_v165 (F := F) :=
  (W33_keep V0 main_v165 (by decide)).trans (W32_main_v165 V0)
theorem W33_main_v166 (V0 : Valuation τ sig (Elt F)) : W33 V0 (no_index (Proc.devRef .tc main_v166)) = val_main_v166 (F := F) :=
  (W33_keep V0 main_v166 (by decide)).trans (W32_main_v166 V0)
theorem W33_main_v168 (V0 : Valuation τ sig (Elt F)) : W33 V0 (no_index (Proc.devRef .tc main_v168)) = val_main_v168 (F := F) (V0 (Proc.devRef .tc main_arg0)) := by
  unfold W33
  simp only [s33, after_cons, after_nil]
  rw [binary_result]
  rw [W32_main_v65 V0, W32_main_v167 V0]
  rfl

/-! ### Operations 219 … 232 -/

abbrev s34 : List (HloOp τ sig (Elt F)) :=
  [ nullary main_cst_39 (constant S_ .f32 0x00000000#32),
    unary main_cst_39 main_v169 (broadcastInDim S4096 ![] bcast_S_S4096 : (⟨S_, .f32⟩ : BufTy).Contents (Elt F) → (⟨S4096, .f32⟩ : BufTy).Contents (Elt F)),
    unary main_v166 main_v170 (broadcastInDim S2101248x1 ![0] bcast_S2101248_S2101248x1_0 : (⟨S2101248, .i32⟩ : BufTy).Contents (Elt F) → (⟨S2101248x1, .i32⟩ : BufTy).Contents (Elt F)),
    ternary main_v169 main_v170 main_v168 main_v171 ((fun x i u => Host.scatterAdd scatter_S4096_S2101248x1_S2101248_n_0_0_1 x i u) : (⟨S4096, .f32⟩ : BufTy).Contents (Elt F) → (⟨S2101248x1, .i32⟩ : BufTy).Contents (Elt F) → (⟨S2101248, .f32⟩ : BufTy).Contents (Elt F) → (⟨S4096, .f32⟩ : BufTy).Contents (Elt F)),
    nullary main_cst_40 (constant S_ .f32 0x00000000#32),
    unary main_cst_40 main_v172 (broadcastInDim S4096 ![] bcast_S_S4096 : (⟨S_, .f32⟩ : BufTy).Contents (Elt F) → (⟨S4096, .f32⟩ : BufTy).Contents (Elt F)),
    binary main_v171 main_v172 main_v173 (cmpf .ogt : (⟨S4096, .f32⟩ : BufTy).Contents (Elt F) → (⟨S4096, .f32⟩ : BufTy).Contents (Elt F) → (⟨S4096, .i1⟩ : BufTy).Contents (Elt F)),
    nullary main_cst_41 (constant S_ .f32 0xBF000000#32),
    unary main_cst_41 main_v174 (broadcastInDim S4096 ![] bcast_S_S4096 : (⟨S_, .f32⟩ : BufTy).Contents (Elt F) → (⟨S4096, .f32⟩ : BufTy).Contents (Elt F)),
    binary main_v171 main_v174 main_v175 (Host.powf : (⟨S4096, .f32⟩ : BufTy).Contents (Elt F) → (⟨S4096, .f32⟩ : BufTy).Contents (Elt F) → (⟨S4096, .f32⟩ : BufTy).Contents (Elt F)),
    nullary main_cst_42 (constant S_ .f32 0x00000000#32),
    TRef.unary (TRef.of (T := ⟨S_, .f32⟩) main_cst_42) (TRef.of (T := ⟨S_, .f32⟩) main_call4_v0) id,
    TRef.unary (TRef.of (T := ⟨S_, .f32⟩) main_call4_v0) (TRef.of (T := ⟨S4096, .f32⟩) main_call4_v1) (broadcastInDim S4096 ![] bcast_S_S4096),
    TRef.ternary (TRef.of (T := ⟨S4096, .i1⟩) main_v173) (TRef.of (T := ⟨S4096, .f32⟩) main_v175) (TRef.of (T := ⟨S4096, .f32⟩) main_call4_v1) (TRef.of (T := ⟨S4096, .f32⟩) main_v176) select ]
theorem s34_sub : (s34 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩
theorem s34_fresh : ∀ op ∈ (s34 : List (HloOp τ sig (Elt F))), op.fresh = ∅ := by
  intro _ h; (repeat (cases h with | head => rfl | tail _ h => ?_)); exact nomatch h
/-- The buffers these operations write. -/
abbrev s34_W : List (Ref sig .tc) := [main_cst_39, main_v169, main_v170, main_v171, main_cst_40, main_v172, main_v173, main_cst_41, main_v174, main_v175, main_cst_42, main_call4_v0, main_call4_v1, main_v176]
theorem s34_writes : (s34 : List (HloOp τ sig (Elt F))).Forall fun op => op.writes ⊆ (s34_W.map (Proc.devRef (τ := τ) .tc)).toFinset := by
  simp only [s34, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 232. -/
def W34 (V0 : Valuation τ sig (Elt F)) : Valuation τ sig (Elt F) := after s34 (W33 V0)
theorem W34_keep (V0 : Valuation τ sig (Elt F)) (r : Ref sig .tc) (h : r ∉ s34_W) :
    W34 V0 (Proc.devRef .tc r) = W33 V0 (Proc.devRef .tc r) :=
  after_of_writes_sub s34 _ s34_writes h
theorem W34_main_arg0 (V0 : Valuation τ sig (Elt F)) : W34 V0 (no_index (Proc.devRef .tc main_arg0)) = V0 (Proc.devRef .tc main_arg0) :=
  (W34_keep V0 main_arg0 (by decide)).trans (W33_main_arg0 V0)
theorem W34_main_arg1 (V0 : Valuation τ sig (Elt F)) : W34 V0 (no_index (Proc.devRef .tc main_arg1)) = V0 (Proc.devRef .tc main_arg1) :=
  (W34_keep V0 main_arg1 (by decide)).trans (W33_main_arg1 V0)
theorem W34_main_arg2 (V0 : Valuation τ sig (Elt F)) : W34 V0 (no_index (Proc.devRef .tc main_arg2)) = V0 (Proc.devRef .tc main_arg2) :=
  (W34_keep V0 main_arg2 (by decide)).trans (W33_main_arg2 V0)
theorem W34_main_arg3 (V0 : Valuation τ sig (Elt F)) : W34 V0 (no_index (Proc.devRef .tc main_arg3)) = V0 (Proc.devRef .tc main_arg3) :=
  (W34_keep V0 main_arg3 (by decide)).trans (W33_main_arg3 V0)
theorem W34_main_arg4 (V0 : Valuation τ sig (Elt F)) : W34 V0 (no_index (Proc.devRef .tc main_arg4)) = V0 (Proc.devRef .tc main_arg4) :=
  (W34_keep V0 main_arg4 (by decide)).trans (W33_main_arg4 V0)
theorem W34_main_arg5 (V0 : Valuation τ sig (Elt F)) : W34 V0 (no_index (Proc.devRef .tc main_arg5)) = V0 (Proc.devRef .tc main_arg5) :=
  (W34_keep V0 main_arg5 (by decide)).trans (W33_main_arg5 V0)
theorem W34_main_arg6 (V0 : Valuation τ sig (Elt F)) : W34 V0 (no_index (Proc.devRef .tc main_arg6)) = V0 (Proc.devRef .tc main_arg6) :=
  (W34_keep V0 main_arg6 (by decide)).trans (W33_main_arg6 V0)
theorem W34_main_arg7 (V0 : Valuation τ sig (Elt F)) : W34 V0 (no_index (Proc.devRef .tc main_arg7)) = V0 (Proc.devRef .tc main_arg7) :=
  (W34_keep V0 main_arg7 (by decide)).trans (W33_main_arg7 V0)
theorem W34_main_v163 (V0 : Valuation τ sig (Elt F)) : W34 V0 (no_index (Proc.devRef .tc main_v163)) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (W34_keep V0 main_v163 (by decide)).trans (W33_main_v163 V0)
theorem W34_main_v165 (V0 : Valuation τ sig (Elt F)) : W34 V0 (no_index (Proc.devRef .tc main_v165)) = val_main_v165 (F := F) :=
  (W34_keep V0 main_v165 (by decide)).trans (W33_main_v165 V0)
theorem W34_main_v166 (V0 : Valuation τ sig (Elt F)) : W34 V0 (no_index (Proc.devRef .tc main_v166)) = val_main_v166 (F := F) :=
  (W34_keep V0 main_v166 (by decide)).trans (W33_main_v166 V0)
theorem W34_main_v168 (V0 : Valuation τ sig (Elt F)) : W34 V0 (no_index (Proc.devRef .tc main_v168)) = val_main_v168 (F := F) (V0 (Proc.devRef .tc main_arg0)) :=
  (W34_keep V0 main_v168 (by decide)).trans (W33_main_v168 V0)
theorem W34_main_v176 (V0 : Valuation τ sig (Elt F)) : W34 V0 (no_index (Proc.devRef .tc main_v176)) = val_main_v176 (F := F) (V0 (Proc.devRef .tc main_arg0)) := by
  unfold W34
  simp only [s34]
  after_results_simp
  rw [W33_main_v166 V0, W33_main_v168 V0]
  try simp only [TRef.ofBuf, TRef.toBuf, cast_eq]
  rfl

/-! ### Operations 233 … 246 -/

abbrev s35 : List (HloOp τ sig (Elt F)) :=
  [ nullary main_c_43 (constantI S_ 32 0#32),
    unary main_c_43 main_v177 (broadcastInDim S2101248 ![] bcast_S_S2101248 : (⟨S_, .i32⟩ : BufTy).Contents (Elt F) → (⟨S2101248, .i32⟩ : BufTy).Contents (Elt F)),
    binary main_v165 main_v177 main_v178 (cmpi .slt : (⟨S2101248, .i32⟩ : BufTy).Contents (Elt F) → (⟨S2101248, .i32⟩ : BufTy).Contents (Elt F) → (⟨S2101248, .i1⟩ : BufTy).Contents (Elt F)),
    nullary main_c_44 (constantI S_ 32 4096#32),
    unary main_c_44 main_v179 (broadcastInDim S2101248 ![] bcast_S_S2101248 : (⟨S_, .i32⟩ : BufTy).Contents (Elt F) → (⟨S2101248, .i32⟩ : BufTy).Contents (Elt F)),
    binary main_v165 main_v179 main_v180 (addi : (⟨S2101248, .i32⟩ : BufTy).Contents (Elt F) → (⟨S2101248, .i32⟩ : BufTy).Contents (Elt F) → (⟨S2101248, .i32⟩ : BufTy).Contents (Elt F)),
    ternary main_v178 main_v180 main_v165 main_v181 (select : (⟨S2101248, .i1⟩ : BufTy).Contents (Elt F) → (⟨S2101248, .i32⟩ : BufTy).Contents (Elt F) → (⟨S2101248, .i32⟩ : BufTy).Contents (Elt F) → (⟨S2101248, .i32⟩ : BufTy).Contents (Elt F)),
    unary main_v181 main_v182 (broadcastInDim S2101248x1 ![0] bcast_S2101248_S2101248x1_0 : (⟨S2101248, .i32⟩ : BufTy).Contents (Elt F) → (⟨S2101248x1, .i32⟩ : BufTy).Contents (Elt F)),
    binary main_v176 main_v182 main_v183 ((fun x i => Host.gather gather_S4096_S2101248x1_S2101248_n_0_n_n_0_1_1 x i) : (⟨S4096, .f32⟩ : BufTy).Contents (Elt F) → (⟨S2101248x1, .i32⟩ : BufTy).Contents (Elt F) → (⟨S2101248, .f32⟩ : BufTy).Contents (Elt F)),
    nullary main_c_45 (constantI S_ 32 0#32),
    unary main_c_45 main_v184 (broadcastInDim S2101248 ![] bcast_S_S2101248 : (⟨S_, .i32⟩ : BufTy).Contents (Elt F) → (⟨S2101248, .i32⟩ : BufTy).Contents (Elt F)),
    binary main_v166 main_v184 main_v185 (cmpi .slt : (⟨S2101248, .i32⟩ : BufTy).Contents (Elt F) → (⟨S2101248, .i32⟩ : BufTy).Contents (Elt F) → (⟨S2101248, .i1⟩ : BufTy).Contents (Elt F)),
    nullary main_c_46 (constantI S_ 32 4096#32),
    unary main_c_46 main_v186 (broadcastInDim S2101248 ![] bcast_S_S2101248 : (⟨S_, .i32⟩ : BufTy).Contents (Elt F) → (⟨S2101248, .i32⟩ : BufTy).Contents (Elt F)) ]
theorem s35_sub : (s35 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩
theorem s35_fresh : ∀ op ∈ (s35 : List (HloOp τ sig (Elt F))), op.fresh = ∅ := by
  intro _ h; (repeat (cases h with | head => rfl | tail _ h => ?_)); exact nomatch h
/-- The buffers these operations write. -/
abbrev s35_W : List (Ref sig .tc) := [main_c_43, main_v177, main_v178, main_c_44, main_v179, main_v180, main_v181, main_v182, main_v183, main_c_45, main_v184, main_v185, main_c_46, main_v186]
theorem s35_writes : (s35 : List (HloOp τ sig (Elt F))).Forall fun op => op.writes ⊆ (s35_W.map (Proc.devRef (τ := τ) .tc)).toFinset := by
  simp only [s35, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 246. -/
def W35 (V0 : Valuation τ sig (Elt F)) : Valuation τ sig (Elt F) := after s35 (W34 V0)
theorem W35_keep (V0 : Valuation τ sig (Elt F)) (r : Ref sig .tc) (h : r ∉ s35_W) :
    W35 V0 (Proc.devRef .tc r) = W34 V0 (Proc.devRef .tc r) :=
  after_of_writes_sub s35 _ s35_writes h
theorem W35_main_arg0 (V0 : Valuation τ sig (Elt F)) : W35 V0 (no_index (Proc.devRef .tc main_arg0)) = V0 (Proc.devRef .tc main_arg0) :=
  (W35_keep V0 main_arg0 (by decide)).trans (W34_main_arg0 V0)
theorem W35_main_arg1 (V0 : Valuation τ sig (Elt F)) : W35 V0 (no_index (Proc.devRef .tc main_arg1)) = V0 (Proc.devRef .tc main_arg1) :=
  (W35_keep V0 main_arg1 (by decide)).trans (W34_main_arg1 V0)
theorem W35_main_arg2 (V0 : Valuation τ sig (Elt F)) : W35 V0 (no_index (Proc.devRef .tc main_arg2)) = V0 (Proc.devRef .tc main_arg2) :=
  (W35_keep V0 main_arg2 (by decide)).trans (W34_main_arg2 V0)
theorem W35_main_arg3 (V0 : Valuation τ sig (Elt F)) : W35 V0 (no_index (Proc.devRef .tc main_arg3)) = V0 (Proc.devRef .tc main_arg3) :=
  (W35_keep V0 main_arg3 (by decide)).trans (W34_main_arg3 V0)
theorem W35_main_arg4 (V0 : Valuation τ sig (Elt F)) : W35 V0 (no_index (Proc.devRef .tc main_arg4)) = V0 (Proc.devRef .tc main_arg4) :=
  (W35_keep V0 main_arg4 (by decide)).trans (W34_main_arg4 V0)
theorem W35_main_arg5 (V0 : Valuation τ sig (Elt F)) : W35 V0 (no_index (Proc.devRef .tc main_arg5)) = V0 (Proc.devRef .tc main_arg5) :=
  (W35_keep V0 main_arg5 (by decide)).trans (W34_main_arg5 V0)
theorem W35_main_arg6 (V0 : Valuation τ sig (Elt F)) : W35 V0 (no_index (Proc.devRef .tc main_arg6)) = V0 (Proc.devRef .tc main_arg6) :=
  (W35_keep V0 main_arg6 (by decide)).trans (W34_main_arg6 V0)
theorem W35_main_arg7 (V0 : Valuation τ sig (Elt F)) : W35 V0 (no_index (Proc.devRef .tc main_arg7)) = V0 (Proc.devRef .tc main_arg7) :=
  (W35_keep V0 main_arg7 (by decide)).trans (W34_main_arg7 V0)
theorem W35_main_v163 (V0 : Valuation τ sig (Elt F)) : W35 V0 (no_index (Proc.devRef .tc main_v163)) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (W35_keep V0 main_v163 (by decide)).trans (W34_main_v163 V0)
theorem W35_main_v165 (V0 : Valuation τ sig (Elt F)) : W35 V0 (no_index (Proc.devRef .tc main_v165)) = val_main_v165 (F := F) :=
  (W35_keep V0 main_v165 (by decide)).trans (W34_main_v165 V0)
theorem W35_main_v166 (V0 : Valuation τ sig (Elt F)) : W35 V0 (no_index (Proc.devRef .tc main_v166)) = val_main_v166 (F := F) :=
  (W35_keep V0 main_v166 (by decide)).trans (W34_main_v166 V0)
theorem W35_main_v168 (V0 : Valuation τ sig (Elt F)) : W35 V0 (no_index (Proc.devRef .tc main_v168)) = val_main_v168 (F := F) (V0 (Proc.devRef .tc main_arg0)) :=
  (W35_keep V0 main_v168 (by decide)).trans (W34_main_v168 V0)
theorem W35_main_v176 (V0 : Valuation τ sig (Elt F)) : W35 V0 (no_index (Proc.devRef .tc main_v176)) = val_main_v176 (F := F) (V0 (Proc.devRef .tc main_arg0)) :=
  (W35_keep V0 main_v176 (by decide)).trans (W34_main_v176 V0)
theorem W35_main_v183 (V0 : Valuation τ sig (Elt F)) : W35 V0 (no_index (Proc.devRef .tc main_v183)) = val_main_v183 (F := F) (V0 (Proc.devRef .tc main_arg0)) := by
  unfold W35
  simp only [s35]
  after_results_simp
  rw [W34_main_v176 V0, W34_main_v165 V0]
  rfl
theorem W35_main_v185 (V0 : Valuation τ sig (Elt F)) : W35 V0 (no_index (Proc.devRef .tc main_v185)) = val_main_v185 (F := F) := by
  unfold W35
  simp only [s35]
  after_results_simp
  rw [W34_main_v166 V0]
  rfl
theorem W35_main_v186 (V0 : Valuation τ sig (Elt F)) : W35 V0 (no_index (Proc.devRef .tc main_v186)) = val_main_v186 (F := F) := by
  unfold W35
  simp only [s35]
  after_results_simp
  rfl

/-! ### Operations 247 … 250 -/

abbrev s36 : List (HloOp τ sig (Elt F)) :=
  [ binary main_v166 main_v186 main_v187 (addi : (⟨S2101248, .i32⟩ : BufTy).Contents (Elt F) → (⟨S2101248, .i32⟩ : BufTy).Contents (Elt F) → (⟨S2101248, .i32⟩ : BufTy).Contents (Elt F)),
    ternary main_v185 main_v187 main_v166 main_v188 (select : (⟨S2101248, .i1⟩ : BufTy).Contents (Elt F) → (⟨S2101248, .i32⟩ : BufTy).Contents (Elt F) → (⟨S2101248, .i32⟩ : BufTy).Contents (Elt F) → (⟨S2101248, .i32⟩ : BufTy).Contents (Elt F)),
    unary main_v188 main_v189 (broadcastInDim S2101248x1 ![0] bcast_S2101248_S2101248x1_0 : (⟨S2101248, .i32⟩ : BufTy).Contents (Elt F) → (⟨S2101248x1, .i32⟩ : BufTy).Contents (Elt F)),
    binary main_v176 main_v189 main_v190 ((fun x i => Host.gather gather_S4096_S2101248x1_S2101248_n_0_n_n_0_1_1 x i) : (⟨S4096, .f32⟩ : BufTy).Contents (Elt F) → (⟨S2101248x1, .i32⟩ : BufTy).Contents (Elt F) → (⟨S2101248, .f32⟩ : BufTy).Contents (Elt F)) ]
theorem s36_sub : (s36 : List (HloOp τ sig (Elt F))).Forall fun op => op.bufs ⊆ tcRefs τ sig :=
  ⟨binary_bufs_sub .., ternary_bufs_sub .., unary_bufs_sub .., binary_bufs_sub ..⟩
theorem s36_fresh : ∀ op ∈ (s36 : List (HloOp τ sig (Elt F))), op.fresh = ∅ := by
  intro _ h; (repeat (cases h with | head => rfl | tail _ h => ?_)); exact nomatch h
/-- The buffers these operations write. -/
abbrev s36_W : List (Ref sig .tc) := [main_v187, main_v188, main_v189, main_v190]
theorem s36_writes : (s36 : List (HloOp τ sig (Elt F))).Forall fun op => op.writes ⊆ (s36_W.map (Proc.devRef (τ := τ) .tc)).toFinset := by
  simp only [s36, List.Forall, nullary_writes, unary_writes, binary_writes, ternary_writes, reshape_writes, nary_writes, Finset.singleton_subset_iff, List.mem_toFinset]
  refine ⟨?_, ?_, ?_, ?_⟩ <;> exact List.mem_map_of_mem (by decide)
/-- The buffers' contents after operation 250. -/
def W36 (V0 : Valuation τ sig (Elt F)) : Valuation τ sig (Elt F) := after s36 (W35 V0)
theorem W36_keep (V0 : Valuation τ sig (Elt F)) (r : Ref sig .tc) (h : r ∉ s36_W) :
    W36 V0 (Proc.devRef .tc r) = W35 V0 (Proc.devRef .tc r) :=
  after_of_writes_sub s36 _ s36_writes h
theorem W36_main_arg0 (V0 : Valuation τ sig (Elt F)) : W36 V0 (no_index (Proc.devRef .tc main_arg0)) = V0 (Proc.devRef .tc main_arg0) :=
  (W36_keep V0 main_arg0 (by decide)).trans (W35_main_arg0 V0)
theorem W36_main_arg1 (V0 : Valuation τ sig (Elt F)) : W36 V0 (no_index (Proc.devRef .tc main_arg1)) = V0 (Proc.devRef .tc main_arg1) :=
  (W36_keep V0 main_arg1 (by decide)).trans (W35_main_arg1 V0)
theorem W36_main_arg2 (V0 : Valuation τ sig (Elt F)) : W36 V0 (no_index (Proc.devRef .tc main_arg2)) = V0 (Proc.devRef .tc main_arg2) :=
  (W36_keep V0 main_arg2 (by decide)).trans (W35_main_arg2 V0)
theorem W36_main_arg3 (V0 : Valuation τ sig (Elt F)) : W36 V0 (no_index (Proc.devRef .tc main_arg3)) = V0 (Proc.devRef .tc main_arg3) :=
  (W36_keep V0 main_arg3 (by decide)).trans (W35_main_arg3 V0)
theorem W36_main_arg4 (V0 : Valuation τ sig (Elt F)) : W36 V0 (no_index (Proc.devRef .tc main_arg4)) = V0 (Proc.devRef .tc main_arg4) :=
  (W36_keep V0 main_arg4 (by decide)).trans (W35_main_arg4 V0)
theorem W36_main_arg5 (V0 : Valuation τ sig (Elt F)) : W36 V0 (no_index (Proc.devRef .tc main_arg5)) = V0 (Proc.devRef .tc main_arg5) :=
  (W36_keep V0 main_arg5 (by decide)).trans (W35_main_arg5 V0)
theorem W36_main_arg6 (V0 : Valuation τ sig (Elt F)) : W36 V0 (no_index (Proc.devRef .tc main_arg6)) = V0 (Proc.devRef .tc main_arg6) :=
  (W36_keep V0 main_arg6 (by decide)).trans (W35_main_arg6 V0)
theorem W36_main_arg7 (V0 : Valuation τ sig (Elt F)) : W36 V0 (no_index (Proc.devRef .tc main_arg7)) = V0 (Proc.devRef .tc main_arg7) :=
  (W36_keep V0 main_arg7 (by decide)).trans (W35_main_arg7 V0)
theorem W36_main_v163 (V0 : Valuation τ sig (Elt F)) : W36 V0 (no_index (Proc.devRef .tc main_v163)) = val_main_v163 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  (W36_keep V0 main_v163 (by decide)).trans (W35_main_v163 V0)
theorem W36_main_v165 (V0 : Valuation τ sig (Elt F)) : W36 V0 (no_index (Proc.devRef .tc main_v165)) = val_main_v165 (F := F) :=
  (W36_keep V0 main_v165 (by decide)).trans (W35_main_v165 V0)
theorem W36_main_v166 (V0 : Valuation τ sig (Elt F)) : W36 V0 (no_index (Proc.devRef .tc main_v166)) = val_main_v166 (F := F) :=
  (W36_keep V0 main_v166 (by decide)).trans (W35_main_v166 V0)
theorem W36_main_v168 (V0 : Valuation τ sig (Elt F)) : W36 V0 (no_index (Proc.devRef .tc main_v168)) = val_main_v168 (F := F) (V0 (Proc.devRef .tc main_arg0)) :=
  (W36_keep V0 main_v168 (by decide)).trans (W35_main_v168 V0)
theorem W36_main_v183 (V0 : Valuation τ sig (Elt F)) : W36 V0 (no_index (Proc.devRef .tc main_v183)) = val_main_v183 (F := F) (V0 (Proc.devRef .tc main_arg0)) :=
  (W36_keep V0 main_v183 (by decide)).trans (W35_main_v183 V0)
theorem W36_main_v190 (V0 : Valuation τ sig (Elt F)) : W36 V0 (no_index (Proc.devRef .tc main_v190)) = val_main_v190 (F := F) (V0 (Proc.devRef .tc main_arg0)) := by
  unfold W36
  simp only [s36]
  after_results_simp
  rw [W35_main_v176 V0, W35_main_v185 V0, W35_main_v166 V0, W35_main_v186 V0]
  rfl

/-! ### Operations 251 … 264 -/

abbrev s37 : List (HloOp τ sig (Elt F)) :=
  [ binary main_v183 main_v190 main_v191 (mulf : (⟨S2101248, .f32⟩ : BufTy).Contents (Elt F) → (⟨S2101248, .f32⟩ : BufTy).Contents (Elt F) → (⟨S2101248, .f32⟩ : BufTy).Contents (Elt F)),
    nullary main_c_47 (constantI S_ 32 0#32),
    unary main_c_47 main_v192 (broadcastInDim S2101248 ![] bcast_S_S2101248 : (⟨S_, .i32⟩ : BufTy).Contents (Elt F) → (⟨S2101248, .i32⟩ : BufTy).Contents (Elt F)),
    binary main_v165 main_v192 main_v193 (cmpi .slt : (⟨S2101248, .i32⟩ : BufTy).Contents (Elt F) → (⟨S2101248, .i32⟩ : BufTy).Contents (Elt F) → (⟨S2101248, .i1⟩ : BufTy).Contents (Elt F)),
    nullary main_c_48 (constantI S_ 32 4096#32),
    unary main_c_48 main_v194 (broadcastInDim S2101248 ![] bcast_S_S2101248 : (⟨S_, .i32⟩ : BufTy).Contents (Elt F) → (⟨S2101248, .i32⟩ : BufTy).Contents (Elt F)),
    binary main_v165 main_v194 main_v195 (addi : (⟨S2101248, .i32⟩ : BufTy).Contents (Elt F) → (⟨S2101248, .i32⟩ : BufTy).Contents (Elt F) → (⟨S2101248, .i32⟩ : BufTy).Contents (Elt F)),
    ternary main_v193 main_v195 main_v165 main_v196 (select : (⟨S2101248, .i1⟩ : BufTy).Contents (Elt F) → (⟨S2101248, .i32⟩ : BufTy).Contents (Elt F) → (⟨S2101248, .i32⟩ : BufTy).Contents (Elt F) → (⟨S2101248, .i32⟩ : BufTy).Contents (Elt F)),
    unary main_v196 main_v197 (broadcastInDim S2101248x1 ![0] bcast_S2101248_S2101248x1_0 : (⟨S2101248, .i32⟩ : BufTy).Contents (Elt F) → (⟨S2101248x1, .i32⟩ : BufTy).Contents (Elt F)),
    binary main_v163 main_v197 main_v198 ((fun x i => Host.gather gather_S4096x64_S2101248x1_S2101248x64_1_0_n_n_0_1_164 x i) : (⟨S4096x64, .f32⟩ : BufTy).Contents (Elt F) → (⟨S2101248x1, .i32⟩ : BufTy).Contents (Elt F) → (⟨S2101248x64, .f32⟩ : BufTy).Contents (Elt F)),
    binary main_v168 main_v191 main_v199 (mulf : (⟨S2101248, .f32⟩ : BufTy).Contents (Elt F) → (⟨S2101248, .f32⟩ : BufTy).Contents (Elt F) → (⟨S2101248, .f32⟩ : BufTy).Contents (Elt F)),
    unary main_v199 main_v200 (broadcastInDim S2101248x1 ![0] bcast_S2101248_S2101248x1_0 : (⟨S2101248, .f32⟩ : BufTy).Contents (Elt F) → (⟨S2101248x1, .f32⟩ : BufTy).Contents (Elt F)),
    unary main_v200 main_v201 (broadcastInDim S2101248x64 ![0, 1] bcast_S2101248x1_S2101248x64_0_1 : (⟨S2101248x1, .f32⟩ : BufTy).Contents (Elt F) → (⟨S2101248x64, .f32⟩ : BufTy).Contents (Elt F)),
    binary main_v198 main_v201 main_v202 (mulf : (⟨S2101248x64, .f32⟩ : BufTy).Contents (Elt F) → (⟨S2101248x64, .f32⟩ : BufTy).Contents (Elt F) → (⟨S2101248x64, .f32⟩ : BufTy).Contents (Elt F)) ]
theorem s37_sub : (s37 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub ..⟩
theorem s37_fresh : ∀ op ∈ (s37 : List (HloOp τ sig (Elt F))), op.fresh = ∅ := by
  intro _ h; (repeat (cases h with | head => rfl | tail _ h => ?_)); exact nomatch h
/-- The buffers these operations write. -/
abbrev s37_W : List (Ref sig .tc) := [main_v191, main_c_47, main_v192, main_v193, main_c_48, main_v194, main_v195, main_v196, main_v197, main_v198, main_v199, main_v200, main_v201, main_v202]
theorem s37_writes : (s37 : List (HloOp τ sig (Elt F))).Forall fun op => op.writes ⊆ (s37_W.map (Proc.devRef (τ := τ) .tc)).toFinset := by
  simp only [s37, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 264. -/
def W37 (V0 : Valuation τ sig (Elt F)) : Valuation τ sig (Elt F) := after s37 (W36 V0)
theorem W37_keep (V0 : Valuation τ sig (Elt F)) (r : Ref sig .tc) (h : r ∉ s37_W) :
    W37 V0 (Proc.devRef .tc r) = W36 V0 (Proc.devRef .tc r) :=
  after_of_writes_sub s37 _ s37_writes h
theorem W37_main_arg0 (V0 : Valuation τ sig (Elt F)) : W37 V0 (no_index (Proc.devRef .tc main_arg0)) = V0 (Proc.devRef .tc main_arg0) :=
  (W37_keep V0 main_arg0 (by decide)).trans (W36_main_arg0 V0)
theorem W37_main_arg1 (V0 : Valuation τ sig (Elt F)) : W37 V0 (no_index (Proc.devRef .tc main_arg1)) = V0 (Proc.devRef .tc main_arg1) :=
  (W37_keep V0 main_arg1 (by decide)).trans (W36_main_arg1 V0)
theorem W37_main_arg2 (V0 : Valuation τ sig (Elt F)) : W37 V0 (no_index (Proc.devRef .tc main_arg2)) = V0 (Proc.devRef .tc main_arg2) :=
  (W37_keep V0 main_arg2 (by decide)).trans (W36_main_arg2 V0)
theorem W37_main_arg3 (V0 : Valuation τ sig (Elt F)) : W37 V0 (no_index (Proc.devRef .tc main_arg3)) = V0 (Proc.devRef .tc main_arg3) :=
  (W37_keep V0 main_arg3 (by decide)).trans (W36_main_arg3 V0)
theorem W37_main_arg4 (V0 : Valuation τ sig (Elt F)) : W37 V0 (no_index (Proc.devRef .tc main_arg4)) = V0 (Proc.devRef .tc main_arg4) :=
  (W37_keep V0 main_arg4 (by decide)).trans (W36_main_arg4 V0)
theorem W37_main_arg5 (V0 : Valuation τ sig (Elt F)) : W37 V0 (no_index (Proc.devRef .tc main_arg5)) = V0 (Proc.devRef .tc main_arg5) :=
  (W37_keep V0 main_arg5 (by decide)).trans (W36_main_arg5 V0)
theorem W37_main_arg6 (V0 : Valuation τ sig (Elt F)) : W37 V0 (no_index (Proc.devRef .tc main_arg6)) = V0 (Proc.devRef .tc main_arg6) :=
  (W37_keep V0 main_arg6 (by decide)).trans (W36_main_arg6 V0)
theorem W37_main_arg7 (V0 : Valuation τ sig (Elt F)) : W37 V0 (no_index (Proc.devRef .tc main_arg7)) = V0 (Proc.devRef .tc main_arg7) :=
  (W37_keep V0 main_arg7 (by decide)).trans (W36_main_arg7 V0)
theorem W37_main_v166 (V0 : Valuation τ sig (Elt F)) : W37 V0 (no_index (Proc.devRef .tc main_v166)) = val_main_v166 (F := F) :=
  (W37_keep V0 main_v166 (by decide)).trans (W36_main_v166 V0)
theorem W37_main_v202 (V0 : Valuation τ sig (Elt F)) : W37 V0 (no_index (Proc.devRef .tc main_v202)) = val_main_v202 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold W37
  simp only [s37]
  after_results_simp
  rw [W36_main_v163 V0, W36_main_v165 V0, W36_main_v168 V0, W36_main_v183 V0, W36_main_v190 V0]
  rfl

/-! ### Operations 265 … 278 -/

abbrev s38 : List (HloOp τ sig (Elt F)) :=
  [ nullary main_cst_49 (constant S_ .f32 0x00000000#32),
    unary main_cst_49 main_v203 (broadcastInDim S4096x64 ![] bcast_S_S4096x64 : (⟨S_, .f32⟩ : BufTy).Contents (Elt F) → (⟨S4096x64, .f32⟩ : BufTy).Contents (Elt F)),
    unary main_v166 main_v204 (broadcastInDim S2101248x1 ![0] bcast_S2101248_S2101248x1_0 : (⟨S2101248, .i32⟩ : BufTy).Contents (Elt F) → (⟨S2101248x1, .i32⟩ : BufTy).Contents (Elt F)),
    ternary main_v203 main_v204 main_v202 main_v205 ((fun x i u => Host.scatterAdd scatter_S4096x64_S2101248x1_S2101248x64_1_0_0_1 x i u) : (⟨S4096x64, .f32⟩ : BufTy).Contents (Elt F) → (⟨S2101248x1, .i32⟩ : BufTy).Contents (Elt F) → (⟨S2101248x64, .f32⟩ : BufTy).Contents (Elt F) → (⟨S4096x64, .f32⟩ : BufTy).Contents (Elt F)),
    unary main_arg7 main_v206 (broadcastInDim S1x64 ![1] bcast_S64_S1x64_1 : (⟨S64, .f32⟩ : BufTy).Contents (Elt F) → (⟨S1x64, .f32⟩ : BufTy).Contents (Elt F)),
    unary main_v206 main_v207 (broadcastInDim S4096x64 ![0, 1] bcast_S1x64_S4096x64_0_1 : (⟨S1x64, .f32⟩ : BufTy).Contents (Elt F) → (⟨S4096x64, .f32⟩ : BufTy).Contents (Elt F)),
    binary main_v205 main_v207 main_v208 (addf : (⟨S4096x64, .f32⟩ : BufTy).Contents (Elt F) → (⟨S4096x64, .f32⟩ : BufTy).Contents (Elt F) → (⟨S4096x64, .f32⟩ : BufTy).Contents (Elt F)),
    nullary main_v209 (iotaInDim S8 32 0),
    unary main_v209 main_v210 (broadcastInDim S8x512 ![0] bcast_S8_S8x512_0 : (⟨S8, .i32⟩ : BufTy).Contents (Elt F) → (⟨S8x512, .i32⟩ : BufTy).Contents (Elt F)),
    reshape main_v210 main_v211 rfl shapeCasts_S8x512_S4096,
    nullary main_cst_50 (constant S_ .f32 0x00000000#32),
    unary main_cst_50 main_v212 (broadcastInDim S8x64 ![] bcast_S_S8x64 : (⟨S_, .f32⟩ : BufTy).Contents (Elt F) → (⟨S8x64, .f32⟩ : BufTy).Contents (Elt F)),
    unary main_v211 main_v213 (broadcastInDim S4096x1 ![0] bcast_S4096_S4096x1_0 : (⟨S4096, .i32⟩ : BufTy).Contents (Elt F) → (⟨S4096x1, .i32⟩ : BufTy).Contents (Elt F)),
    ternary main_v212 main_v213 main_v208 main_v214 ((fun x i u => Host.scatterAdd scatter_S8x64_S4096x1_S4096x64_1_0_0_1 x i u) : (⟨S8x64, .f32⟩ : BufTy).Contents (Elt F) → (⟨S4096x1, .i32⟩ : BufTy).Contents (Elt F) → (⟨S4096x64, .f32⟩ : BufTy).Contents (Elt F) → (⟨S8x64, .f32⟩ : BufTy).Contents (Elt F)) ]
theorem s38_sub : (s38 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., nullary_bufs_sub .., unary_bufs_sub .., reshape_bufs_sub .., nullary_bufs_sub .., unary_bufs_sub .., unary_bufs_sub .., ternary_bufs_sub ..⟩
theorem s38_fresh : ∀ op ∈ (s38 : List (HloOp τ sig (Elt F))), op.fresh = ∅ := by
  intro _ h; (repeat (cases h with | head => rfl | tail _ h => ?_)); exact nomatch h
/-- The buffers these operations write. -/
abbrev s38_W : List (Ref sig .tc) := [main_cst_49, main_v203, main_v204, main_v205, main_v206, main_v207, main_v208, main_v209, main_v210, main_v211, main_cst_50, main_v212, main_v213, main_v214]
theorem s38_writes : (s38 : List (HloOp τ sig (Elt F))).Forall fun op => op.writes ⊆ (s38_W.map (Proc.devRef (τ := τ) .tc)).toFinset := by
  simp only [s38, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_, ?_⟩ <;> exact List.mem_map_of_mem (by decide)
/-- The buffers' contents after operation 278. -/
def W38 (V0 : Valuation τ sig (Elt F)) : Valuation τ sig (Elt F) := after s38 (W37 V0)
theorem W38_keep (V0 : Valuation τ sig (Elt F)) (r : Ref sig .tc) (h : r ∉ s38_W) :
    W38 V0 (Proc.devRef .tc r) = W37 V0 (Proc.devRef .tc r) :=
  after_of_writes_sub s38 _ s38_writes h
theorem W38_main_arg0 (V0 : Valuation τ sig (Elt F)) : W38 V0 (no_index (Proc.devRef .tc main_arg0)) = V0 (Proc.devRef .tc main_arg0) :=
  (W38_keep V0 main_arg0 (by decide)).trans (W37_main_arg0 V0)
theorem W38_main_arg1 (V0 : Valuation τ sig (Elt F)) : W38 V0 (no_index (Proc.devRef .tc main_arg1)) = V0 (Proc.devRef .tc main_arg1) :=
  (W38_keep V0 main_arg1 (by decide)).trans (W37_main_arg1 V0)
theorem W38_main_arg2 (V0 : Valuation τ sig (Elt F)) : W38 V0 (no_index (Proc.devRef .tc main_arg2)) = V0 (Proc.devRef .tc main_arg2) :=
  (W38_keep V0 main_arg2 (by decide)).trans (W37_main_arg2 V0)
theorem W38_main_arg3 (V0 : Valuation τ sig (Elt F)) : W38 V0 (no_index (Proc.devRef .tc main_arg3)) = V0 (Proc.devRef .tc main_arg3) :=
  (W38_keep V0 main_arg3 (by decide)).trans (W37_main_arg3 V0)
theorem W38_main_arg4 (V0 : Valuation τ sig (Elt F)) : W38 V0 (no_index (Proc.devRef .tc main_arg4)) = V0 (Proc.devRef .tc main_arg4) :=
  (W38_keep V0 main_arg4 (by decide)).trans (W37_main_arg4 V0)
theorem W38_main_arg5 (V0 : Valuation τ sig (Elt F)) : W38 V0 (no_index (Proc.devRef .tc main_arg5)) = V0 (Proc.devRef .tc main_arg5) :=
  (W38_keep V0 main_arg5 (by decide)).trans (W37_main_arg5 V0)
theorem W38_main_arg6 (V0 : Valuation τ sig (Elt F)) : W38 V0 (no_index (Proc.devRef .tc main_arg6)) = V0 (Proc.devRef .tc main_arg6) :=
  (W38_keep V0 main_arg6 (by decide)).trans (W37_main_arg6 V0)
theorem W38_main_arg7 (V0 : Valuation τ sig (Elt F)) : W38 V0 (no_index (Proc.devRef .tc main_arg7)) = V0 (Proc.devRef .tc main_arg7) :=
  (W38_keep V0 main_arg7 (by decide)).trans (W37_main_arg7 V0)
theorem W38_main_v214 (V0 : Valuation τ sig (Elt F)) : W38 V0 (no_index (Proc.devRef .tc main_v214)) = val_main_v214 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold W38
  simp only [s38]
  after_results_simp
  rw [W37_main_v166 V0, W37_main_v202 V0, W37_main_arg7 V0]
  rfl

/-! ### Operations 279 … 291 -/

abbrev s39 : List (HloOp τ sig (Elt F)) :=
  [ nullary main_cst_51 (constant S_ .f32 0x44000000#32),
    unary main_cst_51 main_v215 (broadcastInDim S8x64 ![] bcast_S_S8x64 : (⟨S_, .f32⟩ : BufTy).Contents (Elt F) → (⟨S8x64, .f32⟩ : BufTy).Contents (Elt F)),
    binary main_v214 main_v215 main_v216 (Host.divf : (⟨S8x64, .f32⟩ : BufTy).Contents (Elt F) → (⟨S8x64, .f32⟩ : BufTy).Contents (Elt F) → (⟨S8x64, .f32⟩ : BufTy).Contents (Elt F)),
    TRef.binary (TRef.of (T := ⟨S8x64, .f32⟩) main_v216) (TRef.of (T := ⟨S8x64, .f32⟩) main_v216) (TRef.of (T := ⟨S8x64, .f32⟩) main_call5_v0) mulf,
    TRef.nullary (TRef.of (T := ⟨S_, .f32⟩) main_call5_cst) (constant S_ .f32 0x00000000#32),
    TRef.binary (TRef.of (T := ⟨S8x64, .f32⟩) main_call5_v0) (TRef.of (T := ⟨S_, .f32⟩) main_call5_cst) (TRef.of (T := ⟨S8, .f32⟩) main_call5_v1) (fun x v => Host.reduceAdd x v reducesTo_S8x64_S8_d1 h_S_),
    TRef.unary (TRef.of (T := ⟨S8, .f32⟩) main_call5_v1) (TRef.of (T := ⟨S8x1, .f32⟩) main_call5_v2) (broadcastInDim S8x1 ![0] bcast_S8_S8x1_0),
    TRef.unary (TRef.of (T := ⟨S8x1, .f32⟩) main_call5_v2) (TRef.of (T := ⟨S8x1, .f32⟩) main_v217) Host.sqrt,
    nullary main_cst_52 (constant S_ .f32 0x2B8CBCCC#32),
    unary main_cst_52 main_v218 (broadcastInDim S8x1 ![] bcast_S_S8x1 : (⟨S_, .f32⟩ : BufTy).Contents (Elt F) → (⟨S8x1, .f32⟩ : BufTy).Contents (Elt F)),
    binary main_v217 main_v218 main_v219 (maximumf : (⟨S8x1, .f32⟩ : BufTy).Contents (Elt F) → (⟨S8x1, .f32⟩ : BufTy).Contents (Elt F) → (⟨S8x1, .f32⟩ : BufTy).Contents (Elt F)),
    unary main_v219 main_v220 (broadcastInDim S8x64 ![0, 1] bcast_S8x1_S8x64_0_1 : (⟨S8x1, .f32⟩ : BufTy).Contents (Elt F) → (⟨S8x64, .f32⟩ : BufTy).Contents (Elt F)),
    binary main_v216 main_v220 main_v221 (Host.divf : (⟨S8x64, .f32⟩ : BufTy).Contents (Elt F) → (⟨S8x64, .f32⟩ : BufTy).Contents (Elt F) → (⟨S8x64, .f32⟩ : BufTy).Contents (Elt F)) ]
theorem s39_sub : (s39 : List (HloOp τ sig (Elt F))).Forall fun op => op.bufs ⊆ tcRefs τ sig :=
  ⟨nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem s39_fresh : ∀ op ∈ (s39 : List (HloOp τ sig (Elt F))), op.fresh = ∅ := by
  intro _ h; (repeat (cases h with | head => rfl | tail _ h => ?_)); exact nomatch h
/-- The buffers these operations write. -/
abbrev s39_W : List (Ref sig .tc) := [main_cst_51, main_v215, main_v216, main_call5_v0, main_call5_cst, main_call5_v1, main_call5_v2, main_v217, main_cst_52, main_v218, main_v219, main_v220, main_v221]
theorem s39_writes : (s39 : List (HloOp τ sig (Elt F))).Forall fun op => op.writes ⊆ (s39_W.map (Proc.devRef (τ := τ) .tc)).toFinset := by
  simp only [s39, List.Forall, nullary_writes, unary_writes, binary_writes, ternary_writes, reshape_writes, nary_writes, Finset.singleton_subset_iff, List.mem_toFinset]
  refine ⟨?_, ?_, ?_, ?_, ?_, ?_, ?_, ?_, ?_, ?_, ?_, ?_, ?_⟩ <;> exact List.mem_map_of_mem (by decide)
/-- The buffers' contents after operation 291. -/
def W39 (V0 : Valuation τ sig (Elt F)) : Valuation τ sig (Elt F) := after s39 (W38 V0)
theorem W39_keep (V0 : Valuation τ sig (Elt F)) (r : Ref sig .tc) (h : r ∉ s39_W) :
    W39 V0 (Proc.devRef .tc r) = W38 V0 (Proc.devRef .tc r) :=
  after_of_writes_sub s39 _ s39_writes h
theorem W39_main_arg0 (V0 : Valuation τ sig (Elt F)) : W39 V0 (no_index (Proc.devRef .tc main_arg0)) = V0 (Proc.devRef .tc main_arg0) :=
  (W39_keep V0 main_arg0 (by decide)).trans (W38_main_arg0 V0)
theorem W39_main_arg1 (V0 : Valuation τ sig (Elt F)) : W39 V0 (no_index (Proc.devRef .tc main_arg1)) = V0 (Proc.devRef .tc main_arg1) :=
  (W39_keep V0 main_arg1 (by decide)).trans (W38_main_arg1 V0)
theorem W39_main_arg2 (V0 : Valuation τ sig (Elt F)) : W39 V0 (no_index (Proc.devRef .tc main_arg2)) = V0 (Proc.devRef .tc main_arg2) :=
  (W39_keep V0 main_arg2 (by decide)).trans (W38_main_arg2 V0)
theorem W39_main_arg3 (V0 : Valuation τ sig (Elt F)) : W39 V0 (no_index (Proc.devRef .tc main_arg3)) = V0 (Proc.devRef .tc main_arg3) :=
  (W39_keep V0 main_arg3 (by decide)).trans (W38_main_arg3 V0)
theorem W39_main_arg4 (V0 : Valuation τ sig (Elt F)) : W39 V0 (no_index (Proc.devRef .tc main_arg4)) = V0 (Proc.devRef .tc main_arg4) :=
  (W39_keep V0 main_arg4 (by decide)).trans (W38_main_arg4 V0)
theorem W39_main_arg5 (V0 : Valuation τ sig (Elt F)) : W39 V0 (no_index (Proc.devRef .tc main_arg5)) = V0 (Proc.devRef .tc main_arg5) :=
  (W39_keep V0 main_arg5 (by decide)).trans (W38_main_arg5 V0)
theorem W39_main_arg6 (V0 : Valuation τ sig (Elt F)) : W39 V0 (no_index (Proc.devRef .tc main_arg6)) = V0 (Proc.devRef .tc main_arg6) :=
  (W39_keep V0 main_arg6 (by decide)).trans (W38_main_arg6 V0)
theorem W39_main_arg7 (V0 : Valuation τ sig (Elt F)) : W39 V0 (no_index (Proc.devRef .tc main_arg7)) = V0 (Proc.devRef .tc main_arg7) :=
  (W39_keep V0 main_arg7 (by decide)).trans (W38_main_arg7 V0)
theorem W39_main_v221 (V0 : Valuation τ sig (Elt F)) : W39 V0 (no_index (Proc.devRef .tc main_v221)) = val_main_v221 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold W39
  simp only [s39]
  after_results_simp
  rw [W38_main_v214 V0]
  try simp only [TRef.ofBuf, TRef.toBuf, cast_eq]
  rfl

/-! ### The whole line

The stretches are joined window by window: a window of the program is the concatenation of its stretches, and the
program is the concatenation of its five windows. A property of every operation of two lists holds of their
concatenation; running a concatenation is running its parts in order. -/

private theorem forall_app {α : Type*} {p : α → Prop} {l₁ l₂ : List α} (h₁ : l₁.Forall p) (h₂ : l₂.Forall p) : (l₁ ++ l₂).Forall p :=
  List.forall_iff_forall_mem.mpr fun a h =>
    (List.mem_append.mp h).elim (List.forall_iff_forall_mem.mp h₁ a) (List.forall_iff_forall_mem.mp h₂ a)
private theorem mem_app {α : Type*} {p : α → Prop} {l₁ l₂ : List α} (h₁ : ∀ a ∈ l₁, p a) (h₂ : ∀ a ∈ l₂, p a) : ∀ a ∈ l₁ ++ l₂, p a :=
  fun a h => (List.mem_append.mp h).elim (h₁ a) (h₂ a)
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Window 0 of the program: operations 1 … 60. -/
def w0 : List (HloOp τ sig (Elt F)) := s1 ++ (s2 ++ (s3 ++ (s4 ++ (s5))))
theorem w0_sub : (w0 : List (HloOp τ sig (Elt F))).Forall fun op => op.bufs ⊆ tcRefs τ sig :=
  forall_app s1_sub (forall_app s2_sub (forall_app s3_sub (forall_app s4_sub (s5_sub))))
theorem w0_fresh : ∀ op ∈ (w0 : List (HloOp τ sig (Elt F))), op.fresh = ∅ :=
  mem_app s1_fresh (mem_app s2_fresh (mem_app s3_fresh (mem_app s4_fresh (s5_fresh))))
theorem after_w0 (V0 : Valuation τ sig (Elt F)) : after w0 V0 = W5 V0 := by
  unfold w0
  simp only [after_app]
  rfl
set_option maxRecDepth 8192 in
theorem main_part0_eq (c : Dev nD) : main_part0 (F := F) c = seq w0 := rfl

/-- Window 1 of the program: operations 61 … 122. -/
def w1 : List (HloOp τ sig (Elt F)) := s6 ++ (s7 ++ (s8 ++ (s9 ++ (s10 ++ (s11 ++ (s12 ++ (s13 ++ (s14 ++ (s15 ++ (s16 ++ (s17 ++ (s18))))))))))))
theorem w1_sub : (w1 : List (HloOp τ sig (Elt F))).Forall fun op => op.bufs ⊆ tcRefs τ sig :=
  forall_app s6_sub (forall_app s7_sub (forall_app s8_sub (forall_app s9_sub (forall_app s10_sub (forall_app s11_sub (forall_app s12_sub (forall_app s13_sub (forall_app s14_sub (forall_app s15_sub (forall_app s16_sub (forall_app s17_sub (s18_sub))))))))))))
theorem w1_fresh : ∀ op ∈ (w1 : List (HloOp τ sig (Elt F))), op.fresh = ∅ :=
  mem_app s6_fresh (mem_app s7_fresh (mem_app s8_fresh (mem_app s9_fresh (mem_app s10_fresh (mem_app s11_fresh (mem_app s12_fresh (mem_app s13_fresh (mem_app s14_fresh (mem_app s15_fresh (mem_app s16_fresh (mem_app s17_fresh (s18_fresh))))))))))))
theorem after_w1 (V0 : Valuation τ sig (Elt F)) : after w1 (W5 V0) = W18 V0 := by
  unfold w1
  simp only [after_app]
  rfl
set_option maxRecDepth 8192 in
theorem main_part1_eq (c : Dev nD) : main_part1 (F := F) c = seq w1 := rfl

/-- Window 2 of the program: operations 123 … 186. -/
def w2 : List (HloOp τ sig (Elt F)) := s19 ++ (s20 ++ (s21 ++ (s22 ++ (s23 ++ (s24 ++ (s25 ++ (s26 ++ (s27))))))))
theorem w2_sub : (w2 : List (HloOp τ sig (Elt F))).Forall fun op => op.bufs ⊆ tcRefs τ sig :=
  forall_app s19_sub (forall_app s20_sub (forall_app s21_sub (forall_app s22_sub (forall_app s23_sub (forall_app s24_sub (forall_app s25_sub (forall_app s26_sub (s27_sub))))))))
theorem w2_fresh : ∀ op ∈ (w2 : List (HloOp τ sig (Elt F))), op.fresh = ∅ :=
  mem_app s19_fresh (mem_app s20_fresh (mem_app s21_fresh (mem_app s22_fresh (mem_app s23_fresh (mem_app s24_fresh (mem_app s25_fresh (mem_app s26_fresh (s27_fresh))))))))
theorem after_w2 (V0 : Valuation τ sig (Elt F)) : after w2 (W18 V0) = W27 V0 := by
  unfold w2
  simp only [after_app]
  rfl
set_option maxRecDepth 8192 in
theorem main_part2_eq (c : Dev nD) : main_part2 (F := F) c = seq w2 := rfl

/-- Window 3 of the program: operations 187 … 250. -/
def w3 : List (HloOp τ sig (Elt F)) := s28 ++ (s29 ++ (s30 ++ (s31 ++ (s32 ++ (s33 ++ (s34 ++ (s35 ++ (s36))))))))
theorem w3_sub : (w3 : List (HloOp τ sig (Elt F))).Forall fun op => op.bufs ⊆ tcRefs τ sig :=
  forall_app s28_sub (forall_app s29_sub (forall_app s30_sub (forall_app s31_sub (forall_app s32_sub (forall_app s33_sub (forall_app s34_sub (forall_app s35_sub (s36_sub))))))))
theorem w3_fresh : ∀ op ∈ (w3 : List (HloOp τ sig (Elt F))), op.fresh = ∅ :=
  mem_app s28_fresh (mem_app s29_fresh (mem_app s30_fresh (mem_app s31_fresh (mem_app s32_fresh (mem_app s33_fresh (mem_app s34_fresh (mem_app s35_fresh (s36_fresh))))))))
theorem after_w3 (V0 : Valuation τ sig (Elt F)) : after w3 (W27 V0) = W36 V0 := by
  unfold w3
  simp only [after_app]
  rfl
set_option maxRecDepth 8192 in
theorem main_part3_eq (c : Dev nD) : main_part3 (F := F) c = seq w3 := rfl

/-- Window 4 of the program: operations 251 … 291. -/
def w4 : List (HloOp τ sig (Elt F)) := s37 ++ (s38 ++ (s39))
theorem w4_sub : (w4 : List (HloOp τ sig (Elt F))).Forall fun op => op.bufs ⊆ tcRefs τ sig :=
  forall_app s37_sub (forall_app s38_sub (s39_sub))
theorem w4_fresh : ∀ op ∈ (w4 : List (HloOp τ sig (Elt F))), op.fresh = ∅ :=
  mem_app s37_fresh (mem_app s38_fresh (s39_fresh))
theorem after_w4 (V0 : Valuation τ sig (Elt F)) : after w4 (W36 V0) = W39 V0 := by
  unfold w4
  simp only [after_app]
  rfl
set_option maxRecDepth 8192 in
theorem main_part4_eq (c : Dev nD) : main_part4 (F := F) c = seq w4 := rfl

/-- The program's 291 operations, in order. -/
def opsAll : List (HloOp τ sig (Elt F)) := w0 ++ (w1 ++ (w2 ++ (w3 ++ (w4))))
theorem opsAll_sub : (opsAll : List (HloOp τ sig (Elt F))).Forall fun op => op.bufs ⊆ tcRefs τ sig :=
  forall_app w0_sub (forall_app w1_sub (forall_app w2_sub (forall_app w3_sub (w4_sub))))
theorem opsAll_fresh : ∀ op ∈ (opsAll : List (HloOp τ sig (Elt F))), op.fresh = ∅ :=
  mem_app w0_fresh (mem_app w1_fresh (mem_app w2_fresh (mem_app w3_fresh (w4_fresh))))
theorem after_opsAll (V0 : Valuation τ sig (Elt F)) : after opsAll V0 = W39 V0 := by
  unfold opsAll
  rw [after_app, after_app, after_app, after_app, after_w0, after_w1, after_w2, after_w3, after_w4]
set_option maxRecDepth 8192 in
theorem main_eq (c : Dev nD) : main (F := F) c = seq opsAll := by
  unfold opsAll
  simp only [seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    program terminates with the result buffer at the last stage of the arguments' launch contents, and the eight
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v221) = val_main_v221 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v221).trans (by rw [after_opsAll]; exact W39_main_v221 _),
      (h c main_arg0).trans (by rw [after_opsAll]; exact W39_main_arg0 _),
      (h c main_arg1).trans (by rw [after_opsAll]; exact W39_main_arg1 _),
      (h c main_arg2).trans (by rw [after_opsAll]; exact W39_main_arg2 _),
      (h c main_arg3).trans (by rw [after_opsAll]; exact W39_main_arg3 _),
      (h c main_arg4).trans (by rw [after_opsAll]; exact W39_main_arg4 _),
      (h c main_arg5).trans (by rw [after_opsAll]; exact W39_main_arg5 _),
      (h c main_arg6).trans (by rw [after_opsAll]; exact W39_main_arg6 _),
      (h c main_arg7).trans (by rw [after_opsAll]; exact W39_main_arg7 _)⟩)
    (run_seq scopedRefs_eq scopedSems_eq defs main (fun _ => opsAll) main_eq (fun _ => opsAll_sub) m ρ (fun _ => opsAll_fresh))

end Cert.Gnn.RefRun

end
-- ==== Proof.Spec.lean ====
/-
  The three-layer graph convolution with mean pooling, over the reals.

  A graph g has the dense weighted adjacency A g (entry (r, c) is the weight of the edge r → c); every node also
  has a self loop of weight 1. The in-degree of node c is deg g c = Σ_r A g r c + 1, and dinv g c = deg^(-1/2)
  where the degree is positive, 0 elsewhere. One propagation sends the features y to
      c ↦ Σ_r y r · (A g r c · dinv g r · dinv g c)  +  y c · (1 · dinv g c · dinv g c)  +  b.
  Two arrangements of the same stack are written out: the one that sums edge messages ("R"), and the one
  that factors dinv g c out of the sum and, for the last layer followed by the mean over nodes, propagates the
  pooling vector w instead of the features ("K").
-/
import Idealize.ShloMosaic.PureOps.Ideal
import Idealize.ShloMosaic.Lib.ValueIdx

noncomputable section

open scoped BigOperators

namespace Cert.Gnn

open Idealize.ShloMosaic Idealize.ShloMosaic.ValueIdx

/-- The eight inputs as real arrays. -/
structure Inp where
  A : Fin 8 → Fin 512 → Fin 512 → ℝ
  X : Fin 512 → Fin 3 → ℝ
  W1 : Fin 3 → Fin 16 → ℝ
  b1 : Fin 16 → ℝ
  W2 : Fin 16 → Fin 32 → ℝ
  b2 : Fin 32 → ℝ
  W3 : Fin 32 → Fin 64 → ℝ
  b3 : Fin 64 → ℝ

namespace Inp

variable (I : Inp)

/-- In-degree with the self loop. -/
def deg (g : Fin 8) (c : Fin 512) : ℝ := (∑ r : Fin 512, I.A g r c) + 1
/-- deg^(-1/2) where the degree is positive, else 0. -/
def dinv (g : Fin 8) (c : Fin 512) : ℝ := if 0 < I.deg g c then (Real.sqrt (I.deg g c))⁻¹ else 0
/-- The first layer's linear map, the same for every graph. -/
def y0 (r : Fin 512) (k : Fin 16) : ℝ := ∑ j : Fin 3, I.X r j * I.W1 j k

/-! ### Arrangement K: dinv factored out; the last layer pooled through the vector w -/

/-- One propagation followed by the rectifier, dinv g c factored out of the sum. -/
def propK {K : ℕ} (g : Fin 8) (y : Fin 512 → Fin K → ℝ) (b : Fin K → ℝ) (c : Fin 512) (k : Fin K) : ℝ :=
  max (I.dinv g c * ((∑ r : Fin 512, I.A g r c * (I.dinv g r * y r k)) + I.dinv g c * y c k) + b k) 0
def h1K (g : Fin 8) : Fin 512 → Fin 16 → ℝ := I.propK g I.y0 I.b1
def z2K (g : Fin 8) (r : Fin 512) (k : Fin 32) : ℝ := ∑ j : Fin 16, I.h1K g r j * I.W2 j k
def h2K (g : Fin 8) : Fin 512 → Fin 32 → ℝ := I.propK g (I.z2K g) I.b2
/-- The pooling vector: w r = dinv r · (Σ_c A r c · dinv c + dinv r). -/
def wK (g : Fin 8) (r : Fin 512) : ℝ := I.dinv g r * ((∑ c : Fin 512, I.A g r c * I.dinv g c) + I.dinv g r)
def tK (g : Fin 8) (k : Fin 32) : ℝ := ∑ r : Fin 512, I.wK g r * I.h2K g r k
def pooledK (g : Fin 8) (j : Fin 64) : ℝ := (∑ k : Fin 32, I.tK g k * I.W3 k j) / 512 + I.b3 j

/-! ### Arrangement R: the sum of edge messages -/

/-- One propagation as the sum of the messages into node c, then the bias. -/
def aggR {K : ℕ} (g : Fin 8) (y : Fin 512 → Fin K → ℝ) (b : Fin K → ℝ) (c : Fin 512) (k : Fin K) : ℝ :=
  ((∑ r : Fin 512, y r k * (I.A g r c * (I.dinv g r * I.dinv g c))) + y c k * (1 * (I.dinv g c * I.dinv g c))) + b k
def h1R (g : Fin 8) (c : Fin 512) (k : Fin 16) : ℝ := max (I.aggR g I.y0 I.b1 c k) 0
def z2R (g : Fin 8) (r : Fin 512) (k : Fin 32) : ℝ := ∑ j : Fin 16, I.h1R g r j * I.W2 j k
def h2R (g : Fin 8) (c : Fin 512) (k : Fin 32) : ℝ := max (I.aggR g (I.z2R g) I.b2 c k) 0
def z3R (g : Fin 8) (r : Fin 512) (j : Fin 64) : ℝ := ∑ k : Fin 32, I.h2R g r k * I.W3 k j
def out3R (g : Fin 8) (c : Fin 512) (j : Fin 64) : ℝ := I.aggR g (I.z3R g) I.b3 c j
def pooledR (g : Fin 8) (j : Fin 64) : ℝ := (∑ c : Fin 512, I.out3R g c j) / 512

end Inp

/-- The closing normalisation, on the extended reals: each pooled row divided by the larger of its Euclidean
    norm and the f32 constant 1e-12. Both programs end with it. -/
def tail (p : Fin 8 → Fin 64 → EReal) (g : Fin 8) (j : Fin 64) : EReal :=
  Ideal.div (p g j) (max (Ideal.sqrt (∑ j' : Fin 64, p g j' * p g j')) (Ideal.ofBits .f32 0x2B8CBCCC#32))

/-- The argument arrays, in the shapes @main receives them, hold the real inputs I. -/
structure Reads (x0 : (⟨3, ![8, 512, 512]⟩ : Shape).Idx → EReal) (x1 : (⟨2, ![512, 3]⟩ : Shape).Idx → EReal)
    (x2 : (⟨2, ![3, 16]⟩ : Shape).Idx → EReal) (x3 : (⟨1, ![16]⟩ : Shape).Idx → EReal)
    (x4 : (⟨2, ![16, 32]⟩ : Shape).Idx → EReal) (x5 : (⟨1, ![32]⟩ : Shape).Idx → EReal)
    (x6 : (⟨2, ![32, 64]⟩ : Shape).Idx → EReal) (x7 : (⟨1, ![64]⟩ : Shape).Idx → EReal) (I : Inp) : Prop where
  hA : ∀ (g : Fin 8) (r c : Fin 512), x0 (ix3 g r c) = ((I.A g r c : ℝ) : EReal)
  hX : ∀ (r : Fin 512) (j : Fin 3), x1 (ix2 r j) = ((I.X r j : ℝ) : EReal)
  hW1 : ∀ (j : Fin 3) (k : Fin 16), x2 (ix2 j k) = ((I.W1 j k : ℝ) : EReal)
  hb1 : ∀ k : Fin 16, x3 (ix1 k) = ((I.b1 k : ℝ) : EReal)
  hW2 : ∀ (j : Fin 16) (k : Fin 32), x4 (ix2 j k) = ((I.W2 j k : ℝ) : EReal)
  hb2 : ∀ k : Fin 32, x5 (ix1 k) = ((I.b2 k : ℝ) : EReal)
  hW3 : ∀ (k : Fin 32) (j : Fin 64), x6 (ix2 k j) = ((I.W3 k j : ℝ) : EReal)
  hb3 : ∀ j : Fin 64, x7 (ix1 j) = ((I.b3 j : ℝ) : EReal)

/-- A finite sum of reals, coerced, is the sum of the coerced terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Gnn

end
-- ==== Proof.SpecAlg.lean ====
/-
  The two arrangements of the convolution stack agree over the reals.
-/
import proofs.«163928_g44908178047564_cont_sun_c4_353_27_alg».proof.Proof.Spec

noncomputable section

open scoped BigOperators

namespace Cert.Gnn

open Idealize.ShloMosaic Idealize.ShloMosaic.ValueIdx

/-- One propagation: factoring dinv g c out of the message sum changes nothing. -/
theorem Inp.propK_eq {K : ℕ} (I : Inp) (g : Fin 8) (y : Fin 512 → Fin K → ℝ) (b : Fin K → ℝ) (c : Fin 512) (k : Fin K) :
    I.propK g y b c k = max (I.aggR g y b c k) 0 := by
  -- the two arguments of max agree: distribute dinv g c over the sum and reorder each product
  have h : I.dinv g c * ((∑ r : Fin 512, I.A g r c * (I.dinv g r * y r k)) + I.dinv g c * y c k) + b k
      = ((∑ r : Fin 512, y r k * (I.A g r c * (I.dinv g r * I.dinv g c)))
          + y c k * (1 * (I.dinv g c * I.dinv g c))) + b k := by
    rw [mul_add, Finset.mul_sum]
    congr 1
    congr 1
    · exact Finset.sum_congr rfl (fun r _ => by ring)
    · ring
  unfold Inp.propK Inp.aggR
  rw [h]

theorem Inp.h1K_eq (I : Inp) (g : Fin 8) (c : Fin 512) (k : Fin 16) : I.h1K g c k = I.h1R g c k := by
  unfold Inp.h1K Inp.h1R
  exact I.propK_eq g I.y0 I.b1 c k
theorem Inp.h2K_eq (I : Inp) (g : Fin 8) (c : Fin 512) (k : Fin 32) : I.h2K g c k = I.h2R g c k := by
  -- the second layer's linear maps agree pointwise, since the first layers do
  have hz : I.z2K g = I.z2R g := by
    funext r k'
    unfold Inp.z2K Inp.z2R
    exact Finset.sum_congr rfl (fun j _ => by rw [I.h1K_eq])
  unfold Inp.h2K Inp.h2R
  rw [hz]
  exact I.propK_eq g (I.z2R g) I.b2 c k

/-- The pooled rows of the two arrangements agree: the mean over nodes of the last propagation is the pooling vector
    applied to the features, and the bias summed 512 times over 512 is the bias. -/
theorem Inp.pooledK_eq_pooledR (I : Inp) (g : Fin 8) (j : Fin 64) : I.pooledK g j = I.pooledR g j := by
  -- Σ_k (Σ_r w r · h2 r k) · W3 k j = Σ_r w r · (Σ_k h2 r k · W3 k j): swap the two sums
  have h1 : (∑ k : Fin 32, I.tK g k * I.W3 k j) = ∑ r : Fin 512, I.wK g r * I.z3R g r j := by
    unfold Inp.tK Inp.z3R
    simp only [Finset.sum_mul, Finset.mul_sum]
    rw [Finset.sum_comm]
    refine Finset.sum_congr rfl (fun r _ => Finset.sum_congr rfl (fun k _ => ?_))
    rw [I.h2K_eq]
    ring
  -- Σ_c of the last propagation: swap the sums over c and r, collect w r, and the bias is summed 512 times
  have h2 : (∑ c : Fin 512, I.out3R g c j) = (∑ r : Fin 512, I.wK g r * I.z3R g r j) + 512 * I.b3 j := by
    unfold Inp.out3R Inp.aggR
    rw [Finset.sum_add_distrib, Finset.sum_add_distrib, Finset.sum_comm]
    congr 1
    · rw [← Finset.sum_add_distrib]
      refine Finset.sum_congr rfl (fun r _ => ?_)
      have hr : (∑ c : Fin 512, I.z3R g r j * (I.A g r c * (I.dinv g r * I.dinv g c)))
          = I.z3R g r j * I.dinv g r * ∑ c : Fin 512, I.A g r c * I.dinv g c := by
        rw [Finset.mul_sum]
        exact Finset.sum_congr rfl (fun c _ => by ring)
      rw [hr]
      unfold Inp.wK
      ring
    · rw [Finset.sum_const, Finset.card_univ, Fintype.card_fin, nsmul_eq_mul]
      norm_num
  unfold Inp.pooledK Inp.pooledR
  rw [h1, h2]
  ring

end Cert.Gnn

end
-- ==== Proof.Finite.lean ====
/-
  Under the precondition every input entry is a real number.
-/
import proofs.«163928_g44908178047564_cont_sun_c4_353_27_alg».proof.Pre_finite_inputs
import proofs.«163928_g44908178047564_cont_sun_c4_353_27_alg».proof.Proof.Gen.Pre_finite_inputs
import proofs.«163928_g44908178047564_cont_sun_c4_353_27_alg».proof.Proof.Spec
import Idealize.ShloMosaic.Lib.ReduceAll

noncomputable section

open scoped BigOperators

namespace Cert.Gnn

open Idealize.ShloMosaic Idealize.ShloMosaic.ValueIdx

/-- An extended real whose absolute value max x (-x) lies strictly below +∞ is neither -∞ nor +∞: it is a real. -/
private theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  -- by definition the comparison is the order's decision of max x (-x) < +∞
  change Ideal.cmp .olt (max x (-x)) (Ideal.ofBits .f32 0x7F800000#32) = 1#1 at h
  rw [htop] at h
  induction x using EReal.rec with
  | bot => simp [Ideal.cmp] at h
  | top => simp [Ideal.cmp] at h
  | coe r => exact ⟨r, rfl⟩

/-- The result of "all" has a single index. -/
private instance : Subsingleton Cert.Pre_finite_inputs.S_.Idx := ⟨fun a b => funext fun d => d.elim0⟩

/-- One conjunct of the precondition, all(|x| < +∞) over an array of any shape, makes every entry of the array a real. -/
private theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x) (broadcastInDim s ![] hb (constant Cert.Pre_finite_inputs.S_ .f32 0x7F800000#32)))
        (constantI Cert.Pre_finite_inputs.S_ 1 1#1) hr hu ix0 = 1#1) :
    ∀ i : s.Idx, ∃ r : ℝ, x i = (r : EReal) := fun i =>
  real_of_abs_lt_top (x i) (Host.reduce_andi_all _ _ hr hu ix0 h i)

/-- The precondition says every entry of every input has absolute value below +∞: then each input is the coercion of a
    real array. -/
theorem reals_of_finite (x0 : FVec Ideal Cert.Pre_finite_inputs.S8x512x512 .f32) (x1 : FVec Ideal Cert.Pre_finite_inputs.S512x3 .f32)
    (x2 : FVec Ideal Cert.Pre_finite_inputs.S3x16 .f32) (x3 : FVec Ideal Cert.Pre_finite_inputs.S16 .f32)
    (x4 : FVec Ideal Cert.Pre_finite_inputs.S16x32 .f32) (x5 : FVec Ideal Cert.Pre_finite_inputs.S32 .f32)
    (x6 : FVec Ideal Cert.Pre_finite_inputs.S32x64 .f32) (x7 : FVec Ideal Cert.Pre_finite_inputs.S64 .f32)
    (h : Cert.Pre_finite_inputs.fn (F := Ideal) x0 x1 x2 x3 x4 x5 x6 x7 = fun _ => 1#1) :
    ∃ I : Inp, Reads x0 x1 x2 x3 x4 x5 x6 x7 I := by
  -- the predicate at its one index: a conjunction of eight "all" results
  have h' := congrFun h ValueIdx.ix0
  dsimp only [Cert.Pre_finite_inputs.fn, Cert.Pre_finite_inputs.fn_part1, Cert.Pre_finite_inputs.fn_part2, andi] at h'
  obtain ⟨h', e7⟩ := IntOp.andi_eq_one.1 h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  -- each conjunct gives the real entries of its array
  choose a0 ha0 using reals_of_all x0 _ _ _ e0
  choose a1 ha1 using reals_of_all x1 _ _ _ e1
  choose a2 ha2 using reals_of_all x2 _ _ _ e2
  choose a3 ha3 using reals_of_all x3 _ _ _ e3
  choose a4 ha4 using reals_of_all x4 _ _ _ e4
  choose a5 ha5 using reals_of_all x5 _ _ _ e5
  choose a6 ha6 using reals_of_all x6 _ _ _ e6
  choose a7 ha7 using reals_of_all x7 _ _ _ e7
  exact ⟨⟨fun g r c => a0 (ix3 g r c), fun r j => a1 (ix2 r j), fun j k => a2 (ix2 j k), fun k => a3 (ix1 k),
      fun j k => a4 (ix2 j k), fun k => a5 (ix1 k), fun k j => a6 (ix2 k j), fun j => a7 (ix1 j)⟩,
    ⟨fun g r c => ha0 (ix3 g r c), fun r j => ha1 (ix2 r j), fun j k => ha2 (ix2 j k), fun k => ha3 (ix1 k),
      fun j k => ha4 (ix2 j k), fun k => ha5 (ix1 k), fun k j => ha6 (ix2 k j), fun j => ha7 (ix1 j)⟩⟩

end Cert.Gnn

end
-- ==== Proof.KernelOps.lean ====
/-
  One graph's share of the kernel body, and the batched closing stage, as vector-level functions.

  The kernel body repeats, for each of the 8 graphs, the same operations on that graph's 512 × 512 adjacency block;
  they are written here once, as functions of the block: the degree column, its inverse square root, the two
  propagations with their rectifiers, the pooling vector w, and the row t = wᵀ · h2. The closing stage stacks the 8 rows,
  multiplies by the last weight matrix, takes the mean and the bias, and normalises each row.
-/
import proofs.«163928_g44908178047564_cont_sun_c4_353_27_alg».proof.Proof.Gen.KernelIdeal

noncomputable section

namespace Cert.Gnn.KOps

open Idealize.ShloMosaic Cert.KernelIdeal Cert.KernelIdeal.Facts₀ Cert.KernelIdeal.Facts

variable {F : FTy → Type} [FloatOps F]

/-- The first layer's linear map X · W1. -/
def kY0 (x1 : Vec F S512x3 .f32) (x2 : Vec F S3x16 .f32) : FVec F S512x16 .f32 :=
  matmul dot_S512x3_S3x16_S512x16_1_0_0_1_n_n none x1 x2 (constant S512x16 .f32 0x00000000#32)

/-- Column sums of the block, plus one. -/
def kDeg (a : FVec F S512x512 .f32) : FVec F S512x1 .f32 :=
  addf (shapeCast S512x1 (multiReduction .add [0] S512 a 0x00000000#32 reduces_S512x512_S512 (.inl rfl) rfl) shapeCasts_S512_S512x1)
    (broadcast S512x1 (Scalar.ofBits .f32 0x3F800000#32))

/-- The inverse square root of the degree where it is positive, zero elsewhere. -/
def kDinv (a : FVec F S512x512 .f32) : FVec F S512x1 .f32 :=
  select (cmpf .ogt (kDeg a) (broadcast S512x1 (Scalar.ofBits .f32 0x00000000#32))) (rsqrt (kDeg a))
    (broadcast S512x1 (Scalar.ofBits .f32 0x00000000#32))

/-- The first layer's scaled features dinv · y. -/
def kU1 (dv : FVec F S512x1 .f32) (y : FVec F S512x16 .f32) : FVec F S512x16 .f32 :=
  mulf (broadcastTo S512x16 dv broadcasts_S512x1_S512x16) y

/-- relu (dinv · (aᵀ u + u) + b), width 16. -/
def kPost16 (a : FVec F S512x512 .f32) (dv : FVec F S512x1 .f32) (u : FVec F S512x16 .f32) (b : Vec F S1x16 .f32) :
    FVec F S512x16 .f32 :=
  maximumf
    (addf
      (mulf (broadcastTo S512x16 dv broadcasts_S512x1_S512x16)
        (addf (matmul dot_S512x512_S512x16_S512x16_0_0_1_1_n_n none a u (constant S512x16 .f32 0x00000000#32)) u))
      (broadcastTo S512x16 (shapeCast S1x16 b shapeCasts_S1x16_S1x16) broadcasts_S1x16_S512x16))
    (broadcast S512x16 (Scalar.ofBits .f32 0x00000000#32))

/-- The second layer's scaled features dinv · (h1 · W2). -/
def kU2 (dv : FVec F S512x1 .f32) (h1 : FVec F S512x16 .f32) (w2 : Vec F S16x32 .f32) : FVec F S512x32 .f32 :=
  mulf (broadcastTo S512x32 dv broadcasts_S512x1_S512x32)
    (matmul dot_S512x16_S16x32_S512x32_1_0_0_1_n_n none h1 w2 (constant S512x32 .f32 0x00000000#32))

/-- relu (dinv · (aᵀ u + u) + b), width 32. -/
def kPost32 (a : FVec F S512x512 .f32) (dv : FVec F S512x1 .f32) (u : FVec F S512x32 .f32) (b : Vec F S1x32 .f32) :
    FVec F S512x32 .f32 :=
  maximumf
    (addf
      (mulf (broadcastTo S512x32 dv broadcasts_S512x1_S512x32)
        (addf (matmul dot_S512x512_S512x32_S512x32_0_0_1_1_n_n none a u (constant S512x32 .f32 0x00000000#32)) u))
      (broadcastTo S512x32 (shapeCast S1x32 b shapeCasts_S1x32_S1x32) broadcasts_S1x32_S512x32))
    (broadcast S512x32 (Scalar.ofBits .f32 0x00000000#32))

/-- The pooling vector w = dinv · (a · dinv + dinv). -/
def kW (a : FVec F S512x512 .f32) (dv : FVec F S512x1 .f32) : FVec F S512x1 .f32 :=
  mulf dv (addf (matmul dot_S512x512_S512x1_S512x1_1_0_0_1_n_n none a dv (constant S512x1 .f32 0x00000000#32)) dv)

/-- The row t = Σ_r w r · h2 r. -/
def kT (w : FVec F S512x1 .f32) (h2 : FVec F S512x32 .f32) : FVec F S1x32 .f32 :=
  shapeCast S1x32
    (multiReduction .add [0] S32 (mulf (broadcastTo S512x32 w broadcasts_S512x1_S512x32) h2) 0x00000000#32 reduces_S512x32_S32 (.inl rfl) rfl)
    shapeCasts_S32_S1x32

/-- One graph's row t from its adjacency block. -/
def kGraphT (a : FVec F S512x512 .f32) (y0 : FVec F S512x16 .f32) (b1 : Vec F S1x16 .f32) (w2 : Vec F S16x32 .f32)
    (b2 : Vec F S1x32 .f32) : FVec F S1x32 .f32 :=
  kT (kW a (kDinv a)) (kPost32 a (kDinv a) (kU2 (kDinv a) (kPost16 a (kDinv a) (kU1 (kDinv a) y0) b1) w2) b2)

/-- The pooled rows: the stacked t rows times W3, divided by 512, plus the bias. -/
def kPooled (t0 t1 t2 t3 t4 t5 t6 t7 : FVec F S1x32 .f32) (w3 : Vec F S32x64 .f32) (b3 : Vec F S1x64 .f32) : FVec F S8x64 .f32 :=
  addf
    (divf
      (matmul dot_S8x32_S32x64_S8x64_1_0_0_1_n_n none
        (concatenate S8x32 0 [⟨S1x32, t0⟩, ⟨S1x32, t1⟩, ⟨S1x32, t2⟩, ⟨S1x32, t3⟩, ⟨S1x32, t4⟩, ⟨S1x32, t5⟩, ⟨S1x32, t6⟩, ⟨S1x32, t7⟩]
          concatenates_S1x32_S1x32_S1x32_S1x32_S1x32_S1x32_S1x32_S1x32_S8x32_d0)
        w3 (constant S8x64 .f32 0x00000000#32))
      (broadcast S8x64 (Scalar.ofBits .f32 0x44000000#32)))
    (broadcastTo S8x64 (shapeCast S1x64 b3 shapeCasts_S1x64_S1x64) broadcasts_S1x64_S8x64)

/-- The sum of squares of each pooled row, as a column. -/
def kSumSq (p : FVec F S8x64 .f32) : FVec F S8x1 .f32 :=
  shapeCast S8x1 (multiReduction .add [1] S8 (mulf p p) 0x00000000#32 reduces_S8x64_S8 (.inl rfl) rfl) shapeCasts_S8_S8x1

/-- Each pooled row divided by the larger of its norm and the constant. -/
def kNormalize (p : FVec F S8x64 .f32) (ss : FVec F S8x1 .f32) : FVec F S8x1x64 .f32 :=
  shapeCast S8x1x64
    (divf p (broadcastTo S8x64 (maximumf (sqrt ss) (broadcast S8x1 (Scalar.ofBits .f32 0x2B8CBCCC#32))) broadcasts_S8x1_S8x64))
    shapeCasts_S8x64_S8x1x64

end Cert.Gnn.KOps

end
-- ==== Proof.KernelEval.lean ====
/-
  One graph's share of the kernel body, evaluated on real inputs: the row t of the pooling contraction.

  Each stage of the chain (degree, inverse square root, the two propagations with their rectifiers, the pooling vector
  w and the row t) is read at one index: on real operands the result there is the coercion of the real formula of the
  same name. The matrix products are read as sums over the one contracted coordinate, the column reductions as sums over
  the rows; the coercion then passes through sums, products and maxima.
-/
import proofs.«163928_g44908178047564_cont_sun_c4_353_27_alg».proof.Proof.KernelOps
import proofs.«163928_g44908178047564_cont_sun_c4_353_27_alg».proof.Proof.Spec
import Idealize.ShloMosaic.PureOps.Ideal.Laws
import Idealize.ShloMosaic.Lib.Pipeline.Value
import Idealize.ShloMosaic.Lib.ValueLayout

noncomputable section

open scoped BigOperators

namespace Cert.Gnn.KOps

open Idealize.ShloMosaic Idealize.ShloMosaic.ValueIdx Cert.KernelIdeal Cert.Gnn

open Cert.KernelIdeal.Facts₀ Cert.KernelIdeal.Facts

/-! ### Column layouts read at an index -/

section Layout
variable {α : Type}

/-- A vector `[a]` cast to the column `[a, 1]` reads, at `(c, u)`, the operand at `c`. -/
private theorem shapeCast_a_a1_apply {a : ℕ} (x : (⟨1, ![a]⟩ : Shape).Idx → α) (h : (⟨1, ![a]⟩ : Shape).ShapeCasts ⟨2, ![a, 1]⟩)
    (c : Fin a) (u : Fin 1) : shapeCast ⟨2, ![a, 1]⟩ x h (ix2 c u) = x (ix1 c) :=
  shapeCast_apply x h _ _ (by
    have hu : u.val = 0 := by omega
    rw [Shape.rowMajor_val_two, Shape.rowMajor_val_one]
    show c.val = c.val * 1 + u.val
    rw [hu, Nat.mul_one, Nat.add_zero])

/-- A column `[a, 1]` broadcast to `[a, b]` reads, at `(c, k)`, the column at row `c`. -/
private theorem broadcastTo_a1_ab_apply {a b : ℕ} (v : (⟨2, ![a, 1]⟩ : Shape).Idx → α) (h : (⟨2, ![a, 1]⟩ : Shape).Broadcasts ⟨2, ![a, b]⟩)
    (c : Fin a) (k : Fin b) : broadcastTo ⟨2, ![a, b]⟩ v h (ix2 c k) = v (ix2 c (0 : Fin 1)) := by
  refine broadcastTo_apply v h (ix2 c k) (ix2 c (0 : Fin 1)) fun ax => ?_
  match ax with
  | ⟨0, _⟩ =>
    show c.val = if a = 1 then 0 else c.val
    split
    · have := c.isLt; omega
    · rfl
  | ⟨1, _⟩ => rfl

end Layout

/-! ### The f32 words of the chain -/

private theorem one_f32 : Ideal.ofBits .f32 0x3F800000#32 = ((1 : ℝ) : EReal) := by
  simp [Ideal.ofBits, Ideal.ieee, -EReal.coe_mul]; norm_num

/-! ### The degree column and its inverse square root -/

/-- The column sum of the block at column `c`, plus one, is the real in-degree. -/
private theorem kDeg_apply (I : Inp) (g : Fin 8) (a : FVec Ideal S512x512 .f32)
    (ha : ∀ r c : Fin 512, a (ix2 r c) = ((I.A g r c : ℝ) : EReal)) (c : Fin 512) :
    kDeg (F := Ideal) a (ix2 c (0 : Fin 1)) = ((I.deg g c : ℝ) : EReal) := by
  unfold kDeg
  rw [addf_apply, broadcast_apply, shapeCast_a_a1_apply]
  refine (congrArg (· + _) (Ideal.multiReduction_add_single a 0x00000000#32 reduces_S512x512_S512 (.inl rfl) rfl (ix1 c))).trans ?_
  have hl : ∀ r : Fin 512, (reduces_S512x512_S512).lift (ix1 c) r = ix2 r c := fun r =>
    funext fun d => match d with | ⟨0, _⟩ => rfl | ⟨1, _⟩ => rfl
  show (∑ r : Fin 512, a ((reduces_S512x512_S512).lift (ix1 c) r)) + Ideal.ofBits .f32 0x3F800000#32 = _
  rw [one_f32, Inp.deg, EReal.coe_add, coe_sum]
  exact congrArg (· + _) (Finset.sum_congr rfl fun r _ => by rw [hl r, ha r c])

/-- Where the degree is positive the selected value is its inverse square root, elsewhere zero. -/
private theorem kDinv_apply (I : Inp) (g : Fin 8) (a : FVec Ideal S512x512 .f32)
    (ha : ∀ r c : Fin 512, a (ix2 r c) = ((I.A g r c : ℝ) : EReal)) (c : Fin 512) :
    kDinv (F := Ideal) a (ix2 c (0 : Fin 1)) = ((I.dinv g c : ℝ) : EReal) := by
  have e : kDinv (F := Ideal) a (ix2 c (0 : Fin 1)) =
      Scalar.select (Ideal.cmp .ogt (kDeg (F := Ideal) a (ix2 c (0 : Fin 1))) (Ideal.ofBits .f32 0x00000000#32))
        (Ideal.rsqrt (kDeg (F := Ideal) a (ix2 c (0 : Fin 1)))) (Ideal.ofBits .f32 0x00000000#32) := rfl
  rw [e, kDeg_apply I g a ha c, Ideal.ofBits_zero_f32]
  unfold Inp.dinv
  by_cases hd : 0 < I.deg g c
  · have hc : Ideal.cmp .ogt ((I.deg g c : ℝ) : EReal) 0 = 1#1 := by
      have : (0 : EReal) < ((I.deg g c : ℝ) : EReal) := EReal.coe_pos.mpr hd
      simp [Ideal.cmp, this]
    rw [hc, select_one, if_pos hd, Ideal.rsqrt_coe, if_neg (not_lt.mpr hd.le), if_neg hd.ne']
  · have hc : Ideal.cmp .ogt ((I.deg g c : ℝ) : EReal) 0 = 0#1 := by
      have : ¬ (0 : EReal) < ((I.deg g c : ℝ) : EReal) := fun h => hd (EReal.coe_pos.mp h)
      simp [Ideal.cmp, this]
    rw [hc, select_zero, if_neg hd, EReal.coe_zero]

/-! ### The scaled features of the first layer -/

/-- The scaled features at `(r, k)`: the column at row `r` times the feature. -/
private theorem kU1_apply (dv : FVec Ideal S512x1 .f32) (y : FVec Ideal S512x16 .f32) (r : Fin 512) (k : Fin 16) :
    kU1 (F := Ideal) dv y (ix2 r k) = dv (ix2 r (0 : Fin 1)) * y (ix2 r k) := by
  unfold kU1
  rw [mulf_apply, broadcastTo_a1_ab_apply]

/-! ### The product aᵀ · u, width 16: both operands contracted along their rows -/

private theorem lhsT16_0 (i : S512x16.Idx) (q : dot_S512x512_S512x16_S512x16_0_0_1_1_n_n.contr.Idx) :
    (dot_S512x512_S512x16_S512x16_0_0_1_1_n_n.lhsIdx i q 0).val = (q ⟨0, by decide⟩).val :=
  dot_S512x512_S512x16_S512x16_0_0_1_1_n_n.lhsIdx_val_of_single rfl i q
private theorem lhsT16_1 (i : S512x16.Idx) (q : dot_S512x512_S512x16_S512x16_0_0_1_1_n_n.contr.Idx) :
    (dot_S512x512_S512x16_S512x16_0_0_1_1_n_n.lhsIdx i q 1).val = (i 0).val := by
  unfold DotDims.lhsIdx
  rw [dif_neg (show ¬(1 : Fin S512x512.rank) ∈ dot_S512x512_S512x16_S512x16_0_0_1_1_n_n.lhsBatch by decide), dif_pos (show (1 : Fin S512x512.rank) ∈ dot_S512x512_S512x16_S512x16_0_0_1_1_n_n.lhsNonContracting by decide)]
  rfl
private theorem rhsT16_0 (i : S512x16.Idx) (q : dot_S512x512_S512x16_S512x16_0_0_1_1_n_n.contr.Idx) :
    (dot_S512x512_S512x16_S512x16_0_0_1_1_n_n.rhsIdx i q 0).val = (q ⟨0, by decide⟩).val :=
  dot_S512x512_S512x16_S512x16_0_0_1_1_n_n.rhsIdx_val_of_single rfl i q
private theorem rhsT16_1 (i : S512x16.Idx) (q : dot_S512x512_S512x16_S512x16_0_0_1_1_n_n.contr.Idx) :
    (dot_S512x512_S512x16_S512x16_0_0_1_1_n_n.rhsIdx i q 1).val = (i 1).val := by
  unfold DotDims.rhsIdx
  rw [dif_neg (show ¬(1 : Fin S512x16.rank) ∈ dot_S512x512_S512x16_S512x16_0_0_1_1_n_n.rhsBatch by decide), dif_pos (show (1 : Fin S512x16.rank) ∈ dot_S512x512_S512x16_S512x16_0_0_1_1_n_n.rhsNonContracting by decide)]
  rfl

/-- The product read at `(c, k)`: the sum over the rows `r` of `a (r, c) · u (r, k)`. -/
private theorem matmulT16_apply (a : FVec Ideal S512x512 .f32) (u : FVec Ideal S512x16 .f32) (c : Fin 512) (k : Fin 16) :
    matmul dot_S512x512_S512x16_S512x16_0_0_1_1_n_n none a u (constant (F := Ideal) S512x16 .f32 0x00000000#32) (ix2 c k)
      = ∑ r : Fin 512, a (ix2 r c) * u (ix2 r k) := by
  simp only [matmul]
  rw [Ideal.matmul_constant_zero_apply, ← Equiv.sum_comp (contrEquiv1 dot_S512x512_S512x16_S512x16_0_0_1_1_n_n 512 rfl rfl).symm]
  refine Finset.sum_congr rfl fun r _ => ?_
  have hk := contrEquiv1_symm_val dot_S512x512_S512x16_S512x16_0_0_1_1_n_n 512 rfl rfl r
  have el : dot_S512x512_S512x16_S512x16_0_0_1_1_n_n.lhsIdx (ix2 c k) ((contrEquiv1 dot_S512x512_S512x16_S512x16_0_0_1_1_n_n 512 rfl rfl).symm r) = ix2 r c := funext fun d => Fin.ext (by
    match d with
    | ⟨0, _⟩ => exact (lhsT16_0 _ _).trans hk
    | ⟨1, _⟩ => exact lhsT16_1 _ _)
  have er : dot_S512x512_S512x16_S512x16_0_0_1_1_n_n.rhsIdx (ix2 c k) ((contrEquiv1 dot_S512x512_S512x16_S512x16_0_0_1_1_n_n 512 rfl rfl).symm r) = ix2 r k := funext fun d => Fin.ext (by
    match d with
    | ⟨0, _⟩ => exact (rhsT16_0 _ _).trans hk
    | ⟨1, _⟩ => exact rhsT16_1 _ _)
  rw [el, er]

/-- The coercion of a maximum of reals is the maximum of the coercions. -/
private theorem coe_max (x y : ℝ) : ((max x y : ℝ) : EReal) = max (x : EReal) (y : EReal) :=
  EReal.coe_strictMono.monotone.map_max

/-! ### The first propagation and its rectifier -/

/-- The rectified propagation read at `(c, k)`: the column entry at `c` times the sum over the rows of
    `a (r, c) · u (r, k)` plus the self term, plus the bias, against zero. -/
private theorem kPost16_read (a : FVec Ideal S512x512 .f32) (dv : FVec Ideal S512x1 .f32) (u : FVec Ideal S512x16 .f32)
    (b : Vec Ideal S1x16 .f32) (c : Fin 512) (k : Fin 16) :
    kPost16 (F := Ideal) a dv u b (ix2 c k)
      = max (dv (ix2 c (0 : Fin 1)) * ((∑ r : Fin 512, a (ix2 r c) * u (ix2 r k)) + u (ix2 c k)) + b (ix2 (0 : Fin 1) k)) 0 := by
  unfold kPost16
  rw [maximumf_apply, addf_apply, mulf_apply, addf_apply, broadcast_apply, broadcastTo_a1_ab_apply, matmulT16_apply,
    broadcastTo_1b_ab_apply, shapeCast_self]
  exact congrArg (max _) Ideal.ofBits_zero_f32

/-- On real operands, with `u (r, k) = dinv r · y r k`, the rectified propagation is the real one. -/
private theorem kPost16_apply (I : Inp) (g : Fin 8) (y : Fin 512 → Fin 16 → ℝ) (bb : Fin 16 → ℝ)
    (a : FVec Ideal S512x512 .f32) (dv : FVec Ideal S512x1 .f32) (u : FVec Ideal S512x16 .f32) (b : Vec Ideal S1x16 .f32)
    (ha : ∀ r c : Fin 512, a (ix2 r c) = ((I.A g r c : ℝ) : EReal))
    (hdv : ∀ c : Fin 512, dv (ix2 c (0 : Fin 1)) = ((I.dinv g c : ℝ) : EReal))
    (hu : ∀ (r : Fin 512) (k : Fin 16), u (ix2 r k) = ((I.dinv g r * y r k : ℝ) : EReal))
    (hb : ∀ k : Fin 16, b (ix2 (0 : Fin 1) k) = ((bb k : ℝ) : EReal)) (c : Fin 512) (k : Fin 16) :
    kPost16 (F := Ideal) a dv u b (ix2 c k) = ((I.propK g y bb c k : ℝ) : EReal) := by
  have hs : (∑ r : Fin 512, a (ix2 r c) * u (ix2 r k)) = ((∑ r : Fin 512, I.A g r c * (I.dinv g r * y r k) : ℝ) : EReal) := by
    rw [coe_sum]
    exact Finset.sum_congr rfl fun r _ => by simp only [ha r c, hu r k, EReal.coe_mul]
  rw [kPost16_read, hs, hdv c, hu c k, hb k, Inp.propK]
  simp only [coe_max, EReal.coe_add, EReal.coe_mul, EReal.coe_zero]

/-! ### The product h1 · W2: the left operand's columns against the right operand's rows -/

private theorem lhsP32_0 (i : S512x32.Idx) (q : dot_S512x16_S16x32_S512x32_1_0_0_1_n_n.contr.Idx) :
    (dot_S512x16_S16x32_S512x32_1_0_0_1_n_n.lhsIdx i q 0).val = (i 0).val := by
  unfold DotDims.lhsIdx
  rw [dif_neg (show ¬(0 : Fin S512x16.rank) ∈ dot_S512x16_S16x32_S512x32_1_0_0_1_n_n.lhsBatch by decide), dif_pos (show (0 : Fin S512x16.rank) ∈ dot_S512x16_S16x32_S512x32_1_0_0_1_n_n.lhsNonContracting by decide)]
  rfl
private theorem lhsP32_1 (i : S512x32.Idx) (q : dot_S512x16_S16x32_S512x32_1_0_0_1_n_n.contr.Idx) :
    (dot_S512x16_S16x32_S512x32_1_0_0_1_n_n.lhsIdx i q 1).val = (q ⟨0, by decide⟩).val :=
  dot_S512x16_S16x32_S512x32_1_0_0_1_n_n.lhsIdx_val_of_single rfl i q
private theorem rhsP32_0 (i : S512x32.Idx) (q : dot_S512x16_S16x32_S512x32_1_0_0_1_n_n.contr.Idx) :
    (dot_S512x16_S16x32_S512x32_1_0_0_1_n_n.rhsIdx i q 0).val = (q ⟨0, by decide⟩).val :=
  dot_S512x16_S16x32_S512x32_1_0_0_1_n_n.rhsIdx_val_of_single rfl i q
private theorem rhsP32_1 (i : S512x32.Idx) (q : dot_S512x16_S16x32_S512x32_1_0_0_1_n_n.contr.Idx) :
    (dot_S512x16_S16x32_S512x32_1_0_0_1_n_n.rhsIdx i q 1).val = (i 1).val := by
  unfold DotDims.rhsIdx
  rw [dif_neg (show ¬(1 : Fin S16x32.rank) ∈ dot_S512x16_S16x32_S512x32_1_0_0_1_n_n.rhsBatch by decide), dif_pos (show (1 : Fin S16x32.rank) ∈ dot_S512x16_S16x32_S512x32_1_0_0_1_n_n.rhsNonContracting by decide)]
  rfl

/-- The product read at `(r, k)`: the sum over `j` of `h (r, j) · w (j, k)`. -/
private theorem matmulP32_apply (h : FVec Ideal S512x16 .f32) (w : FVec Ideal S16x32 .f32) (r : Fin 512) (k : Fin 32) :
    matmul dot_S512x16_S16x32_S512x32_1_0_0_1_n_n none h w (constant (F := Ideal) S512x32 .f32 0x00000000#32) (ix2 r k)
      = ∑ j : Fin 16, h (ix2 r j) * w (ix2 j k) := by
  simp only [matmul]
  rw [Ideal.matmul_constant_zero_apply, ← Equiv.sum_comp (contrEquiv1 dot_S512x16_S16x32_S512x32_1_0_0_1_n_n 16 rfl rfl).symm]
  refine Finset.sum_congr rfl fun j _ => ?_
  have hk := contrEquiv1_symm_val dot_S512x16_S16x32_S512x32_1_0_0_1_n_n 16 rfl rfl j
  have el : dot_S512x16_S16x32_S512x32_1_0_0_1_n_n.lhsIdx (ix2 r k) ((contrEquiv1 dot_S512x16_S16x32_S512x32_1_0_0_1_n_n 16 rfl rfl).symm j) = ix2 r j := funext fun d => Fin.ext (by
    match d with
    | ⟨0, _⟩ => exact lhsP32_0 _ _
    | ⟨1, _⟩ => exact (lhsP32_1 _ _).trans hk)
  have er : dot_S512x16_S16x32_S512x32_1_0_0_1_n_n.rhsIdx (ix2 r k) ((contrEquiv1 dot_S512x16_S16x32_S512x32_1_0_0_1_n_n 16 rfl rfl).symm j) = ix2 j k := funext fun d => Fin.ext (by
    match d with
    | ⟨0, _⟩ => exact (rhsP32_0 _ _).trans hk
    | ⟨1, _⟩ => exact rhsP32_1 _ _)
  rw [el, er]

/-! ### The scaled features of the second layer -/

/-- The scaled features at `(r, k)`: the column at row `r` times the sum over `j` of `h (r, j) · w (j, k)`. -/
private theorem kU2_read (dv : FVec Ideal S512x1 .f32) (h : FVec Ideal S512x16 .f32) (w : Vec Ideal S16x32 .f32)
    (r : Fin 512) (k : Fin 32) :
    kU2 (F := Ideal) dv h w (ix2 r k) = dv (ix2 r (0 : Fin 1)) * ∑ j : Fin 16, h (ix2 r j) * w (ix2 j k) := by
  unfold kU2
  rw [mulf_apply, broadcastTo_a1_ab_apply]
  exact congrArg (_ * ·) (matmulP32_apply h w r k)

/-- On real operands the scaled features of the second layer are `dinv r · z2 r k`. -/
private theorem kU2_apply (I : Inp) (g : Fin 8) (dv : FVec Ideal S512x1 .f32) (h : FVec Ideal S512x16 .f32)
    (w : Vec Ideal S16x32 .f32)
    (hdv : ∀ c : Fin 512, dv (ix2 c (0 : Fin 1)) = ((I.dinv g c : ℝ) : EReal))
    (hh : ∀ (r : Fin 512) (j : Fin 16), h (ix2 r j) = ((I.h1K g r j : ℝ) : EReal))
    (hw : ∀ (j : Fin 16) (k : Fin 32), w (ix2 j k) = ((I.W2 j k : ℝ) : EReal)) (r : Fin 512) (k : Fin 32) :
    kU2 (F := Ideal) dv h w (ix2 r k) = ((I.dinv g r * I.z2K g r k : ℝ) : EReal) := by
  rw [kU2_read, hdv r, Inp.z2K, EReal.coe_mul, coe_sum]
  exact congrArg (_ * ·) (Finset.sum_congr rfl fun j _ => by simp only [hh r j, hw j k, EReal.coe_mul])

/-! ### The product aᵀ · u, width 32 -/

private theorem lhsT32_0 (i : S512x32.Idx) (q : dot_S512x512_S512x32_S512x32_0_0_1_1_n_n.contr.Idx) :
    (dot_S512x512_S512x32_S512x32_0_0_1_1_n_n.lhsIdx i q 0).val = (q ⟨0, by decide⟩).val :=
  dot_S512x512_S512x32_S512x32_0_0_1_1_n_n.lhsIdx_val_of_single rfl i q
private theorem lhsT32_1 (i : S512x32.Idx) (q : dot_S512x512_S512x32_S512x32_0_0_1_1_n_n.contr.Idx) :
    (dot_S512x512_S512x32_S512x32_0_0_1_1_n_n.lhsIdx i q 1).val = (i 0).val := by
  unfold DotDims.lhsIdx
  rw [dif_neg (show ¬(1 : Fin S512x512.rank) ∈ dot_S512x512_S512x32_S512x32_0_0_1_1_n_n.lhsBatch by decide), dif_pos (show (1 : Fin S512x512.rank) ∈ dot_S512x512_S512x32_S512x32_0_0_1_1_n_n.lhsNonContracting by decide)]
  rfl
private theorem rhsT32_0 (i : S512x32.Idx) (q : dot_S512x512_S512x32_S512x32_0_0_1_1_n_n.contr.Idx) :
    (dot_S512x512_S512x32_S512x32_0_0_1_1_n_n.rhsIdx i q 0).val = (q ⟨0, by decide⟩).val :=
  dot_S512x512_S512x32_S512x32_0_0_1_1_n_n.rhsIdx_val_of_single rfl i q
private theorem rhsT32_1 (i : S512x32.Idx) (q : dot_S512x512_S512x32_S512x32_0_0_1_1_n_n.contr.Idx) :
    (dot_S512x512_S512x32_S512x32_0_0_1_1_n_n.rhsIdx i q 1).val = (i 1).val := by
  unfold DotDims.rhsIdx
  rw [dif_neg (show ¬(1 : Fin S512x32.rank) ∈ dot_S512x512_S512x32_S512x32_0_0_1_1_n_n.rhsBatch by decide), dif_pos (show (1 : Fin S512x32.rank) ∈ dot_S512x512_S512x32_S512x32_0_0_1_1_n_n.rhsNonContracting by decide)]
  rfl

/-- The product read at `(c, k)`: the sum over the rows `r` of `a (r, c) · u (r, k)`. -/
private theorem matmulT32_apply (a : FVec Ideal S512x512 .f32) (u : FVec Ideal S512x32 .f32) (c : Fin 512) (k : Fin 32) :
    matmul dot_S512x512_S512x32_S512x32_0_0_1_1_n_n none a u (constant (F := Ideal) S512x32 .f32 0x00000000#32) (ix2 c k)
      = ∑ r : Fin 512, a (ix2 r c) * u (ix2 r k) := by
  simp only [matmul]
  rw [Ideal.matmul_constant_zero_apply, ← Equiv.sum_comp (contrEquiv1 dot_S512x512_S512x32_S512x32_0_0_1_1_n_n 512 rfl rfl).symm]
  refine Finset.sum_congr rfl fun r _ => ?_
  have hk := contrEquiv1_symm_val dot_S512x512_S512x32_S512x32_0_0_1_1_n_n 512 rfl rfl r
  have el : dot_S512x512_S512x32_S512x32_0_0_1_1_n_n.lhsIdx (ix2 c k) ((contrEquiv1 dot_S512x512_S512x32_S512x32_0_0_1_1_n_n 512 rfl rfl).symm r) = ix2 r c := funext fun d => Fin.ext (by
    match d with
    | ⟨0, _⟩ => exact (lhsT32_0 _ _).trans hk
    | ⟨1, _⟩ => exact lhsT32_1 _ _)
  have er : dot_S512x512_S512x32_S512x32_0_0_1_1_n_n.rhsIdx (ix2 c k) ((contrEquiv1 dot_S512x512_S512x32_S512x32_0_0_1_1_n_n 512 rfl rfl).symm r) = ix2 r k := funext fun d => Fin.ext (by
    match d with
    | ⟨0, _⟩ => exact (rhsT32_0 _ _).trans hk
    | ⟨1, _⟩ => exact rhsT32_1 _ _)
  rw [el, er]

/-! ### The second propagation and its rectifier -/

/-- The rectified propagation of width 32 read at `(c, k)`. -/
private theorem kPost32_read (a : FVec Ideal S512x512 .f32) (dv : FVec Ideal S512x1 .f32) (u : FVec Ideal S512x32 .f32)
    (b : Vec Ideal S1x32 .f32) (c : Fin 512) (k : Fin 32) :
    kPost32 (F := Ideal) a dv u b (ix2 c k)
      = max (dv (ix2 c (0 : Fin 1)) * ((∑ r : Fin 512, a (ix2 r c) * u (ix2 r k)) + u (ix2 c k)) + b (ix2 (0 : Fin 1) k)) 0 := by
  unfold kPost32
  rw [maximumf_apply, addf_apply, mulf_apply, addf_apply, broadcast_apply, broadcastTo_a1_ab_apply, matmulT32_apply,
    broadcastTo_1b_ab_apply, shapeCast_self]
  exact congrArg (max _) Ideal.ofBits_zero_f32

/-- On real operands, with `u (r, k) = dinv r · y r k`, the rectified propagation of width 32 is the real one. -/
private theorem kPost32_apply (I : Inp) (g : Fin 8) (y : Fin 512 → Fin 32 → ℝ) (bb : Fin 32 → ℝ)
    (a : FVec Ideal S512x512 .f32) (dv : FVec Ideal S512x1 .f32) (u : FVec Ideal S512x32 .f32) (b : Vec Ideal S1x32 .f32)
    (ha : ∀ r c : Fin 512, a (ix2 r c) = ((I.A g r c : ℝ) : EReal))
    (hdv : ∀ c : Fin 512, dv (ix2 c (0 : Fin 1)) = ((I.dinv g c : ℝ) : EReal))
    (hu : ∀ (r : Fin 512) (k : Fin 32), u (ix2 r k) = ((I.dinv g r * y r k : ℝ) : EReal))
    (hb : ∀ k : Fin 32, b (ix2 (0 : Fin 1) k) = ((bb k : ℝ) : EReal)) (c : Fin 512) (k : Fin 32) :
    kPost32 (F := Ideal) a dv u b (ix2 c k) = ((I.propK g y bb c k : ℝ) : EReal) := by
  have hs : (∑ r : Fin 512, a (ix2 r c) * u (ix2 r k)) = ((∑ r : Fin 512, I.A g r c * (I.dinv g r * y r k) : ℝ) : EReal) := by
    rw [coe_sum]
    exact Finset.sum_congr rfl fun r _ => by simp only [ha r c, hu r k, EReal.coe_mul]
  rw [kPost32_read, hs, hdv c, hu c k, hb k, Inp.propK]
  simp only [coe_max, EReal.coe_add, EReal.coe_mul, EReal.coe_zero]

/-! ### The product a · dinv: the block's columns against the column vector -/

private theorem lhsW_0 (i : S512x1.Idx) (q : dot_S512x512_S512x1_S512x1_1_0_0_1_n_n.contr.Idx) :
    (dot_S512x512_S512x1_S512x1_1_0_0_1_n_n.lhsIdx i q 0).val = (i 0).val := by
  unfold DotDims.lhsIdx
  rw [dif_neg (show ¬(0 : Fin S512x512.rank) ∈ dot_S512x512_S512x1_S512x1_1_0_0_1_n_n.lhsBatch by decide), dif_pos (show (0 : Fin S512x512.rank) ∈ dot_S512x512_S512x1_S512x1_1_0_0_1_n_n.lhsNonContracting by decide)]
  rfl
private theorem lhsW_1 (i : S512x1.Idx) (q : dot_S512x512_S512x1_S512x1_1_0_0_1_n_n.contr.Idx) :
    (dot_S512x512_S512x1_S512x1_1_0_0_1_n_n.lhsIdx i q 1).val = (q ⟨0, by decide⟩).val :=
  dot_S512x512_S512x1_S512x1_1_0_0_1_n_n.lhsIdx_val_of_single rfl i q
private theorem rhsW_0 (i : S512x1.Idx) (q : dot_S512x512_S512x1_S512x1_1_0_0_1_n_n.contr.Idx) :
    (dot_S512x512_S512x1_S512x1_1_0_0_1_n_n.rhsIdx i q 0).val = (q ⟨0, by decide⟩).val :=
  dot_S512x512_S512x1_S512x1_1_0_0_1_n_n.rhsIdx_val_of_single rfl i q
private theorem rhsW_1 (i : S512x1.Idx) (q : dot_S512x512_S512x1_S512x1_1_0_0_1_n_n.contr.Idx) :
    (dot_S512x512_S512x1_S512x1_1_0_0_1_n_n.rhsIdx i q 1).val = (i 1).val := by
  unfold DotDims.rhsIdx
  rw [dif_neg (show ¬(1 : Fin S512x1.rank) ∈ dot_S512x512_S512x1_S512x1_1_0_0_1_n_n.rhsBatch by decide), dif_pos (show (1 : Fin S512x1.rank) ∈ dot_S512x512_S512x1_S512x1_1_0_0_1_n_n.rhsNonContracting by decide)]
  rfl

/-- The product read at `(r, 0)`: the sum over the columns `c` of `a (r, c) · v (c, 0)`. -/
private theorem matmulW_apply (a : FVec Ideal S512x512 .f32) (v : FVec Ideal S512x1 .f32) (r : Fin 512) :
    matmul dot_S512x512_S512x1_S512x1_1_0_0_1_n_n none a v (constant (F := Ideal) S512x1 .f32 0x00000000#32) (ix2 r (0 : Fin 1))
      = ∑ c : Fin 512, a (ix2 r c) * v (ix2 c (0 : Fin 1)) := by
  simp only [matmul]
  rw [Ideal.matmul_constant_zero_apply, ← Equiv.sum_comp (contrEquiv1 dot_S512x512_S512x1_S512x1_1_0_0_1_n_n 512 rfl rfl).symm]
  refine Finset.sum_congr rfl fun c _ => ?_
  have hk := contrEquiv1_symm_val dot_S512x512_S512x1_S512x1_1_0_0_1_n_n 512 rfl rfl c
  have el : dot_S512x512_S512x1_S512x1_1_0_0_1_n_n.lhsIdx (ix2 r (0 : Fin 1)) ((contrEquiv1 dot_S512x512_S512x1_S512x1_1_0_0_1_n_n 512 rfl rfl).symm c) = ix2 r c := funext fun d => Fin.ext (by
    match d with
    | ⟨0, _⟩ => exact lhsW_0 _ _
    | ⟨1, _⟩ => exact (lhsW_1 _ _).trans hk)
  have er : dot_S512x512_S512x1_S512x1_1_0_0_1_n_n.rhsIdx (ix2 r (0 : Fin 1)) ((contrEquiv1 dot_S512x512_S512x1_S512x1_1_0_0_1_n_n 512 rfl rfl).symm c) = ix2 c (0 : Fin 1) := funext fun d => Fin.ext (by
    match d with
    | ⟨0, _⟩ => exact (rhsW_0 _ _).trans hk
    | ⟨1, _⟩ => exact rhsW_1 _ _)
  rw [el, er]

/-! ### The pooling vector -/

/-- The pooling vector read at row `r`. -/
private theorem kW_read (a : FVec Ideal S512x512 .f32) (dv : FVec Ideal S512x1 .f32) (r : Fin 512) :
    kW (F := Ideal) a dv (ix2 r (0 : Fin 1))
      = dv (ix2 r (0 : Fin 1)) * ((∑ c : Fin 512, a (ix2 r c) * dv (ix2 c (0 : Fin 1))) + dv (ix2 r (0 : Fin 1))) := by
  unfold kW
  rw [mulf_apply, addf_apply, matmulW_apply]

/-- On real operands the pooling vector is the real one. -/
private theorem kW_apply (I : Inp) (g : Fin 8) (a : FVec Ideal S512x512 .f32) (dv : FVec Ideal S512x1 .f32)
    (ha : ∀ r c : Fin 512, a (ix2 r c) = ((I.A g r c : ℝ) : EReal))
    (hdv : ∀ c : Fin 512, dv (ix2 c (0 : Fin 1)) = ((I.dinv g c : ℝ) : EReal)) (r : Fin 512) :
    kW (F := Ideal) a dv (ix2 r (0 : Fin 1)) = ((I.wK g r : ℝ) : EReal) := by
  have hs : (∑ c : Fin 512, a (ix2 r c) * dv (ix2 c (0 : Fin 1))) = ((∑ c : Fin 512, I.A g r c * I.dinv g c : ℝ) : EReal) := by
    rw [coe_sum]
    exact Finset.sum_congr rfl fun c _ => by simp only [ha r c, hdv c, EReal.coe_mul]
  rw [kW_read, hs, hdv r, Inp.wK]
  simp only [EReal.coe_add, EReal.coe_mul]

/-! ### The row t -/

/-- The row read at `(0, k)`: the sum over the rows `r` of `w (r, 0) · h (r, k)`. -/
private theorem kT_read (w : FVec Ideal S512x1 .f32) (h : FVec Ideal S512x32 .f32) (k : Fin 32) :
    kT (F := Ideal) w h (ix2 (0 : Fin 1) k) = ∑ r : Fin 512, w (ix2 r (0 : Fin 1)) * h (ix2 r k) := by
  unfold kT
  rw [shapeCast_a_1a_apply]
  refine (Ideal.multiReduction_add_single _ 0x00000000#32 reduces_S512x32_S32 (.inl rfl) rfl (ix1 k)).trans ?_
  have hl : ∀ r : Fin 512, (reduces_S512x32_S32).lift (ix1 k) r = ix2 r k := fun r =>
    funext fun d => match d with | ⟨0, _⟩ => rfl | ⟨1, _⟩ => rfl
  show (∑ r : Fin 512, mulf (broadcastTo S512x32 w broadcasts_S512x1_S512x32) h ((reduces_S512x32_S32).lift (ix1 k) r)) = _
  exact Finset.sum_congr rfl fun r _ => by rw [hl r, mulf_apply, broadcastTo_a1_ab_apply]

/-! ### The chain -/

/-- On a block holding graph g's real adjacency, with the first layer's features, biases and weights real, the row
    t = Σ_r w r · h2 r of the kernel is the real one. -/
theorem kGraphT_apply (I : Inp) (g : Fin 8) (a : FVec Ideal S512x512 .f32) (y0 : FVec Ideal S512x16 .f32)
    (b1 : Vec Ideal S1x16 .f32) (w2 : Vec Ideal S16x32 .f32) (b2 : Vec Ideal S1x32 .f32)
    (ha : ∀ r c : Fin 512, a (ix2 r c) = ((I.A g r c : ℝ) : EReal))
    (hy : ∀ (r : Fin 512) (k : Fin 16), y0 (ix2 r k) = ((I.y0 r k : ℝ) : EReal))
    (hb1 : ∀ k : Fin 16, b1 (ix2 (0 : Fin 1) k) = ((I.b1 k : ℝ) : EReal))
    (hw2 : ∀ (j : Fin 16) (k : Fin 32), w2 (ix2 j k) = ((I.W2 j k : ℝ) : EReal))
    (hb2 : ∀ k : Fin 32, b2 (ix2 (0 : Fin 1) k) = ((I.b2 k : ℝ) : EReal)) (k : Fin 32) :
    kGraphT (F := Ideal) a y0 b1 w2 b2 (ix2 (0 : Fin 1) k) = ((I.tK g k : ℝ) : EReal) := by
  unfold kGraphT
  have hdv := kDinv_apply I g a ha
  generalize kDinv (F := Ideal) a = dv at hdv ⊢
  have hu1 : ∀ (r : Fin 512) (j : Fin 16), kU1 (F := Ideal) dv y0 (ix2 r j) = ((I.dinv g r * I.y0 r j : ℝ) : EReal) :=
    fun r j => by rw [kU1_apply, hdv r, hy r j, EReal.coe_mul]
  generalize kU1 (F := Ideal) dv y0 = u1 at hu1 ⊢
  have hh1 : ∀ (c : Fin 512) (j : Fin 16), kPost16 (F := Ideal) a dv u1 b1 (ix2 c j) = ((I.h1K g c j : ℝ) : EReal) :=
    kPost16_apply I g I.y0 I.b1 a dv u1 b1 ha hdv hu1 hb1
  generalize kPost16 (F := Ideal) a dv u1 b1 = h1 at hh1 ⊢
  have hu2 := kU2_apply I g dv h1 w2 hdv hh1 hw2
  generalize kU2 (F := Ideal) dv h1 w2 = u2 at hu2 ⊢
  have hh2 : ∀ (c : Fin 512) (j : Fin 32), kPost32 (F := Ideal) a dv u2 b2 (ix2 c j) = ((I.h2K g c j : ℝ) : EReal) :=
    kPost32_apply I g (I.z2K g) I.b2 a dv u2 b2 ha hdv hu2 hb2
  generalize kPost32 (F := Ideal) a dv u2 b2 = h2 at hh2 ⊢
  have hw := kW_apply I g a dv ha hdv
  generalize kW (F := Ideal) a dv = w at hw ⊢
  rw [kT_read, Inp.tK, coe_sum]
  exact Finset.sum_congr rfl fun r _ => by rw [hw r, hh2 r k, EReal.coe_mul]

end Cert.Gnn.KOps

end
-- ==== Proof.KernelFinal.lean ====
/-
  The kernel's first matrix product and its batched closing stage, evaluated on real inputs.
-/
import proofs.«163928_g44908178047564_cont_sun_c4_353_27_alg».proof.Proof.KernelOps
import proofs.«163928_g44908178047564_cont_sun_c4_353_27_alg».proof.Proof.Spec
import Idealize.ShloMosaic.PureOps.Ideal.Laws
import Idealize.ShloMosaic.Lib.Pipeline.Value
import Idealize.ShloMosaic.Lib.ValueLayout

noncomputable section

open scoped BigOperators

namespace Cert.Gnn.KOps

open Idealize.ShloMosaic Idealize.ShloMosaic.ValueIdx Cert.KernelIdeal Cert.Gnn

/-! ## The product X · W1: a [512,3] × [3,16] contraction over the one shared axis -/

/-- The left operand is read at the result's row … -/
private theorem y0_lhs_0 (i : S512x16.Idx) (q : dot_S512x3_S3x16_S512x16_1_0_0_1_n_n.contr.Idx) :
    (dot_S512x3_S3x16_S512x16_1_0_0_1_n_n.lhsIdx i q 0).val = (i 0).val := by
  unfold DotDims.lhsIdx
  rw [dif_neg (show ¬(0 : Fin S512x3.rank) ∈ dot_S512x3_S3x16_S512x16_1_0_0_1_n_n.lhsBatch by decide),
    dif_pos (show (0 : Fin S512x3.rank) ∈ dot_S512x3_S3x16_S512x16_1_0_0_1_n_n.lhsNonContracting by decide)]
  rfl
/-- … and at the contraction coordinate. -/
private theorem y0_lhs_1 (i : S512x16.Idx) (q : dot_S512x3_S3x16_S512x16_1_0_0_1_n_n.contr.Idx) :
    (dot_S512x3_S3x16_S512x16_1_0_0_1_n_n.lhsIdx i q 1).val = (q ⟨0, by decide⟩).val :=
  dot_S512x3_S3x16_S512x16_1_0_0_1_n_n.lhsIdx_val_of_single rfl i q
/-- The right operand is read at the contraction coordinate … -/
private theorem y0_rhs_0 (i : S512x16.Idx) (q : dot_S512x3_S3x16_S512x16_1_0_0_1_n_n.contr.Idx) :
    (dot_S512x3_S3x16_S512x16_1_0_0_1_n_n.rhsIdx i q 0).val = (q ⟨0, by decide⟩).val :=
  dot_S512x3_S3x16_S512x16_1_0_0_1_n_n.rhsIdx_val_of_single rfl i q
/-- … and at the result's column. -/
private theorem y0_rhs_1 (i : S512x16.Idx) (q : dot_S512x3_S3x16_S512x16_1_0_0_1_n_n.contr.Idx) :
    (dot_S512x3_S3x16_S512x16_1_0_0_1_n_n.rhsIdx i q 1).val = (i 1).val := by
  unfold DotDims.rhsIdx
  rw [dif_neg (show ¬(1 : Fin S3x16.rank) ∈ dot_S512x3_S3x16_S512x16_1_0_0_1_n_n.rhsBatch by decide),
    dif_pos (show (1 : Fin S3x16.rank) ∈ dot_S512x3_S3x16_S512x16_1_0_0_1_n_n.rhsNonContracting by decide)]
  rfl

/-- The product into the zero accumulator, read at (r, k): Σ_j lhs (r, j) · rhs (j, k). -/
private theorem matmul_512x3_3x16_apply (x1 : FVec Ideal S512x3 .f32) (x2 : FVec Ideal S3x16 .f32) (r : Fin 512) (k : Fin 16) :
    FloatOps.matmul dot_S512x3_S3x16_S512x16_1_0_0_1_n_n none x1 x2 (constant (F := Ideal) S512x16 .f32 0x00000000#32) (ix2 r k)
      = ∑ j : Fin 3, x1 (ix2 r j) * x2 (ix2 j k) := by
  rw [Ideal.matmul_constant_zero_apply, ← Equiv.sum_comp (contrEquiv1 dot_S512x3_S3x16_S512x16_1_0_0_1_n_n 3 rfl rfl).symm]
  refine Finset.sum_congr rfl fun j _ => ?_
  have hj := contrEquiv1_symm_val dot_S512x3_S3x16_S512x16_1_0_0_1_n_n 3 rfl rfl j
  have el : dot_S512x3_S3x16_S512x16_1_0_0_1_n_n.lhsIdx (ix2 r k) ((contrEquiv1 dot_S512x3_S3x16_S512x16_1_0_0_1_n_n 3 rfl rfl).symm j)
      = ix2 r j := funext fun a => Fin.ext (by
    match a with
    | ⟨0, _⟩ => exact y0_lhs_0 _ _
    | ⟨1, _⟩ => exact (y0_lhs_1 _ _).trans hj)
  have er : dot_S512x3_S3x16_S512x16_1_0_0_1_n_n.rhsIdx (ix2 r k) ((contrEquiv1 dot_S512x3_S3x16_S512x16_1_0_0_1_n_n 3 rfl rfl).symm j)
      = ix2 j k := funext fun a => Fin.ext (by
    match a with
    | ⟨0, _⟩ => exact (y0_rhs_0 _ _).trans hj
    | ⟨1, _⟩ => exact y0_rhs_1 _ _)
  rw [el, er]

/-- X · W1 on real inputs. -/
theorem kY0_apply (I : Inp) (x1 : Vec Ideal S512x3 .f32) (x2 : Vec Ideal S3x16 .f32)
    (hX : ∀ (r : Fin 512) (j : Fin 3), x1 (ix2 r j) = ((I.X r j : ℝ) : EReal))
    (hW1 : ∀ (j : Fin 3) (k : Fin 16), x2 (ix2 j k) = ((I.W1 j k : ℝ) : EReal)) (r : Fin 512) (k : Fin 16) :
    kY0 (F := Ideal) x1 x2 (ix2 r k) = ((I.y0 r k : ℝ) : EReal) := by
  unfold kY0
  refine (matmul_512x3_3x16_apply x1 x2 r k).trans ?_
  unfold Inp.y0
  rw [coe_sum]
  refine Finset.sum_congr rfl fun j _ => ?_
  rw [hX, hW1, EReal.coe_mul]

/-! ## The product T · W3: an [8,32] × [32,64] contraction over the one shared axis -/

/-- The left operand is read at the result's row … -/
private theorem pool_lhs_0 (i : S8x64.Idx) (q : dot_S8x32_S32x64_S8x64_1_0_0_1_n_n.contr.Idx) :
    (dot_S8x32_S32x64_S8x64_1_0_0_1_n_n.lhsIdx i q 0).val = (i 0).val := by
  unfold DotDims.lhsIdx
  rw [dif_neg (show ¬(0 : Fin S8x32.rank) ∈ dot_S8x32_S32x64_S8x64_1_0_0_1_n_n.lhsBatch by decide),
    dif_pos (show (0 : Fin S8x32.rank) ∈ dot_S8x32_S32x64_S8x64_1_0_0_1_n_n.lhsNonContracting by decide)]
  rfl
/-- … and at the contraction coordinate. -/
private theorem pool_lhs_1 (i : S8x64.Idx) (q : dot_S8x32_S32x64_S8x64_1_0_0_1_n_n.contr.Idx) :
    (dot_S8x32_S32x64_S8x64_1_0_0_1_n_n.lhsIdx i q 1).val = (q ⟨0, by decide⟩).val :=
  dot_S8x32_S32x64_S8x64_1_0_0_1_n_n.lhsIdx_val_of_single rfl i q
/-- The right operand is read at the contraction coordinate … -/
private theorem pool_rhs_0 (i : S8x64.Idx) (q : dot_S8x32_S32x64_S8x64_1_0_0_1_n_n.contr.Idx) :
    (dot_S8x32_S32x64_S8x64_1_0_0_1_n_n.rhsIdx i q 0).val = (q ⟨0, by decide⟩).val :=
  dot_S8x32_S32x64_S8x64_1_0_0_1_n_n.rhsIdx_val_of_single rfl i q
/-- … and at the result's column. -/
private theorem pool_rhs_1 (i : S8x64.Idx) (q : dot_S8x32_S32x64_S8x64_1_0_0_1_n_n.contr.Idx) :
    (dot_S8x32_S32x64_S8x64_1_0_0_1_n_n.rhsIdx i q 1).val = (i 1).val := by
  unfold DotDims.rhsIdx
  rw [dif_neg (show ¬(1 : Fin S32x64.rank) ∈ dot_S8x32_S32x64_S8x64_1_0_0_1_n_n.rhsBatch by decide),
    dif_pos (show (1 : Fin S32x64.rank) ∈ dot_S8x32_S32x64_S8x64_1_0_0_1_n_n.rhsNonContracting by decide)]
  rfl

/-- The product into the zero accumulator, read at (g, j): Σ_k lhs (g, k) · rhs (k, j). -/
private theorem matmul_8x32_32x64_apply (a : FVec Ideal S8x32 .f32) (w : FVec Ideal S32x64 .f32) (g : Fin 8) (j : Fin 64) :
    FloatOps.matmul dot_S8x32_S32x64_S8x64_1_0_0_1_n_n none a w (constant (F := Ideal) S8x64 .f32 0x00000000#32) (ix2 g j)
      = ∑ k : Fin 32, a (ix2 g k) * w (ix2 k j) := by
  rw [Ideal.matmul_constant_zero_apply, ← Equiv.sum_comp (contrEquiv1 dot_S8x32_S32x64_S8x64_1_0_0_1_n_n 32 rfl rfl).symm]
  refine Finset.sum_congr rfl fun k _ => ?_
  have hk := contrEquiv1_symm_val dot_S8x32_S32x64_S8x64_1_0_0_1_n_n 32 rfl rfl k
  have el : dot_S8x32_S32x64_S8x64_1_0_0_1_n_n.lhsIdx (ix2 g j) ((contrEquiv1 dot_S8x32_S32x64_S8x64_1_0_0_1_n_n 32 rfl rfl).symm k)
      = ix2 g k := funext fun c => Fin.ext (by
    match c with
    | ⟨0, _⟩ => exact pool_lhs_0 _ _
    | ⟨1, _⟩ => exact (pool_lhs_1 _ _).trans hk)
  have er : dot_S8x32_S32x64_S8x64_1_0_0_1_n_n.rhsIdx (ix2 g j) ((contrEquiv1 dot_S8x32_S32x64_S8x64_1_0_0_1_n_n 32 rfl rfl).symm k)
      = ix2 k j := funext fun c => Fin.ext (by
    match c with
    | ⟨0, _⟩ => exact (pool_rhs_0 _ _).trans hk
    | ⟨1, _⟩ => exact pool_rhs_1 _ _)
  rw [el, er]

/-! ## Layout operations read at an index -/

/-- The eight 1 × 32 rows stacked along axis 0, read at (g, k): row g at (0, k). -/
private theorem stack_apply (t : Fin 8 → FVec Ideal S1x32 .f32) (g : Fin 8) (k : Fin 32) :
    concatenate S8x32 0 [⟨S1x32, t 0⟩, ⟨S1x32, t 1⟩, ⟨S1x32, t 2⟩, ⟨S1x32, t 3⟩, ⟨S1x32, t 4⟩, ⟨S1x32, t 5⟩, ⟨S1x32, t 6⟩, ⟨S1x32, t 7⟩]
        Facts₀.concatenates_S1x32_S1x32_S1x32_S1x32_S1x32_S1x32_S1x32_S1x32_S8x32_d0 (ix2 g k)
      = t g (ix2 (0 : Fin 1) k) :=
  concatenate_ofFn_unit_apply (t := S8x32) (s₁ := S1x32) 0 t
    Facts₀.concatenates_S1x32_S1x32_S1x32_S1x32_S1x32_S1x32_S1x32_S1x32_S8x32_d0 rfl rfl (ix2 g k) g rfl (ix2 (0 : Fin 1) k)
    (fun b hb => by
      match b with
      | ⟨0, _⟩ => exact absurd rfl hb
      | ⟨1, _⟩ => rfl)

/-- An [a] array cast to the column [a, 1] reads, at (i, u), the operand at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b] array cast to [a, 1, b] reads, at (i, u, j), the operand at (i, j). -/
private theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1] column broadcast to [a, b] reads, at (i, j), the column at (i, 0). -/
private theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The reduced index g of a sum along axis 1, with column k put back, is (g, k). -/
private theorem lift_row (h : S8x64.Reduces [1] S8) (g : Fin 8) (k : Fin (S8x64.size 1)) :
    h.lift (ix1 g) k = ix2 g (⟨k.val, k.isLt⟩ : Fin 64) := by
  funext c; apply Fin.ext
  match c with
  | ⟨0, _⟩ => rfl
  | ⟨1, _⟩ => rfl

/-! ## The closing stage -/

/-- The f32 word 0x44000000 is 512. -/
private theorem ofBits_512 : Ideal.ofBits .f32 0x44000000#32 = ((512 : ℝ) : EReal) := by
  simp [Ideal.ofBits, Ideal.ieee]
  rw [← EReal.coe_mul, EReal.coe_eq_coe_iff]
  norm_num

/-- The sum of squares along a row, kept as a column: at (g, 0) it is Σ_j' p (g, j') · p (g, j'). -/
private theorem sumSq_apply (p : FVec Ideal S8x64 .f32) (g : Fin 8) :
    kSumSq p (ix2 g (0 : Fin 1)) = ∑ j' : Fin 64, p (ix2 g j') * p (ix2 g j') := by
  unfold kSumSq
  refine (shapeCast_a_a1_apply _ _ g 0).trans ?_
  refine (Ideal.multiReduction_add_single (mulf p p) 0x00000000#32 Facts₀.reduces_S8x64_S8 (.inl rfl) rfl (ix1 g)).trans ?_
  show ∑ k : Fin 64, (mulf p p) (Facts₀.reduces_S8x64_S8.lift (ix1 g) k) = _
  refine Finset.sum_congr rfl fun k _ => ?_
  exact congrArg (fun i => p i * p i) (lift_row _ g k)

/-- The pooled rows on real inputs: (Σ_k t g k · W3 k j) / 512 + b3 j. -/
private theorem pooled_apply (I : Inp) (t : Fin 8 → FVec Ideal S1x32 .f32) (w3 : Vec Ideal S32x64 .f32) (b3 : Vec Ideal S1x64 .f32)
    (ht : ∀ (g : Fin 8) (k : Fin 32), t g (ix2 (0 : Fin 1) k) = ((I.tK g k : ℝ) : EReal))
    (hW3 : ∀ (k : Fin 32) (j : Fin 64), w3 (ix2 k j) = ((I.W3 k j : ℝ) : EReal))
    (hb3 : ∀ j : Fin 64, b3 (ix2 (0 : Fin 1) j) = ((I.b3 j : ℝ) : EReal)) (g : Fin 8) (j : Fin 64) :
    kPooled (F := Ideal) (t 0) (t 1) (t 2) (t 3) (t 4) (t 5) (t 6) (t 7) w3 b3 (ix2 g j) = ((I.pooledK g j : ℝ) : EReal) := by
  unfold kPooled
  simp only [addf_apply, divf_apply, broadcast_apply, matmul]
  rw [matmul_8x32_32x64_apply, shapeCast_self, broadcastTo_1b_ab_apply, hb3]
  have hs : (∑ k : Fin 32,
      concatenate S8x32 0 [⟨S1x32, t 0⟩, ⟨S1x32, t 1⟩, ⟨S1x32, t 2⟩, ⟨S1x32, t 3⟩, ⟨S1x32, t 4⟩, ⟨S1x32, t 5⟩, ⟨S1x32, t 6⟩, ⟨S1x32, t 7⟩]
        Facts₀.concatenates_S1x32_S1x32_S1x32_S1x32_S1x32_S1x32_S1x32_S1x32_S8x32_d0 (ix2 g k) * w3 (ix2 k j))
      = ((∑ k : Fin 32, I.tK g k * I.W3 k j : ℝ) : EReal) := by
    rw [coe_sum]
    refine Finset.sum_congr rfl fun k _ => ?_
    rw [stack_apply, ht, hW3, EReal.coe_mul]
  rw [hs]
  show Ideal.div _ (Ideal.ofBits .f32 0x44000000#32) + _ = _
  rw [ofBits_512, Ideal.div_coe (by norm_num), ← EReal.coe_mul, ← EReal.coe_add]
  unfold Inp.pooledK
  rw [mul_one_div]

/-- The closing stage on the 8 real rows t: stacked, multiplied by W3, divided by 512, the bias added, each row normalised. -/
theorem kOut_apply (I : Inp) (t : Fin 8 → FVec Ideal S1x32 .f32) (w3 : Vec Ideal S32x64 .f32) (b3 : Vec Ideal S1x64 .f32)
    (ht : ∀ (g : Fin 8) (k : Fin 32), t g (ix2 (0 : Fin 1) k) = ((I.tK g k : ℝ) : EReal))
    (hW3 : ∀ (k : Fin 32) (j : Fin 64), w3 (ix2 k j) = ((I.W3 k j : ℝ) : EReal))
    (hb3 : ∀ j : Fin 64, b3 (ix2 (0 : Fin 1) j) = ((I.b3 j : ℝ) : EReal)) (g : Fin 8) (j : Fin 64) :
    kNormalize (F := Ideal) (kPooled (t 0) (t 1) (t 2) (t 3) (t 4) (t 5) (t 6) (t 7) w3 b3)
        (kSumSq (kPooled (t 0) (t 1) (t 2) (t 3) (t 4) (t 5) (t 6) (t 7) w3 b3)) (ix3 g (0 : Fin 1) j)
      = tail (fun g j => ((I.pooledK g j : ℝ) : EReal)) g j := by
  have hP := pooled_apply I t w3 b3 ht hW3 hb3
  generalize kPooled (F := Ideal) (t 0) (t 1) (t 2) (t 3) (t 4) (t 5) (t 6) (t 7) w3 b3 = P at hP ⊢
  unfold kNormalize
  refine (shapeCast_ab_a1b_apply _ _ g 0 j).trans ?_
  rw [divf_apply, broadcastTo_a1_ab_apply, maximumf_apply, broadcast_apply]
  show Ideal.div (P (ix2 g j)) (max (Ideal.sqrt (kSumSq P (ix2 g (0 : Fin 1)))) (Ideal.ofBits .f32 0x2B8CBCCC#32)) = _
  rw [sumSq_apply]
  unfold tail
  simp only [hP]

end Cert.Gnn.KOps

end
-- ==== Proof.KernelIdent.lean ====
/-
  What the kernel body leaves in its output block, on real inputs: the normalised pooled rows.
  The body's stored value is the closing stage applied to the 8 graphs' rows, each the one-graph function of that graph's
  adjacency block.
-/
import proofs.«163928_g44908178047564_cont_sun_c4_353_27_alg».proof.Proof.Gen.KernelIdeal.Frame
import proofs.«163928_g44908178047564_cont_sun_c4_353_27_alg».proof.Proof.KernelOps
import proofs.«163928_g44908178047564_cont_sun_c4_353_27_alg».proof.Proof.KernelEval
import proofs.«163928_g44908178047564_cont_sun_c4_353_27_alg».proof.Proof.KernelFinal
import proofs.«163928_g44908178047564_cont_sun_c4_353_27_alg».proof.Proof.Spec
import Idealize.ShloMosaic.Lib.Pipeline.Value
import Idealize.ShloMosaic.Lib.ValueLayout

noncomputable section

open scoped BigOperators

namespace Cert.Gnn.KOps

open Idealize.ShloMosaic Idealize.ShloMosaic.ValueIdx Cert.KernelIdeal Cert.Gnn

/-! ### The adjacency block of graph g: the 1 × 512 × 512 slab at offset (g, 0, 0), its unit axis dropped -/

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- The slab of graph g lies inside the 8 × 512 × 512 block: g + 1 ≤ 8 on the first axis, the other two axes whole. -/
private theorem slab_inb (g : Fin 8) :
    ∀ a, (![g.val, 0, 0] : Fin 3 → Nat) a + S1x512x512.size a ≤ S8x512x512.size a := by
  intro a
  match a with
  | ⟨0, _⟩ => show g.val + 1 ≤ 8; omega
  | ⟨1, _⟩ => show 0 + 512 ≤ 512; omega
  | ⟨2, _⟩ => show 0 + 512 ≤ 512; omega

/-- Graph g's 512 × 512 adjacency block, read out of the stacked block. -/
private def slab {F : FTy → Type} (x0 : Vec F S8x512x512 .f32) (g : Fin 8) : FVec F S512x512 .f32 :=
  shapeCast S512x512 (View.ld x0 (Rect.unit (s := S8x512x512) ![g.val, 0, 0] S1x512x512.size (slab_inb g)))
    Gen.shapeCasts_S1x512x512_S512x512

/-- Entry (r, c) of graph g's block is entry (g, r, c) of the stack: the cast keeps the row-major position, and the
    rectangle places coordinate (0, r, c) at (g + 0, 0 + r, 0 + c). -/
private theorem slab_apply {F : FTy → Type} (x0 : Vec F S8x512x512 .f32) (g : Fin 8) (r c : Fin 512) :
    slab x0 g (ix2 r c) = x0 (ix3 g r c) := by
  unfold slab
  rw [shapeCast_1ab_ab_apply]
  show x0 _ = x0 _
  congr 1
  funext a
  apply Fin.ext
  match a with
  | ⟨0, _⟩ => show g.val + 1 * 0 = g.val; omega
  | ⟨1, _⟩ => show 0 + 1 * r.val = r.val; omega
  | ⟨2, _⟩ => show 0 + 1 * c.val = c.val; omega

/-- The output block after the body, at (g, 0, j), on blocks holding the real inputs (the three biases as 1 × n rows). -/
theorem out0_8_apply (I : Inp) (x0 : Vec Ideal S8x512x512 .f32) (x1 : Vec Ideal S512x3 .f32) (x2 : Vec Ideal S3x16 .f32)
    (x3 : Vec Ideal S1x16 .f32) (x4 : Vec Ideal S16x32 .f32) (x5 : Vec Ideal S1x32 .f32) (x6 : Vec Ideal S32x64 .f32)
    (x7 : Vec Ideal S1x64 .f32)
    (hA : ∀ (g : Fin 8) (r c : Fin 512), x0 (ix3 g r c) = ((I.A g r c : ℝ) : EReal))
    (hX : ∀ (r : Fin 512) (j : Fin 3), x1 (ix2 r j) = ((I.X r j : ℝ) : EReal))
    (hW1 : ∀ (j : Fin 3) (k : Fin 16), x2 (ix2 j k) = ((I.W1 j k : ℝ) : EReal))
    (hb1 : ∀ k : Fin 16, x3 (ix2 (0 : Fin 1) k) = ((I.b1 k : ℝ) : EReal))
    (hW2 : ∀ (j : Fin 16) (k : Fin 32), x4 (ix2 j k) = ((I.W2 j k : ℝ) : EReal))
    (hb2 : ∀ k : Fin 32, x5 (ix2 (0 : Fin 1) k) = ((I.b2 k : ℝ) : EReal))
    (hW3 : ∀ (k : Fin 32) (j : Fin 64), x6 (ix2 k j) = ((I.W3 k j : ℝ) : EReal))
    (hb3 : ∀ j : Fin 64, x7 (ix2 (0 : Fin 1) j) = ((I.b3 j : ℝ) : EReal)) (g : Fin 8) (j : Fin 64) :
    Cert.KernelIdeal.Gen.out0_8 (F := Ideal) x0 x1 x2 x3 x4 x5 x6 x7 (ix3 g (0 : Fin 1) j)
      = tail (fun g j => ((I.pooledK g j : ℝ) : EReal)) g j := by
  -- the one store covers the whole output block: the block is the store's payload
  unfold Gen.out0_8
  rw [View.canon_unit_zero (S := S8x1x64) zeros3 Gen.inb_S8x1x64_S8x1x64_0_0_0]
  -- the stored value is the closing stage applied to the 8 graphs' rows t, each the one-graph function of that graph's
  -- slab: both sides are compositions of the same operations in the same order, so they agree by unfolding definitions
  show kNormalize
      (kPooled (kGraphT (slab x0 0) (kY0 (View.ld x1 Gen.r0_0) (View.ld x2 Gen.r0_1)) (View.ld x3 Gen.r0_10) (View.ld x4 Gen.r0_11) (View.ld x5 Gen.r0_12))
        (kGraphT (slab x0 1) (kY0 (View.ld x1 Gen.r0_0) (View.ld x2 Gen.r0_1)) (View.ld x3 Gen.r0_10) (View.ld x4 Gen.r0_11) (View.ld x5 Gen.r0_12))
        (kGraphT (slab x0 2) (kY0 (View.ld x1 Gen.r0_0) (View.ld x2 Gen.r0_1)) (View.ld x3 Gen.r0_10) (View.ld x4 Gen.r0_11) (View.ld x5 Gen.r0_12))
        (kGraphT (slab x0 3) (kY0 (View.ld x1 Gen.r0_0) (View.ld x2 Gen.r0_1)) (View.ld x3 Gen.r0_10) (View.ld x4 Gen.r0_11) (View.ld x5 Gen.r0_12))
        (kGraphT (slab x0 4) (kY0 (View.ld x1 Gen.r0_0) (View.ld x2 Gen.r0_1)) (View.ld x3 Gen.r0_10) (View.ld x4 Gen.r0_11) (View.ld x5 Gen.r0_12))
        (kGraphT (slab x0 5) (kY0 (View.ld x1 Gen.r0_0) (View.ld x2 Gen.r0_1)) (View.ld x3 Gen.r0_10) (View.ld x4 Gen.r0_11) (View.ld x5 Gen.r0_12))
        (kGraphT (slab x0 6) (kY0 (View.ld x1 Gen.r0_0) (View.ld x2 Gen.r0_1)) (View.ld x3 Gen.r0_10) (View.ld x4 Gen.r0_11) (View.ld x5 Gen.r0_12))
        (kGraphT (slab x0 7) (kY0 (View.ld x1 Gen.r0_0) (View.ld x2 Gen.r0_1)) (View.ld x3 Gen.r0_10) (View.ld x4 Gen.r0_11) (View.ld x5 Gen.r0_12))
        (View.ld x6 Gen.r0_13) (View.ld x7 Gen.r0_14))
      (kSumSq (kPooled (kGraphT (slab x0 0) (kY0 (View.ld x1 Gen.r0_0) (View.ld x2 Gen.r0_1)) (View.ld x3 Gen.r0_10) (View.ld x4 Gen.r0_11) (View.ld x5 Gen.r0_12))
        (kGraphT (slab x0 1) (kY0 (View.ld x1 Gen.r0_0) (View.ld x2 Gen.r0_1)) (View.ld x3 Gen.r0_10) (View.ld x4 Gen.r0_11) (View.ld x5 Gen.r0_12))
        (kGraphT (slab x0 2) (kY0 (View.ld x1 Gen.r0_0) (View.ld x2 Gen.r0_1)) (View.ld x3 Gen.r0_10) (View.ld x4 Gen.r0_11) (View.ld x5 Gen.r0_12))
        (kGraphT (slab x0 3) (kY0 (View.ld x1 Gen.r0_0) (View.ld x2 Gen.r0_1)) (View.ld x3 Gen.r0_10) (View.ld x4 Gen.r0_11) (View.ld x5 Gen.r0_12))
        (kGraphT (slab x0 4) (kY0 (View.ld x1 Gen.r0_0) (View.ld x2 Gen.r0_1)) (View.ld x3 Gen.r0_10) (View.ld x4 Gen.r0_11) (View.ld x5 Gen.r0_12))
        (kGraphT (slab x0 5) (kY0 (View.ld x1 Gen.r0_0) (View.ld x2 Gen.r0_1)) (View.ld x3 Gen.r0_10) (View.ld x4 Gen.r0_11) (View.ld x5 Gen.r0_12))
        (kGraphT (slab x0 6) (kY0 (View.ld x1 Gen.r0_0) (View.ld x2 Gen.r0_1)) (View.ld x3 Gen.r0_10) (View.ld x4 Gen.r0_11) (View.ld x5 Gen.r0_12))
        (kGraphT (slab x0 7) (kY0 (View.ld x1 Gen.r0_0) (View.ld x2 Gen.r0_1)) (View.ld x3 Gen.r0_10) (View.ld x4 Gen.r0_11) (View.ld x5 Gen.r0_12))
        (View.ld x6 Gen.r0_13) (View.ld x7 Gen.r0_14))) (ix3 g (0 : Fin 1) j) = _
  -- a load of a whole block through the unit rectangle at offset zero reads the block
  have e1 : View.ld x1 Gen.r0_0 = x1 := View.ld_unit_zero (S := S512x3) zeros2 Gen.inb_S512x3_S512x3_0_0 x1
  have e2 : View.ld x2 Gen.r0_1 = x2 := View.ld_unit_zero (S := S3x16) zeros2 Gen.inb_S3x16_S3x16_0_0 x2
  have e3 : View.ld x3 Gen.r0_10 = x3 := View.ld_unit_zero (S := S1x16) zeros2 Gen.inb_S1x16_S1x16_0_0 x3
  have e4 : View.ld x4 Gen.r0_11 = x4 := View.ld_unit_zero (S := S16x32) zeros2 Gen.inb_S16x32_S16x32_0_0 x4
  have e5 : View.ld x5 Gen.r0_12 = x5 := View.ld_unit_zero (S := S1x32) zeros2 Gen.inb_S1x32_S1x32_0_0 x5
  have e6 : View.ld x6 Gen.r0_13 = x6 := View.ld_unit_zero (S := S32x64) zeros2 Gen.inb_S32x64_S32x64_0_0 x6
  have e7 : View.ld x7 Gen.r0_14 = x7 := View.ld_unit_zero (S := S1x64) zeros2 Gen.inb_S1x64_S1x64_0_0 x7
  rw [e1, e2, e3, e4, e5, e6, e7]
  -- each graph's row t is the real one (its slab holds that graph's adjacency, the first product the real y0), and the
  -- closing stage on real rows is the normalised pooled row
  exact kOut_apply I (fun g => kGraphT (slab x0 g) (kY0 x1 x2) x3 x4 x5) x6 x7
    (fun g k => kGraphT_apply I g (slab x0 g) (kY0 x1 x2) x3 x4 x5
      (fun r c => (slab_apply x0 g r c).trans (hA g r c)) (kY0_apply I x1 x2 hX hW1) hb1 hW2 hb2 k)
    hW3 hb3 g j

end Cert.Gnn.KOps

end
-- ==== Proof.KernelRun.lean ====
/-
  The idealized kernel program's run with its result named: the output block of the one grid point, re-laid by the
  host as 8 × 64, as a function of the argument arrays (the three biases enter the body as 1 × n rows).
-/
import proofs.«163928_g44908178047564_cont_sun_c4_353_27_alg».proof.Proof.Gen.KernelIdeal.Frame
import Idealize.ShloMosaic.Lib.Pipeline.Value
import Idealize.ShloMosaic.Lib.ValueLayout
import Idealize.ShloMosaic.Lib.StableHlo.Run
import Idealize.ShloMosaic.PureOps.Ideal

noncomputable section

open scoped BigOperators

namespace Cert.Gnn.KRun

open Idealize.ShloMosaic Idealize.ShloMosaic.ValueIdx Idealize.ShloMosaic.TcCoe Idealize.SL.Sem Cert.KernelIdeal Cert.KernelIdeal.Gen

/-- A vector read as a 1 × n row. -/
def row1 {n : Nat} (x : (⟨1, ![n]⟩ : Shape).Idx → EReal) : (⟨2, ![1, n]⟩ : Shape).Idx → EReal :=
  fun i => x (ix1 ⟨(i 1).val, (i 1).isLt⟩)

/-- The program's result as a function of its eight argument arrays, at (g, j): the body's output block at (g, 0, j), the
    body fed the arguments as its blocks. -/
def kRes (x0 : Vec Ideal S8x512x512 .f32) (x1 : Vec Ideal S512x3 .f32) (x2 : Vec Ideal S3x16 .f32) (x3 : Vec Ideal S16 .f32)
    (x4 : Vec Ideal S16x32 .f32) (x5 : Vec Ideal S32 .f32) (x6 : Vec Ideal S32x64 .f32) (x7 : Vec Ideal S64 .f32) :
    S8x64.Idx → EReal :=
  fun i => Cert.KernelIdeal.Gen.out0_8 (F := Ideal) x0 x1 x2 (row1 x3) x4 (row1 x5) x6 (row1 x7)
    (ix3 ⟨(i 0).val, (i 0).isLt⟩ (0 : Fin 1) ⟨(i 1).val, (i 1).isLt⟩)

variable (m : (ℓ : Loc nD τ sig) → Buf (Elt Ideal) ℓ) (ρ : Dev nD → PrngReg)

/-! ### The one grid point -/

/-- The grid's point. -/
abbrev t0 : Fin cfg0.N := ⟨0, by decide⟩

/-! ### Each input block is the whole array

The grid has one point and every index map sends it to block 0, whose extent is the array's: the block read through
zero offsets is the array. -/

theorem iblk0 (c : Dev nD) (t : Fin cfg0.N) : (iblk m c 0 t : Vec Ideal S8x512x512 .f32) = V m c main_arg0 := by
  unfold iblk
  have hz' : (fun a => win0_0.index t a * main_arg0.ty.shape.size a) = fun _ => 0 :=
    funext fun a => (by decide +kernel : ∀ (t : Fin grid0.N) a, win0_0.index t a * main_arg0.ty.shape.size a = 0) t a
  exact Memref.read_access_unit_zero (Elt Ideal) main_arg0 hz' (fun a => by rw [congrFun hz' a]; simp) (V m c main_arg0)

theorem iblk1 (c : Dev nD) (t : Fin cfg0.N) : (iblk m c 1 t : Vec Ideal S512x3 .f32) = V m c main_arg1 := by
  unfold iblk
  have hz' : (fun a => win0_1.index t a * main_arg1.ty.shape.size a) = fun _ => 0 :=
    funext fun a => (by decide +kernel : ∀ (t : Fin grid0.N) a, win0_1.index t a * main_arg1.ty.shape.size a = 0) t a
  exact Memref.read_access_unit_zero (Elt Ideal) main_arg1 hz' (fun a => by rw [congrFun hz' a]; simp) (V m c main_arg1)

theorem iblk2 (c : Dev nD) (t : Fin cfg0.N) : (iblk m c 2 t : Vec Ideal S3x16 .f32) = V m c main_arg2 := by
  unfold iblk
  have hz' : (fun a => win0_2.index t a * main_arg2.ty.shape.size a) = fun _ => 0 :=
    funext fun a => (by decide +kernel : ∀ (t : Fin grid0.N) a, win0_2.index t a * main_arg2.ty.shape.size a = 0) t a
  exact Memref.read_access_unit_zero (Elt Ideal) main_arg2 hz' (fun a => by rw [congrFun hz' a]; simp) (V m c main_arg2)

theorem iblk3 (c : Dev nD) (t : Fin cfg0.N) : (iblk m c 3 t : Vec Ideal S1x16 .f32) = V m c main_call0_v0 := by
  unfold iblk
  have hz' : (fun a => win0_3.index t a * main_call0_v0.ty.shape.size a) = fun _ => 0 :=
    funext fun a => (by decide +kernel : ∀ (t : Fin grid0.N) a, win0_3.index t a * main_call0_v0.ty.shape.size a = 0) t a
  exact Memref.read_access_unit_zero (Elt Ideal) main_call0_v0 hz' (fun a => by rw [congrFun hz' a]; simp) (V m c main_call0_v0)

theorem iblk4 (c : Dev nD) (t : Fin cfg0.N) : (iblk m c 4 t : Vec Ideal S16x32 .f32) = V m c main_arg4 := by
  unfold iblk
  have hz' : (fun a => win0_4.index t a * main_arg4.ty.shape.size a) = fun _ => 0 :=
    funext fun a => (by decide +kernel : ∀ (t : Fin grid0.N) a, win0_4.index t a * main_arg4.ty.shape.size a = 0) t a
  exact Memref.read_access_unit_zero (Elt Ideal) main_arg4 hz' (fun a => by rw [congrFun hz' a]; simp) (V m c main_arg4)

theorem iblk5 (c : Dev nD) (t : Fin cfg0.N) : (iblk m c 5 t : Vec Ideal S1x32 .f32) = V m c main_call0_v1 := by
  unfold iblk
  have hz' : (fun a => win0_5.index t a * main_call0_v1.ty.shape.size a) = fun _ => 0 :=
    funext fun a => (by decide +kernel : ∀ (t : Fin grid0.N) a, win0_5.index t a * main_call0_v1.ty.shape.size a = 0) t a
  exact Memref.read_access_unit_zero (Elt Ideal) main_call0_v1 hz' (fun a => by rw [congrFun hz' a]; simp) (V m c main_call0_v1)

theorem iblk6 (c : Dev nD) (t : Fin cfg0.N) : (iblk m c 6 t : Vec Ideal S32x64 .f32) = V m c main_arg6 := by
  unfold iblk
  have hz' : (fun a => win0_6.index t a * main_arg6.ty.shape.size a) = fun _ => 0 :=
    funext fun a => (by decide +kernel : ∀ (t : Fin grid0.N) a, win0_6.index t a * main_arg6.ty.shape.size a = 0) t a
  exact Memref.read_access_unit_zero (Elt Ideal) main_arg6 hz' (fun a => by rw [congrFun hz' a]; simp) (V m c main_arg6)

theorem iblk7 (c : Dev nD) (t : Fin cfg0.N) : (iblk m c 7 t : Vec Ideal S1x64 .f32) = V m c main_call0_v2 := by
  unfold iblk
  have hz' : (fun a => win0_7.index t a * main_call0_v2.ty.shape.size a) = fun _ => 0 :=
    funext fun a => (by decide +kernel : ∀ (t : Fin grid0.N) a, win0_7.index t a * main_call0_v2.ty.shape.size a = 0) t a
  exact Memref.read_access_unit_zero (Elt Ideal) main_call0_v2 hz' (fun a => by rw [congrFun hz' a]; simp) (V m c main_call0_v2)

/-! ### The three biases as rows

Before the region the host re-lays each bias vector of length n as a 1 × n array: entry (0, k) is entry k. -/

theorem row1_apply {n : Nat} (x : (⟨1, ![n]⟩ : Shape).Idx → EReal) (u : Fin 1) (k : Fin n) : row1 x (ix2 u k) = x (ix1 k) := rfl

theorem V_b1 (c : Dev nD) : (V m c main_call0_v0 : S1x16.Idx → EReal) = row1 (m ((c.tc : Thread nD τ).loc main_arg3)) := by
  have e : (V m c main_call0_v0 : S1x16.Idx → EReal)
      = shapeCast S1x16 (m ((c.tc : Thread nD τ).loc main_arg3) : S16.Idx → EReal) shapeCasts_S16_S1x16 := by
    show StableHlo.after hostOps0 (fun b => m (c, b)) (Proc.devRef .tc main_call0_v0) = _
    after_results
    rfl
  rw [e]
  funext i
  obtain ⟨u, k, rfl⟩ : ∃ (u : Fin 1) (k : Fin 16), i = ix2 u k := ⟨i 0, i 1, eq_ix2 i⟩
  exact shapeCast_a_1a_apply _ _ u k

theorem V_b2 (c : Dev nD) : (V m c main_call0_v1 : S1x32.Idx → EReal) = row1 (m ((c.tc : Thread nD τ).loc main_arg5)) := by
  have e : (V m c main_call0_v1 : S1x32.Idx → EReal)
      = shapeCast S1x32 (m ((c.tc : Thread nD τ).loc main_arg5) : S32.Idx → EReal) shapeCasts_S32_S1x32 := by
    show StableHlo.after hostOps0 (fun b => m (c, b)) (Proc.devRef .tc main_call0_v1) = _
    after_results
    rfl
  rw [e]
  funext i
  obtain ⟨u, k, rfl⟩ : ∃ (u : Fin 1) (k : Fin 32), i = ix2 u k := ⟨i 0, i 1, eq_ix2 i⟩
  exact shapeCast_a_1a_apply _ _ u k

theorem V_b3 (c : Dev nD) : (V m c main_call0_v2 : S1x64.Idx → EReal) = row1 (m ((c.tc : Thread nD τ).loc main_arg7)) := by
  have e : (V m c main_call0_v2 : S1x64.Idx → EReal)
      = shapeCast S1x64 (m ((c.tc : Thread nD τ).loc main_arg7) : S64.Idx → EReal) shapeCasts_S64_S1x64 := by
    show StableHlo.after hostOps0 (fun b => m (c, b)) (Proc.devRef .tc main_call0_v2) = _
    after_results
    rfl
  rw [e]
  funext i
  obtain ⟨u, k, rfl⟩ : ∃ (u : Fin 1) (k : Fin 64), i = ix2 u k := ⟨i 0, i 1, eq_ix2 i⟩
  exact shapeCast_a_1a_apply _ _ u k

/-! ### The output array after the region -/

/-- The body's output block of the arrays as the region finds them. -/
def G (c : Dev nD) : Vec Ideal S8x1x64 .f32 :=
  out0_8 (F := Ideal) (V m c main_arg0) (V m c main_arg1) (V m c main_arg2) (V m c main_call0_v0) (V m c main_arg4) (V m c main_call0_v1)
    (V m c main_arg6) (V m c main_call0_v2)

/-- What the one point writes back is the whole of G. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8, iblk0, iblk1, iblk2, iblk3, iblk4, iblk5, iblk6, iblk7]
  have hz' : (fun a => win0_8.index t a * main_call0_v3.ty.shape.size a) = fun _ => 0 :=
    funext fun a => (by decide +kernel : ∀ (t : Fin grid0.N) a, win0_8.index t a * main_call0_v3.ty.shape.size a = 0) t a
  exact (Memref.read_access_unit_zero (Elt Ideal) main_call0_v3 hz' (fun a => by rw [congrFun hz' a]; simp) (G m c)).symm

/-- The one point's block covers the output array, so the array ends holding G. -/
theorem final (c : Dev nD) : (dats m 0 c).arrAt 8 cfg0.N = G m c :=
  (dats m 0 c).arrAt_eq_of_cover 8 (G m c) (fun t _ => flushed_eq m c t) fun i =>
    ⟨t0, flush0_8 t0, by
      show i ∈ ((View.whole main_call0_v3).slice (win0_8.rect t0)).set
      rw [View.set_slice_whole, Rect.mem_set_unit]
      intro a
      have h0 : (i 0 : Nat) < 8 := (i 0).isLt
      have h1 : (i 1 : Nat) < 1 := (i 1).isLt
      have h2 : (i 2 : Nat) < 64 := (i 2).isLt
      match a with
      | ⟨0, _⟩ =>
        show win0_8.index t0 0 * win0_8.size 0 ≤ (i 0 : Nat) ∧ (i 0 : Nat) < win0_8.index t0 0 * win0_8.size 0 + win0_8.xsize (grid0.coords t0) 0
        rw [show win0_8.index t0 0 * win0_8.size 0 = 0 from by decide +kernel, show win0_8.xsize (grid0.coords t0) 0 = 8 from by decide +kernel]
        omega
      | ⟨1, _⟩ =>
        show win0_8.index t0 1 * win0_8.size 1 ≤ (i 1 : Nat) ∧ (i 1 : Nat) < win0_8.index t0 1 * win0_8.size 1 + win0_8.xsize (grid0.coords t0) 1
        rw [show win0_8.index t0 1 * win0_8.size 1 = 0 from by decide +kernel, show win0_8.xsize (grid0.coords t0) 1 = 1 from by decide +kernel]
        omega
      | ⟨2, _⟩ =>
        show win0_8.index t0 2 * win0_8.size 2 ≤ (i 2 : Nat) ∧ (i 2 : Nat) < win0_8.index t0 2 * win0_8.size 2 + win0_8.xsize (grid0.coords t0) 2
        rw [show win0_8.index t0 2 * win0_8.size 2 = 0 from by decide +kernel, show win0_8.xsize (grid0.coords t0) 2 = 64 from by decide +kernel]
        omega⟩

/-- G over the argument arrays themselves: no host operation before the region writes an argument, and the three
    re-laid biases are rows of theirs. -/
theorem G_eq (c : Dev nD) :
    G m c = out0_8 (F := Ideal) (m ((c.tc : Thread nD τ).loc main_arg0)) (m ((c.tc : Thread nD τ).loc main_arg1))
      (m ((c.tc : Thread nD τ).loc main_arg2)) (row1 (m ((c.tc : Thread nD τ).loc main_arg3))) (m ((c.tc : Thread nD τ).loc main_arg4))
      (row1 (m ((c.tc : Thread nD τ).loc main_arg5))) (m ((c.tc : Thread nD τ).loc main_arg6)) (row1 (m ((c.tc : Thread nD τ).loc main_arg7))) := by
  unfold G
  rw [V_main_arg0, V_main_arg1, V_main_arg2, V_main_arg4, V_main_arg6, V_b1, V_b2, V_b3]

/-! ### The host's re-laying after the region -/

/-- An 8 × 1 × 64 array re-laid as 8 × 64 reads, at (g, j), the operand at (g, 0, j): the row-major positions agree. -/
theorem relay_apply (x : S8x1x64.Idx → EReal) (g : Fin 8) (j : Fin 64) :
    shapeCast S8x64 x shapeCasts_S8x1x64_S8x64 (ix2 g j) = x (ix3 g (0 : Fin 1) j) :=
  shapeCast_apply x shapeCasts_S8x1x64_S8x64 _ _ (by
    rw [Shape.rowMajor_val_three, Shape.rowMajor_val_two]
    show (g.val * 1 + 0) * 64 + j.val = g.val * 64 + j.val
    omega)

/-- The result array after the host's last operation: the output array after the region, re-laid. -/
theorem tail_eq (c : Dev nD) :
    (Pipeline.afterTail₀ cfgs (dats m) 0 (V0 m) [hostOps1] c main_v0 : S8x64.Idx → EReal)
      = shapeCast S8x64 (G m c) shapeCasts_S8x1x64_S8x64 := by
  have hw := (Pipeline.withArrays_arr spec0 launch0.win.arr_inj c (V0 m c) (fun w => (dats m 0 c).arrAt w cfg0.N) 8).trans (final m c)
  refine Eq.trans ?_ (congrArg (fun x : S8x1x64.Idx → EReal => shapeCast S8x64 x shapeCasts_S8x1x64_S8x64) hw)
  unfold Pipeline.afterTail₀
  show StableHlo.after hostOps1 _ (Proc.devRef .tc main_v0) = _
  after_results
  rfl

/-- The result array is kRes of the arguments. -/
theorem res_eq (c : Dev nD) :
    (Pipeline.afterTail₀ cfgs (dats m) 0 (V0 m) [hostOps1] c main_v0 : S8x64.Idx → EReal)
      = kRes (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) := by
  rw [tail_eq, G_eq]
  funext i
  obtain ⟨g, j, rfl⟩ : ∃ (g : Fin 8) (j : Fin 64), i = ix2 g j := ⟨i 0, i 1, eq_ix2 i⟩
  exact relay_apply _ g j

/-! ### The run, read -/

/-- Every weakly fair execution of the idealized kernel program terminates with its result at kRes of the argument arrays
    and the arguments unchanged. -/
theorem run :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v0)
        = kRes (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v0 (Pipeline.mem_restRefs_of main_v0 (by decide) (by decide))).trans (res_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c))⟩)
    (run_main m ρ)

end Cert.Gnn.KRun

end
-- ==== Proof.EdgeSum.lean ====
/-
  The edge list of the batched graph, as index arithmetic.

  The 8 graphs of 512 nodes are laid out as 4096 nodes, node (g, c) at g·512 + c. The edge list has
  8·512·512 grid edges followed by 4096 self loops: grid edge g·262144 + r·512 + c goes from node (g, r) to
  node (g, c); loop 2097152 + n goes from node n to itself. A sum over the edges that end at node (g, c) is a sum
  over r of the grid edges (g, r, c), plus the loop at that node; a sum over the nodes of graph g is a sum over c.
-/
import Mathlib.Algebra.BigOperators.Fin
import Mathlib.Algebra.BigOperators.Ring.Finset
import Mathlib.Data.Fintype.BigOperators

open scoped BigOperators

namespace Cert.Gnn

/-- The source node of edge e. -/
def rowOf (e : Fin 2101248) : ℕ :=
  if e.val < 2097152 then e.val / 262144 * 512 + e.val % 262144 / 512 else e.val - 2097152
/-- The target node of edge e. -/
def colOf (e : Fin 2101248) : ℕ :=
  if e.val < 2097152 then e.val / 262144 * 512 + e.val % 512 else e.val - 2097152

/-- Node c of graph g. -/
def node (g : Fin 8) (c : Fin 512) : Fin 4096 := ⟨g.val * 512 + c.val, by have := g.isLt; have := c.isLt; omega⟩
/-- The grid edge r → c of graph g. -/
def edge (g : Fin 8) (r c : Fin 512) : Fin 2101248 :=
  ⟨g.val * 262144 + r.val * 512 + c.val, by have := g.isLt; have := r.isLt; have := c.isLt; omega⟩
/-- The self loop at node n. -/
def loop (n : Fin 4096) : Fin 2101248 := ⟨2097152 + n.val, by have := n.isLt; omega⟩

theorem rowOf_lt (e : Fin 2101248) : rowOf e < 4096 := by
  have := e.isLt
  unfold rowOf
  split <;> omega
theorem colOf_lt (e : Fin 2101248) : colOf e < 4096 := by
  have := e.isLt
  unfold colOf
  split <;> omega
theorem rowOf_edge (g : Fin 8) (r c : Fin 512) : rowOf (edge g r c) = (node g r).val := by
  have := g.isLt; have := r.isLt; have := c.isLt
  unfold rowOf edge node
  simp only
  split <;> omega
theorem colOf_edge (g : Fin 8) (r c : Fin 512) : colOf (edge g r c) = (node g c).val := by
  have := g.isLt; have := r.isLt; have := c.isLt
  unfold colOf edge node
  simp only
  split <;> omega
theorem rowOf_loop (n : Fin 4096) : rowOf (loop n) = n.val := by
  have := n.isLt
  unfold rowOf loop
  simp only
  split <;> omega
theorem colOf_loop (n : Fin 4096) : colOf (loop n) = n.val := by
  have := n.isLt
  unfold colOf loop
  simp only
  split <;> omega
theorem edge_lt (g : Fin 8) (r c : Fin 512) : (edge g r c).val < 2097152 := by
  have := g.isLt; have := r.isLt; have := c.isLt
  unfold edge
  simp only
  omega
theorem edge_div (g : Fin 8) (r c : Fin 512) : (edge g r c).val / 262144 = g.val := by
  have := g.isLt; have := r.isLt; have := c.isLt
  unfold edge
  simp only
  omega
theorem edge_mid (g : Fin 8) (r c : Fin 512) : (edge g r c).val % 262144 / 512 = r.val := by
  have := g.isLt; have := r.isLt; have := c.isLt
  unfold edge
  simp only
  omega
theorem edge_mod (g : Fin 8) (r c : Fin 512) : (edge g r c).val % 512 = c.val := by
  have := g.isLt; have := r.isLt; have := c.isLt
  unfold edge
  simp only
  omega
theorem loop_ge (n : Fin 4096) : ¬ (loop n).val < 2097152 := by
  unfold loop
  simp only
  omega
theorem loop_sub (n : Fin 4096) : (loop n).val - 2097152 = n.val := by
  unfold loop
  simp only
  omega

/-- A sum over the edges that end at node (g, c): the grid edges (g, r, c) over all r, and the loop there. -/
theorem edge_sum {M : Type*} [AddCommMonoid M] (f : Fin 2101248 → M) (g : Fin 8) (c : Fin 512) :
    (∑ e : Fin 2101248, if colOf e = (node g c).val then f e else 0)
      = (∑ r : Fin 512, f (edge g r c)) + f (loop (node g c)) := by
  classical
  -- The edges that end at node (g, c) are exactly the grid edges (g, r, c), r < 512, and the loop at (g, c).
  have hS : (Finset.univ.filter (fun e : Fin 2101248 => colOf e = (node g c).val))
      = (Finset.univ.image (fun r : Fin 512 => edge g r c)) ∪ {loop (node g c)} := by
    ext e
    simp only [Finset.mem_filter, Finset.mem_univ, true_and, Finset.mem_union, Finset.mem_image,
      Finset.mem_singleton]
    constructor
    · intro h
      have hg := g.isLt
      have hc := c.isLt
      have he := e.isLt
      by_cases hlt : e.val < 2097152
      · -- a grid edge: its row index is the middle digit of e
        left
        refine ⟨⟨e.val % 262144 / 512, by omega⟩, ?_⟩
        apply Fin.ext
        unfold colOf node at h
        simp only [hlt, if_true] at h
        unfold edge
        simp only
        omega
      · -- a loop: e is 2097152 + the node
        right
        apply Fin.ext
        unfold colOf node at h
        simp only [hlt, if_false] at h
        unfold loop node
        simp only
        omega
    · rintro (⟨r, rfl⟩ | rfl)
      · exact colOf_edge g r c
      · exact colOf_loop _
  -- r ↦ edge g r c is injective (the middle digit recovers r)
  have hinj : Function.Injective (fun r : Fin 512 => edge g r c) := by
    intro r r' h
    have h1 := edge_mid g r c
    have h2 := edge_mid g r' c
    simp only at h
    rw [h] at h1
    exact Fin.ext (h1.symm.trans h2)
  -- the loop is not a grid edge (it lies past all of them)
  have hdisj : Disjoint (Finset.univ.image (fun r : Fin 512 => edge g r c)) {loop (node g c)} := by
    rw [Finset.disjoint_singleton_right]
    simp only [Finset.mem_image, Finset.mem_univ, true_and, not_exists]
    intro r h
    have h1 := edge_lt g r c
    rw [h] at h1
    exact loop_ge _ h1
  rw [← Finset.sum_filter, hS, Finset.sum_union hdisj, Finset.sum_image (fun a _ b _ h => hinj h),
    Finset.sum_singleton]

/-- A sum over the nodes of graph g. -/
theorem pool_sum {M : Type*} [AddCommMonoid M] (f : Fin 4096 → M) (g : Fin 8) :
    (∑ n : Fin 4096, if n.val / 512 = g.val then f n else 0) = ∑ c : Fin 512, f (node g c) := by
  classical
  -- The nodes of graph g are exactly the nodes (g, c), c < 512.
  have hS : (Finset.univ.filter (fun n : Fin 4096 => n.val / 512 = g.val))
      = Finset.univ.image (fun c : Fin 512 => node g c) := by
    ext n
    simp only [Finset.mem_filter, Finset.mem_univ, true_and, Finset.mem_image]
    constructor
    · intro h
      have hn := n.isLt
      refine ⟨⟨n.val % 512, by omega⟩, ?_⟩
      apply Fin.ext
      unfold node
      simp only
      omega
    · rintro ⟨c, rfl⟩
      have hc := c.isLt
      unfold node
      simp only
      omega
  -- c ↦ node g c is injective
  have hinj : Function.Injective (fun c : Fin 512 => node g c) := by
    intro c c' h
    have h' := congrArg Fin.val h
    unfold node at h'
    simp only at h'
    exact Fin.ext (by omega)
  rw [← Finset.sum_filter, hS, Finset.sum_image (fun a _ b _ h => hinj h)]

end Cert.Gnn
-- ==== Proof.LibGather.lean ====
/-
  Gathering whole rows of a matrix, read at one element.

  The operand is an N × C matrix x, the start indices an n × 1 column idx, and the result an n × C
  matrix.  With the dimension numbers of a row lookup (operand axis 0 collapsed and start-indexed,
  operand axis 1 carried whole as the result's offset axis 1, slice sizes 1 × C, the index vector
  on axis 1 of the start indices), the result at (e, q) is x at (r, q), where r is the start index
  idx (e, 0) read as a signed integer and clamped into [0, N − 1]: a negative index reads row 0,
  an index past the end reads the last row.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx

theorem gather_rows_apply {α : Type} {N C n w : Nat}
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (e : Fin n) (q : Fin C) (hN : 0 < N) :
    Host.gather d x idx (ix2 e q) = x (ix2 (⟨min (idx (ix2 e (0 : Fin 1))).toInt.toNat (N - 1), by omega⟩ : Fin N) q) := by
  unfold Host.gather
  congr 1
  funext a
  apply Fin.ext
  -- no operand axis is a batching axis
  have hb : ∀ a : Fin 2, a ∉ d.operandBatchingDims := fun a => by rw [hob]; exact List.not_mem_nil
  -- the result's only offset axis is axis 1, its only batch axis is axis 0
  have hoffm : ∀ z ∈ d.offsetDims, z = 1 := fun z hz => by rw [hoff] at hz; exact List.mem_singleton.1 hz
  have hbatm : ∀ z ∈ d.batchDims, z = 0 := fun z hz => by
    have hz' : z ∉ d.offsetDims := by simpa using (List.mem_filter.1 hz).2
    rw [hoff] at hz'
    match z with
    | ⟨0, _⟩ => rfl
    | ⟨1, _⟩ => exact absurd (List.mem_singleton.2 rfl) hz'
  match a with
  | ⟨0, _⟩ =>
    -- axis 0: collapsed and start-indexed; the operand coordinate is the clamped start index alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    have hsi : d.siIdx (ix2 e q) ⟨d.startIndexMap.idxOf (0 : Fin 2), List.idxOf_lt_length_iff.2 hm⟩ = ix2 e (0 : Fin 1) := by
      funext b
      apply Fin.ext
      match b with
      | ⟨0, _⟩ =>
        unfold GatherDims.siIdx
        rw [dif_neg (by rw [hivd]; simp)]
        unfold GatherDims.siCoord
        simp only [Fin.val_cast]
        rw [hbatm _ (List.getElem_mem _)]
        rfl
      | ⟨1, _⟩ =>
        unfold GatherDims.siIdx
        rw [dif_pos (by rw [hivd])]
        show List.idxOf (0 : Fin 2) d.startIndexMap = 0
        rw [hsim]; simp
    rw [hsi]
    show min (idx (ix2 e (0 : Fin 1))).toInt.toNat (N - d.sliceSizes 0) = _
    rw [hsl]
  | ⟨1, _⟩ =>
    -- axis 1: an offset axis carried whole; the operand coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1), Nat.add_zero]
    unfold GatherDims.start
    rw [dif_neg hm, Nat.zero_add]
    unfold GatherDims.offCoord
    rw [dif_pos hk, hoffm _ (List.getElem_mem _)]
    rfl

end Cert.LibGather

end
-- ==== Proof.LibIndexed.lean ====
/-
  Indexed host operations read at one element, at the exact-real instance: the accumulating scatter (jnp's
  `segment_sum` / `.at[idx].add`) of rows and of scalars, and the gather of whole rows (`h[idx]`). Stated for any
  extents, over dimension numbers given by their printed lists.
-/
import proofs.«163928_g44908178047564_cont_sun_c4_353_27_alg».proof.Proof.LibGather
import Idealize.ShloMosaic.PureOps.Ideal
import Idealize.ShloMosaic.Lib.ValueIdx
import Idealize.ShloMosaic.Lib.ValueIdxRank1
import Idealize.ShloMosaic.Lib.StableHlo.Predicate
import Idealize.ShloMosaic.Lib.Pipeline.Value

noncomputable section

open scoped BigOperators

namespace Cert.LibIndexed

open Idealize.ShloMosaic Idealize.ShloMosaic.ValueIdx

section Rows

variable {N C n w : Nat} (d : ScatterDims ⟨2, ![N, C]⟩ ⟨2, ![n, 1]⟩ ⟨2, ![n, C]⟩)
  (huw : d.updateWindowDims = [1]) (hiw : d.insertedWindowDims = [0]) (hsd : d.scatterDimsToOperandDims = [0])
  (hiv : d.indexVectorDim = 1) (idx : IVec ⟨2, ![n, 1]⟩ w) (e : Fin n) (q' : Fin C)

include huw hiw hsd hiv

/-- On the row axis the window of update (e, q') starts at the e-th start index, read signed. -/
theorem rows_start0 : d.start (ix2 e q') idx 0 = (idx (ix2 e (0 : Fin 1))).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- On the column axis it starts at 0. -/
theorem rows_start1 : d.start (ix2 e q') idx 1 = 0 := by
  obtain ⟨uw, iw, sd, iv, wf⟩ := d
  simp only at huw hiw hsd hiv
  subst huw hiw hsd hiv
  unfold ScatterDims.start
  exact dif_neg (show (1 : Fin 2) ∉ [(0 : Fin 2)] by decide)

/-- The window coordinate on the row axis (an inserted axis) is 0. -/
theorem rows_window0 : d.window (ix2 e q') 0 = 0 := by
  obtain ⟨uw, iw, sd, iv, wf⟩ := d
  simp only at huw hiw hsd hiv
  subst huw hiw hsd hiv
  unfold ScatterDims.window
  exact dif_neg (show (0 : Fin 2) ∉ (List.finRange 2).filter (· ∉ [(0 : Fin 2)]) by decide)

/-- The window coordinate on the column axis is the update's column. -/
theorem rows_window1 : d.window (ix2 e q') 1 = q'.val := by
  obtain ⟨uw, iw, sd, iv, wf⟩ := d
  simp only at huw hiw hsd hiv
  subst huw hiw hsd hiv
  unfold ScatterDims.window
  exact (dif_pos (show (1 : Fin 2) ∈ (List.finRange 2).filter (· ∉ [(0 : Fin 2)]) by decide)).trans rfl

/-- Update (e, q') lands at (r, q) exactly when its start index is r and its column is q. -/
theorem rows_resultIdx (r : Fin N) (q : Fin C) :
    d.resultIdx? (ix2 e q') idx = some (ix2 r q) ↔ (idx (ix2 e (0 : Fin 1))).toInt = (r.val : Int) ∧ q' = q := by
  have hs0 := rows_start0 d huw hiw hsd hiv idx e q'
  have hs1 := rows_start1 d huw hiw hsd hiv idx e q'
  have hw0 := rows_window0 d huw hiw hsd hiv e q'
  have hw1 := rows_window1 d huw hiw hsd hiv e q'
  unfold ScatterDims.resultIdx?
  constructor
  · intro h
    split at h
    · next hall =>
      have hf := Option.some.inj h
      have h0 : (d.start (ix2 e q') idx 0 + d.window (ix2 e q') 0).toNat = r.val := congrArg (fun f => (f 0).val) hf
      have h1 : (d.start (ix2 e q') idx 1 + d.window (ix2 e q') 1).toNat = q.val := congrArg (fun f => (f 1).val) hf
      have ha0 := (hall 0).1
      rw [hs0, hw0] at h0 ha0
      rw [hs1, hw1] at h1
      exact ⟨by omega, Fin.ext (by omega)⟩
    · exact absurd h (by simp)
  · rintro ⟨hS, rfl⟩
    have hall : ∀ a, 0 ≤ d.start (ix2 e q') idx a + d.window (ix2 e q') a
        ∧ d.start (ix2 e q') idx a + d.window (ix2 e q') a < (⟨2, ![N, C]⟩ : Shape).size a := by
      intro a
      match a with
      | ⟨0, _⟩ =>
        show 0 ≤ d.start (ix2 e q') idx 0 + d.window (ix2 e q') 0 ∧ d.start (ix2 e q') idx 0 + d.window (ix2 e q') 0 < (N : Int)
        rw [hs0, hw0, hS]; have := r.isLt; omega
      | ⟨1, _⟩ =>
        show 0 ≤ d.start (ix2 e q') idx 1 + d.window (ix2 e q') 1 ∧ d.start (ix2 e q') idx 1 + d.window (ix2 e q') 1 < (C : Int)
        rw [hs1, hw1]; have := q'.isLt; omega
    rw [dif_pos hall]
    congr 1
    funext a
    match a with
    | ⟨0, _⟩ =>
      apply Fin.ext
      show (d.start (ix2 e q') idx 0 + d.window (ix2 e q') 0).toNat = r.val
      rw [hs0, hw0, hS]; omega
    | ⟨1, _⟩ =>
      apply Fin.ext
      show (d.start (ix2 e q') idx 1 + d.window (ix2 e q') 1).toNat = q'.val
      rw [hs1, hw1]; omega

end Rows

/-- The accumulating scatter of ROWS at element (r, q): the operand's element plus the sum, over the update rows e whose
    start index (read signed, not clamped) is r, of update element (e, q). An update whose index is outside the operand
    contributes nothing. -/
theorem scatterAdd_rows_apply {N C n w : Nat}
    (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ w) (upd : (⟨2, ![n, C]⟩ : Shape).Idx → EReal)
    (r : Fin N) (q : Fin C) :
    Ideal.hostScatterAdd d x idx upd (ix2 r q)
      = x (ix2 r q) + ∑ e : Fin n, if (idx (ix2 e (0 : Fin 1))).toInt = (r.val : Int) then upd (ix2 e q) else 0 := by
  unfold Ideal.hostScatterAdd
  congr 1
  -- the sum over the updates landing at (r, q), as a double sum over update rows and columns
  rw [Finset.sum_filter, sum_idx2]
  refine Finset.sum_congr rfl fun e _ => ?_
  by_cases hS : (idx (ix2 e (0 : Fin 1))).toInt = (r.val : Int)
  · -- row e lands on row r: of its columns, only column q lands at (r, q)
    rw [if_pos hS, Finset.sum_eq_single q]
    · rw [if_pos ((rows_resultIdx d huw hiw hsd hiv idx e q r q).2 ⟨hS, rfl⟩)]
    · intro q' _ hne
      rw [if_neg (fun h => hne ((rows_resultIdx d huw hiw hsd hiv idx e q' r q).1 h).2)]
    · intro h; exact absurd (Finset.mem_univ q) h
  · -- row e lands elsewhere, or nowhere
    rw [if_neg hS]
    refine Finset.sum_eq_zero fun q' _ => ?_
    rw [if_neg (fun h => hS ((rows_resultIdx d huw hiw hsd hiv idx e q' r q).1 h).1)]

section Vec

variable {N n w : Nat} (d : ScatterDims ⟨1, ![N]⟩ ⟨2, ![n, 1]⟩ ⟨1, ![n]⟩)
  (huw : d.updateWindowDims = []) (hiw : d.insertedWindowDims = [0]) (hsd : d.scatterDimsToOperandDims = [0])
  (hiv : d.indexVectorDim = 1) (idx : IVec ⟨2, ![n, 1]⟩ w) (e : Fin n)

include huw hiw hsd hiv

/-- The window of update e starts at the e-th start index, read signed. -/
theorem vec_start0 : d.start (ix1 e) idx 0 = (idx (ix2 e (0 : Fin 1))).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- There is no window axis: the window coordinate is 0. -/
theorem vec_window0 : d.window (ix1 e) 0 = 0 := by
  obtain ⟨uw, iw, sd, iv, wf⟩ := d
  simp only at huw hiw hsd hiv
  subst huw hiw hsd hiv
  unfold ScatterDims.window
  exact dif_neg (show (0 : Fin 1) ∉ (List.finRange 1).filter (· ∉ [(0 : Fin 1)]) by decide)

/-- Update e lands at r exactly when its start index is r. -/
theorem vec_resultIdx (r : Fin N) :
    d.resultIdx? (ix1 e) idx = some (ix1 r) ↔ (idx (ix2 e (0 : Fin 1))).toInt = (r.val : Int) := by
  have hs0 := vec_start0 d huw hiw hsd hiv idx e
  have hw0 := vec_window0 d huw hiw hsd hiv e
  unfold ScatterDims.resultIdx?
  constructor
  · intro h
    split at h
    · next hall =>
      have hf := Option.some.inj h
      have h0 : (d.start (ix1 e) idx 0 + d.window (ix1 e) 0).toNat = r.val := congrArg (fun f => (f 0).val) hf
      have ha0 := (hall 0).1
      rw [hs0, hw0] at h0 ha0
      omega
    · exact absurd h (by simp)
  · intro hS
    have hall : ∀ a, 0 ≤ d.start (ix1 e) idx a + d.window (ix1 e) a
        ∧ d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : Int)
        rw [hs0, hw0, hS]; have := r.isLt; omega
    rw [dif_pos hall]
    congr 1
    funext a
    match a with
    | ⟨0, _⟩ =>
      apply Fin.ext
      show (d.start (ix1 e) idx 0 + d.window (ix1 e) 0).toNat = r.val
      rw [hs0, hw0, hS]; omega

end Vec

/-- The accumulating scatter of SCALARS at element r. -/
theorem scatterAdd_vec_apply {N n w : Nat}
    (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal)
    (r : Fin N) :
    Ideal.hostScatterAdd d x idx upd (ix1 r)
      = x (ix1 r) + ∑ e : Fin n, if (idx (ix2 e (0 : Fin 1))).toInt = (r.val : Int) then upd (ix1 e) else 0 := by
  unfold Ideal.hostScatterAdd
  congr 1
  -- the sum over the updates landing at r, re-indexed by the update's one coordinate
  rw [Finset.sum_filter, ← Equiv.sum_comp (idxEquiv1 (n := n)).symm]
  refine Finset.sum_congr rfl fun e _ => ?_
  show (if d.resultIdx? (ix1 e) idx = some (ix1 r) then upd (ix1 e) else 0) = _
  by_cases hS : (idx (ix2 e (0 : Fin 1))).toInt = (r.val : Int)
  · rw [if_pos hS, if_pos ((vec_resultIdx d huw hiw hsd hiv idx e r).2 hS)]
  · rw [if_neg hS, if_neg (fun h => hS ((vec_resultIdx d huw hiw hsd hiv idx e r).1 h))]

/-- The gather of whole ROWS at element (e, q): the operand at row idx[e] (read signed and clamped into [0, N-1]), column q. -/
theorem gather_rows_apply {α : Type} {N C n w : Nat}
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (e : Fin n) (q : Fin C) (hN : 0 < N) :
    Host.gather d x idx (ix2 e q) = x (ix2 (⟨min (idx (ix2 e (0 : Fin 1))).toInt.toNat (N - 1), by omega⟩ : Fin N) q) :=
  Cert.LibGather.gather_rows_apply d hoff hcoll hob hsim hivd hss x idx e q hN

end Cert.LibIndexed

end
-- ==== Proof.RefIndex.lean ====
/-
  The reference's edge list read at an index: the source and target node of each edge as 32-bit words, the edge
  weights, and the graph of each node. The three layers rebuild the same arrays; the wrap-around of negative indices
  that precedes each gather leaves these non-negative indices alone.
-/
import proofs.«163928_g44908178047564_cont_sun_c4_353_27_alg».proof.Proof.RefRead
import proofs.«163928_g44908178047564_cont_sun_c4_353_27_alg».proof.Proof.EdgeSum
import proofs.«163928_g44908178047564_cont_sun_c4_353_27_alg».proof.Proof.Spec
import proofs.«163928_g44908178047564_cont_sun_c4_353_27_alg».proof.Proof.LibIndexed
import Idealize.ShloMosaic.Lib.StableHlo.Predicate
import Idealize.ShloMosaic.Lib.Pipeline.Value
import Idealize.ShloMosaic.PureOps.Ideal.Laws

noncomputable section

open scoped BigOperators

namespace Cert.Gnn.RefIx

open Idealize.ShloMosaic Idealize.ShloMosaic.ValueIdx Idealize.ShloMosaic.StableHlo.Predicate Cert.ReferenceIdeal
  Cert.ReferenceIdeal.Read Cert.Gnn

/-! ### A concatenation read at a position -/

/-- Eight pieces of 262144 entries laid end to end, read at position q: the piece q / 262144, at q % 262144. -/
private theorem concat8_apply {α : Type} (x0 x1 x2 x3 x4 x5 x6 x7 : S262144.Idx → α)
    (h : Shape.Concatenates [S262144, S262144, S262144, S262144, S262144, S262144, S262144, S262144] S2097152 0)
    (q : Fin 2097152) :
    concatenate S2097152 0 [⟨S262144, x0⟩, ⟨S262144, x1⟩, ⟨S262144, x2⟩, ⟨S262144, x3⟩, ⟨S262144, x4⟩,
        ⟨S262144, x5⟩, ⟨S262144, x6⟩, ⟨S262144, x7⟩] h (ix1 q) =
      if q.val < 262144 then x0 (ix1 ⟨q.val % 262144, Nat.mod_lt _ (by norm_num)⟩)
      else if q.val < 524288 then x1 (ix1 ⟨q.val % 262144, Nat.mod_lt _ (by norm_num)⟩)
      else if q.val < 786432 then x2 (ix1 ⟨q.val % 262144, Nat.mod_lt _ (by norm_num)⟩)
      else if q.val < 1048576 then x3 (ix1 ⟨q.val % 262144, Nat.mod_lt _ (by norm_num)⟩)
      else if q.val < 1310720 then x4 (ix1 ⟨q.val % 262144, Nat.mod_lt _ (by norm_num)⟩)
      else if q.val < 1572864 then x5 (ix1 ⟨q.val % 262144, Nat.mod_lt _ (by norm_num)⟩)
      else if q.val < 1835008 then x6 (ix1 ⟨q.val % 262144, Nat.mod_lt _ (by norm_num)⟩)
      else x7 (ix1 ⟨q.val % 262144, Nat.mod_lt _ (by norm_num)⟩) := by
  have hq := q.isLt
  -- in each case the position lies in the span of one piece, whose start is the total length of the pieces before it
  split_ifs with h0 h1 h2 h3 h4 h5 h6
  · exact concatenate_apply_piece (0 : Fin S2097152.rank) _ _ (ix1 q) 0 (by simp) S262144 x0 rfl rfl 0 (by simp) _
      (fun b hb => absurd (Subsingleton.elim _ _) hb) (by show 0 + q.val % 262144 = q.val; omega)
  · exact concatenate_apply_piece (0 : Fin S2097152.rank) _ _ (ix1 q) 1 (by simp) S262144 x1 rfl rfl 262144 (by simp) _
      (fun b hb => absurd (Subsingleton.elim _ _) hb) (by show 262144 + q.val % 262144 = q.val; omega)
  · exact concatenate_apply_piece (0 : Fin S2097152.rank) _ _ (ix1 q) 2 (by simp) S262144 x2 rfl rfl 524288 (by simp) _
      (fun b hb => absurd (Subsingleton.elim _ _) hb) (by show 524288 + q.val % 262144 = q.val; omega)
  · exact concatenate_apply_piece (0 : Fin S2097152.rank) _ _ (ix1 q) 3 (by simp) S262144 x3 rfl rfl 786432 (by simp) _
      (fun b hb => absurd (Subsingleton.elim _ _) hb) (by show 786432 + q.val % 262144 = q.val; omega)
  · exact concatenate_apply_piece (0 : Fin S2097152.rank) _ _ (ix1 q) 4 (by simp) S262144 x4 rfl rfl 1048576 (by simp) _
      (fun b hb => absurd (Subsingleton.elim _ _) hb) (by show 1048576 + q.val % 262144 = q.val; omega)
  · exact concatenate_apply_piece (0 : Fin S2097152.rank) _ _ (ix1 q) 5 (by simp) S262144 x5 rfl rfl 1310720 (by simp) _
      (fun b hb => absurd (Subsingleton.elim _ _) hb) (by show 1310720 + q.val % 262144 = q.val; omega)
  · exact concatenate_apply_piece (0 : Fin S2097152.rank) _ _ (ix1 q) 6 (by simp) S262144 x6 rfl rfl 1572864 (by simp) _
      (fun b hb => absurd (Subsingleton.elim _ _) hb) (by show 1572864 + q.val % 262144 = q.val; omega)
  · exact concatenate_apply_piece (0 : Fin S2097152.rank) _ _ (ix1 q) 7 (by simp) S262144 x7 rfl rfl 1835008 (by simp) _
      (fun b hb => absurd (Subsingleton.elim _ _) hb) (by show 1835008 + q.val % 262144 = q.val; omega)

/-- The grid edges followed by the loops, read at edge e: the first array below 2097152, the second from there on. -/
private theorem concat2_apply {α : Type} (x : S2097152.Idx → α) (y : S4096.Idx → α)
    (h : Shape.Concatenates [S2097152, S4096] S2101248 0) (e : Fin 2101248) :
    concatenate S2101248 0 [⟨S2097152, x⟩, ⟨S4096, y⟩] h (ix1 e) =
      if he : e.val < 2097152 then x (ix1 ⟨e.val, he⟩)
      else y (ix1 ⟨e.val - 2097152, by have := e.isLt; omega⟩) := by
  have hlt := e.isLt
  split_ifs with he
  · exact concatenate_pair_apply_left (0 : Fin S2101248.rank) x y h (ix1 e) rfl _ (fun b => by
      match b with
      | ⟨0, _⟩ => rfl)
  · exact concatenate_pair_apply_right (0 : Fin S2101248.rank) x y h (ix1 e) rfl rfl _
      (fun b hb => absurd (Subsingleton.elim _ _) hb) (by show e.val - 2097152 + 2097152 = e.val; omega)

/-! ### Words -/

/-- Adding two words given by naturals gives the word of the sum. -/
private theorem addi_word (a c : ℕ) : IntOp.addi (BitVec.ofNat 32 a) (BitVec.ofNat 32 c) = BitVec.ofNat 32 (a + c) := by
  unfold IntOp.addi
  exact (BitVec.ofNat_add a c).symm

/-- The word of a natural below 2^31 is not negative, so the wrap-around of negative indices returns it unchanged. -/
private theorem wrap_word (n : ℕ) (hn : n < 2 ^ 31) (w : BitVec 32) :
    Scalar.select (IntOp.cmpi .slt (BitVec.ofNat 32 n) 0#32) w (BitVec.ofNat 32 n) = BitVec.ofNat 32 n := by
  have hlt : ¬ IntOp.cmpi .slt (BitVec.ofNat 32 n) 0#32 = 1#1 := by
    rw [slt_iff_toNat (by simp only [BitVec.toNat_ofNat]; omega) (by simp)]
    simp
  unfold Scalar.select
  exact if_neg hlt

/-- The same, for a word known to be that of such a natural and a comparand known to be zero. -/
private theorem wrap_at (a z w : BitVec 32) (n : ℕ) (ha : a = BitVec.ofNat 32 n) (hn : n < 2 ^ 31) (hz : z = 0#32) :
    Scalar.select (IntOp.cmpi .slt a z) w a = a := by
  subst ha hz
  exact wrap_word n hn w

/-- The f32 word 0x3F800000 is the real 1. -/
private theorem one_word : Ideal.ofBits .f32 0x3F800000#32 = ((1 : ℝ) : EReal) := by
  rw [EReal.coe_one]
  simp [Ideal.ofBits, Ideal.ieee, -EReal.coe_mul]; norm_num

/-- Two indices into the adjacency array with the same three coordinates are equal. -/
private theorem idx3_ext (I J : (⟨3, ![8, 512, 512]⟩ : Shape).Idx) (h0 : (I 0).val = (J 0).val)
    (h1 : (I 1).val = (J 1).val) (h2 : (I 2).val = (J 2).val) : I = J := by
  funext a
  match a with
  | ⟨0, _⟩ => exact Fin.ext h0
  | ⟨1, _⟩ => exact Fin.ext h1
  | ⟨2, _⟩ => exact Fin.ext h2

/-! ### The edge list of one graph: position p of the 512 × 512 grid goes from node p / 512 to node p % 512 -/

private theorem v2_at (p : ℕ) (hp : p < 262144) :
    val_main_v2 (F := Ideal) (ix1 ⟨p, hp⟩) = BitVec.ofNat 32 (p / 512) :=
  (val_main_v2_apply _).trans ((val_main_v1_apply _).trans (val_main_v0_apply _))

private theorem v6_at (p : ℕ) (hp : p < 262144) :
    val_main_v6 (F := Ideal) (ix1 ⟨p, hp⟩) = BitVec.ofNat 32 (p % 512) := by
  have h : val_main_v6 (F := Ideal) (ix1 ⟨p, hp⟩) = BitVec.ofNat 32 (0 * 512 + p % 512) :=
    (val_main_v6_apply _).trans ((val_main_v5_apply _).trans ((val_main_v4_apply _).trans (val_main_v3_apply _)))
  rw [h, Nat.zero_mul, Nat.zero_add]

/-! ### The eight graphs: graph k's nodes are shifted by k · 512 -/

/-- The source word of grid edge q. -/
private theorem v63_at (q : Fin 2097152) :
    val_main_v63 (F := Ideal) (ix1 q) = BitVec.ofNat 32 (q.val / 262144 * 512 + q.val % 262144 / 512) := by
  have hq := q.isLt
  unfold val_main_v63
  rw [concat8_apply]
  split_ifs with h0 h1 h2 h3 h4 h5 h6
  · rw [val_main_v8_apply, v2_at, val_main_v7_apply, val_main_c_apply, addi_word]; congr 1; omega
  · rw [val_main_v15_apply, v2_at, val_main_v14_apply, val_main_c_1_apply, addi_word]; congr 1; omega
  · rw [val_main_v22_apply, v2_at, val_main_v21_apply, val_main_c_3_apply, addi_word]; congr 1; omega
  · rw [val_main_v29_apply, v2_at, val_main_v28_apply, val_main_c_5_apply, addi_word]; congr 1; omega
  · rw [val_main_v36_apply, v2_at, val_main_v35_apply, val_main_c_7_apply, addi_word]; congr 1; omega
  · rw [val_main_v43_apply, v2_at, val_main_v42_apply, val_main_c_9_apply, addi_word]; congr 1; omega
  · rw [val_main_v50_apply, v2_at, val_main_v49_apply, val_main_c_11_apply, addi_word]; congr 1; omega
  · rw [val_main_v57_apply, v2_at, val_main_v56_apply, val_main_c_13_apply, addi_word]; congr 1; omega

/-- The target word of grid edge q. -/
private theorem v64_at (q : Fin 2097152) :
    val_main_v64 (F := Ideal) (ix1 q) = BitVec.ofNat 32 (q.val / 262144 * 512 + q.val % 512) := by
  have hq := q.isLt
  unfold val_main_v64
  rw [concat8_apply]
  split_ifs with h0 h1 h2 h3 h4 h5 h6
  · rw [val_main_v10_apply, v6_at, val_main_v9_apply, val_main_c_0_apply, addi_word]; congr 1; omega
  · rw [val_main_v17_apply, v6_at, val_main_v16_apply, val_main_c_2_apply, addi_word]; congr 1; omega
  · rw [val_main_v24_apply, v6_at, val_main_v23_apply, val_main_c_4_apply, addi_word]; congr 1; omega
  · rw [val_main_v31_apply, v6_at, val_main_v30_apply, val_main_c_6_apply, addi_word]; congr 1; omega
  · rw [val_main_v38_apply, v6_at, val_main_v37_apply, val_main_c_8_apply, addi_word]; congr 1; omega
  · rw [val_main_v45_apply, v6_at, val_main_v44_apply, val_main_c_10_apply, addi_word]; congr 1; omega
  · rw [val_main_v52_apply, v6_at, val_main_v51_apply, val_main_c_12_apply, addi_word]; congr 1; omega
  · rw [val_main_v59_apply, v6_at, val_main_v58_apply, val_main_c_14_apply, addi_word]; congr 1; omega

/-! ### The whole edge list -/

/-- The source word of edge e is the word of its source node. -/
private theorem row_word (e : Fin 2101248) : val_main_v71 (F := Ideal) (ix1 e) = BitVec.ofNat 32 (rowOf e) := by
  unfold val_main_v71 rowOf
  rw [concat2_apply]
  split_ifs with he
  · exact v63_at _
  · exact val_main_v70_apply _

/-- The target word of edge e is the word of its target node. -/
private theorem col_word (e : Fin 2101248) : val_main_v72 (F := Ideal) (ix1 e) = BitVec.ofNat 32 (colOf e) := by
  unfold val_main_v72 colOf
  rw [concat2_apply]
  split_ifs with he
  · exact v64_at _
  · exact val_main_v70_apply _

private theorem row_small (e : Fin 2101248) : rowOf e < 2 ^ 31 := by have := rowOf_lt e; omega
private theorem col_small (e : Fin 2101248) : colOf e < 2 ^ 31 := by have := colOf_lt e; omega

/-- The source node of edge e, as the word the reference computes. -/
theorem row_toInt (e : Fin 2101248) : (val_main_v71 (F := Ideal) (ix1 e)).toInt = (rowOf e : ℤ) := by
  rw [row_word]
  exact toInt_ofNat_small _ (row_small e)
/-- The target node of edge e. -/
theorem col_toInt (e : Fin 2101248) : (val_main_v72 (F := Ideal) (ix1 e)).toInt = (colOf e : ℤ) := by
  rw [col_word]
  exact toInt_ofNat_small _ (col_small e)

/-! The later layers rebuild the edge list by the same operations, over a second counter of the same values. -/
theorem v118_eq : val_main_v118 (F := Ideal) = val_main_v71 (F := Ideal) := rfl
theorem v119_eq : val_main_v119 (F := Ideal) = val_main_v72 (F := Ideal) := rfl
theorem v165_eq : val_main_v165 (F := Ideal) = val_main_v71 (F := Ideal) := rfl
theorem v166_eq : val_main_v166 (F := Ideal) = val_main_v72 (F := Ideal) := rfl

/-! The index arrays the gathers and scatters of the three layers use are these two: every word is that of a node
    number, which is not negative, so adding 4096 to the negative words changes nothing. -/
theorem v87_eq : val_main_v87 (F := Ideal) = val_main_v71 (F := Ideal) := by
  funext i
  obtain ⟨e, rfl⟩ : ∃ e, i = ix1 e := ⟨i 0, eq_ix1 i⟩
  rw [val_main_v87_apply, val_main_v84_apply]
  exact wrap_at _ _ _ _ (row_word e) (row_small e) ((val_main_v83_apply _).trans (val_main_c_19_apply _))
theorem v94_eq : val_main_v94 (F := Ideal) = val_main_v72 (F := Ideal) := by
  funext i
  obtain ⟨e, rfl⟩ : ∃ e, i = ix1 e := ⟨i 0, eq_ix1 i⟩
  rw [val_main_v94_apply, val_main_v91_apply]
  exact wrap_at _ _ _ _ (col_word e) (col_small e) ((val_main_v90_apply _).trans (val_main_c_21_apply _))
theorem v102_eq : val_main_v102 (F := Ideal) = val_main_v71 (F := Ideal) := by
  funext i
  obtain ⟨e, rfl⟩ : ∃ e, i = ix1 e := ⟨i 0, eq_ix1 i⟩
  rw [val_main_v102_apply, val_main_v99_apply]
  exact wrap_at _ _ _ _ (row_word e) (row_small e) ((val_main_v98_apply _).trans (val_main_c_23_apply _))
theorem v134_eq : val_main_v134 (F := Ideal) = val_main_v71 (F := Ideal) := by
  funext i
  obtain ⟨e, rfl⟩ : ∃ e, i = ix1 e := ⟨i 0, eq_ix1 i⟩
  rw [val_main_v134_apply, val_main_v131_apply, v118_eq]
  exact wrap_at _ _ _ _ (row_word e) (row_small e) ((val_main_v130_apply _).trans (val_main_c_31_apply _))
theorem v141_eq : val_main_v141 (F := Ideal) = val_main_v72 (F := Ideal) := by
  funext i
  obtain ⟨e, rfl⟩ : ∃ e, i = ix1 e := ⟨i 0, eq_ix1 i⟩
  rw [val_main_v141_apply, val_main_v138_apply, v119_eq]
  exact wrap_at _ _ _ _ (col_word e) (col_small e) ((val_main_v137_apply _).trans (val_main_c_33_apply _))
theorem v149_eq : val_main_v149 (F := Ideal) = val_main_v71 (F := Ideal) := by
  funext i
  obtain ⟨e, rfl⟩ : ∃ e, i = ix1 e := ⟨i 0, eq_ix1 i⟩
  rw [val_main_v149_apply, val_main_v146_apply, v118_eq]
  exact wrap_at _ _ _ _ (row_word e) (row_small e) ((val_main_v145_apply _).trans (val_main_c_35_apply _))
theorem v181_eq : val_main_v181 (F := Ideal) = val_main_v71 (F := Ideal) := by
  funext i
  obtain ⟨e, rfl⟩ : ∃ e, i = ix1 e := ⟨i 0, eq_ix1 i⟩
  rw [val_main_v181_apply, val_main_v178_apply, v165_eq]
  exact wrap_at _ _ _ _ (row_word e) (row_small e) ((val_main_v177_apply _).trans (val_main_c_43_apply _))
theorem v188_eq : val_main_v188 (F := Ideal) = val_main_v72 (F := Ideal) := by
  funext i
  obtain ⟨e, rfl⟩ : ∃ e, i = ix1 e := ⟨i 0, eq_ix1 i⟩
  rw [val_main_v188_apply, val_main_v185_apply, v166_eq]
  exact wrap_at _ _ _ _ (col_word e) (col_small e) ((val_main_v184_apply _).trans (val_main_c_45_apply _))
theorem v196_eq : val_main_v196 (F := Ideal) = val_main_v71 (F := Ideal) := by
  funext i
  obtain ⟨e, rfl⟩ : ∃ e, i = ix1 e := ⟨i 0, eq_ix1 i⟩
  rw [val_main_v196_apply, val_main_v193_apply, v165_eq]
  exact wrap_at _ _ _ _ (row_word e) (row_small e) ((val_main_v192_apply _).trans (val_main_c_47_apply _))

/-- The weight of grid edge q: the adjacency entry of its graph, row and column. Piece k of the weights is slice k of
    the adjacency array flattened row by row, so its position p holds the entry (k, p / 512, p % 512). -/
private theorem v65_at (x0 : (⟨Cert.ReferenceIdeal.S8x512x512, .f32⟩ : BufTy).Contents (Elt Ideal)) (q : Fin 2097152) :
    val_main_v65 (F := Ideal) x0 (ix1 q) =
      x0 (ix3 (⟨q.val / 262144, by have := q.isLt; omega⟩ : Fin 8) (⟨q.val % 262144 / 512, by omega⟩ : Fin 512)
        (⟨q.val % 512, Nat.mod_lt _ (by norm_num)⟩ : Fin 512)) := by
  have hq := q.isLt
  unfold val_main_v65
  rw [concat8_apply]
  split_ifs with h0 h1 h2 h3 h4 h5 h6
  · rw [val_main_v13_apply, val_main_v12_apply, val_main_v11_apply]
    exact congrArg x0 (idx3_ext _ _
      (by show 0 = q.val / 262144; omega)
      (by show (q.val % 262144 / 512 * 512 + q.val % 262144 % 512) / 512 % 512 = q.val % 262144 / 512; omega)
      (by show (q.val % 262144 / 512 * 512 + q.val % 262144 % 512) % 512 = q.val % 512; omega))
  · rw [val_main_v20_apply, val_main_v19_apply, val_main_v18_apply]
    exact congrArg x0 (idx3_ext _ _
      (by show 1 + 0 = q.val / 262144; omega)
      (by show (q.val % 262144 / 512 * 512 + q.val % 262144 % 512) / 512 % 512 = q.val % 262144 / 512; omega)
      (by show (q.val % 262144 / 512 * 512 + q.val % 262144 % 512) % 512 = q.val % 512; omega))
  · rw [val_main_v27_apply, val_main_v26_apply, val_main_v25_apply]
    exact congrArg x0 (idx3_ext _ _
      (by show 2 + 0 = q.val / 262144; omega)
      (by show (q.val % 262144 / 512 * 512 + q.val % 262144 % 512) / 512 % 512 = q.val % 262144 / 512; omega)
      (by show (q.val % 262144 / 512 * 512 + q.val % 262144 % 512) % 512 = q.val % 512; omega))
  · rw [val_main_v34_apply, val_main_v33_apply, val_main_v32_apply]
    exact congrArg x0 (idx3_ext _ _
      (by show 3 + 0 = q.val / 262144; omega)
      (by show (q.val % 262144 / 512 * 512 + q.val % 262144 % 512) / 512 % 512 = q.val % 262144 / 512; omega)
      (by show (q.val % 262144 / 512 * 512 + q.val % 262144 % 512) % 512 = q.val % 512; omega))
  · rw [val_main_v41_apply, val_main_v40_apply, val_main_v39_apply]
    exact congrArg x0 (idx3_ext _ _
      (by show 4 + 0 = q.val / 262144; omega)
      (by show (q.val % 262144 / 512 * 512 + q.val % 262144 % 512) / 512 % 512 = q.val % 262144 / 512; omega)
      (by show (q.val % 262144 / 512 * 512 + q.val % 262144 % 512) % 512 = q.val % 512; omega))
  · rw [val_main_v48_apply, val_main_v47_apply, val_main_v46_apply]
    exact congrArg x0 (idx3_ext _ _
      (by show 5 + 0 = q.val / 262144; omega)
      (by show (q.val % 262144 / 512 * 512 + q.val % 262144 % 512) / 512 % 512 = q.val % 262144 / 512; omega)
      (by show (q.val % 262144 / 512 * 512 + q.val % 262144 % 512) % 512 = q.val % 512; omega))
  · rw [val_main_v55_apply, val_main_v54_apply, val_main_v53_apply]
    exact congrArg x0 (idx3_ext _ _
      (by show 6 + 0 = q.val / 262144; omega)
      (by show (q.val % 262144 / 512 * 512 + q.val % 262144 % 512) / 512 % 512 = q.val % 262144 / 512; omega)
      (by show (q.val % 262144 / 512 * 512 + q.val % 262144 % 512) % 512 = q.val % 512; omega))
  · rw [val_main_v62_apply, val_main_v61_apply, val_main_v60_apply]
    exact congrArg x0 (idx3_ext _ _
      (by show 7 + 0 = q.val / 262144; omega)
      (by show (q.val % 262144 / 512 * 512 + q.val % 262144 % 512) / 512 % 512 = q.val % 262144 / 512; omega)
      (by show (q.val % 262144 / 512 * 512 + q.val % 262144 % 512) % 512 = q.val % 512; omega))

/-! The edge weights: the adjacency entry on a grid edge, 1 on a loop; the later layers rebuild the same array. -/
theorem ew_edge (x0 : (⟨Cert.ReferenceIdeal.S8x512x512, .f32⟩ : BufTy).Contents (Elt Ideal)) (g : Fin 8) (r c : Fin 512) :
    val_main_v74 (F := Ideal) x0 (ix1 (edge g r c)) = x0 (ix3 g r c) := by
  unfold val_main_v74
  rw [concat2_apply, dif_pos (edge_lt g r c), v65_at]
  -- grid edge (g, r, c) has graph digit g, middle digit r and last digit c
  exact congrArg x0 (idx3_ext _ _ (edge_div g r c) (edge_mid g r c) (edge_mod g r c))
theorem ew_loop (x0 : (⟨Cert.ReferenceIdeal.S8x512x512, .f32⟩ : BufTy).Contents (Elt Ideal)) (n : Fin 4096) :
    val_main_v74 (F := Ideal) x0 (ix1 (loop n)) = ((1 : ℝ) : EReal) := by
  unfold val_main_v74
  rw [concat2_apply, dif_neg (loop_ge n), val_main_v73_apply, val_main_cst_apply]
  exact one_word
theorem v121_eq : val_main_v121 (F := Ideal) = val_main_v74 (F := Ideal) := rfl
theorem v168_eq : val_main_v168 (F := Ideal) = val_main_v74 (F := Ideal) := rfl

/-- The graph of node n, as the word the pooling scatter is indexed by. -/
theorem batch_toInt (n : Fin 4096) : (val_main_v211 (F := Ideal) (ix1 n)).toInt = ((n.val / 512 : ℕ) : ℤ) := by
  have hn := n.isLt
  have h : val_main_v211 (F := Ideal) (ix1 n) = BitVec.ofNat 32 (n.val / 512) :=
    (val_main_v211_apply _).trans ((val_main_v210_apply _).trans (val_main_v209_apply _))
  rw [h]
  exact toInt_ofNat_small _ (by omega)

end Cert.Gnn.RefIx

end
-- ==== Proof.RefTools.lean ====
/-
  Sums over the edges into a node, and lookups along an edge, for accumulating scatters and gathers indexed by the
  edge list.
-/
import proofs.«163928_g44908178047564_cont_sun_c4_353_27_alg».proof.Proof.EdgeSum
import proofs.«163928_g44908178047564_cont_sun_c4_353_27_alg».proof.Proof.LibIndexed
import Idealize.ShloMosaic.Lib.StableHlo.Predicate
import Idealize.ShloMosaic.Lib.ValueIdxRank1
import Idealize.ShloMosaic.PureOps.Ideal

noncomputable section

open scoped BigOperators

namespace Cert.Gnn.RefNode

open Idealize.ShloMosaic Idealize.ShloMosaic.ValueIdx Cert.Gnn

/-- An accumulating scatter of rows into a zero matrix, indexed by the edges' target nodes, at node (g, c): the updates of
    the grid edges (g, r, c) over all r, and of the loop at that node. -/
theorem scatter_rows_node {K : Nat} (d : ScatterDims ⟨2, ![4096, K]⟩ ⟨2, ![2101248, 1]⟩ ⟨2, ![2101248, K]⟩)
    (huw : d.updateWindowDims = [1]) (hiw : d.insertedWindowDims = [0]) (hsd : d.scatterDimsToOperandDims = [0])
    (hiv : d.indexVectorDim = 1)
    (x : (⟨2, ![4096, K]⟩ : Shape).Idx → EReal) (idx : IVec ⟨2, ![2101248, 1]⟩ 32)
    (upd : (⟨2, ![2101248, K]⟩ : Shape).Idx → EReal)
    (hx : ∀ i, x i = 0) (hidx : ∀ e : Fin 2101248, (idx (ix2 e (0 : Fin 1))).toInt = (colOf e : ℤ))
    (g : Fin 8) (c : Fin 512) (k : Fin K) :
    Ideal.hostScatterAdd d x idx upd (ix2 (node g c) k)
      = (∑ r : Fin 512, upd (ix2 (edge g r c) k)) + upd (ix2 (loop (node g c)) k) := by
  -- the element is 0 plus the sum of column k of the update rows whose start index is the node
  rw [Cert.LibIndexed.scatterAdd_rows_apply d huw hiw hsd hiv x idx upd (node g c) k, hx, zero_add]
  -- an update row's start index is the node exactly when its edge ends there; then sum over those edges
  refine Eq.trans (Finset.sum_congr rfl fun e _ => ?_) (edge_sum (fun e => upd (ix2 e k)) g c)
  by_cases h : colOf e = (node g c).val
  · rw [if_pos h, if_pos (by rw [hidx e, h])]
  · rw [if_neg h, if_neg (fun h' => h (by rw [hidx e] at h'; exact_mod_cast h'))]

/-- The same for a scatter of scalars. -/
theorem scatter_vec_node (d : ScatterDims ⟨1, ![4096]⟩ ⟨2, ![2101248, 1]⟩ ⟨1, ![2101248]⟩)
    (huw : d.updateWindowDims = []) (hiw : d.insertedWindowDims = [0]) (hsd : d.scatterDimsToOperandDims = [0])
    (hiv : d.indexVectorDim = 1)
    (x : (⟨1, ![4096]⟩ : Shape).Idx → EReal) (idx : IVec ⟨2, ![2101248, 1]⟩ 32) (upd : (⟨1, ![2101248]⟩ : Shape).Idx → EReal)
    (hx : ∀ i, x i = 0) (hidx : ∀ e : Fin 2101248, (idx (ix2 e (0 : Fin 1))).toInt = (colOf e : ℤ))
    (g : Fin 8) (c : Fin 512) :
    Ideal.hostScatterAdd d x idx upd (ix1 (node g c))
      = (∑ r : Fin 512, upd (ix1 (edge g r c))) + upd (ix1 (loop (node g c))) := by
  rw [Cert.LibIndexed.scatterAdd_vec_apply d huw hiw hsd hiv x idx upd (node g c), hx, zero_add]
  refine Eq.trans (Finset.sum_congr rfl fun e _ => ?_) (edge_sum (fun e => upd (ix1 e)) g c)
  by_cases h : colOf e = (node g c).val
  · rw [if_pos h, if_pos (by rw [hidx e, h])]
  · rw [if_neg h, if_neg (fun h' => h (by rw [hidx e] at h'; exact_mod_cast h'))]

/-- A gather of rows along an index array holding, for each edge, a node below 4096: edge e reads that node's row. -/
theorem gather_rows_at {K : Nat} (d : GatherDims ⟨2, ![4096, K]⟩ ⟨2, ![2101248, 1]⟩ ⟨2, ![2101248, K]⟩)
    (hoff : d.offsetDims = [1]) (hcoll : d.collapsedSliceDims = [0]) (hob : d.operandBatchingDims = [])
    (hsim : d.startIndexMap = [0]) (hivd : d.indexVectorDim = 1) (hss : d.sliceSizes = ![1, K])
    (x : (⟨2, ![4096, K]⟩ : Shape).Idx → EReal) (idx : IVec ⟨2, ![2101248, 1]⟩ 32) (e : Fin 2101248) (k : Fin K)
    (n : Fin 4096) (hn : (idx (ix2 e (0 : Fin 1))).toInt = (n.val : ℤ)) :
    Host.gather d x idx (ix2 e k) = x (ix2 n k) := by
  rw [Cert.LibIndexed.gather_rows_apply d hoff hcoll hob hsim hivd hss x idx e k (by decide)]
  -- the start index is n, already inside the operand: clamping into [0, 4095] leaves it alone
  refine congrArg (fun m : Fin 4096 => x (ix2 m k)) (Fin.ext ?_)
  show min (idx (ix2 e (0 : Fin 1))).toInt.toNat (4096 - 1) = n.val
  rw [hn, Int.toNat_natCast]
  have := n.isLt
  omega

/-- A gather of scalars likewise. -/
theorem gather_vec_at (d : GatherDims ⟨1, ![4096]⟩ ⟨2, ![2101248, 1]⟩ ⟨1, ![2101248]⟩)
    (hcoll : d.collapsedSliceDims = [0]) (hob : d.operandBatchingDims = [])
    (hsim : d.startIndexMap = [0]) (hivd : d.indexVectorDim = 1)
    (x : (⟨1, ![4096]⟩ : Shape).Idx → EReal) (idx : IVec ⟨2, ![2101248, 1]⟩ 32) (e : Fin 2101248)
    (n : Fin 4096) (hn : (idx (ix2 e (0 : Fin 1))).toInt = (n.val : ℤ)) :
    Host.gather d x idx (ix1 e) = x (ix1 n) := by
  -- a rank-1 index is its one coordinate
  have h1 : ∀ {m : Nat} (p : Fin m), (ix1 p : (⟨1, ![m]⟩ : Shape).Idx) = Shape.Idx.ofFin p := fun p => by
    funext a
    have ha : a = 0 := Subsingleton.elim _ _
    subst ha
    exact Fin.ext rfl
  -- row e of the index column, in both spellings
  have h2 : (StableHlo.Predicate.ixP e : (⟨2, ![2101248, 1]⟩ : Shape).Idx) = ix2 e (0 : Fin 1) := by
    funext b
    match b with
    | ⟨0, _⟩ => rfl
    | ⟨1, _⟩ => rfl
  rw [h1 e, StableHlo.Predicate.gather_take d hcoll hob hsim hivd x idx e (by decide), h1 n]
  -- the start index is n, already inside the operand: clamping into [0, 4095] leaves it alone
  refine congrArg (fun m : Fin 4096 => x (Shape.Idx.ofFin m)) (Fin.ext ?_)
  show min (idx (StableHlo.Predicate.ixP e)).toInt.toNat (4096 - 1) = n.val
  rw [h2, hn, Int.toNat_natCast]
  have := n.isLt
  omega

end Cert.Gnn.RefNode

end
-- ==== Proof.RefNode.lean ====
/-
  The reference's degree and inverse-square-root vectors on real inputs: the degree of node (g, c) is the sum of the
  weights of the edges that end there, and the later layers recompute the same vectors.
-/
import proofs.«163928_g44908178047564_cont_sun_c4_353_27_alg».proof.Proof.RefRead
import proofs.«163928_g44908178047564_cont_sun_c4_353_27_alg».proof.Proof.EdgeSum
import proofs.«163928_g44908178047564_cont_sun_c4_353_27_alg».proof.Proof.Spec
import proofs.«163928_g44908178047564_cont_sun_c4_353_27_alg».proof.Proof.LibIndexed
import Idealize.ShloMosaic.Lib.StableHlo.Predicate
import Idealize.ShloMosaic.Lib.Pipeline.Value
import Idealize.ShloMosaic.PureOps.Ideal.Laws
import Mathlib.Analysis.SpecialFunctions.Pow.Real
import proofs.«163928_g44908178047564_cont_sun_c4_353_27_alg».proof.Proof.RefIndex
import proofs.«163928_g44908178047564_cont_sun_c4_353_27_alg».proof.Proof.RefTools

noncomputable section

open scoped BigOperators

namespace Cert.Gnn.RefNode

open Idealize.ShloMosaic Idealize.ShloMosaic.ValueIdx Cert.ReferenceIdeal Cert.ReferenceIdeal.Read Cert.Gnn Cert.Gnn.RefIx

/-! ### The degree vector: the edge weights summed by target node -/

/-- The scatter's operand is the zero vector. -/
private theorem v75_zero (i : (⟨1, ![4096]⟩ : Shape).Idx) : val_main_v75 (F := Ideal) i = 0 := by
  rw [val_main_v75_apply, val_main_cst_15_apply]
  exact Ideal.ofBits_zero_f32

/-- The scatter's index column holds the edges' target nodes. -/
private theorem v76_toInt (e : Fin 2101248) :
    (val_main_v76 (F := Ideal) (ix2 e (0 : Fin 1))).toInt = (colOf e : ℤ) := by
  rw [val_main_v76_apply]
  have h : idx_main_v76 (ix2 e (0 : Fin 1)) = ix1 e := by
    funext a
    match a with
    | ⟨0, _⟩ => rfl
  rw [h]
  exact col_toInt e

/-- The reference's degree vector at node (g, c), on a real adjacency. -/
theorem deg_apply (I : Inp) (x0 : (⟨Cert.ReferenceIdeal.S8x512x512, .f32⟩ : BufTy).Contents (Elt Ideal))
    (hA : ∀ (g : Fin 8) (r c : Fin 512), x0 (ix3 g r c) = ((I.A g r c : ℝ) : EReal)) (g : Fin 8) (c : Fin 512) :
    val_main_v77 (F := Ideal) x0 (ix1 (node g c)) = ((I.deg g c : ℝ) : EReal) := by
  -- the degree is the accumulating scatter of the edge weights, by target node, into zeros
  have hv : val_main_v77 (F := Ideal) x0 = Ideal.hostScatterAdd scatter_S4096_S2101248x1_S2101248_n_0_0_1
      (val_main_v75 (F := Ideal)) (val_main_v76 (F := Ideal)) (val_main_v74 (F := Ideal) x0) := rfl
  rw [hv, scatter_vec_node scatter_S4096_S2101248x1_S2101248_n_0_0_1 rfl rfl rfl rfl
    (val_main_v75 (F := Ideal)) (val_main_v76 (F := Ideal)) (val_main_v74 (F := Ideal) x0) v75_zero v76_toInt g c]
  -- the weight of grid edge (g, r, c) is A g r c, that of a loop is 1: the sum is Σ_r A g r c + 1
  simp only [ew_edge, ew_loop, hA]
  unfold Inp.deg
  rw [EReal.coe_add, coe_sum]

/-! ### The inverse square root of the degree, zero where the degree is not positive -/

/-- The f32 word 0xBF000000 is -1/2. -/
private theorem neg_half_word : Ideal.ofBits .f32 0xBF000000#32 = (((-1 / 2 : ℝ)) : EReal) := by
  simp [Ideal.ofBits, Ideal.ieee, -EReal.coe_mul, -EReal.coe_neg]
  norm_num

/-- For a positive real, the power -1/2 is the inverse of the square root: d^(-1/2) = (d^(1/2))⁻¹ = (√d)⁻¹. -/
private theorem rpow_neg_half (d : ℝ) (hd : 0 < d) : Real.rpow d (-1 / 2) = (Real.sqrt d)⁻¹ := by
  show d ^ ((-1 / 2 : ℝ)) = (Real.sqrt d)⁻¹
  rw [Real.sqrt_eq_rpow, show (-1 / 2 : ℝ) = -(1 / 2) by norm_num, Real.rpow_neg (le_of_lt hd)]

/-- select(d > 0, d ^ (-1/2), 0) at a real d: (√d)⁻¹ where d is positive, else 0. -/
private theorem dinv_scalar (d : ℝ) :
    Scalar.select (FloatOps.cmpf (F := Ideal) (φ := .f32) .ogt ((d : ℝ) : EReal) (FloatOps.ofBits .f32 0x00000000#32))
      (FloatOps.hostPowf (F := Ideal) (φ := .f32) ((d : ℝ) : EReal) (FloatOps.ofBits .f32 0xBF000000#32))
      (FloatOps.ofBits (F := Ideal) .f32 0x00000000#32)
      = (((if 0 < d then (Real.sqrt d)⁻¹ else 0 : ℝ)) : EReal) := by
  rw [Ideal.cmpf_def, Ideal.hostPowf_def, Ideal.ofBits_def, Ideal.ofBits_def, Ideal.ofBits_zero_f32, neg_half_word,
    Ideal.pow_coe_coe]
  unfold Scalar.select Ideal.cmp
  by_cases hd : 0 < d
  · -- the comparison holds: the power branch
    have hd' : (0 : EReal) < ((d : ℝ) : EReal) := by exact_mod_cast hd
    simp only [hd, hd', decide_true, BitVec.ofBool_true, if_true]
    rw [rpow_neg_half d hd]
  · -- the comparison fails: the zero branch
    have hd' : ¬ (0 : EReal) < ((d : ℝ) : EReal) := fun h => hd (by exact_mod_cast h)
    simp only [hd, hd', decide_false, BitVec.ofBool_false, if_false]
    simp

/-- The reference's deg^(-1/2) vector (zero where the degree is not positive) at node (g, c). -/
theorem dinv_apply (I : Inp) (x0 : (⟨Cert.ReferenceIdeal.S8x512x512, .f32⟩ : BufTy).Contents (Elt Ideal))
    (hA : ∀ (g : Fin 8) (r c : Fin 512), x0 (ix3 g r c) = ((I.A g r c : ℝ) : EReal)) (g : Fin 8) (c : Fin 512) :
    val_main_v82 (F := Ideal) x0 (ix1 (node g c)) = ((I.dinv g c : ℝ) : EReal) := by
  -- select(deg > 0, deg ^ (-1/2), 0) at the node, the degree being the real deg g c
  rw [val_main_v82_apply, val_main_v79_apply, val_main_v81_apply, deg_apply I x0 hA g c, val_main_v78_apply,
    val_main_cst_16_apply, val_main_v80_apply, val_main_cst_17_apply, val_main_call0_v1_apply,
    val_main_call0_v0_apply, val_main_cst_18_apply]
  exact dinv_scalar (I.deg g c)

/-! ### The later layers' copies: the same scatter of the same weights by the same indices, then the same select -/

/-- The later layers recompute the same vector. -/
theorem v129_eq : val_main_v129 (F := Ideal) = val_main_v82 (F := Ideal) := by
  funext x0
  -- the second layer's degree vector is the first's: same index column, same weights, zeros for zeros
  have hdeg : val_main_v124 (F := Ideal) x0 = val_main_v77 (F := Ideal) x0 := by
    unfold val_main_v124 val_main_v77 val_main_v123 val_main_v76
    rw [v119_eq, v121_eq]
    rfl
  unfold val_main_v129 val_main_v82 val_main_v126 val_main_v79 val_main_v128 val_main_v81
  rw [hdeg]
  rfl
theorem v176_eq : val_main_v176 (F := Ideal) = val_main_v82 (F := Ideal) := by
  funext x0
  -- the third layer's degree vector is the first's
  have hdeg : val_main_v171 (F := Ideal) x0 = val_main_v77 (F := Ideal) x0 := by
    unfold val_main_v171 val_main_v77 val_main_v170 val_main_v76
    rw [v166_eq, v168_eq]
    rfl
  unfold val_main_v176 val_main_v82 val_main_v173 val_main_v79 val_main_v175 val_main_v81
  rw [hdeg]
  rfl

end Cert.Gnn.RefNode

end
-- ==== Proof.RefLayer1.lean ====
/-
  The reference's first layer on real inputs: the linear map on the tiled node features, the sum of edge messages
  into each node, the bias and the rectifier.
-/
import proofs.«163928_g44908178047564_cont_sun_c4_353_27_alg».proof.Proof.RefRead
import proofs.«163928_g44908178047564_cont_sun_c4_353_27_alg».proof.Proof.EdgeSum
import proofs.«163928_g44908178047564_cont_sun_c4_353_27_alg».proof.Proof.Spec
import proofs.«163928_g44908178047564_cont_sun_c4_353_27_alg».proof.Proof.LibIndexed
import Idealize.ShloMosaic.Lib.StableHlo.Predicate
import Idealize.ShloMosaic.Lib.Pipeline.Value
import Idealize.ShloMosaic.PureOps.Ideal.Laws
import proofs.«163928_g44908178047564_cont_sun_c4_353_27_alg».proof.Proof.RefIndex
import proofs.«163928_g44908178047564_cont_sun_c4_353_27_alg».proof.Proof.RefNode

noncomputable section

open scoped BigOperators

namespace Cert.Gnn.RefL1

open Idealize.ShloMosaic Idealize.ShloMosaic.ValueIdx Cert.ReferenceIdeal Cert.ReferenceIdeal.Read Cert.Gnn Cert.Gnn.RefIx Cert.Gnn.RefNode

/-! ### Reading the first layer's stages at an index -/

/-- The tiled node features: row n of the 4096 rows is row n mod 512 of the 512 node-feature rows. -/
private theorem tile_apply (x1 : (⟨Cert.ReferenceIdeal.S512x3, .f32⟩ : BufTy).Contents (Elt Ideal)) (i : S4096x3.Idx) :
    val_main_v68 (F := Ideal) x1 i = x1 (ix2 (⟨(i 0).val % 512, Nat.mod_lt _ (by decide)⟩ : Fin 512) (i 1)) := by
  rw [val_main_v68_apply, val_main_v67_apply, val_main_v66_apply]
  refine congrArg x1 ?_
  have h0 : (i 0).val < 4096 := (i 0).isLt
  have h1 : (i 1).val < 3 := (i 1).isLt
  funext a
  match a with
  | ⟨0, _⟩ =>
    exact Fin.ext (by
      show (((0 * 512 + ((i 0).val * 3 + (i 1).val) / 3 % 512) * 1 + 0) * 3 + ((i 0).val * 3 + (i 1).val) % 3) / 3
        = (i 0).val % 512
      omega)
  | ⟨1, _⟩ =>
    exact Fin.ext (by
      show (((0 * 512 + ((i 0).val * 3 + (i 1).val) / 3 % 512) * 1 + 0) * 3 + ((i 0).val * 3 + (i 1).val) % 3) % 3
        = (i 1).val
      omega)

/-- The bias, broadcast along the nodes, read at (n, k). -/
private theorem bias_apply (x3 : (⟨Cert.ReferenceIdeal.S16, .f32⟩ : BufTy).Contents (Elt Ideal)) (n : Fin 4096) (k : Fin 16) :
    val_main_v113 (F := Ideal) x3 (ix2 n k) = x3 (ix1 k) := by
  rw [val_main_v113_apply, val_main_v112_apply]
  refine congrArg x3 ?_
  funext a
  match a with
  | ⟨0, _⟩ => rfl

/-- The message of edge e in column k: the source node's features times the edge weight times the inverse square roots
    of the degrees of the source and the target node. -/
private theorem msg_apply (x0 : (⟨Cert.ReferenceIdeal.S8x512x512, .f32⟩ : BufTy).Contents (Elt Ideal)) (x1 : (⟨Cert.ReferenceIdeal.S512x3, .f32⟩ : BufTy).Contents (Elt Ideal)) (x2 : (⟨Cert.ReferenceIdeal.S3x16, .f32⟩ : BufTy).Contents (Elt Ideal))
    (e : Fin 2101248) (k : Fin 16) (nr nc : Fin 4096) (hr : rowOf e = nr.val) (hc : colOf e = nc.val) :
    val_main_v108 (F := Ideal) x0 x1 x2 (ix2 e k)
      = val_main_v69 (F := Ideal) x1 x2 (ix2 nr k)
        * (val_main_v74 (F := Ideal) x0 (ix1 e)
          * (val_main_v82 (F := Ideal) x0 (ix1 nr) * val_main_v82 (F := Ideal) x0 (ix1 nc))) := by
  -- the index arrays of the three lookups, read at edge e
  have i107 : idx_main_v106 (idx_main_v107 (ix2 e k)) = ix1 e := by
    funext a
    match a with
    | ⟨0, _⟩ => rfl
  have i88 : idx_main_v88 (ix2 e (0 : Fin 1)) = ix1 e := by
    funext a
    match a with
    | ⟨0, _⟩ => rfl
  have i95 : idx_main_v95 (ix2 e (0 : Fin 1)) = ix1 e := by
    funext a
    match a with
    | ⟨0, _⟩ => rfl
  have i103 : idx_main_v103 (ix2 e (0 : Fin 1)) = ix1 e := by
    funext a
    match a with
    | ⟨0, _⟩ => rfl
  have w88 : (val_main_v88 (F := Ideal) (ix2 e (0 : Fin 1))).toInt = (nr.val : ℤ) := by
    rw [val_main_v88_apply, i88, v87_eq, row_toInt, hr]
  have w95 : (val_main_v95 (F := Ideal) (ix2 e (0 : Fin 1))).toInt = (nc.val : ℤ) := by
    rw [val_main_v95_apply, i95, v94_eq, col_toInt, hc]
  have w103 : (val_main_v103 (F := Ideal) (ix2 e (0 : Fin 1))).toInt = (nr.val : ℤ) := by
    rw [val_main_v103_apply, i103, v102_eq, row_toInt, hr]
  -- the three lookups read the source node, the target node, and the source node's row
  have g89 : val_main_v89 (F := Ideal) x0 (ix1 e) = val_main_v82 (F := Ideal) x0 (ix1 nr) := by
    unfold val_main_v89
    exact gather_vec_at _ rfl rfl rfl rfl _ _ e nr w88
  have g96 : val_main_v96 (F := Ideal) x0 (ix1 e) = val_main_v82 (F := Ideal) x0 (ix1 nc) := by
    unfold val_main_v96
    exact gather_vec_at _ rfl rfl rfl rfl _ _ e nc w95
  have g104 : val_main_v104 (F := Ideal) x1 x2 (ix2 e k) = val_main_v69 (F := Ideal) x1 x2 (ix2 nr k) := by
    unfold val_main_v104
    exact gather_rows_at _ rfl rfl rfl rfl rfl rfl _ _ e k nr w103
  rw [val_main_v108_apply, val_main_v107_apply, val_main_v106_apply, i107, val_main_v105_apply, val_main_v97_apply,
    g89, g96, g104]
  simp only [Ideal.mulf_def]

/-- The matrix the messages are accumulated into is zero. -/
private theorem v109_zero (i : S4096x16.Idx) : val_main_v109 (F := Ideal) i = 0 := by
  rw [val_main_v109_apply, val_main_cst_25_apply, Ideal.ofBits_def, Ideal.ofBits_zero_f32]

/-- The accumulation is indexed by the edges' target nodes. -/
private theorem v110_toInt (e : Fin 2101248) :
    (val_main_v110 (F := Ideal) (ix2 e (0 : Fin 1))).toInt = (colOf e : ℤ) := by
  have i110 : idx_main_v110 (ix2 e (0 : Fin 1)) = ix1 e := by
    funext a
    match a with
    | ⟨0, _⟩ => rfl
  rw [val_main_v110_apply, i110, col_toInt]

/-- The sum of the messages into node (g, c): over the grid edges (g, r, c) and the loop at the node. -/
private theorem agg_apply (x0 : (⟨Cert.ReferenceIdeal.S8x512x512, .f32⟩ : BufTy).Contents (Elt Ideal)) (x1 : (⟨Cert.ReferenceIdeal.S512x3, .f32⟩ : BufTy).Contents (Elt Ideal)) (x2 : (⟨Cert.ReferenceIdeal.S3x16, .f32⟩ : BufTy).Contents (Elt Ideal))
    (g : Fin 8) (c : Fin 512) (k : Fin 16) :
    val_main_v111 (F := Ideal) x0 x1 x2 (ix2 (node g c) k)
      = (∑ r : Fin 512, val_main_v108 (F := Ideal) x0 x1 x2 (ix2 (edge g r c) k))
        + val_main_v108 (F := Ideal) x0 x1 x2 (ix2 (loop (node g c)) k) := by
  have hv : val_main_v111 (F := Ideal) x0 x1 x2
      = Ideal.hostScatterAdd scatter_S4096x16_S2101248x1_S2101248x16_1_0_0_1 (val_main_v109 (F := Ideal))
          (val_main_v110 (F := Ideal)) (val_main_v108 (F := Ideal) x0 x1 x2) := rfl
  rw [hv, scatter_rows_node scatter_S4096x16_S2101248x1_S2101248x16_1_0_0_1 rfl rfl rfl rfl
    (val_main_v109 (F := Ideal)) (val_main_v110 (F := Ideal)) (val_main_v108 (F := Ideal) x0 x1 x2)
    v109_zero v110_toInt g c k]

variable (I : Inp) (x0 : (⟨Cert.ReferenceIdeal.S8x512x512, .f32⟩ : BufTy).Contents (Elt Ideal)) (x1 : (⟨Cert.ReferenceIdeal.S512x3, .f32⟩ : BufTy).Contents (Elt Ideal)) (x2 : (⟨Cert.ReferenceIdeal.S3x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal)) (x5 : (⟨Cert.ReferenceIdeal.S32, .f32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal)) (hR : Reads x0 x1 x2 x3 x4 x5 x6 x7 I)
include hR

/-- The tiled features times W1: node (g, r) carries the features of row r. -/
theorem ref_y0 (g : Fin 8) (r : Fin 512) (k : Fin 16) :
    val_main_v69 (F := Ideal) x1 x2 (ix2 (node g r) k) = ((I.y0 r k : ℝ) : EReal) := by
  rw [val_main_v69_apply]
  unfold Inp.y0
  rw [Cert.Gnn.coe_sum]
  refine Finset.sum_congr rfl fun j _ => ?_
  -- the left operand at (node (g, r), j) is X r j, the right at (j, k) is W1 j k
  have hl : val_main_v68 (F := Ideal) x1 (lidx_main_v69 (ix2 (node g r) k) j) = x1 (ix2 r j) := by
    rw [tile_apply]
    refine congrArg x1 ?_
    have hg := g.isLt
    have hr := r.isLt
    funext a
    match a with
    | ⟨0, _⟩ => exact Fin.ext (by show (g.val * 512 + r.val) % 512 = r.val; omega)
    | ⟨1, _⟩ => exact Fin.ext rfl
  have hrt : ridx_main_v69 (ix2 (node g r) k) j = ix2 j k := by
    funext a
    match a with
    | ⟨0, _⟩ => rfl
    | ⟨1, _⟩ => rfl
  rw [hl, hrt, hR.hX, hR.hW1, EReal.coe_mul]

/-- The first layer's output at node (g, c). -/
theorem ref_h1 (g : Fin 8) (c : Fin 512) (k : Fin 16) :
    val_main_v115 (F := Ideal) x0 x1 x2 x3 (ix2 (node g c) k) = ((I.h1R g c k : ℝ) : EReal) := by
  -- the message of the grid edge (g, r, c)
  have me : ∀ r : Fin 512, val_main_v108 (F := Ideal) x0 x1 x2 (ix2 (edge g r c) k)
      = ((I.y0 r k * (I.A g r c * (I.dinv g r * I.dinv g c)) : ℝ) : EReal) := by
    intro r
    rw [msg_apply x0 x1 x2 (edge g r c) k (node g r) (node g c) (rowOf_edge g r c) (colOf_edge g r c),
      ref_y0 I x0 x1 x2 x3 x4 x5 x6 x7 hR g r k, ew_edge, hR.hA, dinv_apply I x0 hR.hA, dinv_apply I x0 hR.hA]
    simp only [← EReal.coe_mul]
  -- the message of the loop at node (g, c)
  have ml : val_main_v108 (F := Ideal) x0 x1 x2 (ix2 (loop (node g c)) k)
      = ((I.y0 c k * (1 * (I.dinv g c * I.dinv g c)) : ℝ) : EReal) := by
    rw [msg_apply x0 x1 x2 (loop (node g c)) k (node g c) (node g c) (rowOf_loop _) (colOf_loop _),
      ref_y0 I x0 x1 x2 x3 x4 x5 x6 x7 hR g c k, ew_loop, dinv_apply I x0 hR.hA]
    simp only [← EReal.coe_mul]
  rw [val_main_v115_apply, val_main_v114_apply, agg_apply, bias_apply, hR.hb1, val_main_call1_v0_apply,
    val_main_call1_cst_apply, ml]
  simp only [me, Ideal.addf_def, Ideal.maximumf_def, Ideal.ofBits_def, Ideal.ofBits_zero_f32]
  -- the sum, the bias and the rectifier, on reals
  rw [← Cert.Gnn.coe_sum, ← EReal.coe_add, ← EReal.coe_add, ← EReal.coe_zero,
    ← EReal.coe_strictMono.monotone.map_max]
  rfl

end Cert.Gnn.RefL1

end
-- ==== Proof.RefLayer2.lean ====
/-
  The reference's second layer on real inputs: the linear map on the first layer's output, the sum of edge
  messages into each node, the bias and the rectifier.
-/
import proofs.«163928_g44908178047564_cont_sun_c4_353_27_alg».proof.Proof.RefRead
import proofs.«163928_g44908178047564_cont_sun_c4_353_27_alg».proof.Proof.EdgeSum
import proofs.«163928_g44908178047564_cont_sun_c4_353_27_alg».proof.Proof.Spec
import proofs.«163928_g44908178047564_cont_sun_c4_353_27_alg».proof.Proof.LibIndexed
import Idealize.ShloMosaic.Lib.StableHlo.Predicate
import Idealize.ShloMosaic.Lib.Pipeline.Value
import Idealize.ShloMosaic.PureOps.Ideal.Laws
import Mathlib.Data.EReal.Basic
import Mathlib.Order.MinMax
import proofs.«163928_g44908178047564_cont_sun_c4_353_27_alg».proof.Proof.RefIndex
import proofs.«163928_g44908178047564_cont_sun_c4_353_27_alg».proof.Proof.RefNode
import proofs.«163928_g44908178047564_cont_sun_c4_353_27_alg».proof.Proof.RefLayer1

noncomputable section

open scoped BigOperators

namespace Cert.Gnn.RefL2

open Idealize.ShloMosaic Idealize.ShloMosaic.ValueIdx Cert.ReferenceIdeal Cert.ReferenceIdeal.Read Cert.Gnn Cert.Gnn.RefIx Cert.Gnn.RefNode Cert.Gnn.RefL1

/-- The rectifier commutes with the embedding of the reals. -/
private theorem coe_max_zero (a : ℝ) : max (a : EReal) 0 = ((max a 0 : ℝ) : EReal) := by
  rw [← EReal.coe_zero]
  exact (EReal.coe_strictMono.monotone.map_max).symm

/-! ### The index maps of the layer's broadcasts, at an index given by its coordinates -/

private theorem idx135 (e : Fin 2101248) : idx_main_v135 (ix2 e (0 : Fin 1)) = ix1 e := by
  funext a; match a with | ⟨0, _⟩ => rfl
private theorem idx142 (e : Fin 2101248) : idx_main_v142 (ix2 e (0 : Fin 1)) = ix1 e := by
  funext a; match a with | ⟨0, _⟩ => rfl
private theorem idx150 (e : Fin 2101248) : idx_main_v150 (ix2 e (0 : Fin 1)) = ix1 e := by
  funext a; match a with | ⟨0, _⟩ => rfl
private theorem idx153 (e : Fin 2101248) : idx_main_v153 (ix2 e (0 : Fin 1)) = ix1 e := by
  funext a; match a with | ⟨0, _⟩ => rfl
private theorem idx157 (e : Fin 2101248) : idx_main_v157 (ix2 e (0 : Fin 1)) = ix1 e := by
  funext a; match a with | ⟨0, _⟩ => rfl
private theorem idx154 (e : Fin 2101248) (k : Fin 32) : idx_main_v154 (ix2 e k) = ix2 e (0 : Fin 1) := by
  funext a; match a with | ⟨0, _⟩ => rfl | ⟨1, _⟩ => rfl
/-- The bias is broadcast along the nodes: entry (n, k) reads b k. -/
private theorem idx160 (n : Fin 4096) (k : Fin 32) : idx_main_v159 (idx_main_v160 (ix2 n k)) = ix1 k := by
  funext a; match a with | ⟨0, _⟩ => rfl
private theorem lidx116 (n : Fin 4096) (k : Fin 32) (j : Fin 16) : lidx_main_v116 (ix2 n k) j = ix2 n j := by
  funext a; match a with | ⟨0, _⟩ => rfl | ⟨1, _⟩ => rfl
private theorem ridx116 (n : Fin 4096) (k : Fin 32) (j : Fin 16) : ridx_main_v116 (ix2 n k) j = ix2 j k := by
  funext a; match a with | ⟨0, _⟩ => rfl | ⟨1, _⟩ => rfl

/-! ### The message along one edge -/

section Msg

variable (x0 : (⟨Cert.ReferenceIdeal.S8x512x512, .f32⟩ : BufTy).Contents (Elt Ideal)) (x1 : (⟨Cert.ReferenceIdeal.S512x3, .f32⟩ : BufTy).Contents (Elt Ideal)) (x2 : (⟨Cert.ReferenceIdeal.S3x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal))

/-- The message of edge e at column k, for an edge from node nr to node nc: the source node's row of the linear map,
    times the edge's weight times the product of the two nodes' inverse square-root degrees. -/
theorem msg_apply (e : Fin 2101248) (k : Fin 32) (nr nc : Fin 4096) (hr : rowOf e = nr.val) (hc : colOf e = nc.val) :
    val_main_v155 (F := Ideal) x0 x1 x2 x3 x4 (ix2 e k)
      = val_main_v116 (F := Ideal) x0 x1 x2 x3 x4 (ix2 nr k)
          * (val_main_v74 (F := Ideal) x0 (ix1 e)
              * (val_main_v82 (F := Ideal) x0 (ix1 nr) * val_main_v82 (F := Ideal) x0 (ix1 nc))) := by
  -- the three index arrays of the gathers hold, at e, the source node (twice) and the target node
  have h135 : (val_main_v135 (F := Ideal) (ix2 e (0 : Fin 1))).toInt = (nr.val : ℤ) := by
    rw [val_main_v135_apply, idx135, v134_eq, row_toInt, hr]
  have h142 : (val_main_v142 (F := Ideal) (ix2 e (0 : Fin 1))).toInt = (nc.val : ℤ) := by
    rw [val_main_v142_apply, idx142, v141_eq, col_toInt, hc]
  have h150 : (val_main_v150 (F := Ideal) (ix2 e (0 : Fin 1))).toInt = (nr.val : ℤ) := by
    rw [val_main_v150_apply, idx150, v149_eq, row_toInt, hr]
  -- the two scalar gathers read the inverse square-root degree at the source and at the target
  have g136 : val_main_v136 (F := Ideal) x0 (ix1 e) = val_main_v82 (F := Ideal) x0 (ix1 nr) := by
    unfold val_main_v136
    rw [gather_vec_at gather_S4096_S2101248x1_S2101248_n_0_n_n_0_1_1 rfl rfl rfl rfl (val_main_v129 (F := Ideal) x0)
      (val_main_v135 (F := Ideal)) e nr h135, v129_eq]
  have g143 : val_main_v143 (F := Ideal) x0 (ix1 e) = val_main_v82 (F := Ideal) x0 (ix1 nc) := by
    unfold val_main_v143
    rw [gather_vec_at gather_S4096_S2101248x1_S2101248_n_0_n_n_0_1_1 rfl rfl rfl rfl (val_main_v129 (F := Ideal) x0)
      (val_main_v142 (F := Ideal)) e nc h142, v129_eq]
  -- the row gather reads the source node's row
  have g151 : val_main_v151 (F := Ideal) x0 x1 x2 x3 x4 (ix2 e k)
      = val_main_v116 (F := Ideal) x0 x1 x2 x3 x4 (ix2 nr k) := by
    unfold val_main_v151
    exact gather_rows_at gather_S4096x32_S2101248x1_S2101248x32_1_0_n_n_0_1_132 rfl rfl rfl rfl rfl rfl
      (val_main_v116 (F := Ideal) x0 x1 x2 x3 x4) (val_main_v150 (F := Ideal)) e k nr h150
  rw [val_main_v155_apply, val_main_v154_apply, idx154, val_main_v153_apply, idx153, val_main_v152_apply,
    val_main_v144_apply, g136, g143, g151, v121_eq]
  simp only [Ideal.mulf_def]

/-- The matrix the messages are accumulated into is zero. -/
private theorem v156_zero (i : S4096x32.Idx) : val_main_v156 (F := Ideal) i = 0 := by
  rw [val_main_v156_apply, val_main_cst_37_apply, Ideal.ofBits_def, Ideal.ofBits_zero_f32]

/-- The accumulation is indexed by the edges' target nodes. -/
private theorem v157_toInt (e : Fin 2101248) :
    (val_main_v157 (F := Ideal) (ix2 e (0 : Fin 1))).toInt = (colOf e : ℤ) := by
  rw [val_main_v157_apply, idx157, v119_eq, col_toInt]

/-- The sum of the messages into node (g, c): over the grid edges (g, r, c) and the loop at the node. -/
theorem agg_apply (g : Fin 8) (c : Fin 512) (k : Fin 32) :
    val_main_v158 (F := Ideal) x0 x1 x2 x3 x4 (ix2 (node g c) k)
      = (∑ r : Fin 512, val_main_v155 (F := Ideal) x0 x1 x2 x3 x4 (ix2 (edge g r c) k))
        + val_main_v155 (F := Ideal) x0 x1 x2 x3 x4 (ix2 (loop (node g c)) k) := by
  have hv : val_main_v158 (F := Ideal) x0 x1 x2 x3 x4
      = Ideal.hostScatterAdd scatter_S4096x32_S2101248x1_S2101248x32_1_0_0_1 (val_main_v156 (F := Ideal))
          (val_main_v157 (F := Ideal)) (val_main_v155 (F := Ideal) x0 x1 x2 x3 x4) := rfl
  rw [hv, scatter_rows_node scatter_S4096x32_S2101248x1_S2101248x32_1_0_0_1 rfl rfl rfl rfl
    (val_main_v156 (F := Ideal)) (val_main_v157 (F := Ideal)) (val_main_v155 (F := Ideal) x0 x1 x2 x3 x4)
    v156_zero v157_toInt g c k]

end Msg

variable (I : Inp) (x0 : (⟨Cert.ReferenceIdeal.S8x512x512, .f32⟩ : BufTy).Contents (Elt Ideal)) (x1 : (⟨Cert.ReferenceIdeal.S512x3, .f32⟩ : BufTy).Contents (Elt Ideal)) (x2 : (⟨Cert.ReferenceIdeal.S3x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal)) (x5 : (⟨Cert.ReferenceIdeal.S32, .f32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal)) (hR : Reads x0 x1 x2 x3 x4 x5 x6 x7 I)
include hR

/-- The second layer's linear map at node (g, r). -/
theorem ref_z2 (g : Fin 8) (r : Fin 512) (k : Fin 32) :
    val_main_v116 (F := Ideal) x0 x1 x2 x3 x4 (ix2 (node g r) k) = ((I.z2R g r k : ℝ) : EReal) := by
  -- entry (n, k) of the product is the sum over j of the first layer's output (n, j) times W2 (j, k)
  rw [val_main_v116_apply]
  unfold Inp.z2R
  rw [Cert.Gnn.coe_sum]
  refine Finset.sum_congr rfl fun j _ => ?_
  rw [lidx116, ridx116, RefL1.ref_h1 I x0 x1 x2 x3 x4 x5 x6 x7 hR, hR.hW2, EReal.coe_mul]

/-- The second layer's output at node (g, c). -/
theorem ref_h2 (g : Fin 8) (c : Fin 512) (k : Fin 32) :
    val_main_v162 (F := Ideal) x0 x1 x2 x3 x4 x5 (ix2 (node g c) k) = ((I.h2R g c k : ℝ) : EReal) := by
  -- the message of the grid edge r → c: z2 (r, k) · (A r c · (dinv r · dinv c))
  have hedge : ∀ r : Fin 512, val_main_v155 (F := Ideal) x0 x1 x2 x3 x4 (ix2 (edge g r c) k)
      = ((I.z2R g r k * (I.A g r c * (I.dinv g r * I.dinv g c)) : ℝ) : EReal) := by
    intro r
    rw [msg_apply x0 x1 x2 x3 x4 (edge g r c) k (node g r) (node g c) (rowOf_edge g r c) (colOf_edge g r c),
      ref_z2 I x0 x1 x2 x3 x4 x5 x6 x7 hR g r k, ew_edge, hR.hA, dinv_apply I x0 hR.hA g r,
      dinv_apply I x0 hR.hA g c, ← EReal.coe_mul, ← EReal.coe_mul, ← EReal.coe_mul]
  -- the message of the loop at c: z2 (c, k) · (1 · (dinv c · dinv c))
  have hloop : val_main_v155 (F := Ideal) x0 x1 x2 x3 x4 (ix2 (loop (node g c)) k)
      = ((I.z2R g c k * (1 * (I.dinv g c * I.dinv g c)) : ℝ) : EReal) := by
    rw [msg_apply x0 x1 x2 x3 x4 (loop (node g c)) k (node g c) (node g c) (rowOf_loop _) (colOf_loop _),
      ref_z2 I x0 x1 x2 x3 x4 x5 x6 x7 hR g c k, ew_loop, dinv_apply I x0 hR.hA g c,
      ← EReal.coe_mul, ← EReal.coe_mul, ← EReal.coe_mul]
  -- the bias is added to every row, and the rectifier is the maximum with zero
  rw [val_main_v162_apply, val_main_v161_apply, agg_apply, val_main_call3_v0_apply, val_main_call3_cst_apply,
    val_main_v160_apply, val_main_v159_apply, idx160, hR.hb2, Finset.sum_congr rfl (fun r _ => hedge r), hloop]
  simp only [Ideal.maximumf_def, Ideal.addf_def, Ideal.ofBits_def, Ideal.ofBits_zero_f32]
  rw [← Cert.Gnn.coe_sum, ← EReal.coe_add, ← EReal.coe_add, coe_max_zero]
  rfl

end Cert.Gnn.RefL2

end
-- ==== Proof.RefLayer3.lean ====
/-
  The reference's third layer on real inputs (no rectifier).
-/
import proofs.«163928_g44908178047564_cont_sun_c4_353_27_alg».proof.Proof.RefRead
import proofs.«163928_g44908178047564_cont_sun_c4_353_27_alg».proof.Proof.EdgeSum
import proofs.«163928_g44908178047564_cont_sun_c4_353_27_alg».proof.Proof.Spec
import proofs.«163928_g44908178047564_cont_sun_c4_353_27_alg».proof.Proof.LibIndexed
import Idealize.ShloMosaic.Lib.StableHlo.Predicate
import Idealize.ShloMosaic.Lib.Pipeline.Value
import Idealize.ShloMosaic.PureOps.Ideal.Laws
import proofs.«163928_g44908178047564_cont_sun_c4_353_27_alg».proof.Proof.RefIndex
import proofs.«163928_g44908178047564_cont_sun_c4_353_27_alg».proof.Proof.RefNode
import proofs.«163928_g44908178047564_cont_sun_c4_353_27_alg».proof.Proof.RefLayer2

noncomputable section

open scoped BigOperators

namespace Cert.Gnn.RefL3

open Idealize.ShloMosaic Idealize.ShloMosaic.ValueIdx Cert.ReferenceIdeal Cert.ReferenceIdeal.Read Cert.Gnn Cert.Gnn.RefIx Cert.Gnn.RefNode Cert.Gnn.RefL2

/-! ### Index bookkeeping

Each index array is a one-column matrix over the edges: the one entry of its row e is entry e of the vector it was
broadcast from; the per-edge coefficient is broadcast the same way, and then along the feature axis. -/

section Stages

private theorem i182 (e : Fin 2101248) : idx_main_v182 (ix2 e (0 : Fin 1)) = ix1 e := by
  funext a; match a with | ⟨0, _⟩ => rfl
private theorem i189 (e : Fin 2101248) : idx_main_v189 (ix2 e (0 : Fin 1)) = ix1 e := by
  funext a; match a with | ⟨0, _⟩ => rfl
private theorem i197 (e : Fin 2101248) : idx_main_v197 (ix2 e (0 : Fin 1)) = ix1 e := by
  funext a; match a with | ⟨0, _⟩ => rfl
private theorem i204 (e : Fin 2101248) : idx_main_v204 (ix2 e (0 : Fin 1)) = ix1 e := by
  funext a; match a with | ⟨0, _⟩ => rfl
private theorem i200 (e : Fin 2101248) : idx_main_v200 (ix2 e (0 : Fin 1)) = ix1 e := by
  funext a; match a with | ⟨0, _⟩ => rfl
private theorem i201 (e : Fin 2101248) (k : Fin 64) : idx_main_v201 (ix2 e k) = ix2 e (0 : Fin 1) := by
  funext a; match a with | ⟨0, _⟩ => rfl | ⟨1, _⟩ => rfl
private theorem i207 (n : Fin 4096) (j : Fin 64) : idx_main_v206 (idx_main_v207 (ix2 n j)) = ix1 j := by
  funext a; match a with | ⟨0, _⟩ => rfl

variable (x0 : (⟨Cert.ReferenceIdeal.S8x512x512, .f32⟩ : BufTy).Contents (Elt Ideal)) (x1 : (⟨Cert.ReferenceIdeal.S512x3, .f32⟩ : BufTy).Contents (Elt Ideal)) (x2 : (⟨Cert.ReferenceIdeal.S3x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal)) (x5 : (⟨Cert.ReferenceIdeal.S32, .f32⟩ : BufTy).Contents (Elt Ideal)) (x6 : (⟨Cert.ReferenceIdeal.S32x64, .f32⟩ : BufTy).Contents (Elt Ideal))

/-- The feature row gathered for edge e is the row of the edge's source node. -/
private theorem v198_at (e : Fin 2101248) (k : Fin 64) (nr : Fin 4096) (hr : rowOf e = nr.val) :
    val_main_v198 (F := Ideal) x0 x1 x2 x3 x4 x5 x6 (ix2 e k)
      = val_main_v163 (F := Ideal) x0 x1 x2 x3 x4 x5 x6 (ix2 nr k) := by
  have hn : (val_main_v197 (F := Ideal) (ix2 e (0 : Fin 1))).toInt = (nr.val : ℤ) := by
    rw [val_main_v197_apply, i197, v196_eq, row_toInt, hr]
  unfold val_main_v198
  exact gather_rows_at gather_S4096x64_S2101248x1_S2101248x64_1_0_n_n_0_1_164 rfl rfl rfl rfl rfl rfl
    (val_main_v163 (F := Ideal) x0 x1 x2 x3 x4 x5 x6) (val_main_v197 (F := Ideal)) e k nr hn

/-- The coefficient of edge e: its weight times deg^(-1/2) at its source node times deg^(-1/2) at its target node. -/
private theorem v199_at (e : Fin 2101248) (nr nc : Fin 4096) (hr : rowOf e = nr.val) (hc : colOf e = nc.val) :
    val_main_v199 (F := Ideal) x0 (ix1 e)
      = val_main_v74 (F := Ideal) x0 (ix1 e)
          * (val_main_v82 (F := Ideal) x0 (ix1 nr) * val_main_v82 (F := Ideal) x0 (ix1 nc)) := by
  have hn1 : (val_main_v182 (F := Ideal) (ix2 e (0 : Fin 1))).toInt = (nr.val : ℤ) := by
    rw [val_main_v182_apply, i182, v181_eq, row_toInt, hr]
  have hn2 : (val_main_v189 (F := Ideal) (ix2 e (0 : Fin 1))).toInt = (nc.val : ℤ) := by
    rw [val_main_v189_apply, i189, v188_eq, col_toInt, hc]
  have h183 : val_main_v183 (F := Ideal) x0 (ix1 e) = val_main_v176 (F := Ideal) x0 (ix1 nr) := by
    unfold val_main_v183
    exact gather_vec_at gather_S4096_S2101248x1_S2101248_n_0_n_n_0_1_1 rfl rfl rfl rfl
      (val_main_v176 (F := Ideal) x0) (val_main_v182 (F := Ideal)) e nr hn1
  have h190 : val_main_v190 (F := Ideal) x0 (ix1 e) = val_main_v176 (F := Ideal) x0 (ix1 nc) := by
    unfold val_main_v190
    exact gather_vec_at gather_S4096_S2101248x1_S2101248_n_0_n_n_0_1_1 rfl rfl rfl rfl
      (val_main_v176 (F := Ideal) x0) (val_main_v189 (F := Ideal)) e nc hn2
  rw [val_main_v199_apply, val_main_v191_apply, h183, h190, v168_eq, v176_eq]
  rfl

/-- The message of edge e in feature k: the source node's feature times the edge's coefficient. -/
private theorem upd_at (e : Fin 2101248) (k : Fin 64) (nr nc : Fin 4096) (hr : rowOf e = nr.val)
    (hc : colOf e = nc.val) :
    val_main_v202 (F := Ideal) x0 x1 x2 x3 x4 x5 x6 (ix2 e k)
      = val_main_v163 (F := Ideal) x0 x1 x2 x3 x4 x5 x6 (ix2 nr k)
          * (val_main_v74 (F := Ideal) x0 (ix1 e)
              * (val_main_v82 (F := Ideal) x0 (ix1 nr) * val_main_v82 (F := Ideal) x0 (ix1 nc))) := by
  rw [val_main_v202_apply, v198_at x0 x1 x2 x3 x4 x5 x6 e k nr hr, val_main_v201_apply, i201,
    val_main_v200_apply, i200, v199_at x0 e nr nc hr hc]
  rfl

/-- The matrix the messages are accumulated into is zero. -/
private theorem v203_zero (i : S4096x64.Idx) : val_main_v203 (F := Ideal) i = 0 := by
  rw [val_main_v203_apply, val_main_cst_49_apply, Ideal.ofBits_def, Ideal.ofBits_zero_f32]

/-- The accumulation is indexed by the edges' target nodes. -/
private theorem v204_toInt (e : Fin 2101248) :
    (val_main_v204 (F := Ideal) (ix2 e (0 : Fin 1))).toInt = (colOf e : ℤ) := by
  rw [val_main_v204_apply, i204, v166_eq, col_toInt]

/-- The accumulating scatter into node (g, c): the messages of the grid edges (g, r, c) over all r, and of the
    loop at that node. -/
private theorem v205_at (g : Fin 8) (c : Fin 512) (j : Fin 64) :
    val_main_v205 (F := Ideal) x0 x1 x2 x3 x4 x5 x6 (ix2 (node g c) j)
      = (∑ r : Fin 512, val_main_v202 (F := Ideal) x0 x1 x2 x3 x4 x5 x6 (ix2 (edge g r c) j))
        + val_main_v202 (F := Ideal) x0 x1 x2 x3 x4 x5 x6 (ix2 (loop (node g c)) j) := by
  have hv : val_main_v205 (F := Ideal) x0 x1 x2 x3 x4 x5 x6
      = Ideal.hostScatterAdd scatter_S4096x64_S2101248x1_S2101248x64_1_0_0_1 (val_main_v203 (F := Ideal))
          (val_main_v204 (F := Ideal)) (val_main_v202 (F := Ideal) x0 x1 x2 x3 x4 x5 x6) := rfl
  rw [hv, scatter_rows_node scatter_S4096x64_S2101248x1_S2101248x64_1_0_0_1 rfl rfl rfl rfl
    (val_main_v203 (F := Ideal)) (val_main_v204 (F := Ideal)) (val_main_v202 (F := Ideal) x0 x1 x2 x3 x4 x5 x6)
    v203_zero v204_toInt g c j]

end Stages

variable (I : Inp) (x0 : (⟨Cert.ReferenceIdeal.S8x512x512, .f32⟩ : BufTy).Contents (Elt Ideal)) (x1 : (⟨Cert.ReferenceIdeal.S512x3, .f32⟩ : BufTy).Contents (Elt Ideal)) (x2 : (⟨Cert.ReferenceIdeal.S3x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal)) (x5 : (⟨Cert.ReferenceIdeal.S32, .f32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal)) (hR : Reads x0 x1 x2 x3 x4 x5 x6 x7 I)
include hR

/-- The third layer's linear map at node (g, r). -/
theorem ref_z3 (g : Fin 8) (r : Fin 512) (j : Fin 64) :
    val_main_v163 (F := Ideal) x0 x1 x2 x3 x4 x5 x6 (ix2 (node g r) j) = ((I.z3R g r j : ℝ) : EReal) := by
  -- entry (n, j) of the product is Σ_k h2[n, k] · W3[k, j]
  have hl : ∀ k : Fin 32, lidx_main_v163 (ix2 (node g r) j) k = ix2 (node g r) k := fun k => by
    funext a; match a with | ⟨0, _⟩ => rfl | ⟨1, _⟩ => rfl
  have hr : ∀ k : Fin 32, ridx_main_v163 (ix2 (node g r) j) k = ix2 k j := fun k => by
    funext a; match a with | ⟨0, _⟩ => rfl | ⟨1, _⟩ => rfl
  rw [val_main_v163_apply, Inp.z3R, Cert.Gnn.coe_sum]
  refine Finset.sum_congr rfl fun k _ => ?_
  rw [hl, hr, RefL2.ref_h2 I x0 x1 x2 x3 x4 x5 x6 x7 hR g r k, hR.hW3 k j, EReal.coe_mul]

/-- The third layer's output at node (g, c). -/
theorem ref_out3 (g : Fin 8) (c : Fin 512) (j : Fin 64) :
    val_main_v208 (F := Ideal) x0 x1 x2 x3 x4 x5 x6 x7 (ix2 (node g c) j) = ((I.out3R g c j : ℝ) : EReal) := by
  -- the message of the grid edge (g, r, c): z3 g r j · (A g r c · (dinv g r · dinv g c))
  have he : ∀ r : Fin 512, val_main_v202 (F := Ideal) x0 x1 x2 x3 x4 x5 x6 (ix2 (edge g r c) j)
      = ((I.z3R g r j * (I.A g r c * (I.dinv g r * I.dinv g c)) : ℝ) : EReal) := fun r => by
    rw [upd_at x0 x1 x2 x3 x4 x5 x6 (edge g r c) j (node g r) (node g c) (rowOf_edge g r c) (colOf_edge g r c),
      ref_z3 I x0 x1 x2 x3 x4 x5 x6 x7 hR g r j, ew_edge, hR.hA, dinv_apply I x0 hR.hA g r,
      dinv_apply I x0 hR.hA g c]
    simp only [EReal.coe_mul]
  -- the message of the loop at (g, c): z3 g c j · (1 · (dinv g c · dinv g c))
  have hl : val_main_v202 (F := Ideal) x0 x1 x2 x3 x4 x5 x6 (ix2 (loop (node g c)) j)
      = ((I.z3R g c j * (1 * (I.dinv g c * I.dinv g c)) : ℝ) : EReal) := by
    rw [upd_at x0 x1 x2 x3 x4 x5 x6 (loop (node g c)) j (node g c) (node g c) (rowOf_loop _) (colOf_loop _),
      ref_z3 I x0 x1 x2 x3 x4 x5 x6 x7 hR g c j, ew_loop, dinv_apply I x0 hR.hA g c]
    simp only [EReal.coe_mul]
  -- the scatter's sum of messages, then the bias broadcast along the nodes
  rw [val_main_v208_apply, v205_at, val_main_v207_apply, val_main_v206_apply, i207, hR.hb3 j,
    Finset.sum_congr rfl (fun r _ => he r), hl, Inp.out3R, Inp.aggR, EReal.coe_add, EReal.coe_add,
    Cert.Gnn.coe_sum]
  rfl

end Cert.Gnn.RefL3

end
-- ==== Proof.RefPool.lean ====
/-
  The reference's mean over each graph's nodes and its closing normalisation, on real inputs.
-/
import proofs.«163928_g44908178047564_cont_sun_c4_353_27_alg».proof.Proof.RefRead
import proofs.«163928_g44908178047564_cont_sun_c4_353_27_alg».proof.Proof.EdgeSum
import proofs.«163928_g44908178047564_cont_sun_c4_353_27_alg».proof.Proof.Spec
import proofs.«163928_g44908178047564_cont_sun_c4_353_27_alg».proof.Proof.LibIndexed
import Idealize.ShloMosaic.Lib.StableHlo.Predicate
import Idealize.ShloMosaic.Lib.Pipeline.Value
import Idealize.ShloMosaic.PureOps.Ideal.Laws
import proofs.«163928_g44908178047564_cont_sun_c4_353_27_alg».proof.Proof.RefIndex
import proofs.«163928_g44908178047564_cont_sun_c4_353_27_alg».proof.Proof.RefNode
import proofs.«163928_g44908178047564_cont_sun_c4_353_27_alg».proof.Proof.RefLayer3

noncomputable section

open scoped BigOperators

namespace Cert.Gnn.RefPool

open Idealize.ShloMosaic Idealize.ShloMosaic.ValueIdx Cert.ReferenceIdeal Cert.ReferenceIdeal.Read Cert.Gnn Cert.Gnn.RefIx Cert.Gnn.RefNode Cert.Gnn.RefL3

/-- The f32 word 0x44000000 is 512. -/
private theorem ofBits_512 : Ideal.ofBits .f32 0x44000000#32 = ((512 : ℝ) : EReal) := by
  simp [Ideal.ofBits, Ideal.ieee, -EReal.coe_mul]; norm_num

/-- An accumulating scatter of rows into a zero matrix, indexed by each node's graph, at row g: the sum of the
    rows of the nodes (g, c) over all c. -/
private theorem scatter_rows_graph {C : Nat} (d : ScatterDims ⟨2, ![8, C]⟩ ⟨2, ![4096, 1]⟩ ⟨2, ![4096, C]⟩)
    (huw : d.updateWindowDims = [1]) (hiw : d.insertedWindowDims = [0]) (hsd : d.scatterDimsToOperandDims = [0])
    (hiv : d.indexVectorDim = 1)
    (x : (⟨2, ![8, C]⟩ : Shape).Idx → EReal) (idx : IVec ⟨2, ![4096, 1]⟩ 32)
    (upd : (⟨2, ![4096, C]⟩ : Shape).Idx → EReal)
    (hx : ∀ i, x i = 0) (hidx : ∀ n : Fin 4096, (idx (ix2 n (0 : Fin 1))).toInt = ((n.val / 512 : ℕ) : ℤ))
    (g : Fin 8) (q : Fin C) :
    Ideal.hostScatterAdd d x idx upd (ix2 g q) = ∑ c : Fin 512, upd (ix2 (node g c) q) := by
  rw [Cert.LibIndexed.scatterAdd_rows_apply d huw hiw hsd hiv, hx, zero_add,
    ← pool_sum (fun n => upd (ix2 n q)) g]
  refine Finset.sum_congr rfl fun n _ => ?_
  rw [hidx n]
  by_cases h : n.val / 512 = g.val
  · rw [if_pos h, if_pos (by rw [h])]
  · rw [if_neg h, if_neg (fun h' => h (by exact_mod_cast h'))]

/-- The graph of node n, read through the index array's unit axis. -/
private theorem graph_toInt (n : Fin 4096) :
    (val_main_v213 (F := Ideal) (ix2 n (0 : Fin 1))).toInt = ((n.val / 512 : ℕ) : ℤ) := by
  rw [val_main_v213_apply]
  have hi : idx_main_v213 (ix2 n (0 : Fin 1)) = ix1 n := by
    funext a; match a with | ⟨0, _⟩ => rfl
  rw [hi, batch_toInt]

variable (I : Inp) (x0 : (⟨Cert.ReferenceIdeal.S8x512x512, .f32⟩ : BufTy).Contents (Elt Ideal)) (x1 : (⟨Cert.ReferenceIdeal.S512x3, .f32⟩ : BufTy).Contents (Elt Ideal)) (x2 : (⟨Cert.ReferenceIdeal.S3x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal)) (x5 : (⟨Cert.ReferenceIdeal.S32, .f32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal)) (hR : Reads x0 x1 x2 x3 x4 x5 x6 x7 I)
include hR

/-- The sum of the third layer's rows over the nodes of graph g. -/
private theorem ref_summed (g : Fin 8) (j : Fin 64) :
    val_main_v214 (F := Ideal) x0 x1 x2 x3 x4 x5 x6 x7 (ix2 g j) = ((∑ c : Fin 512, I.out3R g c j : ℝ) : EReal) := by
  have h := scatter_rows_graph scatter_S8x64_S4096x1_S4096x64_1_0_0_1 rfl rfl rfl rfl
    (val_main_v212 (F := Ideal)) (val_main_v213 (F := Ideal)) (val_main_v208 (F := Ideal) x0 x1 x2 x3 x4 x5 x6 x7)
    (fun i => by rw [val_main_v212_apply, val_main_cst_50_apply, Ideal.ofBits_def, Ideal.ofBits_zero_f32])
    graph_toInt g j
  refine h.trans ?_
  rw [coe_sum]
  exact Finset.sum_congr rfl fun c _ => ref_out3 I x0 x1 x2 x3 x4 x5 x6 x7 hR g c j

/-- The pooled rows. -/
theorem ref_pooled (g : Fin 8) (j : Fin 64) :
    val_main_v216 (F := Ideal) x0 x1 x2 x3 x4 x5 x6 x7 (ix2 g j) = ((I.pooledR g j : ℝ) : EReal) := by
  rw [val_main_v216_apply, Ideal.hostDivf_def, ref_summed I x0 x1 x2 x3 x4 x5 x6 x7 hR, val_main_v215_apply,
    val_main_cst_51_apply, Ideal.ofBits_def, ofBits_512, Ideal.div_coe (by norm_num), ← EReal.coe_mul, mul_one_div]
  rfl

/-- The reference's result: the pooled rows normalised. -/
theorem ref_final (g : Fin 8) (j : Fin 64) :
    val_main_v221 (F := Ideal) x0 x1 x2 x3 x4 x5 x6 x7 (ix2 g j) = tail (fun g j => ((I.pooledR g j : ℝ) : EReal)) g j := by
  -- the row's sum of squares
  have hsq : val_main_call5_v1 (F := Ideal) x0 x1 x2 x3 x4 x5 x6 x7 (ix1 g)
      = ∑ j' : Fin 64, ((I.pooledR g j' : ℝ) : EReal) * ((I.pooledR g j' : ℝ) : EReal) := by
    rw [val_main_call5_v1_apply, val_main_call5_cst_apply, Ideal.ofBits_def, Ideal.ofBits_zero_f32, zero_add]
    refine Finset.sum_congr rfl fun k _ => ?_
    have hi : idx_main_call5_v1 (ix1 g) k = ix2 g k := by
      funext a; match a with | ⟨0, _⟩ => rfl | ⟨1, _⟩ => rfl
    rw [hi, val_main_call5_v0_apply, Ideal.mulf_def, ref_pooled I x0 x1 x2 x3 x4 x5 x6 x7 hR]
  have h220 : idx_main_v220 (ix2 g j) = ix2 g (0 : Fin 1) := by
    funext a; match a with | ⟨0, _⟩ => rfl | ⟨1, _⟩ => rfl
  have hc2 : idx_main_call5_v2 (ix2 g (0 : Fin 1)) = ix1 g := by
    funext a; match a with | ⟨0, _⟩ => rfl
  rw [val_main_v221_apply, Ideal.hostDivf_def, ref_pooled I x0 x1 x2 x3 x4 x5 x6 x7 hR, val_main_v220_apply, h220,
    val_main_v219_apply, Ideal.maximumf_def, val_main_v217_apply, Ideal.hostUnary_sqrt_def, val_main_call5_v2_apply,
    hc2, hsq, val_main_v218_apply, val_main_cst_52_apply, Ideal.ofBits_def]
  rfl

end Cert.Gnn.RefPool

end
-- ==== Proof.lean ====
/-
  A three-layer graph convolution with mean pooling and row normalisation over 8 graphs of 512 nodes: the kernel
  computes it with dense matrix products on each graph's adjacency block, the reference by gathering and
  scatter-adding over the full edge list (every grid edge with its adjacency entry as weight, and a self loop of
  weight 1 at every node).

  Under the precondition every input entry is a real number (Finite.lean). On real inputs the kernel's result is the
  normalisation of the pooled rows in the arrangement that factors the inverse square-root degree out of each
  neighbourhood sum and pools the last layer through the vector w (KernelRun, KernelIdent, KernelEval, KernelFinal);
  the reference's run is read back stage by stage (RefRunHand), and its result is the normalisation of the pooled rows as
  sums of edge messages (RefIndex … RefPool), each
  scatter-add over the edges into a node being the sum over that node's 512 grid edges plus its loop (EdgeSum). The two
  arrangements agree over the reals (SpecAlg): distributivity, an exchange of two finite sums, and 512 · b / 512 = b.
  The three frames are the generated ones; the idealization ledger is empty.
-/
import proofs.«163928_g44908178047564_cont_sun_c4_353_27_alg».proof.Defs
import proofs.«163928_g44908178047564_cont_sun_c4_353_27_alg».proof.Proof.Gen.Kernel
import proofs.«163928_g44908178047564_cont_sun_c4_353_27_alg».proof.Proof.Gen.Kernel.Frame
import proofs.«163928_g44908178047564_cont_sun_c4_353_27_alg».proof.Proof.Gen.KernelIdeal
import proofs.«163928_g44908178047564_cont_sun_c4_353_27_alg».proof.Proof.Gen.KernelIdeal.Frame
import proofs.«163928_g44908178047564_cont_sun_c4_353_27_alg».proof.Proof.Gen.ReferenceIdeal
import proofs.«163928_g44908178047564_cont_sun_c4_353_27_alg».proof.Proof.Gen.Pre_finite_inputs
import proofs.«163928_g44908178047564_cont_sun_c4_353_27_alg».proof.Proof.RefRead
import proofs.«163928_g44908178047564_cont_sun_c4_353_27_alg».proof.Proof.RefRunHand
import proofs.«163928_g44908178047564_cont_sun_c4_353_27_alg».proof.Proof.Spec
import proofs.«163928_g44908178047564_cont_sun_c4_353_27_alg».proof.Proof.SpecAlg
import proofs.«163928_g44908178047564_cont_sun_c4_353_27_alg».proof.Proof.Finite
import proofs.«163928_g44908178047564_cont_sun_c4_353_27_alg».proof.Proof.KernelIdent
import proofs.«163928_g44908178047564_cont_sun_c4_353_27_alg».proof.Proof.KernelRun
import proofs.«163928_g44908178047564_cont_sun_c4_353_27_alg».proof.Proof.RefPool

noncomputable section

namespace Cert.Proof

open Idealize.ShloMosaic Idealize.ShloMosaic.ValueIdx Idealize.SL.Sem Cert.Gnn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Gnn.RefRun.run (F := Ideal) m ρ)

/-- On real inputs both results are the normalised pooled rows, and the two arrangements of the pooled rows agree. -/
theorem result_eq (I : Inp)
    (x0 : Vec Ideal Cert.KernelIdeal.S8x512x512 .f32) (x1 : Vec Ideal Cert.KernelIdeal.S512x3 .f32) (x2 : Vec Ideal Cert.KernelIdeal.S3x16 .f32)
    (x3 : Vec Ideal Cert.KernelIdeal.S16 .f32) (x4 : Vec Ideal Cert.KernelIdeal.S16x32 .f32) (x5 : Vec Ideal Cert.KernelIdeal.S32 .f32)
    (x6 : Vec Ideal Cert.KernelIdeal.S32x64 .f32) (x7 : Vec Ideal Cert.KernelIdeal.S64 .f32) (hR : Reads x0 x1 x2 x3 x4 x5 x6 x7 I) :
    Cert.ReferenceIdeal.Read.val_main_v221 (F := Ideal) x0 x1 x2 x3 x4 x5 x6 x7
      = Cert.Gnn.KRun.kRes x0 x1 x2 x3 x4 x5 x6 x7 := by
  funext i
  obtain ⟨g, j, rfl⟩ : ∃ (g : Fin 8) (j : Fin 64), i = ix2 g j := ⟨i 0, i 1, eq_ix2 i⟩
  rw [Cert.Gnn.RefPool.ref_final I x0 x1 x2 x3 x4 x5 x6 x7 hR g j]
  show _ = Cert.KernelIdeal.Gen.out0_8 (F := Ideal) x0 x1 x2 (Cert.Gnn.KRun.row1 x3) x4 (Cert.Gnn.KRun.row1 x5) x6
    (Cert.Gnn.KRun.row1 x7) (ix3 g (0 : Fin 1) j)
  rw [Cert.Gnn.KOps.out0_8_apply I x0 x1 x2 (Cert.Gnn.KRun.row1 x3) x4 (Cert.Gnn.KRun.row1 x5) x6 (Cert.Gnn.KRun.row1 x7)
    hR.hA hR.hX hR.hW1 (fun k => hR.hb1 k) hR.hW2 (fun k => hR.hb2 k) hR.hW3 (fun k => hR.hb3 k) g j]
  exact congrArg (fun p => tail p g j) (funext fun g => funext fun j => by rw [Inp.pooledK_eq_pooledR])

theorem algebraic : Cert.algebraic_KernelIdeal_ReferenceIdeal := by
  intro m ρ m' ρ' hpre hagree
  refine ⟨fun c => Cert.Gnn.KRun.kRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.Gnn.KRun.run m ρ, ?_⟩
  refine (θ_run Cert.ReferenceIdeal.defs _ _).mono (fun _ h c => ⟨(h c).1.trans ?_, (h c).2⟩)
    (Cert.Gnn.RefRun.run (F := Ideal) m' ρ')
  obtain ⟨I, hR⟩ := reals_of_finite _ _ _ _ _ _ _ _ (hpre c)
  rw [(hagree c).1, (hagree c).2.1, (hagree c).2.2.1, (hagree c).2.2.2.1,
    (hagree c).2.2.2.2.1, (hagree c).2.2.2.2.2.1, (hagree c).2.2.2.2.2.2.1, (hagree c).2.2.2.2.2.2.2]
  exact result_eq I _ _ _ _ _ _ _ _ hR

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
